-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x256x256x32 : Shape := ⟨4, ![16, 256, 256, 32]⟩
abbrev S4096x3 : Shape := ⟨2, ![4096, 3]⟩
abbrev S_ : Shape := ⟨0, ![]⟩
abbrev S4096x1 : Shape := ⟨2, ![4096, 1]⟩
abbrev S4096 : Shape := ⟨1, ![4096]⟩

class Facts : Prop where
  bcast_S_S16x256x256x32 : S_.BroadcastsInDim S16x256x256x32 (![] : Fin 0 → Fin S16x256x256x32.rank)
  reducesTo_S16x256x256x32_S_d0_1_2_3 : S16x256x256x32.ReducesTo [0, 1, 2, 3] S_
  h_S_ : 0 < S_.numel
  bcast_S_S4096x3 : S_.BroadcastsInDim S4096x3 (![] : Fin 0 → Fin S4096x3.rank)
  reducesTo_S4096x3_S_d0_1 : S4096x3.ReducesTo [0, 1] S_
  slices_S4096x3_S4096x1_0_0 : S4096x3.Slices ![0, 0] S4096x1
  shapeCasts_S4096x1_S4096 : S4096x1.ShapeCasts S4096
  bcast_S_S4096 : S_.BroadcastsInDim S4096 (![] : Fin 0 → Fin S4096.rank)
  reducesTo_S4096_S_d0 : S4096.ReducesTo [0] S_

variable [Facts]

def fn_part1 {F : FTy → Type} [FloatOps F] (main_v11 : IVec S_ 1) (main_v15 : IVec S4096 1) (main_c_5 : IVec S_ 1) : IVec S_ 1 :=
  let main_v16 : IVec S_ 1 := (fun x v => Host.reduce IntOp.andi x v reducesTo_S4096_S_d0 h_S_) main_v15 main_c_5
  let main_v17 : IVec S_ 1 := andi main_v11 main_v16
  main_v17

def fn {F : FTy → Type} [FloatOps F] (main_arg0 : FVec F S16x256x256x32 .f32) (main_arg1 : IVec S4096x3 32) : IVec S_ 1 :=
  let main_v0 : FVec F S16x256x256x32 .f32 := Host.absf main_arg0
  let main_cst : FVec F S_ .f32 := constant S_ .f32 0x7F800000#32
  let main_v1 : FVec F S16x256x256x32 .f32 := broadcastInDim S16x256x256x32 ![] bcast_S_S16x256x256x32 main_cst
  let main_v2 : IVec S16x256x256x32 1 := cmpf .olt main_v0 main_v1
  let main_c : IVec S_ 1 := constantI S_ 1 1#1
  let main_v3 : IVec S_ 1 := (fun x v => Host.reduce IntOp.andi x v reducesTo_S16x256x256x32_S_d0_1_2_3 h_S_) main_v2 main_c
  let main_c_0 : IVec S_ 32 := constantI S_ 32 0#32
  let main_v4 : IVec S4096x3 32 := broadcastInDim S4096x3 ![] bcast_S_S4096x3 main_c_0
  let main_v5 : IVec S4096x3 1 := cmpi .sge main_arg1 main_v4
  let main_c_1 : IVec S_ 1 := constantI S_ 1 1#1
  let main_v6 : IVec S_ 1 := (fun x v => Host.reduce IntOp.andi x v reducesTo_S4096x3_S_d0_1 h_S_) main_v5 main_c_1
  let main_v7 : IVec S_ 1 := andi main_v3 main_v6
  let main_c_2 : IVec S_ 32 := constantI S_ 32 256#32
  let main_v8 : IVec S4096x3 32 := broadcastInDim S4096x3 ![] bcast_S_S4096x3 main_c_2
  let main_v9 : IVec S4096x3 1 := cmpi .slt main_arg1 main_v8
  let main_c_3 : IVec S_ 1 := constantI S_ 1 1#1
  let main_v10 : IVec S_ 1 := (fun x v => Host.reduce IntOp.andi x v reducesTo_S4096x3_S_d0_1 h_S_) main_v9 main_c_3
  let main_v11 : IVec S_ 1 := andi main_v7 main_v10
  let main_v12 : IVec S4096x1 32 := (extractStridedSlice S4096x1 ![0, 0] · slices_S4096x3_S4096x1_0_0) main_arg1
  let main_v13 : IVec S4096 32 := shapeCast S4096 main_v12 shapeCasts_S4096x1_S4096
  let main_c_4 : IVec S_ 32 := constantI S_ 32 16#32
  let main_v14 : IVec S4096 32 := broadcastInDim S4096 ![] bcast_S_S4096 main_c_4
  let main_v15 : IVec S4096 1 := cmpi .slt main_v13 main_v14
  let main_c_5 : IVec S_ 1 := constantI S_ 1 1#1
  fn_part1 (F := F) main_v11 main_v15 main_c_5
-- ==== Kernel.lean ====
abbrev S16x256x256x32 : Shape := ⟨4, ![16, 256, 256, 32]⟩
abbrev S4096x3 : Shape := ⟨2, ![4096, 3]⟩
abbrev S4096x1 : Shape := ⟨2, ![4096, 1]⟩
abbrev S4096 : Shape := ⟨1, ![4096]⟩
abbrev S_ : Shape := ⟨0, ![]⟩
abbrev S16x286x286x128 : Shape := ⟨4, ![16, 286, 286, 128]⟩
abbrev S3x4096 : Shape := ⟨2, ![3, 4096]⟩
abbrev S4096x31x31x32 : Shape := ⟨4, ![4096, 31, 31, 32]⟩
abbrev S16x31x31x32 : Shape := ⟨4, ![16, 31, 31, 32]⟩
abbrev S16x31x31x128 : Shape := ⟨4, ![16, 31, 31, 128]⟩
abbrev S16 : Shape := ⟨1, ![16]⟩
abbrev S1x1 : Shape := ⟨2, ![1, 1]⟩
abbrev S1 : Shape := ⟨1, ![1]⟩
abbrev S1x31x31x128 : Shape := ⟨4, ![1, 31, 31, 128]⟩
abbrev S31x31x128 : Shape := ⟨3, ![31, 31, 128]⟩
abbrev S8x31x31x32 : Shape := ⟨4, ![8, 31, 31, 32]⟩

abbrev nBuf : Space → Nat
  | .hbm => 40
  | .vmem => 3
  | .smem => 1
  | _ => 0

abbrev bufTy : (tb : Table) → Fin (tcTables nBuf tb) → BufTy
  | .hbm, ⟨0, _⟩ => ⟨S16x256x256x32, .f32⟩
  | .hbm, ⟨1, _⟩ => ⟨S4096x3, .i32⟩
  | .hbm, ⟨2, _⟩ => ⟨S4096x1, .i32⟩
  | .hbm, ⟨3, _⟩ => ⟨S4096, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S4096, .i32⟩
  | .hbm, ⟨8, _⟩ => ⟨S4096, .i32⟩
  | .hbm, ⟨9, _⟩ => ⟨S_, .i32⟩
  | .hbm, ⟨10, _⟩ => ⟨S4096, .i32⟩
  | .hbm, ⟨11, _⟩ => ⟨S4096, .i32⟩
  | .hbm, ⟨12, _⟩ => ⟨S4096x1, .i32⟩
  | .hbm, ⟨13, _⟩ => ⟨S4096, .i32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S4096, .i32⟩
  | .hbm, ⟨18, _⟩ => ⟨S4096, .i32⟩
  | .hbm, ⟨19, _⟩ => ⟨S_, .i32⟩
  | .hbm, ⟨20, _⟩ => ⟨S4096, .i32⟩
  | .hbm, ⟨21, _⟩ => ⟨S4096, .i32⟩
  | .hbm, ⟨22, _⟩ => ⟨S4096x1, .i32⟩
  | .hbm, ⟨23, _⟩ => ⟨S4096, .i32⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S4096, .i32⟩
  | .hbm, ⟨28, _⟩ => ⟨S4096, .i32⟩
  | .hbm, ⟨29, _⟩ => ⟨S_, .i32⟩
  | .hbm, ⟨30, _⟩ => ⟨S4096, .i32⟩
  | .hbm, ⟨31, _⟩ => ⟨S4096, .i32⟩
  | .hbm, ⟨32, _⟩ => ⟨S4096x1, .i32⟩
  | .hbm, ⟨33, _⟩ => ⟨S4096x1, .i32⟩
  | .hbm, ⟨34, _⟩ => ⟨S4096x1, .i32⟩
  | .hbm, ⟨35, _⟩ => ⟨S4096x3, .i32⟩
  | .hbm, ⟨36, _⟩ => ⟨S_, .i32⟩
  | .hbm, ⟨37, _⟩ => ⟨S_, .f32⟩
  | .hbm, ⟨38, _⟩ => ⟨S16x286x286x128, .f32⟩
  | .hbm, ⟨39, _⟩ => ⟨S4096x31x31x32, .f32⟩
  | .local _ .vmem, ⟨0, _⟩ => ⟨S16x31x31x32, .f32⟩
  | .local _ .vmem, ⟨1, _⟩ => ⟨S16x31x31x32, .f32⟩
  | .local _ .vmem, ⟨2, _⟩ => ⟨S16x31x31x128, .f32⟩
  | .local _ .smem, ⟨0, _⟩ => ⟨S3x4096, .i32⟩
  | _, _ => ⟨S16x256x256x32, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_c_0 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c_1 : Ref sig .tc := ⟨.hbm, 14, rfl⟩
abbrev main_c_2 : Ref sig .tc := ⟨.hbm, 15, rfl⟩
abbrev main_call1_v0 : Ref sig .tc := ⟨.hbm, 16, rfl⟩
abbrev main_call1_v1 : Ref sig .tc := ⟨.hbm, 17, rfl⟩
abbrev main_call1_v2 : Ref sig .tc := ⟨.hbm, 18, rfl⟩
abbrev main_call1_v3 : Ref sig .tc := ⟨.hbm, 19, rfl⟩
abbrev main_call1_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_c_3 : Ref sig .tc := ⟨.hbm, 24, rfl⟩
abbrev main_c_4 : Ref sig .tc := ⟨.hbm, 25, rfl⟩
abbrev main_call2_v0 : Ref sig .tc := ⟨.hbm, 26, rfl⟩
abbrev main_call2_v1 : Ref sig .tc := ⟨.hbm, 27, rfl⟩
abbrev main_call2_v2 : Ref sig .tc := ⟨.hbm, 28, rfl⟩
abbrev main_call2_v3 : Ref sig .tc := ⟨.hbm, 29, rfl⟩
abbrev main_call2_v4 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_c_5 : Ref sig .tc := ⟨.hbm, 36, rfl⟩
abbrev main_call3_v0 : Ref sig .tc := ⟨.hbm, 37, rfl⟩
abbrev main_v13 : Ref sig .tc := ⟨.hbm, 38, rfl⟩
abbrev main_v15 : Ref sig .tc := ⟨.hbm, 39, rfl⟩
abbrev main_v14 : Ref sig .tc := ⟨.smem, 0, rfl⟩
abbrev cc0_stg0_0 : Ref sig .tc := ⟨.vmem, 0, rfl⟩
abbrev cc0_stg0_1 : Ref sig .tc := ⟨.vmem, 1, rfl⟩
abbrev cc0_scratch0 : Ref sig .tc := ⟨.vmem, 2, rfl⟩
abbrev cc0_sem0_0 : DmaSem sig := 0
abbrev cc0_sem0_1 : DmaSem sig := 1

abbrev nD : Nat := 1
abbrev τ : Topo := Topo.v7x

variable {F : FTy → Type} [FloatOps F]

abbrev grid0 : Pipeline.Grid := ⟨1, ![256], ![false]⟩

abbrev pre0 : Pipeline.Prefetch sig := ⟨1, ![main_v14.idx], fun | 0 => main_v14.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 2 → Nat :=
  let c0 : Index := 0#32
  let arg0 : BitVec 32 := BitVec.ofNat 32 (i 0).val
  let c16_i32 : BitVec 32 := 16#32
  let v0 : BitVec 32 := Scalar.muli arg0 c16_i32
  let c0_i32 : BitVec 32 := 0#32
  let v1 : BitVec 32 := Scalar.addi v0 c0_i32
  let v2 : Index := Scalar.indexCast v1
  ![0, v2.toNat]
def k0_off2 (i : grid0.Coords) : Fin 2 → Nat :=
  let c1 : Index := 1#32
  let arg0 : BitVec 32 := BitVec.ofNat 32 (i 0).val
  let c16_i32 : BitVec 32 := 16#32
  let v0 : BitVec 32 := Scalar.muli arg0 c16_i32
  let c0_i32 : BitVec 32 := 0#32
  let v1 : BitVec 32 := Scalar.addi v0 c0_i32
  let v4 : Index := Scalar.indexCast v1
  ![1, v4.toNat]
def k0_off3 (i : grid0.Coords) : Fin 2 → Nat :=
  let c2 : Index := 2#32
  let arg0 : BitVec 32 := BitVec.ofNat 32 (i 0).val
  let c16_i32 : BitVec 32 := 16#32
  let v0 : BitVec 32 := Scalar.muli arg0 c16_i32
  let c0_i32 : BitVec 32 := 0#32
  let v1 : BitVec 32 := Scalar.addi v0 c0_i32
  let v6 : Index := Scalar.indexCast v1
  ![2, v6.toNat]
def k0_off4 (v3 : BitVec 32) (v5 : BitVec 32) (v7 : BitVec 32) : Fin 4 → Nat :=
  let c0_i32_5 : BitVec 32 := 0#32
  ![v3.toNat, v5.toNat, v7.toNat, 0]

def k0_chk1 (v3 : BitVec 32) (v5 : BitVec 32) (v7 : BitVec 32) : Prop :=
  (∀ a, (k0_off4 v3 v5 v7) a + S1x31x31x128.size a ≤ S16x286x286x128.size a)
instance k0_chk1.dec : ∀ (v3 : BitVec 32) (v5 : BitVec 32) (v7 : BitVec 32), Decidable (k0_chk1 v3 v5 v7) := fun v3 v5 v7 => decidable_of_iff' _ (Iff.of_eq (k0_chk1.eq_1 v3 v5 v7))
theorem k0_off4_inb : ∀ (v3 : BitVec 32) (v5 : BitVec 32) (v7 : BitVec 32) (k0_hw1 : k0_chk1 v3 v5 v7), ∀ a, (k0_off4 v3 v5 v7) a + S1x31x31x128.size a ≤ S16x286x286x128.size a := fun v3 v5 v7 k0_hw1 => k0_hw1

def k0_off5 (i : grid0.Coords) : Fin 2 → Nat :=
  let c0_6 : Index := 0#32
  let arg0 : BitVec 32 := BitVec.ofNat 32 (i 0).val
  let c16_i32 : BitVec 32 := 16#32
  let v0 : BitVec 32 := Scalar.muli arg0 c16_i32
  let c1_i32 : BitVec 32 := 1#32
  let v14 : BitVec 32 := Scalar.addi v0 c1_i32
  let v15 : Index := Scalar.indexCast v14
  ![0, v15.toNat]
def k0_off6 (i : grid0.Coords) : Fin 2 → Nat :=
  let c1_7 : Index := 1#32
  let arg0 : BitVec 32 := BitVec.ofNat 32 (i 0).val
  let c16_i32 : BitVec 32 := 16#32
  let v0 : BitVec 32 := Scalar.muli arg0 c16_i32
  let c1_i32 : BitVec 32 := 1#32
  let v14 : BitVec 32 := Scalar.addi v0 c1_i32
  let v17 : Index := Scalar.indexCast v14
  ![1, v17.toNat]
def k0_off7 (i : grid0.Coords) : Fin 2 → Nat :=
  let c2_8 : Index := 2#32
  let arg0 : BitVec 32 := BitVec.ofNat 32 (i 0).val
  let c16_i32 : BitVec 32 := 16#32
  let v0 : BitVec 32 := Scalar.muli arg0 c16_i32
  let c1_i32 : BitVec 32 := 1#32
  let v14 : BitVec 32 := Scalar.addi v0 c1_i32
  let v19 : Index := Scalar.indexCast v14
  ![2, v19.toNat]
def k0_off8 (v16 : BitVec 32) (v18 : BitVec 32) (v20 : BitVec 32) : Fin 4 → Nat :=
  let c0_i32_14 : BitVec 32 := 0#32
  ![v16.toNat, v18.toNat, v20.toNat, 0]

def k0_chk2 (v16 : BitVec 32) (v18 : BitVec 32) (v20 : BitVec 32) : Prop :=
  (∀ a, (k0_off8 v16 v18 v20) a + S1x31x31x128.size a ≤ S16x286x286x128.size a)
instance k0_chk2.dec : ∀ (v16 : BitVec 32) (v18 : BitVec 32) (v20 : BitVec 32), Decidable (k0_chk2 v16 v18 v20) := fun v16 v18 v20 => decidable_of_iff' _ (Iff.of_eq (k0_chk2.eq_1 v16 v18 v20))
theorem k0_off8_inb : ∀ (v16 : BitVec 32) (v18 : BitVec 32) (v20 : BitVec 32) (k0_hw2 : k0_chk2 v16 v18 v20), ∀ a, (k0_off8 v16 v18 v20) a + S1x31x31x128.size a ≤ S16x286x286x128.size a := fun v16 v18 v20 k0_hw2 => k0_hw2

def k0_off9 (i : grid0.Coords) : Fin 2 → Nat :=
  let c0_15 : Index := 0#32
  let arg0 : BitVec 32 := BitVec.ofNat 32 (i 0).val
  let c16_i32 : BitVec 32 := 16#32
  let v0 : BitVec 32 := Scalar.muli arg0 c16_i32
  let c2_i32 : BitVec 32 := 2#32
  let v27 : BitVec 32 := Scalar.addi v0 c2_i32
  let v28 : Index := Scalar.indexCast v27
  ![0, v28.toNat]
def k0_off10 (i : grid0.Coords) : Fin 2 → Nat :=
  let c1_16 : Index := 1#32
  let arg0 : BitVec 32 := BitVec.ofNat 32 (i 0).val
  let c16_i32 : BitVec 32 := 16#32
  let v0 : BitVec 32 := Scalar.muli arg0 c16_i32
  let c2_i32 : BitVec 32 := 2#32
  let v27 : BitVec 32 := Scalar.addi v0 c2_i32
  let v30 : Index := Scalar.indexCast v27
  ![1, v30.toNat]
def k0_off11 (i : grid0.Coords) : Fin 2 → Nat :=
  let c2_17 : Index := 2#32
  let arg0 : BitVec 32 := BitVec.ofNat 32 (i 0).val
  let c16_i32 : BitVec 32 := 16#32
  let v0 : BitVec 32 := Scalar.muli arg0 c16_i32
  let c2_i32 : BitVec 32 := 2#32
  let v27 : BitVec 32 := Scalar.addi v0 c2_i32
  let v32 : Index := Scalar.indexCast v27
  ![2, v32.toNat]
def k0_off12 (v29 : BitVec 32) (v31 : BitVec 32) (v33 : BitVec 32) : Fin 4 → Nat :=
  let c0_i32_23 : BitVec 32 := 0#32
  ![v29.toNat, v31.toNat, v33.toNat, 0]

def k0_chk3 (v29 : BitVec 32) (v31 : BitVec 32) (v33 : BitVec 32) : Prop :=
  (∀ a, (k0_off12 v29 v31 v33) a + S1x31x31x128.size a ≤ S16x286x286x128.size a)
instance k0_chk3.dec : ∀ (v29 : BitVec 32) (v31 : BitVec 32) (v33 : BitVec 32), Decidable (k0_chk3 v29 v31 v33) := fun v29 v31 v33 => decidable_of_iff' _ (Iff.of_eq (k0_chk3.eq_1 v29 v31 v33))
theorem k0_off12_inb : ∀ (v29 : BitVec 32) (v31 : BitVec 32) (v33 : BitVec 32) (k0_hw3 : k0_chk3 v29 v31 v33), ∀ a, (k0_off12 v29 v31 v33) a + S1x31x31x128.size a ≤ S16x286x286x128.size a := fun v29 v31 v33 k0_hw3 => k0_hw3

def k0_off13 (i : grid0.Coords) : Fin 2 → Nat :=
  let c0_24 : Index := 0#32
  let arg0 : BitVec 32 := BitVec.ofNat 32 (i 0).val
  let c16_i32 : BitVec 32 := 16#32
  let v0 : BitVec 32 := Scalar.muli arg0 c16_i32
  let c3_i32 : BitVec 32 := 3#32
  let v40 : BitVec 32 := Scalar.addi v0 c3_i32
  let v41 : Index := Scalar.indexCast v40
  ![0, v41.toNat]
def k0_off14 (i : grid0.Coords) : Fin 2 → Nat :=
  let c1_25 : Index := 1#32
  let arg0 : BitVec 32 := BitVec.ofNat 32 (i 0).val
  let c16_i32 : BitVec 32 := 16#32
  let v0 : BitVec 32 := Scalar.muli arg0 c16_i32
  let c3_i32 : BitVec 32 := 3#32
  let v40 : BitVec 32 := Scalar.addi v0 c3_i32
  let v43 : Index := Scalar.indexCast v40
  ![1, v43.toNat]
def k0_off15 (i : grid0.Coords) : Fin 2 → Nat :=
  let c2_26 : Index := 2#32
  let arg0 : BitVec 32 := BitVec.ofNat 32 (i 0).val
  let c16_i32 : BitVec 32 := 16#32
  let v0 : BitVec 32 := Scalar.muli arg0 c16_i32
  let c3_i32 : BitVec 32 := 3#32
  let v40 : BitVec 32 := Scalar.addi v0 c3_i32
  let v45 : Index := Scalar.indexCast v40
  ![2, v45.toNat]
def k0_off16 (v42 : BitVec 32) (v44 : BitVec 32) (v46 : BitVec 32) : Fin 4 → Nat :=
  let c0_i32_32 : BitVec 32 := 0#32
  ![v42.toNat, v44.toNat, v46.toNat, 0]

def k0_chk4 (v42 : BitVec 32) (v44 : BitVec 32) (v46 : BitVec 32) : Prop :=
  (∀ a, (k0_off16 v42 v44 v46) a + S1x31x31x128.size a ≤ S16x286x286x128.size a)
instance k0_chk4.dec : ∀ (v42 : BitVec 32) (v44 : BitVec 32) (v46 : BitVec 32), Decidable (k0_chk4 v42 v44 v46) := fun v42 v44 v46 => decidable_of_iff' _ (Iff.of_eq (k0_chk4.eq_1 v42 v44 v46))
theorem k0_off16_inb : ∀ (v42 : BitVec 32) (v44 : BitVec 32) (v46 : BitVec 32) (k0_hw4 : k0_chk4 v42 v44 v46), ∀ a, (k0_off16 v42 v44 v46) a + S1x31x31x128.size a ≤ S16x286x286x128.size a := fun v42 v44 v46 k0_hw4 => k0_hw4

def k0_off17 (i : grid0.Coords) : Fin 2 → Nat :=
  let c0_33 : Index := 0#32
  let arg0 : BitVec 32 := BitVec.ofNat 32 (i 0).val
  let c16_i32 : BitVec 32 := 16#32
  let v0 : BitVec 32 := Scalar.muli arg0 c16_i32
  let c4_i32 : BitVec 32 := 4#32
  let v53 : BitVec 32 := Scalar.addi v0 c4_i32
  let v54 : Index := Scalar.indexCast v53
  ![0, v54.toNat]
def k0_off18 (i : grid0.Coords) : Fin 2 → Nat :=
  let c1_34 : Index := 1#32
  let arg0 : BitVec 32 := BitVec.ofNat 32 (i 0).val
  let c16_i32 : BitVec 32 := 16#32
  let v0 : BitVec 32 := Scalar.muli arg0 c16_i32
  let c4_i32 : BitVec 32 := 4#32
  let v53 : BitVec 32 := Scalar.addi v0 c4_i32
  let v56 : Index := Scalar.indexCast v53
  ![1, v56.toNat]
def k0_off19 (i : grid0.Coords) : Fin 2 → Nat :=
  let c2_35 : Index := 2#32
  let arg0 : BitVec 32 := BitVec.ofNat 32 (i 0).val
  let c16_i32 : BitVec 32 := 16#32
  let v0 : BitVec 32 := Scalar.muli arg0 c16_i32
  let c4_i32 : BitVec 32 := 4#32
  let v53 : BitVec 32 := Scalar.addi v0 c4_i32
  let v58 : Index := Scalar.indexCast v53
  ![2, v58.toNat]
def k0_off20 (v55 : BitVec 32) (v57 : BitVec 32) (v59 : BitVec 32) : Fin 4 → Nat :=
  let c0_i32_41 : BitVec 32 := 0#32
  ![v55.toNat, v57.toNat, v59.toNat, 0]

def k0_chk5 (v55 : BitVec 32) (v57 : BitVec 32) (v59 : BitVec 32) : Prop :=
  (∀ a, (k0_off20 v55 v57 v59) a + S1x31x31x128.size a ≤ S16x286x286x128.size a)
instance k0_chk5.dec : ∀ (v55 : BitVec 32) (v57 : BitVec 32) (v59 : BitVec 32), Decidable (k0_chk5 v55 v57 v59) := fun v55 v57 v59 => decidable_of_iff' _ (Iff.of_eq (k0_chk5.eq_1 v55 v57 v59))
theorem k0_off20_inb : ∀ (v55 : BitVec 32) (v57 : BitVec 32) (v59 : BitVec 32) (k0_hw5 : k0_chk5 v55 v57 v59), ∀ a, (k0_off20 v55 v57 v59) a + S1x31x31x128.size a ≤ S16x286x286x128.size a := fun v55 v57 v59 k0_hw5 => k0_hw5

def k0_off21 (i : grid0.Coords) : Fin 2 → Nat :=
  let c0_42 : Index := 0#32
  let arg0 : BitVec 32 := BitVec.ofNat 32 (i 0).val
  let c16_i32 : BitVec 32 := 16#32
  let v0 : BitVec 32 := Scalar.muli arg0 c16_i32
  let c5_i32 : BitVec 32 := 5#32
  let v66 : BitVec 32 := Scalar.addi v0 c5_i32
  let v67 : Index := Scalar.indexCast v66
  ![0, v67.toNat]
def k0_off22 (i : grid0.Coords) : Fin 2 → Nat :=
  let c1_43 : Index := 1#32
  let arg0 : BitVec 32 := BitVec.ofNat 32 (i 0).val
  let c16_i32 : BitVec 32 := 16#32
  let v0 : BitVec 32 := Scalar.muli arg0 c16_i32
  let c5_i32 : BitVec 32 := 5#32
  let v66 : BitVec 32 := Scalar.addi v0 c5_i32
  let v69 : Index := Scalar.indexCast v66
  ![1, v69.toNat]
def k0_off23 (i : grid0.Coords) : Fin 2 → Nat :=
  let c2_44 : Index := 2#32
  let arg0 : BitVec 32 := BitVec.ofNat 32 (i 0).val
  let c16_i32 : BitVec 32 := 16#32
  let v0 : BitVec 32 := Scalar.muli arg0 c16_i32
  let c5_i32 : BitVec 32 := 5#32
  let v66 : BitVec 32 := Scalar.addi v0 c5_i32
  let v71 : Index := Scalar.indexCast v66
  ![2, v71.toNat]
def k0_off24 (v68 : BitVec 32) (v70 : BitVec 32) (v72 : BitVec 32) : Fin 4 → Nat :=
  let c0_i32_50 : BitVec 32 := 0#32
  ![v68.toNat, v70.toNat, v72.toNat, 0]

def k0_chk6 (v68 : BitVec 32) (v70 : BitVec 32) (v72 : BitVec 32) : Prop :=
  (∀ a, (k0_off24 v68 v70 v72) a + S1x31x31x128.size a ≤ S16x286x286x128.size a)
instance k0_chk6.dec : ∀ (v68 : BitVec 32) (v70 : BitVec 32) (v72 : BitVec 32), Decidable (k0_chk6 v68 v70 v72) := fun v68 v70 v72 => decidable_of_iff' _ (Iff.of_eq (k0_chk6.eq_1 v68 v70 v72))
theorem k0_off24_inb : ∀ (v68 : BitVec 32) (v70 : BitVec 32) (v72 : BitVec 32) (k0_hw6 : k0_chk6 v68 v70 v72), ∀ a, (k0_off24 v68 v70 v72) a + S1x31x31x128.size a ≤ S16x286x286x128.size a := fun v68 v70 v72 k0_hw6 => k0_hw6

def k0_off25 (i : grid0.Coords) : Fin 2 → Nat :=
  let c0_51 : Index := 0#32
  let arg0 : BitVec 32 := BitVec.ofNat 32 (i 0).val
  let c16_i32 : BitVec 32 := 16#32
  let v0 : BitVec 32 := Scalar.muli arg0 c16_i32
  let c6_i32 : BitVec 32 := 6#32
  let v79 : BitVec 32 := Scalar.addi v0 c6_i32
  let v80 : Index := Scalar.indexCast v79
  ![0, v80.toNat]
def k0_off26 (i : grid0.Coords) : Fin 2 → Nat :=
  let c1_52 : Index := 1#32
  let arg0 : BitVec 32 := BitVec.ofNat 32 (i 0).val
  let c16_i32 : BitVec 32 := 16#32
  let v0 : BitVec 32 := Scalar.muli arg0 c16_i32
  let c6_i32 : BitVec 32 := 6#32
  let v79 : BitVec 32 := Scalar.addi v0 c6_i32
  let v82 : Index := Scalar.indexCast v79
  ![1, v82.toNat]
def k0_off27 (i : grid0.Coords) : Fin 2 → Nat :=
  let c2_53 : Index := 2#32
  let arg0 : BitVec 32 := BitVec.ofNat 32 (i 0).val
  let c16_i32 : BitVec 32 := 16#32
  let v0 : BitVec 32 := Scalar.muli arg0 c16_i32
  let c6_i32 : BitVec 32 := 6#32
  let v79 : BitVec 32 := Scalar.addi v0 c6_i32
  let v84 : Index := Scalar.indexCast v79
  ![2, v84.toNat]
def k0_off28 (v81 : BitVec 32) (v83 : BitVec 32) (v85 : BitVec 32) : Fin 4 → Nat :=
  let c0_i32_59 : BitVec 32 := 0#32
  ![v81.toNat, v83.toNat, v85.toNat, 0]

def k0_chk7 (v81 : BitVec 32) (v83 : BitVec 32) (v85 : BitVec 32) : Prop :=
  (∀ a, (k0_off28 v81 v83 v85) a + S1x31x31x128.size a ≤ S16x286x286x128.size a)
instance k0_chk7.dec : ∀ (v81 : BitVec 32) (v83 : BitVec 32) (v85 : BitVec 32), Decidable (k0_chk7 v81 v83 v85) := fun v81 v83 v85 => decidable_of_iff' _ (Iff.of_eq (k0_chk7.eq_1 v81 v83 v85))
theorem k0_off28_inb : ∀ (v81 : BitVec 32) (v83 : BitVec 32) (v85 : BitVec 32) (k0_hw7 : k0_chk7 v81 v83 v85), ∀ a, (k0_off28 v81 v83 v85) a + S1x31x31x128.size a ≤ S16x286x286x128.size a := fun v81 v83 v85 k0_hw7 => k0_hw7

def k0_off29 (i : grid0.Coords) : Fin 2 → Nat :=
  let c0_60 : Index := 0#32
  let arg0 : BitVec 32 := BitVec.ofNat 32 (i 0).val
  let c16_i32 : BitVec 32 := 16#32
  let v0 : BitVec 32 := Scalar.muli arg0 c16_i32
  let c7_i32 : BitVec 32 := 7#32
  let v92 : BitVec 32 := Scalar.addi v0 c7_i32
  let v93 : Index := Scalar.indexCast v92
  ![0, v93.toNat]
def k0_off30 (i : grid0.Coords) : Fin 2 → Nat :=
  let c1_61 : Index := 1#32
  let arg0 : BitVec 32 := BitVec.ofNat 32 (i 0).val
  let c16_i32 : BitVec 32 := 16#32
  let v0 : BitVec 32 := Scalar.muli arg0 c16_i32
  let c7_i32 : BitVec 32 := 7#32
  let v92 : BitVec 32 := Scalar.addi v0 c7_i32
  let v95 : Index := Scalar.indexCast v92
  ![1, v95.toNat]
def k0_off31 (i : grid0.Coords) : Fin 2 → Nat :=
  let c2_62 : Index := 2#32
  let arg0 : BitVec 32 := BitVec.ofNat 32 (i 0).val
  let c16_i32 : BitVec 32 := 16#32
  let v0 : BitVec 32 := Scalar.muli arg0 c16_i32
  let c7_i32 : BitVec 32 := 7#32
  let v92 : BitVec 32 := Scalar.addi v0 c7_i32
  let v97 : Index := Scalar.indexCast v92
  ![2, v97.toNat]
def k0_off32 (v94 : BitVec 32) (v96 : BitVec 32) (v98 : BitVec 32) : Fin 4 → Nat :=
  let c0_i32_68 : BitVec 32 := 0#32
  ![v94.toNat, v96.toNat, v98.toNat, 0]

def k0_chk8 (v94 : BitVec 32) (v96 : BitVec 32) (v98 : BitVec 32) : Prop :=
  (∀ a, (k0_off32 v94 v96 v98) a + S1x31x31x128.size a ≤ S16x286x286x128.size a)
instance k0_chk8.dec : ∀ (v94 : BitVec 32) (v96 : BitVec 32) (v98 : BitVec 32), Decidable (k0_chk8 v94 v96 v98) := fun v94 v96 v98 => decidable_of_iff' _ (Iff.of_eq (k0_chk8.eq_1 v94 v96 v98))
theorem k0_off32_inb : ∀ (v94 : BitVec 32) (v96 : BitVec 32) (v98 : BitVec 32) (k0_hw8 : k0_chk8 v94 v96 v98), ∀ a, (k0_off32 v94 v96 v98) a + S1x31x31x128.size a ≤ S16x286x286x128.size a := fun v94 v96 v98 k0_hw8 => k0_hw8

def k0_off33 (i : grid0.Coords) : Fin 2 → Nat :=
  let c0_69 : Index := 0#32
  let arg0 : BitVec 32 := BitVec.ofNat 32 (i 0).val
  let c16_i32 : BitVec 32 := 16#32
  let v0 : BitVec 32 := Scalar.muli arg0 c16_i32
  let c8_i32 : BitVec 32 := 8#32
  let v105 : BitVec 32 := Scalar.addi v0 c8_i32
  let v106 : Index := Scalar.indexCast v105
  ![0, v106.toNat]
def k0_off34 (i : grid0.Coords) : Fin 2 → Nat :=
  let c1_70 : Index := 1#32
  let arg0 : BitVec 32 := BitVec.ofNat 32 (i 0).val
  let c16_i32 : BitVec 32 := 16#32
  let v0 : BitVec 32 := Scalar.muli arg0 c16_i32
  let c8_i32 : BitVec 32 := 8#32
  let v105 : BitVec 32 := Scalar.addi v0 c8_i32
  let v108 : Index := Scalar.indexCast v105
  ![1, v108.toNat]
def k0_off35 (i : grid0.Coords) : Fin 2 → Nat :=
  let c2_71 : Index := 2#32
  let arg0 : BitVec 32 := BitVec.ofNat 32 (i 0).val
  let c16_i32 : BitVec 32 := 16#32
  let v0 : BitVec 32 := Scalar.muli arg0 c16_i32
  let c8_i32 : BitVec 32 := 8#32
  let v105 : BitVec 32 := Scalar.addi v0 c8_i32
  let v110 : Index := Scalar.indexCast v105
  ![2, v110.toNat]
def k0_off36 (v107 : BitVec 32) (v109 : BitVec 32) (v111 : BitVec 32) : Fin 4 → Nat :=
  let c0_i32_77 : BitVec 32 := 0#32
  ![v107.toNat, v109.toNat, v111.toNat, 0]

def k0_chk9 (v107 : BitVec 32) (v109 : BitVec 32) (v111 : BitVec 32) : Prop :=
  (∀ a, (k0_off36 v107 v109 v111) a + S1x31x31x128.size a ≤ S16x286x286x128.size a)
instance k0_chk9.dec : ∀ (v107 : BitVec 32) (v109 : BitVec 32) (v111 : BitVec 32), Decidable (k0_chk9 v107 v109 v111) := fun v107 v109 v111 => decidable_of_iff' _ (Iff.of_eq (k0_chk9.eq_1 v107 v109 v111))
theorem k0_off36_inb : ∀ (v107 : BitVec 32) (v109 : BitVec 32) (v111 : BitVec 32) (k0_hw9 : k0_chk9 v107 v109 v111), ∀ a, (k0_off36 v107 v109 v111) a + S1x31x31x128.size a ≤ S16x286x286x128.size a := fun v107 v109 v111 k0_hw9 => k0_hw9

def k0_off37 (i : grid0.Coords) : Fin 2 → Nat :=
  let c0_78 : Index := 0#32
  let arg0 : BitVec 32 := BitVec.ofNat 32 (i 0).val
  let c16_i32 : BitVec 32 := 16#32
  let v0 : BitVec 32 := Scalar.muli arg0 c16_i32
  let c9_i32 : BitVec 32 := 9#32
  let v118 : BitVec 32 := Scalar.addi v0 c9_i32
  let v119 : Index := Scalar.indexCast v118
  ![0, v119.toNat]
def k0_off38 (i : grid0.Coords) : Fin 2 → Nat :=
  let c1_79 : Index := 1#32
  let arg0 : BitVec 32 := BitVec.ofNat 32 (i 0).val
  let c16_i32 : BitVec 32 := 16#32
  let v0 : BitVec 32 := Scalar.muli arg0 c16_i32
  let c9_i32 : BitVec 32 := 9#32
  let v118 : BitVec 32 := Scalar.addi v0 c9_i32
  let v121 : Index := Scalar.indexCast v118
  ![1, v121.toNat]
def k0_off39 (i : grid0.Coords) : Fin 2 → Nat :=
  let c2_80 : Index := 2#32
  let arg0 : BitVec 32 := BitVec.ofNat 32 (i 0).val
  let c16_i32 : BitVec 32 := 16#32
  let v0 : BitVec 32 := Scalar.muli arg0 c16_i32
  let c9_i32 : BitVec 32 := 9#32
  let v118 : BitVec 32 := Scalar.addi v0 c9_i32
  let v123 : Index := Scalar.indexCast v118
  ![2, v123.toNat]
def k0_off40 (v120 : BitVec 32) (v122 : BitVec 32) (v124 : BitVec 32) : Fin 4 → Nat :=
  let c0_i32_86 : BitVec 32 := 0#32
  ![v120.toNat, v122.toNat, v124.toNat, 0]

def k0_chk10 (v120 : BitVec 32) (v122 : BitVec 32) (v124 : BitVec 32) : Prop :=
  (∀ a, (k0_off40 v120 v122 v124) a + S1x31x31x128.size a ≤ S16x286x286x128.size a)
instance k0_chk10.dec : ∀ (v120 : BitVec 32) (v122 : BitVec 32) (v124 : BitVec 32), Decidable (k0_chk10 v120 v122 v124) := fun v120 v122 v124 => decidable_of_iff' _ (Iff.of_eq (k0_chk10.eq_1 v120 v122 v124))
theorem k0_off40_inb : ∀ (v120 : BitVec 32) (v122 : BitVec 32) (v124 : BitVec 32) (k0_hw10 : k0_chk10 v120 v122 v124), ∀ a, (k0_off40 v120 v122 v124) a + S1x31x31x128.size a ≤ S16x286x286x128.size a := fun v120 v122 v124 k0_hw10 => k0_hw10

def k0_off41 (i : grid0.Coords) : Fin 2 → Nat :=
  let c0_87 : Index := 0#32
  let arg0 : BitVec 32 := BitVec.ofNat 32 (i 0).val
  let c16_i32 : BitVec 32 := 16#32
  let v0 : BitVec 32 := Scalar.muli arg0 c16_i32
  let c10_i32 : BitVec 32 := 10#32
  let v131 : BitVec 32 := Scalar.addi v0 c10_i32
  let v132 : Index := Scalar.indexCast v131
  ![0, v132.toNat]
def k0_off42 (i : grid0.Coords) : Fin 2 → Nat :=
  let c1_88 : Index := 1#32
  let arg0 : BitVec 32 := BitVec.ofNat 32 (i 0).val
  let c16_i32 : BitVec 32 := 16#32
  let v0 : BitVec 32 := Scalar.muli arg0 c16_i32
  let c10_i32 : BitVec 32 := 10#32
  let v131 : BitVec 32 := Scalar.addi v0 c10_i32
  let v134 : Index := Scalar.indexCast v131
  ![1, v134.toNat]
def k0_off43 (i : grid0.Coords) : Fin 2 → Nat :=
  let c2_89 : Index := 2#32
  let arg0 : BitVec 32 := BitVec.ofNat 32 (i 0).val
  let c16_i32 : BitVec 32 := 16#32
  let v0 : BitVec 32 := Scalar.muli arg0 c16_i32
  let c10_i32 : BitVec 32 := 10#32
  let v131 : BitVec 32 := Scalar.addi v0 c10_i32
  let v136 : Index := Scalar.indexCast v131
  ![2, v136.toNat]
def k0_off44 (v133 : BitVec 32) (v135 : BitVec 32) (v137 : BitVec 32) : Fin 4 → Nat :=
  let c0_i32_95 : BitVec 32 := 0#32
  ![v133.toNat, v135.toNat, v137.toNat, 0]

def k0_chk11 (v133 : BitVec 32) (v135 : BitVec 32) (v137 : BitVec 32) : Prop :=
  (∀ a, (k0_off44 v133 v135 v137) a + S1x31x31x128.size a ≤ S16x286x286x128.size a)
instance k0_chk11.dec : ∀ (v133 : BitVec 32) (v135 : BitVec 32) (v137 : BitVec 32), Decidable (k0_chk11 v133 v135 v137) := fun v133 v135 v137 => decidable_of_iff' _ (Iff.of_eq (k0_chk11.eq_1 v133 v135 v137))
theorem k0_off44_inb : ∀ (v133 : BitVec 32) (v135 : BitVec 32) (v137 : BitVec 32) (k0_hw11 : k0_chk11 v133 v135 v137), ∀ a, (k0_off44 v133 v135 v137) a + S1x31x31x128.size a ≤ S16x286x286x128.size a := fun v133 v135 v137 k0_hw11 => k0_hw11

def k0_off45 (i : grid0.Coords) : Fin 2 → Nat :=
  let c0_96 : Index := 0#32
  let arg0 : BitVec 32 := BitVec.ofNat 32 (i 0).val
  let c16_i32 : BitVec 32 := 16#32
  let v0 : BitVec 32 := Scalar.muli arg0 c16_i32
  let c11_i32 : BitVec 32 := 11#32
  let v144 : BitVec 32 := Scalar.addi v0 c11_i32
  let v145 : Index := Scalar.indexCast v144
  ![0, v145.toNat]
def k0_off46 (i : grid0.Coords) : Fin 2 → Nat :=
  let c1_97 : Index := 1#32
  let arg0 : BitVec 32 := BitVec.ofNat 32 (i 0).val
  let c16_i32 : BitVec 32 := 16#32
  let v0 : BitVec 32 := Scalar.muli arg0 c16_i32
  let c11_i32 : BitVec 32 := 11#32
  let v144 : BitVec 32 := Scalar.addi v0 c11_i32
  let v147 : Index := Scalar.indexCast v144
  ![1, v147.toNat]
def k0_off47 (i : grid0.Coords) : Fin 2 → Nat :=
  let c2_98 : Index := 2#32
  let arg0 : BitVec 32 := BitVec.ofNat 32 (i 0).val
  let c16_i32 : BitVec 32 := 16#32
  let v0 : BitVec 32 := Scalar.muli arg0 c16_i32
  let c11_i32 : BitVec 32 := 11#32
  let v144 : BitVec 32 := Scalar.addi v0 c11_i32
  let v149 : Index := Scalar.indexCast v144
  ![2, v149.toNat]
def k0_off48 (v146 : BitVec 32) (v148 : BitVec 32) (v150 : BitVec 32) : Fin 4 → Nat :=
  let c0_i32_104 : BitVec 32 := 0#32
  ![v146.toNat, v148.toNat, v150.toNat, 0]

def k0_chk12 (v146 : BitVec 32) (v148 : BitVec 32) (v150 : BitVec 32) : Prop :=
  (∀ a, (k0_off48 v146 v148 v150) a + S1x31x31x128.size a ≤ S16x286x286x128.size a)
instance k0_chk12.dec : ∀ (v146 : BitVec 32) (v148 : BitVec 32) (v150 : BitVec 32), Decidable (k0_chk12 v146 v148 v150) := fun v146 v148 v150 => decidable_of_iff' _ (Iff.of_eq (k0_chk12.eq_1 v146 v148 v150))
theorem k0_off48_inb : ∀ (v146 : BitVec 32) (v148 : BitVec 32) (v150 : BitVec 32) (k0_hw12 : k0_chk12 v146 v148 v150), ∀ a, (k0_off48 v146 v148 v150) a + S1x31x31x128.size a ≤ S16x286x286x128.size a := fun v146 v148 v150 k0_hw12 => k0_hw12

def k0_off49 (i : grid0.Coords) : Fin 2 → Nat :=
  let c0_105 : Index := 0#32
  let arg0 : BitVec 32 := BitVec.ofNat 32 (i 0).val
  let c16_i32 : BitVec 32 := 16#32
  let v0 : BitVec 32 := Scalar.muli arg0 c16_i32
  let c12_i32 : BitVec 32 := 12#32
  let v157 : BitVec 32 := Scalar.addi v0 c12_i32
  let v158 : Index := Scalar.indexCast v157
  ![0, v158.toNat]
def k0_off50 (i : grid0.Coords) : Fin 2 → Nat :=
  let c1_106 : Index := 1#32
  let arg0 : BitVec 32 := BitVec.ofNat 32 (i 0).val
  let c16_i32 : BitVec 32 := 16#32
  let v0 : BitVec 32 := Scalar.muli arg0 c16_i32
  let c12_i32 : BitVec 32 := 12#32
  let v157 : BitVec 32 := Scalar.addi v0 c12_i32
  let v160 : Index := Scalar.indexCast v157
  ![1, v160.toNat]
def k0_off51 (i : grid0.Coords) : Fin 2 → Nat :=
  let c2_107 : Index := 2#32
  let arg0 : BitVec 32 := BitVec.ofNat 32 (i 0).val
  let c16_i32 : BitVec 32 := 16#32
  let v0 : BitVec 32 := Scalar.muli arg0 c16_i32
  let c12_i32 : BitVec 32 := 12#32
  let v157 : BitVec 32 := Scalar.addi v0 c12_i32
  let v162 : Index := Scalar.indexCast v157
  ![2, v162.toNat]
def k0_off52 (v159 : BitVec 32) (v161 : BitVec 32) (v163 : BitVec 32) : Fin 4 → Nat :=
  let c0_i32_113 : BitVec 32 := 0#32
  ![v159.toNat, v161.toNat, v163.toNat, 0]

def k0_chk13 (v159 : BitVec 32) (v161 : BitVec 32) (v163 : BitVec 32) : Prop :=
  (∀ a, (k0_off52 v159 v161 v163) a + S1x31x31x128.size a ≤ S16x286x286x128.size a)
instance k0_chk13.dec : ∀ (v159 : BitVec 32) (v161 : BitVec 32) (v163 : BitVec 32), Decidable (k0_chk13 v159 v161 v163) := fun v159 v161 v163 => decidable_of_iff' _ (Iff.of_eq (k0_chk13.eq_1 v159 v161 v163))
theorem k0_off52_inb : ∀ (v159 : BitVec 32) (v161 : BitVec 32) (v163 : BitVec 32) (k0_hw13 : k0_chk13 v159 v161 v163), ∀ a, (k0_off52 v159 v161 v163) a + S1x31x31x128.size a ≤ S16x286x286x128.size a := fun v159 v161 v163 k0_hw13 => k0_hw13

def k0_off53 (i : grid0.Coords) : Fin 2 → Nat :=
  let c0_114 : Index := 0#32
  let arg0 : BitVec 32 := BitVec.ofNat 32 (i 0).val
  let c16_i32 : BitVec 32 := 16#32
  let v0 : BitVec 32 := Scalar.muli arg0 c16_i32
  let c13_i32 : BitVec 32 := 13#32
  let v170 : BitVec 32 := Scalar.addi v0 c13_i32
  let v171 : Index := Scalar.indexCast v170
  ![0, v171.toNat]
def k0_off54 (i : grid0.Coords) : Fin 2 → Nat :=
  let c1_115 : Index := 1#32
  let arg0 : BitVec 32 := BitVec.ofNat 32 (i 0).val
  let c16_i32 : BitVec 32 := 16#32
  let v0 : BitVec 32 := Scalar.muli arg0 c16_i32
  let c13_i32 : BitVec 32 := 13#32
  let v170 : BitVec 32 := Scalar.addi v0 c13_i32
  let v173 : Index := Scalar.indexCast v170
  ![1, v173.toNat]
def k0_off55 (i : grid0.Coords) : Fin 2 → Nat :=
  let c2_116 : Index := 2#32
  let arg0 : BitVec 32 := BitVec.ofNat 32 (i 0).val
  let c16_i32 : BitVec 32 := 16#32
  let v0 : BitVec 32 := Scalar.muli arg0 c16_i32
  let c13_i32 : BitVec 32 := 13#32
  let v170 : BitVec 32 := Scalar.addi v0 c13_i32
  let v175 : Index := Scalar.indexCast v170
  ![2, v175.toNat]
def k0_off56 (v172 : BitVec 32) (v174 : BitVec 32) (v176 : BitVec 32) : Fin 4 → Nat :=
  let c0_i32_122 : BitVec 32 := 0#32
  ![v172.toNat, v174.toNat, v176.toNat, 0]

def k0_chk14 (v172 : BitVec 32) (v174 : BitVec 32) (v176 : BitVec 32) : Prop :=
  (∀ a, (k0_off56 v172 v174 v176) a + S1x31x31x128.size a ≤ S16x286x286x128.size a)
instance k0_chk14.dec : ∀ (v172 : BitVec 32) (v174 : BitVec 32) (v176 : BitVec 32), Decidable (k0_chk14 v172 v174 v176) := fun v172 v174 v176 => decidable_of_iff' _ (Iff.of_eq (k0_chk14.eq_1 v172 v174 v176))
theorem k0_off56_inb : ∀ (v172 : BitVec 32) (v174 : BitVec 32) (v176 : BitVec 32) (k0_hw14 : k0_chk14 v172 v174 v176), ∀ a, (k0_off56 v172 v174 v176) a + S1x31x31x128.size a ≤ S16x286x286x128.size a := fun v172 v174 v176 k0_hw14 => k0_hw14

def k0_off57 (i : grid0.Coords) : Fin 2 → Nat :=
  let c0_123 : Index := 0#32
  let arg0 : BitVec 32 := BitVec.ofNat 32 (i 0).val
  let c16_i32 : BitVec 32 := 16#32
  let v0 : BitVec 32 := Scalar.muli arg0 c16_i32
  let c14_i32 : BitVec 32 := 14#32
  let v183 : BitVec 32 := Scalar.addi v0 c14_i32
  let v184 : Index := Scalar.indexCast v183
  ![0, v184.toNat]
def k0_off58 (i : grid0.Coords) : Fin 2 → Nat :=
  let c1_124 : Index := 1#32
  let arg0 : BitVec 32 := BitVec.ofNat 32 (i 0).val
  let c16_i32 : BitVec 32 := 16#32
  let v0 : BitVec 32 := Scalar.muli arg0 c16_i32
  let c14_i32 : BitVec 32 := 14#32
  let v183 : BitVec 32 := Scalar.addi v0 c14_i32
  let v186 : Index := Scalar.indexCast v183
  ![1, v186.toNat]
def k0_off59 (i : grid0.Coords) : Fin 2 → Nat :=
  let c2_125 : Index := 2#32
  let arg0 : BitVec 32 := BitVec.ofNat 32 (i 0).val
  let c16_i32 : BitVec 32 := 16#32
  let v0 : BitVec 32 := Scalar.muli arg0 c16_i32
  let c14_i32 : BitVec 32 := 14#32
  let v183 : BitVec 32 := Scalar.addi v0 c14_i32
  let v188 : Index := Scalar.indexCast v183
  ![2, v188.toNat]
def k0_off60 (v185 : BitVec 32) (v187 : BitVec 32) (v189 : BitVec 32) : Fin 4 → Nat :=
  let c0_i32_131 : BitVec 32 := 0#32
  ![v185.toNat, v187.toNat, v189.toNat, 0]

def k0_chk15 (v185 : BitVec 32) (v187 : BitVec 32) (v189 : BitVec 32) : Prop :=
  (∀ a, (k0_off60 v185 v187 v189) a + S1x31x31x128.size a ≤ S16x286x286x128.size a)
instance k0_chk15.dec : ∀ (v185 : BitVec 32) (v187 : BitVec 32) (v189 : BitVec 32), Decidable (k0_chk15 v185 v187 v189) := fun v185 v187 v189 => decidable_of_iff' _ (Iff.of_eq (k0_chk15.eq_1 v185 v187 v189))
theorem k0_off60_inb : ∀ (v185 : BitVec 32) (v187 : BitVec 32) (v189 : BitVec 32) (k0_hw15 : k0_chk15 v185 v187 v189), ∀ a, (k0_off60 v185 v187 v189) a + S1x31x31x128.size a ≤ S16x286x286x128.size a := fun v185 v187 v189 k0_hw15 => k0_hw15

def k0_off61 (i : grid0.Coords) : Fin 2 → Nat :=
  let c0_132 : Index := 0#32
  let arg0 : BitVec 32 := BitVec.ofNat 32 (i 0).val
  let c16_i32 : BitVec 32 := 16#32
  let v0 : BitVec 32 := Scalar.muli arg0 c16_i32
  let c15_i32 : BitVec 32 := 15#32
  let v196 : BitVec 32 := Scalar.addi v0 c15_i32
  let v197 : Index := Scalar.indexCast v196
  ![0, v197.toNat]
def k0_off62 (i : grid0.Coords) : Fin 2 → Nat :=
  let c1_133 : Index := 1#32
  let arg0 : BitVec 32 := BitVec.ofNat 32 (i 0).val
  let c16_i32 : BitVec 32 := 16#32
  let v0 : BitVec 32 := Scalar.muli arg0 c16_i32
  let c15_i32 : BitVec 32 := 15#32
  let v196 : BitVec 32 := Scalar.addi v0 c15_i32
  let v199 : Index := Scalar.indexCast v196
  ![1, v199.toNat]
def k0_off63 (i : grid0.Coords) : Fin 2 → Nat :=
  let c2_134 : Index := 2#32
  let arg0 : BitVec 32 := BitVec.ofNat 32 (i 0).val
  let c16_i32 : BitVec 32 := 16#32
  let v0 : BitVec 32 := Scalar.muli arg0 c16_i32
  let c15_i32 : BitVec 32 := 15#32
  let v196 : BitVec 32 := Scalar.addi v0 c15_i32
  let v201 : Index := Scalar.indexCast v196
  ![2, v201.toNat]
def k0_off64 (v198 : BitVec 32) (v200 : BitVec 32) (v202 : BitVec 32) : Fin 4 → Nat :=
  let c0_i32_140 : BitVec 32 := 0#32
  ![v198.toNat, v200.toNat, v202.toNat, 0]

def k0_chk16 (v198 : BitVec 32) (v200 : BitVec 32) (v202 : BitVec 32) : Prop :=
  (∀ a, (k0_off64 v198 v200 v202) a + S1x31x31x128.size a ≤ S16x286x286x128.size a)
instance k0_chk16.dec : ∀ (v198 : BitVec 32) (v200 : BitVec 32) (v202 : BitVec 32), Decidable (k0_chk16 v198 v200 v202) := fun v198 v200 v202 => decidable_of_iff' _ (Iff.of_eq (k0_chk16.eq_1 v198 v200 v202))
theorem k0_off64_inb : ∀ (v198 : BitVec 32) (v200 : BitVec 32) (v202 : BitVec 32) (k0_hw16 : k0_chk16 v198 v200 v202), ∀ a, (k0_off64 v198 v200 v202) a + S1x31x31x128.size a ≤ S16x286x286x128.size a := fun v198 v200 v202 k0_hw16 => k0_hw16

def k0_off65 (i : grid0.Coords) : Fin 2 → Nat :=
  let c0_142 : Index := 0#32
  let arg0 : BitVec 32 := BitVec.ofNat 32 (i 0).val
  let c16_i32 : BitVec 32 := 16#32
  let v0 : BitVec 32 := Scalar.muli arg0 c16_i32
  let c0_i32_141 : BitVec 32 := 0#32
  let v209 : BitVec 32 := Scalar.addi v0 c0_i32_141
  let v210 : Index := Scalar.indexCast v209
  ![0, v210.toNat]
def k0_off66 (i : grid0.Coords) : Fin 2 → Nat :=
  let c1_143 : Index := 1#32
  let arg0 : BitVec 32 := BitVec.ofNat 32 (i 0).val
  let c16_i32 : BitVec 32 := 16#32
  let v0 : BitVec 32 := Scalar.muli arg0 c16_i32
  let c0_i32_141 : BitVec 32 := 0#32
  let v209 : BitVec 32 := Scalar.addi v0 c0_i32_141
  let v212 : Index := Scalar.indexCast v209
  ![1, v212.toNat]
def k0_off67 (i : grid0.Coords) : Fin 2 → Nat :=
  let c2_144 : Index := 2#32
  let arg0 : BitVec 32 := BitVec.ofNat 32 (i 0).val
  let c16_i32 : BitVec 32 := 16#32
  let v0 : BitVec 32 := Scalar.muli arg0 c16_i32
  let c0_i32_141 : BitVec 32 := 0#32
  let v209 : BitVec 32 := Scalar.addi v0 c0_i32_141
  let v214 : Index := Scalar.indexCast v209
  ![2, v214.toNat]
def k0_off68 (v211 : BitVec 32) (v213 : BitVec 32) (v215 : BitVec 32) : Fin 4 → Nat :=
  let c0_i32_150 : BitVec 32 := 0#32
  ![v211.toNat, v213.toNat, v215.toNat, 0]

def k0_chk17 (v211 : BitVec 32) (v213 : BitVec 32) (v215 : BitVec 32) : Prop :=
  (∀ a, (k0_off68 v211 v213 v215) a + S1x31x31x128.size a ≤ S16x286x286x128.size a)
instance k0_chk17.dec : ∀ (v211 : BitVec 32) (v213 : BitVec 32) (v215 : BitVec 32), Decidable (k0_chk17 v211 v213 v215) := fun v211 v213 v215 => decidable_of_iff' _ (Iff.of_eq (k0_chk17.eq_1 v211 v213 v215))
theorem k0_off68_inb : ∀ (v211 : BitVec 32) (v213 : BitVec 32) (v215 : BitVec 32) (k0_hw17 : k0_chk17 v211 v213 v215), ∀ a, (k0_off68 v211 v213 v215) a + S1x31x31x128.size a ≤ S16x286x286x128.size a := fun v211 v213 v215 k0_hw17 => k0_hw17

def k0_off69 (i : grid0.Coords) : Fin 2 → Nat :=
  let c0_152 : Index := 0#32
  let arg0 : BitVec 32 := BitVec.ofNat 32 (i 0).val
  let c16_i32 : BitVec 32 := 16#32
  let v0 : BitVec 32 := Scalar.muli arg0 c16_i32
  let c1_i32_151 : BitVec 32 := 1#32
  let v222 : BitVec 32 := Scalar.addi v0 c1_i32_151
  let v223 : Index := Scalar.indexCast v222
  ![0, v223.toNat]
def k0_off70 (i : grid0.Coords) : Fin 2 → Nat :=
  let c1_153 : Index := 1#32
  let arg0 : BitVec 32 := BitVec.ofNat 32 (i 0).val
  let c16_i32 : BitVec 32 := 16#32
  let v0 : BitVec 32 := Scalar.muli arg0 c16_i32
  let c1_i32_151 : BitVec 32 := 1#32
  let v222 : BitVec 32 := Scalar.addi v0 c1_i32_151
  let v225 : Index := Scalar.indexCast v222
  ![1, v225.toNat]
def k0_off71 (i : grid0.Coords) : Fin 2 → Nat :=
  let c2_154 : Index := 2#32
  let arg0 : BitVec 32 := BitVec.ofNat 32 (i 0).val
  let c16_i32 : BitVec 32 := 16#32
  let v0 : BitVec 32 := Scalar.muli arg0 c16_i32
  let c1_i32_151 : BitVec 32 := 1#32
  let v222 : BitVec 32 := Scalar.addi v0 c1_i32_151
  let v227 : Index := Scalar.indexCast v222
  ![2, v227.toNat]
def k0_off72 (v224 : BitVec 32) (v226 : BitVec 32) (v228 : BitVec 32) : Fin 4 → Nat :=
  let c0_i32_160 : BitVec 32 := 0#32
  ![v224.toNat, v226.toNat, v228.toNat, 0]

def k0_chk18 (v224 : BitVec 32) (v226 : BitVec 32) (v228 : BitVec 32) : Prop :=
  (∀ a, (k0_off72 v224 v226 v228) a + S1x31x31x128.size a ≤ S16x286x286x128.size a)
instance k0_chk18.dec : ∀ (v224 : BitVec 32) (v226 : BitVec 32) (v228 : BitVec 32), Decidable (k0_chk18 v224 v226 v228) := fun v224 v226 v228 => decidable_of_iff' _ (Iff.of_eq (k0_chk18.eq_1 v224 v226 v228))
theorem k0_off72_inb : ∀ (v224 : BitVec 32) (v226 : BitVec 32) (v228 : BitVec 32) (k0_hw18 : k0_chk18 v224 v226 v228), ∀ a, (k0_off72 v224 v226 v228) a + S1x31x31x128.size a ≤ S16x286x286x128.size a := fun v224 v226 v228 k0_hw18 => k0_hw18

def k0_off73 (i : grid0.Coords) : Fin 2 → Nat :=
  let c0_162 : Index := 0#32
  let arg0 : BitVec 32 := BitVec.ofNat 32 (i 0).val
  let c16_i32 : BitVec 32 := 16#32
  let v0 : BitVec 32 := Scalar.muli arg0 c16_i32
  let c2_i32_161 : BitVec 32 := 2#32
  let v235 : BitVec 32 := Scalar.addi v0 c2_i32_161
  let v236 : Index := Scalar.indexCast v235
  ![0, v236.toNat]
def k0_off74 (i : grid0.Coords) : Fin 2 → Nat :=
  let c1_163 : Index := 1#32
  let arg0 : BitVec 32 := BitVec.ofNat 32 (i 0).val
  let c16_i32 : BitVec 32 := 16#32
  let v0 : BitVec 32 := Scalar.muli arg0 c16_i32
  let c2_i32_161 : BitVec 32 := 2#32
  let v235 : BitVec 32 := Scalar.addi v0 c2_i32_161
  let v238 : Index := Scalar.indexCast v235
  ![1, v238.toNat]
def k0_off75 (i : grid0.Coords) : Fin 2 → Nat :=
  let c2_164 : Index := 2#32
  let arg0 : BitVec 32 := BitVec.ofNat 32 (i 0).val
  let c16_i32 : BitVec 32 := 16#32
  let v0 : BitVec 32 := Scalar.muli arg0 c16_i32
  let c2_i32_161 : BitVec 32 := 2#32
  let v235 : BitVec 32 := Scalar.addi v0 c2_i32_161
  let v240 : Index := Scalar.indexCast v235
  ![2, v240.toNat]
def k0_off76 (v237 : BitVec 32) (v239 : BitVec 32) (v241 : BitVec 32) : Fin 4 → Nat :=
  let c0_i32_170 : BitVec 32 := 0#32
  ![v237.toNat, v239.toNat, v241.toNat, 0]

def k0_chk19 (v237 : BitVec 32) (v239 : BitVec 32) (v241 : BitVec 32) : Prop :=
  (∀ a, (k0_off76 v237 v239 v241) a + S1x31x31x128.size a ≤ S16x286x286x128.size a)
instance k0_chk19.dec : ∀ (v237 : BitVec 32) (v239 : BitVec 32) (v241 : BitVec 32), Decidable (k0_chk19 v237 v239 v241) := fun v237 v239 v241 => decidable_of_iff' _ (Iff.of_eq (k0_chk19.eq_1 v237 v239 v241))
theorem k0_off76_inb : ∀ (v237 : BitVec 32) (v239 : BitVec 32) (v241 : BitVec 32) (k0_hw19 : k0_chk19 v237 v239 v241), ∀ a, (k0_off76 v237 v239 v241) a + S1x31x31x128.size a ≤ S16x286x286x128.size a := fun v237 v239 v241 k0_hw19 => k0_hw19

def k0_off77 (i : grid0.Coords) : Fin 2 → Nat :=
  let c0_172 : Index := 0#32
  let arg0 : BitVec 32 := BitVec.ofNat 32 (i 0).val
  let c16_i32 : BitVec 32 := 16#32
  let v0 : BitVec 32 := Scalar.muli arg0 c16_i32
  let c3_i32_171 : BitVec 32 := 3#32
  let v248 : BitVec 32 := Scalar.addi v0 c3_i32_171
  let v249 : Index := Scalar.indexCast v248
  ![0, v249.toNat]
def k0_off78 (i : grid0.Coords) : Fin 2 → Nat :=
  let c1_173 : Index := 1#32
  let arg0 : BitVec 32 := BitVec.ofNat 32 (i 0).val
  let c16_i32 : BitVec 32 := 16#32
  let v0 : BitVec 32 := Scalar.muli arg0 c16_i32
  let c3_i32_171 : BitVec 32 := 3#32
  let v248 : BitVec 32 := Scalar.addi v0 c3_i32_171
  let v251 : Index := Scalar.indexCast v248
  ![1, v251.toNat]
def k0_off79 (i : grid0.Coords) : Fin 2 → Nat :=
  let c2_174 : Index := 2#32
  let arg0 : BitVec 32 := BitVec.ofNat 32 (i 0).val
  let c16_i32 : BitVec 32 := 16#32
  let v0 : BitVec 32 := Scalar.muli arg0 c16_i32
  let c3_i32_171 : BitVec 32 := 3#32
  let v248 : BitVec 32 := Scalar.addi v0 c3_i32_171
  let v253 : Index := Scalar.indexCast v248
  ![2, v253.toNat]
def k0_off80 (v250 : BitVec 32) (v252 : BitVec 32) (v254 : BitVec 32) : Fin 4 → Nat :=
  let c0_i32_180 : BitVec 32 := 0#32
  ![v250.toNat, v252.toNat, v254.toNat, 0]

def k0_chk20 (v250 : BitVec 32) (v252 : BitVec 32) (v254 : BitVec 32) : Prop :=
  (∀ a, (k0_off80 v250 v252 v254) a + S1x31x31x128.size a ≤ S16x286x286x128.size a)
instance k0_chk20.dec : ∀ (v250 : BitVec 32) (v252 : BitVec 32) (v254 : BitVec 32), Decidable (k0_chk20 v250 v252 v254) := fun v250 v252 v254 => decidable_of_iff' _ (Iff.of_eq (k0_chk20.eq_1 v250 v252 v254))
theorem k0_off80_inb : ∀ (v250 : BitVec 32) (v252 : BitVec 32) (v254 : BitVec 32) (k0_hw20 : k0_chk20 v250 v252 v254), ∀ a, (k0_off80 v250 v252 v254) a + S1x31x31x128.size a ≤ S16x286x286x128.size a := fun v250 v252 v254 k0_hw20 => k0_hw20

def k0_off81 (i : grid0.Coords) : Fin 2 → Nat :=
  let c0_182 : Index := 0#32
  let arg0 : BitVec 32 := BitVec.ofNat 32 (i 0).val
  let c16_i32 : BitVec 32 := 16#32
  let v0 : BitVec 32 := Scalar.muli arg0 c16_i32
  let c4_i32_181 : BitVec 32 := 4#32
  let v261 : BitVec 32 := Scalar.addi v0 c4_i32_181
  let v262 : Index := Scalar.indexCast v261
  ![0, v262.toNat]
def k0_off82 (i : grid0.Coords) : Fin 2 → Nat :=
  let c1_183 : Index := 1#32
  let arg0 : BitVec 32 := BitVec.ofNat 32 (i 0).val
  let c16_i32 : BitVec 32 := 16#32
  let v0 : BitVec 32 := Scalar.muli arg0 c16_i32
  let c4_i32_181 : BitVec 32 := 4#32
  let v261 : BitVec 32 := Scalar.addi v0 c4_i32_181
  let v264 : Index := Scalar.indexCast v261
  ![1, v264.toNat]
def k0_off83 (i : grid0.Coords) : Fin 2 → Nat :=
  let c2_184 : Index := 2#32
  let arg0 : BitVec 32 := BitVec.ofNat 32 (i 0).val
  let c16_i32 : BitVec 32 := 16#32
  let v0 : BitVec 32 := Scalar.muli arg0 c16_i32
  let c4_i32_181 : BitVec 32 := 4#32
  let v261 : BitVec 32 := Scalar.addi v0 c4_i32_181
  let v266 : Index := Scalar.indexCast v261
  ![2, v266.toNat]
def k0_off84 (v263 : BitVec 32) (v265 : BitVec 32) (v267 : BitVec 32) : Fin 4 → Nat :=
  let c0_i32_190 : BitVec 32 := 0#32
  ![v263.toNat, v265.toNat, v267.toNat, 0]

def k0_chk21 (v263 : BitVec 32) (v265 : BitVec 32) (v267 : BitVec 32) : Prop :=
  (∀ a, (k0_off84 v263 v265 v267) a + S1x31x31x128.size a ≤ S16x286x286x128.size a)
instance k0_chk21.dec : ∀ (v263 : BitVec 32) (v265 : BitVec 32) (v267 : BitVec 32), Decidable (k0_chk21 v263 v265 v267) := fun v263 v265 v267 => decidable_of_iff' _ (Iff.of_eq (k0_chk21.eq_1 v263 v265 v267))
theorem k0_off84_inb : ∀ (v263 : BitVec 32) (v265 : BitVec 32) (v267 : BitVec 32) (k0_hw21 : k0_chk21 v263 v265 v267), ∀ a, (k0_off84 v263 v265 v267) a + S1x31x31x128.size a ≤ S16x286x286x128.size a := fun v263 v265 v267 k0_hw21 => k0_hw21

def k0_off85 (i : grid0.Coords) : Fin 2 → Nat :=
  let c0_192 : Index := 0#32
  let arg0 : BitVec 32 := BitVec.ofNat 32 (i 0).val
  let c16_i32 : BitVec 32 := 16#32
  let v0 : BitVec 32 := Scalar.muli arg0 c16_i32
  let c5_i32_191 : BitVec 32 := 5#32
  let v274 : BitVec 32 := Scalar.addi v0 c5_i32_191
  let v275 : Index := Scalar.indexCast v274
  ![0, v275.toNat]
def k0_off86 (i : grid0.Coords) : Fin 2 → Nat :=
  let c1_193 : Index := 1#32
  let arg0 : BitVec 32 := BitVec.ofNat 32 (i 0).val
  let c16_i32 : BitVec 32 := 16#32
  let v0 : BitVec 32 := Scalar.muli arg0 c16_i32
  let c5_i32_191 : BitVec 32 := 5#32
  let v274 : BitVec 32 := Scalar.addi v0 c5_i32_191
  let v277 : Index := Scalar.indexCast v274
  ![1, v277.toNat]
def k0_off87 (i : grid0.Coords) : Fin 2 → Nat :=
  let c2_194 : Index := 2#32
  let arg0 : BitVec 32 := BitVec.ofNat 32 (i 0).val
  let c16_i32 : BitVec 32 := 16#32
  let v0 : BitVec 32 := Scalar.muli arg0 c16_i32
  let c5_i32_191 : BitVec 32 := 5#32
  let v274 : BitVec 32 := Scalar.addi v0 c5_i32_191
  let v279 : Index := Scalar.indexCast v274
  ![2, v279.toNat]
def k0_off88 (v276 : BitVec 32) (v278 : BitVec 32) (v280 : BitVec 32) : Fin 4 → Nat :=
  let c0_i32_200 : BitVec 32 := 0#32
  ![v276.toNat, v278.toNat, v280.toNat, 0]

def k0_chk22 (v276 : BitVec 32) (v278 : BitVec 32) (v280 : BitVec 32) : Prop :=
  (∀ a, (k0_off88 v276 v278 v280) a + S1x31x31x128.size a ≤ S16x286x286x128.size a)
instance k0_chk22.dec : ∀ (v276 : BitVec 32) (v278 : BitVec 32) (v280 : BitVec 32), Decidable (k0_chk22 v276 v278 v280) := fun v276 v278 v280 => decidable_of_iff' _ (Iff.of_eq (k0_chk22.eq_1 v276 v278 v280))
theorem k0_off88_inb : ∀ (v276 : BitVec 32) (v278 : BitVec 32) (v280 : BitVec 32) (k0_hw22 : k0_chk22 v276 v278 v280), ∀ a, (k0_off88 v276 v278 v280) a + S1x31x31x128.size a ≤ S16x286x286x128.size a := fun v276 v278 v280 k0_hw22 => k0_hw22

def k0_off89 (i : grid0.Coords) : Fin 2 → Nat :=
  let c0_202 : Index := 0#32
  let arg0 : BitVec 32 := BitVec.ofNat 32 (i 0).val
  let c16_i32 : BitVec 32 := 16#32
  let v0 : BitVec 32 := Scalar.muli arg0 c16_i32
  let c6_i32_201 : BitVec 32 := 6#32
  let v287 : BitVec 32 := Scalar.addi v0 c6_i32_201
  let v288 : Index := Scalar.indexCast v287
  ![0, v288.toNat]
def k0_off90 (i : grid0.Coords) : Fin 2 → Nat :=
  let c1_203 : Index := 1#32
  let arg0 : BitVec 32 := BitVec.ofNat 32 (i 0).val
  let c16_i32 : BitVec 32 := 16#32
  let v0 : BitVec 32 := Scalar.muli arg0 c16_i32
  let c6_i32_201 : BitVec 32 := 6#32
  let v287 : BitVec 32 := Scalar.addi v0 c6_i32_201
  let v290 : Index := Scalar.indexCast v287
  ![1, v290.toNat]
def k0_off91 (i : grid0.Coords) : Fin 2 → Nat :=
  let c2_204 : Index := 2#32
  let arg0 : BitVec 32 := BitVec.ofNat 32 (i 0).val
  let c16_i32 : BitVec 32 := 16#32
  let v0 : BitVec 32 := Scalar.muli arg0 c16_i32
  let c6_i32_201 : BitVec 32 := 6#32
  let v287 : BitVec 32 := Scalar.addi v0 c6_i32_201
  let v292 : Index := Scalar.indexCast v287
  ![2, v292.toNat]
def k0_off92 (v289 : BitVec 32) (v291 : BitVec 32) (v293 : BitVec 32) : Fin 4 → Nat :=
  let c0_i32_210 : BitVec 32 := 0#32
  ![v289.toNat, v291.toNat, v293.toNat, 0]

def k0_chk23 (v289 : BitVec 32) (v291 : BitVec 32) (v293 : BitVec 32) : Prop :=
  (∀ a, (k0_off92 v289 v291 v293) a + S1x31x31x128.size a ≤ S16x286x286x128.size a)
instance k0_chk23.dec : ∀ (v289 : BitVec 32) (v291 : BitVec 32) (v293 : BitVec 32), Decidable (k0_chk23 v289 v291 v293) := fun v289 v291 v293 => decidable_of_iff' _ (Iff.of_eq (k0_chk23.eq_1 v289 v291 v293))
theorem k0_off92_inb : ∀ (v289 : BitVec 32) (v291 : BitVec 32) (v293 : BitVec 32) (k0_hw23 : k0_chk23 v289 v291 v293), ∀ a, (k0_off92 v289 v291 v293) a + S1x31x31x128.size a ≤ S16x286x286x128.size a := fun v289 v291 v293 k0_hw23 => k0_hw23

def k0_off93 (i : grid0.Coords) : Fin 2 → Nat :=
  let c0_212 : Index := 0#32
  let arg0 : BitVec 32 := BitVec.ofNat 32 (i 0).val
  let c16_i32 : BitVec 32 := 16#32
  let v0 : BitVec 32 := Scalar.muli arg0 c16_i32
  let c7_i32_211 : BitVec 32 := 7#32
  let v300 : BitVec 32 := Scalar.addi v0 c7_i32_211
  let v301 : Index := Scalar.indexCast v300
  ![0, v301.toNat]
def k0_off94 (i : grid0.Coords) : Fin 2 → Nat :=
  let c1_213 : Index := 1#32
  let arg0 : BitVec 32 := BitVec.ofNat 32 (i 0).val
  let c16_i32 : BitVec 32 := 16#32
  let v0 : BitVec 32 := Scalar.muli arg0 c16_i32
  let c7_i32_211 : BitVec 32 := 7#32
  let v300 : BitVec 32 := Scalar.addi v0 c7_i32_211
  let v303 : Index := Scalar.indexCast v300
  ![1, v303.toNat]
def k0_off95 (i : grid0.Coords) : Fin 2 → Nat :=
  let c2_214 : Index := 2#32
  let arg0 : BitVec 32 := BitVec.ofNat 32 (i 0).val
  let c16_i32 : BitVec 32 := 16#32
  let v0 : BitVec 32 := Scalar.muli arg0 c16_i32
  let c7_i32_211 : BitVec 32 := 7#32
  let v300 : BitVec 32 := Scalar.addi v0 c7_i32_211
  let v305 : Index := Scalar.indexCast v300
  ![2, v305.toNat]
def k0_off96 (v302 : BitVec 32) (v304 : BitVec 32) (v306 : BitVec 32) : Fin 4 → Nat :=
  let c0_i32_220 : BitVec 32 := 0#32
  ![v302.toNat, v304.toNat, v306.toNat, 0]

def k0_chk24 (v302 : BitVec 32) (v304 : BitVec 32) (v306 : BitVec 32) : Prop :=
  (∀ a, (k0_off96 v302 v304 v306) a + S1x31x31x128.size a ≤ S16x286x286x128.size a)
instance k0_chk24.dec : ∀ (v302 : BitVec 32) (v304 : BitVec 32) (v306 : BitVec 32), Decidable (k0_chk24 v302 v304 v306) := fun v302 v304 v306 => decidable_of_iff' _ (Iff.of_eq (k0_chk24.eq_1 v302 v304 v306))
theorem k0_off96_inb : ∀ (v302 : BitVec 32) (v304 : BitVec 32) (v306 : BitVec 32) (k0_hw24 : k0_chk24 v302 v304 v306), ∀ a, (k0_off96 v302 v304 v306) a + S1x31x31x128.size a ≤ S16x286x286x128.size a := fun v302 v304 v306 k0_hw24 => k0_hw24

def k0_off97 (i : grid0.Coords) : Fin 2 → Nat :=
  let c0_230 : Index := 0#32
  let arg0 : BitVec 32 := BitVec.ofNat 32 (i 0).val
  let c16_i32 : BitVec 32 := 16#32
  let v0 : BitVec 32 := Scalar.muli arg0 c16_i32
  let c8_i32_229 : BitVec 32 := 8#32
  let v315 : BitVec 32 := Scalar.addi v0 c8_i32_229
  let v316 : Index := Scalar.indexCast v315
  ![0, v316.toNat]
def k0_off98 (i : grid0.Coords) : Fin 2 → Nat :=
  let c1_231 : Index := 1#32
  let arg0 : BitVec 32 := BitVec.ofNat 32 (i 0).val
  let c16_i32 : BitVec 32 := 16#32
  let v0 : BitVec 32 := Scalar.muli arg0 c16_i32
  let c8_i32_229 : BitVec 32 := 8#32
  let v315 : BitVec 32 := Scalar.addi v0 c8_i32_229
  let v318 : Index := Scalar.indexCast v315
  ![1, v318.toNat]
def k0_off99 (i : grid0.Coords) : Fin 2 → Nat :=
  let c2_232 : Index := 2#32
  let arg0 : BitVec 32 := BitVec.ofNat 32 (i 0).val
  let c16_i32 : BitVec 32 := 16#32
  let v0 : BitVec 32 := Scalar.muli arg0 c16_i32
  let c8_i32_229 : BitVec 32 := 8#32
  let v315 : BitVec 32 := Scalar.addi v0 c8_i32_229
  let v320 : Index := Scalar.indexCast v315
  ![2, v320.toNat]
def k0_off100 (v317 : BitVec 32) (v319 : BitVec 32) (v321 : BitVec 32) : Fin 4 → Nat :=
  let c0_i32_238 : BitVec 32 := 0#32
  ![v317.toNat, v319.toNat, v321.toNat, 0]

def k0_chk25 (v317 : BitVec 32) (v319 : BitVec 32) (v321 : BitVec 32) : Prop :=
  (∀ a, (k0_off100 v317 v319 v321) a + S1x31x31x128.size a ≤ S16x286x286x128.size a)
instance k0_chk25.dec : ∀ (v317 : BitVec 32) (v319 : BitVec 32) (v321 : BitVec 32), Decidable (k0_chk25 v317 v319 v321) := fun v317 v319 v321 => decidable_of_iff' _ (Iff.of_eq (k0_chk25.eq_1 v317 v319 v321))
theorem k0_off100_inb : ∀ (v317 : BitVec 32) (v319 : BitVec 32) (v321 : BitVec 32) (k0_hw25 : k0_chk25 v317 v319 v321), ∀ a, (k0_off100 v317 v319 v321) a + S1x31x31x128.size a ≤ S16x286x286x128.size a := fun v317 v319 v321 k0_hw25 => k0_hw25

def k0_off101 (i : grid0.Coords) : Fin 2 → Nat :=
  let c0_240 : Index := 0#32
  let arg0 : BitVec 32 := BitVec.ofNat 32 (i 0).val
  let c16_i32 : BitVec 32 := 16#32
  let v0 : BitVec 32 := Scalar.muli arg0 c16_i32
  let c9_i32_239 : BitVec 32 := 9#32
  let v328 : BitVec 32 := Scalar.addi v0 c9_i32_239
  let v329 : Index := Scalar.indexCast v328
  ![0, v329.toNat]
def k0_off102 (i : grid0.Coords) : Fin 2 → Nat :=
  let c1_241 : Index := 1#32
  let arg0 : BitVec 32 := BitVec.ofNat 32 (i 0).val
  let c16_i32 : BitVec 32 := 16#32
  let v0 : BitVec 32 := Scalar.muli arg0 c16_i32
  let c9_i32_239 : BitVec 32 := 9#32
  let v328 : BitVec 32 := Scalar.addi v0 c9_i32_239
  let v331 : Index := Scalar.indexCast v328
  ![1, v331.toNat]
def k0_off103 (i : grid0.Coords) : Fin 2 → Nat :=
  let c2_242 : Index := 2#32
  let arg0 : BitVec 32 := BitVec.ofNat 32 (i 0).val
  let c16_i32 : BitVec 32 := 16#32
  let v0 : BitVec 32 := Scalar.muli arg0 c16_i32
  let c9_i32_239 : BitVec 32 := 9#32
  let v328 : BitVec 32 := Scalar.addi v0 c9_i32_239
  let v333 : Index := Scalar.indexCast v328
  ![2, v333.toNat]
def k0_off104 (v330 : BitVec 32) (v332 : BitVec 32) (v334 : BitVec 32) : Fin 4 → Nat :=
  let c0_i32_248 : BitVec 32 := 0#32
  ![v330.toNat, v332.toNat, v334.toNat, 0]

def k0_chk26 (v330 : BitVec 32) (v332 : BitVec 32) (v334 : BitVec 32) : Prop :=
  (∀ a, (k0_off104 v330 v332 v334) a + S1x31x31x128.size a ≤ S16x286x286x128.size a)
instance k0_chk26.dec : ∀ (v330 : BitVec 32) (v332 : BitVec 32) (v334 : BitVec 32), Decidable (k0_chk26 v330 v332 v334) := fun v330 v332 v334 => decidable_of_iff' _ (Iff.of_eq (k0_chk26.eq_1 v330 v332 v334))
theorem k0_off104_inb : ∀ (v330 : BitVec 32) (v332 : BitVec 32) (v334 : BitVec 32) (k0_hw26 : k0_chk26 v330 v332 v334), ∀ a, (k0_off104 v330 v332 v334) a + S1x31x31x128.size a ≤ S16x286x286x128.size a := fun v330 v332 v334 k0_hw26 => k0_hw26

def k0_off105 (i : grid0.Coords) : Fin 2 → Nat :=
  let c0_250 : Index := 0#32
  let arg0 : BitVec 32 := BitVec.ofNat 32 (i 0).val
  let c16_i32 : BitVec 32 := 16#32
  let v0 : BitVec 32 := Scalar.muli arg0 c16_i32
  let c10_i32_249 : BitVec 32 := 10#32
  let v341 : BitVec 32 := Scalar.addi v0 c10_i32_249
  let v342 : Index := Scalar.indexCast v341
  ![0, v342.toNat]
def k0_off106 (i : grid0.Coords) : Fin 2 → Nat :=
  let c1_251 : Index := 1#32
  let arg0 : BitVec 32 := BitVec.ofNat 32 (i 0).val
  let c16_i32 : BitVec 32 := 16#32
  let v0 : BitVec 32 := Scalar.muli arg0 c16_i32
  let c10_i32_249 : BitVec 32 := 10#32
  let v341 : BitVec 32 := Scalar.addi v0 c10_i32_249
  let v344 : Index := Scalar.indexCast v341
  ![1, v344.toNat]
def k0_off107 (i : grid0.Coords) : Fin 2 → Nat :=
  let c2_252 : Index := 2#32
  let arg0 : BitVec 32 := BitVec.ofNat 32 (i 0).val
  let c16_i32 : BitVec 32 := 16#32
  let v0 : BitVec 32 := Scalar.muli arg0 c16_i32
  let c10_i32_249 : BitVec 32 := 10#32
  let v341 : BitVec 32 := Scalar.addi v0 c10_i32_249
  let v346 : Index := Scalar.indexCast v341
  ![2, v346.toNat]
def k0_off108 (v343 : BitVec 32) (v345 : BitVec 32) (v347 : BitVec 32) : Fin 4 → Nat :=
  let c0_i32_258 : BitVec 32 := 0#32
  ![v343.toNat, v345.toNat, v347.toNat, 0]

def k0_chk27 (v343 : BitVec 32) (v345 : BitVec 32) (v347 : BitVec 32) : Prop :=
  (∀ a, (k0_off108 v343 v345 v347) a + S1x31x31x128.size a ≤ S16x286x286x128.size a)
instance k0_chk27.dec : ∀ (v343 : BitVec 32) (v345 : BitVec 32) (v347 : BitVec 32), Decidable (k0_chk27 v343 v345 v347) := fun v343 v345 v347 => decidable_of_iff' _ (Iff.of_eq (k0_chk27.eq_1 v343 v345 v347))
theorem k0_off108_inb : ∀ (v343 : BitVec 32) (v345 : BitVec 32) (v347 : BitVec 32) (k0_hw27 : k0_chk27 v343 v345 v347), ∀ a, (k0_off108 v343 v345 v347) a + S1x31x31x128.size a ≤ S16x286x286x128.size a := fun v343 v345 v347 k0_hw27 => k0_hw27

def k0_off109 (i : grid0.Coords) : Fin 2 → Nat :=
  let c0_260 : Index := 0#32
  let arg0 : BitVec 32 := BitVec.ofNat 32 (i 0).val
  let c16_i32 : BitVec 32 := 16#32
  let v0 : BitVec 32 := Scalar.muli arg0 c16_i32
  let c11_i32_259 : BitVec 32 := 11#32
  let v354 : BitVec 32 := Scalar.addi v0 c11_i32_259
  let v355 : Index := Scalar.indexCast v354
  ![0, v355.toNat]
def k0_off110 (i : grid0.Coords) : Fin 2 → Nat :=
  let c1_261 : Index := 1#32
  let arg0 : BitVec 32 := BitVec.ofNat 32 (i 0).val
  let c16_i32 : BitVec 32 := 16#32
  let v0 : BitVec 32 := Scalar.muli arg0 c16_i32
  let c11_i32_259 : BitVec 32 := 11#32
  let v354 : BitVec 32 := Scalar.addi v0 c11_i32_259
  let v357 : Index := Scalar.indexCast v354
  ![1, v357.toNat]
def k0_off111 (i : grid0.Coords) : Fin 2 → Nat :=
  let c2_262 : Index := 2#32
  let arg0 : BitVec 32 := BitVec.ofNat 32 (i 0).val
  let c16_i32 : BitVec 32 := 16#32
  let v0 : BitVec 32 := Scalar.muli arg0 c16_i32
  let c11_i32_259 : BitVec 32 := 11#32
  let v354 : BitVec 32 := Scalar.addi v0 c11_i32_259
  let v359 : Index := Scalar.indexCast v354
  ![2, v359.toNat]
def k0_off112 (v356 : BitVec 32) (v358 : BitVec 32) (v360 : BitVec 32) : Fin 4 → Nat :=
  let c0_i32_268 : BitVec 32 := 0#32
  ![v356.toNat, v358.toNat, v360.toNat, 0]

def k0_chk28 (v356 : BitVec 32) (v358 : BitVec 32) (v360 : BitVec 32) : Prop :=
  (∀ a, (k0_off112 v356 v358 v360) a + S1x31x31x128.size a ≤ S16x286x286x128.size a)
instance k0_chk28.dec : ∀ (v356 : BitVec 32) (v358 : BitVec 32) (v360 : BitVec 32), Decidable (k0_chk28 v356 v358 v360) := fun v356 v358 v360 => decidable_of_iff' _ (Iff.of_eq (k0_chk28.eq_1 v356 v358 v360))
theorem k0_off112_inb : ∀ (v356 : BitVec 32) (v358 : BitVec 32) (v360 : BitVec 32) (k0_hw28 : k0_chk28 v356 v358 v360), ∀ a, (k0_off112 v356 v358 v360) a + S1x31x31x128.size a ≤ S16x286x286x128.size a := fun v356 v358 v360 k0_hw28 => k0_hw28

def k0_off113 (i : grid0.Coords) : Fin 2 → Nat :=
  let c0_270 : Index := 0#32
  let arg0 : BitVec 32 := BitVec.ofNat 32 (i 0).val
  let c16_i32 : BitVec 32 := 16#32
  let v0 : BitVec 32 := Scalar.muli arg0 c16_i32
  let c12_i32_269 : BitVec 32 := 12#32
  let v367 : BitVec 32 := Scalar.addi v0 c12_i32_269
  let v368 : Index := Scalar.indexCast v367
  ![0, v368.toNat]
def k0_off114 (i : grid0.Coords) : Fin 2 → Nat :=
  let c1_271 : Index := 1#32
  let arg0 : BitVec 32 := BitVec.ofNat 32 (i 0).val
  let c16_i32 : BitVec 32 := 16#32
  let v0 : BitVec 32 := Scalar.muli arg0 c16_i32
  let c12_i32_269 : BitVec 32 := 12#32
  let v367 : BitVec 32 := Scalar.addi v0 c12_i32_269
  let v370 : Index := Scalar.indexCast v367
  ![1, v370.toNat]
def k0_off115 (i : grid0.Coords) : Fin 2 → Nat :=
  let c2_272 : Index := 2#32
  let arg0 : BitVec 32 := BitVec.ofNat 32 (i 0).val
  let c16_i32 : BitVec 32 := 16#32
  let v0 : BitVec 32 := Scalar.muli arg0 c16_i32
  let c12_i32_269 : BitVec 32 := 12#32
  let v367 : BitVec 32 := Scalar.addi v0 c12_i32_269
  let v372 : Index := Scalar.indexCast v367
  ![2, v372.toNat]
def k0_off116 (v369 : BitVec 32) (v371 : BitVec 32) (v373 : BitVec 32) : Fin 4 → Nat :=
  let c0_i32_278 : BitVec 32 := 0#32
  ![v369.toNat, v371.toNat, v373.toNat, 0]

def k0_chk29 (v369 : BitVec 32) (v371 : BitVec 32) (v373 : BitVec 32) : Prop :=
  (∀ a, (k0_off116 v369 v371 v373) a + S1x31x31x128.size a ≤ S16x286x286x128.size a)
instance k0_chk29.dec : ∀ (v369 : BitVec 32) (v371 : BitVec 32) (v373 : BitVec 32), Decidable (k0_chk29 v369 v371 v373) := fun v369 v371 v373 => decidable_of_iff' _ (Iff.of_eq (k0_chk29.eq_1 v369 v371 v373))
theorem k0_off116_inb : ∀ (v369 : BitVec 32) (v371 : BitVec 32) (v373 : BitVec 32) (k0_hw29 : k0_chk29 v369 v371 v373), ∀ a, (k0_off116 v369 v371 v373) a + S1x31x31x128.size a ≤ S16x286x286x128.size a := fun v369 v371 v373 k0_hw29 => k0_hw29

def k0_off117 (i : grid0.Coords) : Fin 2 → Nat :=
  let c0_280 : Index := 0#32
  let arg0 : BitVec 32 := BitVec.ofNat 32 (i 0).val
  let c16_i32 : BitVec 32 := 16#32
  let v0 : BitVec 32 := Scalar.muli arg0 c16_i32
  let c13_i32_279 : BitVec 32 := 13#32
  let v380 : BitVec 32 := Scalar.addi v0 c13_i32_279
  let v381 : Index := Scalar.indexCast v380
  ![0, v381.toNat]
def k0_off118 (i : grid0.Coords) : Fin 2 → Nat :=
  let c1_281 : Index := 1#32
  let arg0 : BitVec 32 := BitVec.ofNat 32 (i 0).val
  let c16_i32 : BitVec 32 := 16#32
  let v0 : BitVec 32 := Scalar.muli arg0 c16_i32
  let c13_i32_279 : BitVec 32 := 13#32
  let v380 : BitVec 32 := Scalar.addi v0 c13_i32_279
  let v383 : Index := Scalar.indexCast v380
  ![1, v383.toNat]
def k0_off119 (i : grid0.Coords) : Fin 2 → Nat :=
  let c2_282 : Index := 2#32
  let arg0 : BitVec 32 := BitVec.ofNat 32 (i 0).val
  let c16_i32 : BitVec 32 := 16#32
  let v0 : BitVec 32 := Scalar.muli arg0 c16_i32
  let c13_i32_279 : BitVec 32 := 13#32
  let v380 : BitVec 32 := Scalar.addi v0 c13_i32_279
  let v385 : Index := Scalar.indexCast v380
  ![2, v385.toNat]
def k0_off120 (v382 : BitVec 32) (v384 : BitVec 32) (v386 : BitVec 32) : Fin 4 → Nat :=
  let c0_i32_288 : BitVec 32 := 0#32
  ![v382.toNat, v384.toNat, v386.toNat, 0]

def k0_chk30 (v382 : BitVec 32) (v384 : BitVec 32) (v386 : BitVec 32) : Prop :=
  (∀ a, (k0_off120 v382 v384 v386) a + S1x31x31x128.size a ≤ S16x286x286x128.size a)
instance k0_chk30.dec : ∀ (v382 : BitVec 32) (v384 : BitVec 32) (v386 : BitVec 32), Decidable (k0_chk30 v382 v384 v386) := fun v382 v384 v386 => decidable_of_iff' _ (Iff.of_eq (k0_chk30.eq_1 v382 v384 v386))
theorem k0_off120_inb : ∀ (v382 : BitVec 32) (v384 : BitVec 32) (v386 : BitVec 32) (k0_hw30 : k0_chk30 v382 v384 v386), ∀ a, (k0_off120 v382 v384 v386) a + S1x31x31x128.size a ≤ S16x286x286x128.size a := fun v382 v384 v386 k0_hw30 => k0_hw30

def k0_off121 (i : grid0.Coords) : Fin 2 → Nat :=
  let c0_290 : Index := 0#32
  let arg0 : BitVec 32 := BitVec.ofNat 32 (i 0).val
  let c16_i32 : BitVec 32 := 16#32
  let v0 : BitVec 32 := Scalar.muli arg0 c16_i32
  let c14_i32_289 : BitVec 32 := 14#32
  let v393 : BitVec 32 := Scalar.addi v0 c14_i32_289
  let v394 : Index := Scalar.indexCast v393
  ![0, v394.toNat]
def k0_off122 (i : grid0.Coords) : Fin 2 → Nat :=
  let c1_291 : Index := 1#32
  let arg0 : BitVec 32 := BitVec.ofNat 32 (i 0).val
  let c16_i32 : BitVec 32 := 16#32
  let v0 : BitVec 32 := Scalar.muli arg0 c16_i32
  let c14_i32_289 : BitVec 32 := 14#32
  let v393 : BitVec 32 := Scalar.addi v0 c14_i32_289
  let v396 : Index := Scalar.indexCast v393
  ![1, v396.toNat]
def k0_off123 (i : grid0.Coords) : Fin 2 → Nat :=
  let c2_292 : Index := 2#32
  let arg0 : BitVec 32 := BitVec.ofNat 32 (i 0).val
  let c16_i32 : BitVec 32 := 16#32
  let v0 : BitVec 32 := Scalar.muli arg0 c16_i32
  let c14_i32_289 : BitVec 32 := 14#32
  let v393 : BitVec 32 := Scalar.addi v0 c14_i32_289
  let v398 : Index := Scalar.indexCast v393
  ![2, v398.toNat]
def k0_off124 (v395 : BitVec 32) (v397 : BitVec 32) (v399 : BitVec 32) : Fin 4 → Nat :=
  let c0_i32_298 : BitVec 32 := 0#32
  ![v395.toNat, v397.toNat, v399.toNat, 0]

def k0_chk31 (v395 : BitVec 32) (v397 : BitVec 32) (v399 : BitVec 32) : Prop :=
  (∀ a, (k0_off124 v395 v397 v399) a + S1x31x31x128.size a ≤ S16x286x286x128.size a)
instance k0_chk31.dec : ∀ (v395 : BitVec 32) (v397 : BitVec 32) (v399 : BitVec 32), Decidable (k0_chk31 v395 v397 v399) := fun v395 v397 v399 => decidable_of_iff' _ (Iff.of_eq (k0_chk31.eq_1 v395 v397 v399))
theorem k0_off124_inb : ∀ (v395 : BitVec 32) (v397 : BitVec 32) (v399 : BitVec 32) (k0_hw31 : k0_chk31 v395 v397 v399), ∀ a, (k0_off124 v395 v397 v399) a + S1x31x31x128.size a ≤ S16x286x286x128.size a := fun v395 v397 v399 k0_hw31 => k0_hw31

def k0_off125 (i : grid0.Coords) : Fin 2 → Nat :=
  let c0_300 : Index := 0#32
  let arg0 : BitVec 32 := BitVec.ofNat 32 (i 0).val
  let c16_i32 : BitVec 32 := 16#32
  let v0 : BitVec 32 := Scalar.muli arg0 c16_i32
  let c15_i32_299 : BitVec 32 := 15#32
  let v406 : BitVec 32 := Scalar.addi v0 c15_i32_299
  let v407 : Index := Scalar.indexCast v406
  ![0, v407.toNat]
def k0_off126 (i : grid0.Coords) : Fin 2 → Nat :=
  let c1_301 : Index := 1#32
  let arg0 : BitVec 32 := BitVec.ofNat 32 (i 0).val
  let c16_i32 : BitVec 32 := 16#32
  let v0 : BitVec 32 := Scalar.muli arg0 c16_i32
  let c15_i32_299 : BitVec 32 := 15#32
  let v406 : BitVec 32 := Scalar.addi v0 c15_i32_299
  let v409 : Index := Scalar.indexCast v406
  ![1, v409.toNat]
def k0_off127 (i : grid0.Coords) : Fin 2 → Nat :=
  let c2_302 : Index := 2#32
  let arg0 : BitVec 32 := BitVec.ofNat 32 (i 0).val
  let c16_i32 : BitVec 32 := 16#32
  let v0 : BitVec 32 := Scalar.muli arg0 c16_i32
  let c15_i32_299 : BitVec 32 := 15#32
  let v406 : BitVec 32 := Scalar.addi v0 c15_i32_299
  let v411 : Index := Scalar.indexCast v406
  ![2, v411.toNat]
def k0_off128 (v408 : BitVec 32) (v410 : BitVec 32) (v412 : BitVec 32) : Fin 4 → Nat :=
  let c0_i32_308 : BitVec 32 := 0#32
  ![v408.toNat, v410.toNat, v412.toNat, 0]

def k0_chk32 (v408 : BitVec 32) (v410 : BitVec 32) (v412 : BitVec 32) : Prop :=
  (∀ a, (k0_off128 v408 v410 v412) a + S1x31x31x128.size a ≤ S16x286x286x128.size a)
instance k0_chk32.dec : ∀ (v408 : BitVec 32) (v410 : BitVec 32) (v412 : BitVec 32), Decidable (k0_chk32 v408 v410 v412) := fun v408 v410 v412 => decidable_of_iff' _ (Iff.of_eq (k0_chk32.eq_1 v408 v410 v412))
theorem k0_off128_inb : ∀ (v408 : BitVec 32) (v410 : BitVec 32) (v412 : BitVec 32) (k0_hw32 : k0_chk32 v408 v410 v412), ∀ a, (k0_off128 v408 v410 v412) a + S1x31x31x128.size a ≤ S16x286x286x128.size a := fun v408 v410 v412 k0_hw32 => k0_hw32

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S16x31x31x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

class Facts₀ : Prop where
  slices_S4096x3_S4096x1_0_0 : S4096x3.Slices ![0, 0] S4096x1
  shapeCasts_S4096x1_S4096 : S4096x1.ShapeCasts S4096
  bcast_S_S4096 : S_.BroadcastsInDim S4096 (![] : Fin 0 → Fin S4096.rank)
  slices_S4096x3_S4096x1_0_1 : S4096x3.Slices ![0, 1] S4096x1
  slices_S4096x3_S4096x1_0_2 : S4096x3.Slices ![0, 2] S4096x1
  bcast_S4096_S4096x1_0 : S4096.BroadcastsInDim S4096x1 (![0] : Fin 1 → Fin S4096x1.rank)
  concatenates_S4096x1_S4096x1_S4096x1_S4096x3_d1 : Shape.Concatenates [S4096x1, S4096x1, S4096x1] S4096x3 1
  pads_S16x256x256x32_S16x286x286x128_000_15150_15150_0960 : S16x256x256x32.Pads (![0, 15, 15, 0] : Fin 4 → Nat) ![0, 15, 15, 96] ![0, 0, 0, 0] S16x286x286x128
  h_S_ : 0 < S_.numel
  transposes_S4096x3_S3x4096_1_0 : S4096x3.Transposes [1, 0] S3x4096
  numel1_S1x1 : S1x1.numel = 1
  inb_S16_S1_0 : ∀ a, (![0] : Fin 1 → Nat) a + S1.size a ≤ S16.size a
  squeezes_S1_S_ : S1.Squeezes S_
  inb_S16x31x31x128_S1x31x31x128_0_0_0_0 : ∀ a, (![0, 0, 0, 0] : Fin 4 → Nat) a + S1x31x31x128.size a ≤ S16x31x31x128.size a
  squeezes_S1x31x31x128_S31x31x128 : S1x31x31x128.Squeezes S31x31x128
  inb_S16_S1_1 : ∀ a, (![1] : Fin 1 → Nat) a + S1.size a ≤ S16.size a
  inb_S16x31x31x128_S1x31x31x128_1_0_0_0 : ∀ a, (![1, 0, 0, 0] : Fin 4 → Nat) a + S1x31x31x128.size a ≤ S16x31x31x128.size a
  inb_S16_S1_2 : ∀ a, (![2] : Fin 1 → Nat) a + S1.size a ≤ S16.size a
  inb_S16x31x31x128_S1x31x31x128_2_0_0_0 : ∀ a, (![2, 0, 0, 0] : Fin 4 → Nat) a + S1x31x31x128.size a ≤ S16x31x31x128.size a
  inb_S16_S1_3 : ∀ a, (![3] : Fin 1 → Nat) a + S1.size a ≤ S16.size a
  inb_S16x31x31x128_S1x31x31x128_3_0_0_0 : ∀ a, (![3, 0, 0, 0] : Fin 4 → Nat) a + S1x31x31x128.size a ≤ S16x31x31x128.size a
  inb_S16_S1_4 : ∀ a, (![4] : Fin 1 → Nat) a + S1.size a ≤ S16.size a
  inb_S16x31x31x128_S1x31x31x128_4_0_0_0 : ∀ a, (![4, 0, 0, 0] : Fin 4 → Nat) a + S1x31x31x128.size a ≤ S16x31x31x128.size a
  inb_S16_S1_5 : ∀ a, (![5] : Fin 1 → Nat) a + S1.size a ≤ S16.size a
  inb_S16x31x31x128_S1x31x31x128_5_0_0_0 : ∀ a, (![5, 0, 0, 0] : Fin 4 → Nat) a + S1x31x31x128.size a ≤ S16x31x31x128.size a
  inb_S16_S1_6 : ∀ a, (![6] : Fin 1 → Nat) a + S1.size a ≤ S16.size a
  inb_S16x31x31x128_S1x31x31x128_6_0_0_0 : ∀ a, (![6, 0, 0, 0] : Fin 4 → Nat) a + S1x31x31x128.size a ≤ S16x31x31x128.size a
  inb_S16_S1_7 : ∀ a, (![7] : Fin 1 → Nat) a + S1.size a ≤ S16.size a
  inb_S16x31x31x128_S1x31x31x128_7_0_0_0 : ∀ a, (![7, 0, 0, 0] : Fin 4 → Nat) a + S1x31x31x128.size a ≤ S16x31x31x128.size a
  inb_S16_S1_8 : ∀ a, (![8] : Fin 1 → Nat) a + S1.size a ≤ S16.size a
  inb_S16x31x31x128_S1x31x31x128_8_0_0_0 : ∀ a, (![8, 0, 0, 0] : Fin 4 → Nat) a + S1x31x31x128.size a ≤ S16x31x31x128.size a
  inb_S16_S1_9 : ∀ a, (![9] : Fin 1 → Nat) a + S1.size a ≤ S16.size a
  inb_S16x31x31x128_S1x31x31x128_9_0_0_0 : ∀ a, (![9, 0, 0, 0] : Fin 4 → Nat) a + S1x31x31x128.size a ≤ S16x31x31x128.size a
  inb_S16_S1_10 : ∀ a, (![10] : Fin 1 → Nat) a + S1.size a ≤ S16.size a
  inb_S16x31x31x128_S1x31x31x128_10_0_0_0 : ∀ a, (![10, 0, 0, 0] : Fin 4 → Nat) a + S1x31x31x128.size a ≤ S16x31x31x128.size a
  inb_S16_S1_11 : ∀ a, (![11] : Fin 1 → Nat) a + S1.size a ≤ S16.size a
  inb_S16x31x31x128_S1x31x31x128_11_0_0_0 : ∀ a, (![11, 0, 0, 0] : Fin 4 → Nat) a + S1x31x31x128.size a ≤ S16x31x31x128.size a
  inb_S16_S1_12 : ∀ a, (![12] : Fin 1 → Nat) a + S1.size a ≤ S16.size a
  inb_S16x31x31x128_S1x31x31x128_12_0_0_0 : ∀ a, (![12, 0, 0, 0] : Fin 4 → Nat) a + S1x31x31x128.size a ≤ S16x31x31x128.size a
  inb_S16_S1_13 : ∀ a, (![13] : Fin 1 → Nat) a + S1.size a ≤ S16.size a
  inb_S16x31x31x128_S1x31x31x128_13_0_0_0 : ∀ a, (![13, 0, 0, 0] : Fin 4 → Nat) a + S1x31x31x128.size a ≤ S16x31x31x128.size a
  inb_S16_S1_14 : ∀ a, (![14] : Fin 1 → Nat) a + S1.size a ≤ S16.size a
  inb_S16x31x31x128_S1x31x31x128_14_0_0_0 : ∀ a, (![14, 0, 0, 0] : Fin 4 → Nat) a + S1x31x31x128.size a ≤ S16x31x31x128.size a
  inb_S16_S1_15 : ∀ a, (![15] : Fin 1 → Nat) a + S1.size a ≤ S16.size a
  inb_S16x31x31x128_S1x31x31x128_15_0_0_0 : ∀ a, (![15, 0, 0, 0] : Fin 4 → Nat) a + S1x31x31x128.size a ≤ S16x31x31x128.size a
  inb_S16x31x31x128_S8x31x31x32_0_0_0_0 : ∀ a, (![0, 0, 0, 0] : Fin 4 → Nat) a + S8x31x31x32.size a ≤ S16x31x31x128.size a
  h_S8x31x31x32 : 0 < S8x31x31x32.numel
  inb_S16x31x31x32_S8x31x31x32_0_0_0_0 : ∀ a, (![0, 0, 0, 0] : Fin 4 → Nat) a + S8x31x31x32.size a ≤ S16x31x31x32.size a
  inb_S16x31x31x128_S8x31x31x32_8_0_0_0 : ∀ a, (![8, 0, 0, 0] : Fin 4 → Nat) a + S8x31x31x32.size a ≤ S16x31x31x128.size a
  inb_S16x31x31x32_S8x31x31x32_8_0_0_0 : ∀ a, (![8, 0, 0, 0] : Fin 4 → Nat) a + S8x31x31x32.size a ≤ S16x31x31x32.size a
  hcc0_scratch1 : 2 + S16.numel ≤ 18
  hrank0 : 0 < grid0.rank
  k0_off1_inb : ∀ i : grid0.Coords, ∀ a, (k0_off1 i) a + S1x1.size a ≤ S3x4096.size a
  k0_off2_inb : ∀ i : grid0.Coords, ∀ a, (k0_off2 i) a + S1x1.size a ≤ S3x4096.size a
  k0_off3_inb : ∀ i : grid0.Coords, ∀ a, (k0_off3 i) a + S1x1.size a ≤ S3x4096.size a
  k0_off5_inb : ∀ i : grid0.Coords, ∀ a, (k0_off5 i) a + S1x1.size a ≤ S3x4096.size a
  k0_off6_inb : ∀ i : grid0.Coords, ∀ a, (k0_off6 i) a + S1x1.size a ≤ S3x4096.size a
  k0_off7_inb : ∀ i : grid0.Coords, ∀ a, (k0_off7 i) a + S1x1.size a ≤ S3x4096.size a
  k0_off9_inb : ∀ i : grid0.Coords, ∀ a, (k0_off9 i) a + S1x1.size a ≤ S3x4096.size a
  k0_off10_inb : ∀ i : grid0.Coords, ∀ a, (k0_off10 i) a + S1x1.size a ≤ S3x4096.size a
  k0_off11_inb : ∀ i : grid0.Coords, ∀ a, (k0_off11 i) a + S1x1.size a ≤ S3x4096.size a
  k0_off13_inb : ∀ i : grid0.Coords, ∀ a, (k0_off13 i) a + S1x1.size a ≤ S3x4096.size a
  k0_off14_inb : ∀ i : grid0.Coords, ∀ a, (k0_off14 i) a + S1x1.size a ≤ S3x4096.size a
  k0_off15_inb : ∀ i : grid0.Coords, ∀ a, (k0_off15 i) a + S1x1.size a ≤ S3x4096.size a
  k0_off17_inb : ∀ i : grid0.Coords, ∀ a, (k0_off17 i) a + S1x1.size a ≤ S3x4096.size a
  k0_off18_inb : ∀ i : grid0.Coords, ∀ a, (k0_off18 i) a + S1x1.size a ≤ S3x4096.size a
  k0_off19_inb : ∀ i : grid0.Coords, ∀ a, (k0_off19 i) a + S1x1.size a ≤ S3x4096.size a
  k0_off21_inb : ∀ i : grid0.Coords, ∀ a, (k0_off21 i) a + S1x1.size a ≤ S3x4096.size a
  k0_off22_inb : ∀ i : grid0.Coords, ∀ a, (k0_off22 i) a + S1x1.size a ≤ S3x4096.size a
  k0_off23_inb : ∀ i : grid0.Coords, ∀ a, (k0_off23 i) a + S1x1.size a ≤ S3x4096.size a
  k0_off25_inb : ∀ i : grid0.Coords, ∀ a, (k0_off25 i) a + S1x1.size a ≤ S3x4096.size a
  k0_off26_inb : ∀ i : grid0.Coords, ∀ a, (k0_off26 i) a + S1x1.size a ≤ S3x4096.size a
  k0_off27_inb : ∀ i : grid0.Coords, ∀ a, (k0_off27 i) a + S1x1.size a ≤ S3x4096.size a
  k0_off29_inb : ∀ i : grid0.Coords, ∀ a, (k0_off29 i) a + S1x1.size a ≤ S3x4096.size a
  k0_off30_inb : ∀ i : grid0.Coords, ∀ a, (k0_off30 i) a + S1x1.size a ≤ S3x4096.size a
  k0_off31_inb : ∀ i : grid0.Coords, ∀ a, (k0_off31 i) a + S1x1.size a ≤ S3x4096.size a
  k0_off33_inb : ∀ i : grid0.Coords, ∀ a, (k0_off33 i) a + S1x1.size a ≤ S3x4096.size a
  k0_off34_inb : ∀ i : grid0.Coords, ∀ a, (k0_off34 i) a + S1x1.size a ≤ S3x4096.size a
  k0_off35_inb : ∀ i : grid0.Coords, ∀ a, (k0_off35 i) a + S1x1.size a ≤ S3x4096.size a
  k0_off37_inb : ∀ i : grid0.Coords, ∀ a, (k0_off37 i) a + S1x1.size a ≤ S3x4096.size a
  k0_off38_inb : ∀ i : grid0.Coords, ∀ a, (k0_off38 i) a + S1x1.size a ≤ S3x4096.size a
  k0_off39_inb : ∀ i : grid0.Coords, ∀ a, (k0_off39 i) a + S1x1.size a ≤ S3x4096.size a
  k0_off41_inb : ∀ i : grid0.Coords, ∀ a, (k0_off41 i) a + S1x1.size a ≤ S3x4096.size a
  k0_off42_inb : ∀ i : grid0.Coords, ∀ a, (k0_off42 i) a + S1x1.size a ≤ S3x4096.size a
  k0_off43_inb : ∀ i : grid0.Coords, ∀ a, (k0_off43 i) a + S1x1.size a ≤ S3x4096.size a
  k0_off45_inb : ∀ i : grid0.Coords, ∀ a, (k0_off45 i) a + S1x1.size a ≤ S3x4096.size a
  k0_off46_inb : ∀ i : grid0.Coords, ∀ a, (k0_off46 i) a + S1x1.size a ≤ S3x4096.size a
  k0_off47_inb : ∀ i : grid0.Coords, ∀ a, (k0_off47 i) a + S1x1.size a ≤ S3x4096.size a
  k0_off49_inb : ∀ i : grid0.Coords, ∀ a, (k0_off49 i) a + S1x1.size a ≤ S3x4096.size a
  k0_off50_inb : ∀ i : grid0.Coords, ∀ a, (k0_off50 i) a + S1x1.size a ≤ S3x4096.size a
  k0_off51_inb : ∀ i : grid0.Coords, ∀ a, (k0_off51 i) a + S1x1.size a ≤ S3x4096.size a
  k0_off53_inb : ∀ i : grid0.Coords, ∀ a, (k0_off53 i) a + S1x1.size a ≤ S3x4096.size a
  k0_off54_inb : ∀ i : grid0.Coords, ∀ a, (k0_off54 i) a + S1x1.size a ≤ S3x4096.size a
  k0_off55_inb : ∀ i : grid0.Coords, ∀ a, (k0_off55 i) a + S1x1.size a ≤ S3x4096.size a
  k0_off57_inb : ∀ i : grid0.Coords, ∀ a, (k0_off57 i) a + S1x1.size a ≤ S3x4096.size a
  k0_off58_inb : ∀ i : grid0.Coords, ∀ a, (k0_off58 i) a + S1x1.size a ≤ S3x4096.size a
  k0_off59_inb : ∀ i : grid0.Coords, ∀ a, (k0_off59 i) a + S1x1.size a ≤ S3x4096.size a
  k0_off61_inb : ∀ i : grid0.Coords, ∀ a, (k0_off61 i) a + S1x1.size a ≤ S3x4096.size a
  k0_off62_inb : ∀ i : grid0.Coords, ∀ a, (k0_off62 i) a + S1x1.size a ≤ S3x4096.size a
  k0_off63_inb : ∀ i : grid0.Coords, ∀ a, (k0_off63 i) a + S1x1.size a ≤ S3x4096.size a
  k0_off65_inb : ∀ i : grid0.Coords, ∀ a, (k0_off65 i) a + S1x1.size a ≤ S3x4096.size a
  k0_off66_inb : ∀ i : grid0.Coords, ∀ a, (k0_off66 i) a + S1x1.size a ≤ S3x4096.size a
  k0_off67_inb : ∀ i : grid0.Coords, ∀ a, (k0_off67 i) a + S1x1.size a ≤ S3x4096.size a
  k0_off69_inb : ∀ i : grid0.Coords, ∀ a, (k0_off69 i) a + S1x1.size a ≤ S3x4096.size a
  k0_off70_inb : ∀ i : grid0.Coords, ∀ a, (k0_off70 i) a + S1x1.size a ≤ S3x4096.size a
  k0_off71_inb : ∀ i : grid0.Coords, ∀ a, (k0_off71 i) a + S1x1.size a ≤ S3x4096.size a
  k0_off73_inb : ∀ i : grid0.Coords, ∀ a, (k0_off73 i) a + S1x1.size a ≤ S3x4096.size a
  k0_off74_inb : ∀ i : grid0.Coords, ∀ a, (k0_off74 i) a + S1x1.size a ≤ S3x4096.size a
  k0_off75_inb : ∀ i : grid0.Coords, ∀ a, (k0_off75 i) a + S1x1.size a ≤ S3x4096.size a
  k0_off77_inb : ∀ i : grid0.Coords, ∀ a, (k0_off77 i) a + S1x1.size a ≤ S3x4096.size a
  k0_off78_inb : ∀ i : grid0.Coords, ∀ a, (k0_off78 i) a + S1x1.size a ≤ S3x4096.size a
  k0_off79_inb : ∀ i : grid0.Coords, ∀ a, (k0_off79 i) a + S1x1.size a ≤ S3x4096.size a
  k0_off81_inb : ∀ i : grid0.Coords, ∀ a, (k0_off81 i) a + S1x1.size a ≤ S3x4096.size a
  k0_off82_inb : ∀ i : grid0.Coords, ∀ a, (k0_off82 i) a + S1x1.size a ≤ S3x4096.size a
  k0_off83_inb : ∀ i : grid0.Coords, ∀ a, (k0_off83 i) a + S1x1.size a ≤ S3x4096.size a
  k0_off85_inb : ∀ i : grid0.Coords, ∀ a, (k0_off85 i) a + S1x1.size a ≤ S3x4096.size a
  k0_off86_inb : ∀ i : grid0.Coords, ∀ a, (k0_off86 i) a + S1x1.size a ≤ S3x4096.size a
  k0_off87_inb : ∀ i : grid0.Coords, ∀ a, (k0_off87 i) a + S1x1.size a ≤ S3x4096.size a
  k0_off89_inb : ∀ i : grid0.Coords, ∀ a, (k0_off89 i) a + S1x1.size a ≤ S3x4096.size a
  k0_off90_inb : ∀ i : grid0.Coords, ∀ a, (k0_off90 i) a + S1x1.size a ≤ S3x4096.size a
  k0_off91_inb : ∀ i : grid0.Coords, ∀ a, (k0_off91 i) a + S1x1.size a ≤ S3x4096.size a
  k0_off93_inb : ∀ i : grid0.Coords, ∀ a, (k0_off93 i) a + S1x1.size a ≤ S3x4096.size a
  k0_off94_inb : ∀ i : grid0.Coords, ∀ a, (k0_off94 i) a + S1x1.size a ≤ S3x4096.size a
  k0_off95_inb : ∀ i : grid0.Coords, ∀ a, (k0_off95 i) a + S1x1.size a ≤ S3x4096.size a
  k0_off97_inb : ∀ i : grid0.Coords, ∀ a, (k0_off97 i) a + S1x1.size a ≤ S3x4096.size a
  k0_off98_inb : ∀ i : grid0.Coords, ∀ a, (k0_off98 i) a + S1x1.size a ≤ S3x4096.size a
  k0_off99_inb : ∀ i : grid0.Coords, ∀ a, (k0_off99 i) a + S1x1.size a ≤ S3x4096.size a
  k0_off101_inb : ∀ i : grid0.Coords, ∀ a, (k0_off101 i) a + S1x1.size a ≤ S3x4096.size a
  k0_off102_inb : ∀ i : grid0.Coords, ∀ a, (k0_off102 i) a + S1x1.size a ≤ S3x4096.size a
  k0_off103_inb : ∀ i : grid0.Coords, ∀ a, (k0_off103 i) a + S1x1.size a ≤ S3x4096.size a
  k0_off105_inb : ∀ i : grid0.Coords, ∀ a, (k0_off105 i) a + S1x1.size a ≤ S3x4096.size a
  k0_off106_inb : ∀ i : grid0.Coords, ∀ a, (k0_off106 i) a + S1x1.size a ≤ S3x4096.size a
  k0_off107_inb : ∀ i : grid0.Coords, ∀ a, (k0_off107 i) a + S1x1.size a ≤ S3x4096.size a
  k0_off109_inb : ∀ i : grid0.Coords, ∀ a, (k0_off109 i) a + S1x1.size a ≤ S3x4096.size a
  k0_off110_inb : ∀ i : grid0.Coords, ∀ a, (k0_off110 i) a + S1x1.size a ≤ S3x4096.size a
  k0_off111_inb : ∀ i : grid0.Coords, ∀ a, (k0_off111 i) a + S1x1.size a ≤ S3x4096.size a
  k0_off113_inb : ∀ i : grid0.Coords, ∀ a, (k0_off113 i) a + S1x1.size a ≤ S3x4096.size a
  k0_off114_inb : ∀ i : grid0.Coords, ∀ a, (k0_off114 i) a + S1x1.size a ≤ S3x4096.size a
  k0_off115_inb : ∀ i : grid0.Coords, ∀ a, (k0_off115 i) a + S1x1.size a ≤ S3x4096.size a
  k0_off117_inb : ∀ i : grid0.Coords, ∀ a, (k0_off117 i) a + S1x1.size a ≤ S3x4096.size a
  k0_off118_inb : ∀ i : grid0.Coords, ∀ a, (k0_off118 i) a + S1x1.size a ≤ S3x4096.size a
  k0_off119_inb : ∀ i : grid0.Coords, ∀ a, (k0_off119 i) a + S1x1.size a ≤ S3x4096.size a
  k0_off121_inb : ∀ i : grid0.Coords, ∀ a, (k0_off121 i) a + S1x1.size a ≤ S3x4096.size a
  k0_off122_inb : ∀ i : grid0.Coords, ∀ a, (k0_off122 i) a + S1x1.size a ≤ S3x4096.size a
  k0_off123_inb : ∀ i : grid0.Coords, ∀ a, (k0_off123 i) a + S1x1.size a ≤ S3x4096.size a
  k0_off125_inb : ∀ i : grid0.Coords, ∀ a, (k0_off125 i) a + S1x1.size a ≤ S3x4096.size a
  k0_off126_inb : ∀ i : grid0.Coords, ∀ a, (k0_off126 i) a + S1x1.size a ≤ S3x4096.size a
  k0_off127_inb : ∀ i : grid0.Coords, ∀ a, (k0_off127 i) a + S1x1.size a ≤ S3x4096.size a
  hstage0_0 : ∀ j, (stage0_0 j).IsWhole
  nbuf0_0 : grid0.bufCount reads0_0 false = 2
  hreads0_0 : ∀ i i' : grid0.Coords, (∀ a, reads0_0 a = true → i a = i' a) → cc0_transform_1 i = cc0_transform_1 i'
  hinb0_0 : ∀ (i : grid0.Coords) a, (cc0_transform_1 i a + 1) * S16x31x31x32.size a ≤ S4096x31x31x32.size a
  hwx0_0 : ∀ i : grid0.Coords, EltTy.bits .f32 = 32 ∨ (Rect.block (s := S4096x31x31x32) S16x31x31x32.size (cc0_transform_1 i) (hinb0_0 i)).WholeWords (EltTy.packing .f32)

variable [Facts₀]

abbrev cc0_scratch1 : DmaSems sig S16 := SemArray.consecutive 2 S16 hcc0_scratch1

abbrev spec0_0 : Pipeline.WinSpec sig grid0.rank :=
  Pipeline.WinSpec.ofSpec (Memref.whole main_v15) S16x31x31x32.size reads0_0 true false 2 stage0_0 sem0_0 nbuf0_0 hstage0_0

abbrev spec0 : Fin 1 → Pipeline.WinSpec sig grid0.rank := fun | 0 => spec0_0 | ⟨_ + 1, h⟩ => absurd h (Nat.not_lt.2 (Nat.le_add_left _ _))
theorem hcount0 : ∀ w, grid0.bufCount (spec0 w).reads (spec0 w).sync = (spec0 w).nbuf := fun | 0 => nbuf0_0 | ⟨_ + 1, h⟩ => absurd h (Nat.not_lt.2 (Nat.le_add_left _ _))
abbrev ix0 (pf : pre0.Contents (Elt F)) : (w : Fin 1) → grid0.Coords → Fin (spec0 w).shape.rank → Nat := fun | 0 => cc0_transform_1 | ⟨_ + 1, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | ⟨_ + 1, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | ⟨_ + 1, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | ⟨_ + 1, h⟩ => absurd h (Nat.not_lt.2 (Nat.le_add_left _ _))

class Facts : Prop extends Facts₀ where
  harr0 : ∀ w, (spec0 w).arr.IsWhole

variable [Facts]
-- ==== ReferenceIdeal.lean ====
abbrev S16x256x256x32 : Shape := ⟨4, ![16, 256, 256, 32]⟩
abbrev S4096x3 : Shape := ⟨2, ![4096, 3]⟩
abbrev S31 : Shape := ⟨1, ![31]⟩
abbrev S_ : Shape := ⟨0, ![]⟩
abbrev S4096x1 : Shape := ⟨2, ![4096, 1]⟩
abbrev S4096 : Shape := ⟨1, ![4096]⟩
abbrev S1x31 : Shape := ⟨2, ![1, 31]⟩
abbrev S4096x31 : Shape := ⟨2, ![4096, 31]⟩
abbrev S4096x1x1 : Shape := ⟨3, ![4096, 1, 1]⟩
abbrev S4096x31x1 : Shape := ⟨3, ![4096, 31, 1]⟩
abbrev S4096x1x31 : Shape := ⟨3, ![4096, 1, 31]⟩
abbrev S4096x31x31 : Shape := ⟨3, ![4096, 31, 31]⟩
abbrev S4096x31x31x1 : Shape := ⟨4, ![4096, 31, 31, 1]⟩
abbrev S4096x31x31x3 : Shape := ⟨4, ![4096, 31, 31, 3]⟩
abbrev S4096x31x31x32 : Shape := ⟨4, ![4096, 31, 31, 32]⟩

abbrev nBuf : Space → Nat
  | .hbm => 94
  | .vmem => 0
  | .smem => 0
  | _ => 0

abbrev bufTy : (tb : Table) → Fin (tcTables nBuf tb) → BufTy
  | .hbm, ⟨0, _⟩ => ⟨S16x256x256x32, .f32⟩
  | .hbm, ⟨1, _⟩ => ⟨S4096x3, .i32⟩
  | .hbm, ⟨2, _⟩ => ⟨S31, .i32⟩
  | .hbm, ⟨3, _⟩ => ⟨S_, .i32⟩
  | .hbm, ⟨4, _⟩ => ⟨S31, .i32⟩
  | .hbm, ⟨5, _⟩ => ⟨S31, .i32⟩
  | .hbm, ⟨6, _⟩ => ⟨S4096x1, .i32⟩
  | .hbm, ⟨7, _⟩ => ⟨S4096, .i32⟩
  | .hbm, ⟨8, _⟩ => ⟨S4096x1, .i32⟩
  | .hbm, ⟨9, _⟩ => ⟨S4096, .i32⟩
  | .hbm, ⟨10, _⟩ => ⟨S4096x1, .i32⟩
  | .hbm, ⟨11, _⟩ => ⟨S1x31, .i32⟩
  | .hbm, ⟨12, _⟩ => ⟨S4096x31, .i32⟩
  | .hbm, ⟨13, _⟩ => ⟨S4096x31, .i32⟩
  | .hbm, ⟨14, _⟩ => ⟨S4096x31, .i32⟩
  | .hbm, ⟨15, _⟩ => ⟨S4096x1, .i32⟩
  | .hbm, ⟨16, _⟩ => ⟨S4096, .i32⟩
  | .hbm, ⟨17, _⟩ => ⟨S4096x1, .i32⟩
  | .hbm, ⟨18, _⟩ => ⟨S1x31, .i32⟩
  | .hbm, ⟨19, _⟩ => ⟨S4096x31, .i32⟩
  | .hbm, ⟨20, _⟩ => ⟨S4096x31, .i32⟩
  | .hbm, ⟨21, _⟩ => ⟨S4096x31, .i32⟩
  | .hbm, ⟨22, _⟩ => ⟨S_, .i32⟩
  | .hbm, ⟨23, _⟩ => ⟨S4096x31, .i32⟩
  | .hbm, ⟨24, _⟩ => ⟨S4096x31, .i1⟩
  | .hbm, ⟨25, _⟩ => ⟨S_, .i32⟩
  | .hbm, ⟨26, _⟩ => ⟨S4096x31, .i32⟩
  | .hbm, ⟨27, _⟩ => ⟨S4096x31, .i1⟩
  | .hbm, ⟨28, _⟩ => ⟨S4096x31, .i1⟩
  | .hbm, ⟨29, _⟩ => ⟨S_, .i32⟩
  | .hbm, ⟨30, _⟩ => ⟨S4096x31, .i32⟩
  | .hbm, ⟨31, _⟩ => ⟨S4096x31, .i1⟩
  | .hbm, ⟨32, _⟩ => ⟨S_, .i32⟩
  | .hbm, ⟨33, _⟩ => ⟨S4096x31, .i32⟩
  | .hbm, ⟨34, _⟩ => ⟨S4096x31, .i1⟩
  | .hbm, ⟨35, _⟩ => ⟨S4096x31, .i1⟩
  | .hbm, ⟨36, _⟩ => ⟨S_, .i32⟩
  | .hbm, ⟨37, _⟩ => ⟨S_, .i32⟩
  | .hbm, ⟨38, _⟩ => ⟨S_, .i32⟩
  | .hbm, ⟨39, _⟩ => ⟨S4096x31, .i32⟩
  | .hbm, ⟨40, _⟩ => ⟨S4096x31, .i32⟩
  | .hbm, ⟨41, _⟩ => ⟨S_, .i32⟩
  | .hbm, ⟨42, _⟩ => ⟨S4096x31, .i32⟩
  | .hbm, ⟨43, _⟩ => ⟨S4096x31, .i32⟩
  | .hbm, ⟨44, _⟩ => ⟨S_, .i32⟩
  | .hbm, ⟨45, _⟩ => ⟨S_, .i32⟩
  | .hbm, ⟨46, _⟩ => ⟨S_, .i32⟩
  | .hbm, ⟨47, _⟩ => ⟨S4096x31, .i32⟩
  | .hbm, ⟨48, _⟩ => ⟨S4096x31, .i32⟩
  | .hbm, ⟨49, _⟩ => ⟨S_, .i32⟩
  | .hbm, ⟨50, _⟩ => ⟨S4096x31, .i32⟩
  | .hbm, ⟨51, _⟩ => ⟨S4096x31, .i32⟩
  | .hbm, ⟨52, _⟩ => ⟨S4096x1x1, .i32⟩
  | .hbm, ⟨53, _⟩ => ⟨S4096x31x1, .i32⟩
  | .hbm, ⟨54, _⟩ => ⟨S4096x1x31, .i32⟩
  | .hbm, ⟨55, _⟩ => ⟨S_, .i32⟩
  | .hbm, ⟨56, _⟩ => ⟨S4096x1x1, .i32⟩
  | .hbm, ⟨57, _⟩ => ⟨S4096x1x1, .i1⟩
  | .hbm, ⟨58, _⟩ => ⟨S_, .i32⟩
  | .hbm, ⟨59, _⟩ => ⟨S4096x1x1, .i32⟩
  | .hbm, ⟨60, _⟩ => ⟨S4096x1x1, .i32⟩
  | .hbm, ⟨61, _⟩ => ⟨S4096x1x1, .i32⟩
  | .hbm, ⟨62, _⟩ => ⟨S_, .i32⟩
  | .hbm, ⟨63, _⟩ => ⟨S4096x31x1, .i32⟩
  | .hbm, ⟨64, _⟩ => ⟨S4096x31x1, .i1⟩
  | .hbm, ⟨65, _⟩ => ⟨S_, .i32⟩
  | .hbm, ⟨66, _⟩ => ⟨S4096x31x1, .i32⟩
  | .hbm, ⟨67, _⟩ => ⟨S4096x31x1, .i32⟩
  | .hbm, ⟨68, _⟩ => ⟨S4096x31x1, .i32⟩
  | .hbm, ⟨69, _⟩ => ⟨S_, .i32⟩
  | .hbm, ⟨70, _⟩ => ⟨S4096x1x31, .i32⟩
  | .hbm, ⟨71, _⟩ => ⟨S4096x1x31, .i1⟩
  | .hbm, ⟨72, _⟩ => ⟨S_, .i32⟩
  | .hbm, ⟨73, _⟩ => ⟨S4096x1x31, .i32⟩
  | .hbm, ⟨74, _⟩ => ⟨S4096x1x31, .i32⟩
  | .hbm, ⟨75, _⟩ => ⟨S4096x1x31, .i32⟩
  | .hbm, ⟨76, _⟩ => ⟨S4096x31x31, .i32⟩
  | .hbm, ⟨77, _⟩ => ⟨S4096x31x31, .i32⟩
  | .hbm, ⟨78, _⟩ => ⟨S4096x31x31, .i32⟩
  | .hbm, ⟨79, _⟩ => ⟨S4096x31x31x1, .i32⟩
  | .hbm, ⟨80, _⟩ => ⟨S4096x31x31x1, .i32⟩
  | .hbm, ⟨81, _⟩ => ⟨S4096x31x31x1, .i32⟩
  | .hbm, ⟨82, _⟩ => ⟨S4096x31x31x3, .i32⟩
  | .hbm, ⟨83, _⟩ => ⟨S4096x31x31x32, .f32⟩
  | .hbm, ⟨84, _⟩ => ⟨S4096x31x1, .i1⟩
  | .hbm, ⟨85, _⟩ => ⟨S4096x1x31, .i1⟩
  | .hbm, ⟨86, _⟩ => ⟨S4096x31x31, .i1⟩
  | .hbm, ⟨87, _⟩ => ⟨S4096x31x31, .i1⟩
  | .hbm, ⟨88, _⟩ => ⟨S4096x31x31, .i1⟩
  | .hbm, ⟨89, _⟩ => ⟨S4096x31x31x1, .i1⟩
  | .hbm, ⟨90, _⟩ => ⟨S_, .f32⟩
  | .hbm, ⟨91, _⟩ => ⟨S4096x31x31x32, .i1⟩
  | .hbm, ⟨92, _⟩ => ⟨S4096x31x31x32, .f32⟩
  | .hbm, ⟨93, _⟩ => ⟨S4096x31x31x32, .f32⟩
  | _, _ => ⟨S16x256x256x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_c_0 : Ref sig .tc := ⟨.hbm, 22, rfl⟩
abbrev main_v19 : Ref sig .tc := ⟨.hbm, 23, rfl⟩
abbrev main_v20 : Ref sig .tc := ⟨.hbm, 24, rfl⟩
abbrev main_c_1 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_c_2 : Ref sig .tc := ⟨.hbm, 29, rfl⟩
abbrev main_v24 : Ref sig .tc := ⟨.hbm, 30, rfl⟩
abbrev main_v25 : Ref sig .tc := ⟨.hbm, 31, rfl⟩
abbrev main_c_3 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_c_4 : Ref sig .tc := ⟨.hbm, 36, rfl⟩
abbrev main_c_5 : Ref sig .tc := ⟨.hbm, 37, rfl⟩
abbrev main_call0_v0 : Ref sig .tc := ⟨.hbm, 38, rfl⟩
abbrev main_call0_v1 : Ref sig .tc := ⟨.hbm, 39, rfl⟩
abbrev main_call0_v2 : Ref sig .tc := ⟨.hbm, 40, rfl⟩
abbrev main_call0_v3 : Ref sig .tc := ⟨.hbm, 41, rfl⟩
abbrev main_call0_v4 : Ref sig .tc := ⟨.hbm, 42, rfl⟩
abbrev main_v29 : Ref sig .tc := ⟨.hbm, 43, rfl⟩
abbrev main_c_6 : Ref sig .tc := ⟨.hbm, 44, rfl⟩
abbrev main_c_7 : Ref sig .tc := ⟨.hbm, 45, rfl⟩
abbrev main_call1_v0 : Ref sig .tc := ⟨.hbm, 46, rfl⟩
abbrev main_call1_v1 : Ref sig .tc := ⟨.hbm, 47, rfl⟩
abbrev main_call1_v2 : Ref sig .tc := ⟨.hbm, 48, rfl⟩
abbrev main_call1_v3 : Ref sig .tc := ⟨.hbm, 49, rfl⟩
abbrev main_call1_v4 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_c_8 : Ref sig .tc := ⟨.hbm, 55, rfl⟩
abbrev main_v34 : Ref sig .tc := ⟨.hbm, 56, rfl⟩
abbrev main_v35 : Ref sig .tc := ⟨.hbm, 57, rfl⟩
abbrev main_c_9 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_c_10 : Ref sig .tc := ⟨.hbm, 62, rfl⟩
abbrev main_v39 : Ref sig .tc := ⟨.hbm, 63, rfl⟩
abbrev main_v40 : Ref sig .tc := ⟨.hbm, 64, rfl⟩
abbrev main_c_11 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_c_12 : Ref sig .tc := ⟨.hbm, 69, rfl⟩
abbrev main_v44 : Ref sig .tc := ⟨.hbm, 70, rfl⟩
abbrev main_v45 : Ref sig .tc := ⟨.hbm, 71, rfl⟩
abbrev main_c_13 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_cst : Ref sig .tc := ⟨.hbm, 90, rfl⟩
abbrev main_call2_v0 : Ref sig .tc := ⟨.hbm, 91, rfl⟩
abbrev main_call2_v1 : Ref sig .tc := ⟨.hbm, 92, rfl⟩
abbrev main_v63 : Ref sig .tc := ⟨.hbm, 93, rfl⟩

abbrev nD : Nat := 1
abbrev τ : Topo := Topo.v7x

variable {F : FTy → Type} [FloatOps F]

class Facts₀ : Prop where
  bcast_S_S31 : S_.BroadcastsInDim S31 (![] : Fin 0 → Fin S31.rank)
  slices_S4096x3_S4096x1_0_0 : S4096x3.Slices ![0, 0] S4096x1
  shapeCasts_S4096x1_S4096 : S4096x1.ShapeCasts S4096
  slices_S4096x3_S4096x1_0_1 : S4096x3.Slices ![0, 1] S4096x1
  bcast_S4096_S4096x1_0 : S4096.BroadcastsInDim S4096x1 (![0] : Fin 1 → Fin S4096x1.rank)
  bcast_S31_S1x31_1 : S31.BroadcastsInDim S1x31 (![1] : Fin 1 → Fin S1x31.rank)
  bcast_S4096x1_S4096x31_0_1 : S4096x1.BroadcastsInDim S4096x31 (![0, 1] : Fin 2 → Fin S4096x31.rank)
  bcast_S1x31_S4096x31_0_1 : S1x31.BroadcastsInDim S4096x31 (![0, 1] : Fin 2 → Fin S4096x31.rank)
  slices_S4096x3_S4096x1_0_2 : S4096x3.Slices ![0, 2] S4096x1
  bcast_S_S4096x31 : S_.BroadcastsInDim S4096x31 (![] : Fin 0 → Fin S4096x31.rank)
  bcast_S4096_S4096x1x1_0 : S4096.BroadcastsInDim S4096x1x1 (![0] : Fin 1 → Fin S4096x1x1.rank)
  bcast_S4096x31_S4096x31x1_0_1 : S4096x31.BroadcastsInDim S4096x31x1 (![0, 1] : Fin 2 → Fin S4096x31x1.rank)
  bcast_S4096x31_S4096x1x31_0_2 : S4096x31.BroadcastsInDim S4096x1x31 (![0, 2] : Fin 2 → Fin S4096x1x31.rank)
  bcast_S_S4096x1x1 : S_.BroadcastsInDim S4096x1x1 (![] : Fin 0 → Fin S4096x1x1.rank)
  bcast_S_S4096x31x1 : S_.BroadcastsInDim S4096x31x1 (![] : Fin 0 → Fin S4096x31x1.rank)
  bcast_S_S4096x1x31 : S_.BroadcastsInDim S4096x1x31 (![] : Fin 0 → Fin S4096x1x31.rank)
  bcast_S4096x1x1_S4096x31x31_0_1_2 : S4096x1x1.BroadcastsInDim S4096x31x31 (![0, 1, 2] : Fin 3 → Fin S4096x31x31.rank)
  bcast_S4096x31x1_S4096x31x31_0_1_2 : S4096x31x1.BroadcastsInDim S4096x31x31 (![0, 1, 2] : Fin 3 → Fin S4096x31x31.rank)
  bcast_S4096x1x31_S4096x31x31_0_1_2 : S4096x1x31.BroadcastsInDim S4096x31x31 (![0, 1, 2] : Fin 3 → Fin S4096x31x31.rank)
  bcast_S4096x31x31_S4096x31x31x1_0_1_2 : S4096x31x31.BroadcastsInDim S4096x31x31x1 (![0, 1, 2] : Fin 3 → Fin S4096x31x31x1.rank)
  concatenates_S4096x31x31x1_S4096x31x31x1_S4096x31x31x1_S4096x31x31x3_d3 : Shape.Concatenates [S4096x31x31x1, S4096x31x31x1, S4096x31x31x1] S4096x31x31x3 3
  bcast_S4096x31x31x1_S4096x31x31x32_0_1_2_3 : S4096x31x31x1.BroadcastsInDim S4096x31x31x32 (![0, 1, 2, 3] : Fin 4 → Fin S4096x31x31x32.rank)
  bcast_S_S4096x31x31x32 : S_.BroadcastsInDim S4096x31x31x32 (![] : Fin 0 → Fin S4096x31x31x32.rank)
  gather_S16x256x256x32_S4096x31x31x3_S4096x31x31x32_3_012_n_n_012_3_11132_wf : GatherDims.WF S16x256x256x32 S4096x31x31x3 S4096x31x31x32 [3] [0, 1, 2] [] [0, 1, 2] [] 3 ![1, 1, 1, 32]

variable [Facts₀]

def gather_S16x256x256x32_S4096x31x31x3_S4096x31x31x32_3_012_n_n_012_3_11132 : GatherDims S16x256x256x32 S4096x31x31x3 S4096x31x31x32 where
  offsetDims := [3]
  collapsedSliceDims := [0, 1, 2]
  operandBatchingDims := []
  startIndicesBatchingDims := []
  startIndexMap := [0, 1, 2]
  indexVectorDim := 3
  sliceSizes := ![1, 1, 1, 32]
  wf := gather_S16x256x256x32_S4096x31x31x3_S4096x31x31x32_3_012_n_n_012_3_11132_wf

class Facts : Prop extends Facts₀ where

variable [Facts]
-- ==== Proof.K.Entry.lean ====
/-
  The program up to its one kernel launch.  @main first runs nine short stretches of host
  operations: the three centre columns are sliced out and each clipped into its axis (batch to
  [0, 15], row and column to [0, 255]), stacked again and transposed into the [3, 4096] table the
  launch prefetches; and the map is zero-padded by 15 rows and columns on each side and to 128
  channels.  `atEntry` is what every buffer holds when the launch is reached; neither argument is
  written on the way.
-/
import proofs.«429989_j27960237097553_3_alg».proof.Proof.Gen.Kernel.Launch
import Idealize.ShloMosaic.Lib.Pipeline.Frame

noncomputable section

namespace Cert.Kernel.Hand

open Idealize.ShloMosaic Idealize.ShloMosaic.TcCoe
open Idealize.SL Idealize.SL.RA Idealize.SL.BI
open scoped Idealize.SL.BI
open Idealize.SL.BI.BIBase Idealize.SL.Sem
open Cert.Kernel Cert.Kernel.Gen

variable {F : FTy → Type} [FloatOps F]

variable (m : (ℓ : Loc nD τ sig) → Buf (Elt F) ℓ)

/-- The host stretches before the launch, in program order. -/
abbrev entryOps : List (List (HloOp τ sig (Elt F))) :=
  [hostOps0, hostOps0_1, hostOps0_2, hostOps0_3, hostOps0_4, hostOps0_5, hostOps0_6, hostOps0_7, hostOps0_8]

/-- What core `c`'s buffers hold when the launch is reached. -/
abbrev atEntry (c : Dev nD) (b : Ref sig .tc) : Buf (Elt F) ((c : Thread nD τ).loc b) :=
  StableHlo.after (List.flatten [hostOps0, hostOps0_1, hostOps0_2, hostOps0_3, hostOps0_4, hostOps0_5, hostOps0_6, hostOps0_7, hostOps0_8]) (fun b => m (c, b)) b

theorem fresh0 : (hostOps0 : List (HloOp τ sig (Elt F))).Forall fun op => op.fresh = ∅ := by
  simp only [List.Forall]; repeat' constructor
theorem fresh1 : (hostOps0_1 : List (HloOp τ sig (Elt F))).Forall fun op => op.fresh = ∅ := by
  simp only [List.Forall]; repeat' constructor
theorem fresh2 : (hostOps0_2 : List (HloOp τ sig (Elt F))).Forall fun op => op.fresh = ∅ := by
  simp only [List.Forall]; repeat' constructor
theorem fresh3 : (hostOps0_3 : List (HloOp τ sig (Elt F))).Forall fun op => op.fresh = ∅ := by
  simp only [List.Forall]; repeat' constructor
theorem fresh4 : (hostOps0_4 : List (HloOp τ sig (Elt F))).Forall fun op => op.fresh = ∅ := by
  simp only [List.Forall]; repeat' constructor
theorem fresh5 : (hostOps0_5 : List (HloOp τ sig (Elt F))).Forall fun op => op.fresh = ∅ := by
  simp only [List.Forall]; repeat' constructor
theorem fresh6 : (hostOps0_6 : List (HloOp τ sig (Elt F))).Forall fun op => op.fresh = ∅ := by
  simp only [List.Forall]; repeat' constructor
theorem fresh7 : (hostOps0_7 : List (HloOp τ sig (Elt F))).Forall fun op => op.fresh = ∅ := by
  simp only [List.Forall]; repeat' constructor
theorem fresh8 : (hostOps0_8 : List (HloOp τ sig (Elt F))).Forall fun op => op.fresh = ∅ := by
  simp only [List.Forall]; repeat' constructor

/-- @main is those stretches and then the launch: from the buffers as launched it reaches the launch
    holding them at `atEntry`. -/
theorem toLaunch (𝒱₀ : Variants) :
    Pipeline.HMainP (Ix := Unit) (Name := ℕ) (U := Pipeline.UD sig nD τ) (Lvl := ℕ) pcfgs 0 defs₀ 𝒱₀ m (main (F := F)) (atEntry m) :=
  Pipeline.hmainP_prefixes pcfgs 0 defs₀ 𝒱₀ m main entryOps
    (by simp only [List.Forall]; exact ⟨hostOps0_sub, hostOps0_1_sub, hostOps0_2_sub, hostOps0_3_sub, hostOps0_4_sub, hostOps0_5_sub, hostOps0_6_sub, hostOps0_7_sub, hostOps0_8_sub⟩)
    (by simp only [List.Forall]; exact ⟨fresh0, fresh1, fresh2, fresh3, fresh4, fresh5, fresh6, fresh7, fresh8⟩)
    main_chain

end Cert.Kernel.Hand

end
-- ==== Proof.K.RunDefs.lean ====
/-
  The objects one grid point of the gather kernel is stated over.

  The body is handed the prefetched table [3, 4096], the padded map [16, 286, 286, 128] (left in
  HBM) and a landing buffer [16, 31, 31, 128].  For ROI j of the point it reads three table words
  (w0, w1, w2) and copies the window of the padded map with origin (w0, w1, w2, 0) and extent
  (1, 31, 31, 128) into slab j of the landing buffer.  `WindowsFit` says every such window lies
  inside the padded map (the side condition the body assumes); `slab j` is what copy j delivers;
  `landed` is the landing buffer after all 16 copies; `blockSpec` is the output block: its row j is
  the first 32 channels of slab j.
-/
import proofs.«429989_j27960237097553_3_alg».proof.Proof.K.Entry
import Idealize.ShloMosaic.Lib.ValueIdx

set_option maxRecDepth 16384

noncomputable section

namespace Cert.Kernel.Hand

open Idealize.ShloMosaic Idealize.ShloMosaic.TcCoe
open Idealize.SL Idealize.SL.RA Idealize.SL.BI
open scoped Idealize.SL.BI
open Idealize.SL.BI.BIBase Idealize.SL.Sem
open Cert.Kernel Cert.Kernel.Gen

variable {F : FTy → Type} [FloatOps F]

local notation "𝕄" => MT nD τ sig Unit (Elt F) ℕ (Pipeline.UD sig nD τ) ℕ

/-- The prefetched table, the padded map and the landing buffer as the body is handed them: whole buffers. -/
abbrev tbM : Memref sig .tc .smem S3x4096 .i32 := Memref.whole main_v14
abbrev htbM : tbM.IsWhole := Memref.isWhole_whole _
abbrev hbM : Memref sig .tc .hbm S16x286x286x128 .f32 := Memref.whole main_v13
abbrev hhbM : hbM.IsWhole := Memref.isWhole_whole _
abbrev scM : Memref sig .tc .vmem S16x31x31x128 .f32 := Memref.whole cc0_scratch0
abbrev hscM : scM.IsWhole := Memref.isWhole_whole _

/-- The table's contents, held read-only (the launch keeps the other half of the share). -/
abbrev TbBuf (c : Dev nD) : Type := Buf (Elt F) (tbM.view.loc (c : Thread nD τ))
abbrev tbPt (c : Dev nD) (f : TbBuf (F := F) c) : sProp 𝕄 := tbM.view.loc (c : Thread nD τ) ↦{fullShare.right} f
/-- The padded map's contents, held as 18 read shares (one per DMA semaphore of the core, numbered as the
    semaphores are) and the remainder. -/
abbrev HbBuf (c : Dev nD) : Type := Buf (Elt F) (hbM.view.loc (c : Thread nD τ))
abbrev hbTok (c : Dev nD) (k : Fin 18) (f : HbBuf (F := F) c) : sProp 𝕄 := hbM.view.loc (c : Thread nD τ) ↦{Transfers.shareTok fullShare 18 k} f
abbrev hbRest (c : Dev nD) (f : HbBuf (F := F) c) : sProp 𝕄 := hbM.view.loc (c : Thread nD τ) ↦{Transfers.shareDrop fullShare 18} f

/-- Every window the body copies at point `i` lies inside the padded map: the side condition it assumes of
    each triple of table words, once where the copy is started (1 to 16) and once where it is waited for (17 to 32). -/
def WindowsFit (c : Dev nD) (i : grid0.Coords) (xt : TbBuf (F := F) c) : Prop :=
    k0_chk1 (tbM.view.readAt (Elt F) (Rect.unit (s := S3x4096) (k0_off1 i) S1x1.size (k0_off1_inb i)).toLoadRect xt (Shape.Idx.first (numel1_S1x1.symm ▸ Nat.one_pos))) (tbM.view.readAt (Elt F) (Rect.unit (s := S3x4096) (k0_off2 i) S1x1.size (k0_off2_inb i)).toLoadRect xt (Shape.Idx.first (numel1_S1x1.symm ▸ Nat.one_pos))) (tbM.view.readAt (Elt F) (Rect.unit (s := S3x4096) (k0_off3 i) S1x1.size (k0_off3_inb i)).toLoadRect xt (Shape.Idx.first (numel1_S1x1.symm ▸ Nat.one_pos)))
    ∧ k0_chk2 (tbM.view.readAt (Elt F) (Rect.unit (s := S3x4096) (k0_off5 i) S1x1.size (k0_off5_inb i)).toLoadRect xt (Shape.Idx.first (numel1_S1x1.symm ▸ Nat.one_pos))) (tbM.view.readAt (Elt F) (Rect.unit (s := S3x4096) (k0_off6 i) S1x1.size (k0_off6_inb i)).toLoadRect xt (Shape.Idx.first (numel1_S1x1.symm ▸ Nat.one_pos))) (tbM.view.readAt (Elt F) (Rect.unit (s := S3x4096) (k0_off7 i) S1x1.size (k0_off7_inb i)).toLoadRect xt (Shape.Idx.first (numel1_S1x1.symm ▸ Nat.one_pos)))
    ∧ k0_chk3 (tbM.view.readAt (Elt F) (Rect.unit (s := S3x4096) (k0_off9 i) S1x1.size (k0_off9_inb i)).toLoadRect xt (Shape.Idx.first (numel1_S1x1.symm ▸ Nat.one_pos))) (tbM.view.readAt (Elt F) (Rect.unit (s := S3x4096) (k0_off10 i) S1x1.size (k0_off10_inb i)).toLoadRect xt (Shape.Idx.first (numel1_S1x1.symm ▸ Nat.one_pos))) (tbM.view.readAt (Elt F) (Rect.unit (s := S3x4096) (k0_off11 i) S1x1.size (k0_off11_inb i)).toLoadRect xt (Shape.Idx.first (numel1_S1x1.symm ▸ Nat.one_pos)))
    ∧ k0_chk4 (tbM.view.readAt (Elt F) (Rect.unit (s := S3x4096) (k0_off13 i) S1x1.size (k0_off13_inb i)).toLoadRect xt (Shape.Idx.first (numel1_S1x1.symm ▸ Nat.one_pos))) (tbM.view.readAt (Elt F) (Rect.unit (s := S3x4096) (k0_off14 i) S1x1.size (k0_off14_inb i)).toLoadRect xt (Shape.Idx.first (numel1_S1x1.symm ▸ Nat.one_pos))) (tbM.view.readAt (Elt F) (Rect.unit (s := S3x4096) (k0_off15 i) S1x1.size (k0_off15_inb i)).toLoadRect xt (Shape.Idx.first (numel1_S1x1.symm ▸ Nat.one_pos)))
    ∧ k0_chk5 (tbM.view.readAt (Elt F) (Rect.unit (s := S3x4096) (k0_off17 i) S1x1.size (k0_off17_inb i)).toLoadRect xt (Shape.Idx.first (numel1_S1x1.symm ▸ Nat.one_pos))) (tbM.view.readAt (Elt F) (Rect.unit (s := S3x4096) (k0_off18 i) S1x1.size (k0_off18_inb i)).toLoadRect xt (Shape.Idx.first (numel1_S1x1.symm ▸ Nat.one_pos))) (tbM.view.readAt (Elt F) (Rect.unit (s := S3x4096) (k0_off19 i) S1x1.size (k0_off19_inb i)).toLoadRect xt (Shape.Idx.first (numel1_S1x1.symm ▸ Nat.one_pos)))
    ∧ k0_chk6 (tbM.view.readAt (Elt F) (Rect.unit (s := S3x4096) (k0_off21 i) S1x1.size (k0_off21_inb i)).toLoadRect xt (Shape.Idx.first (numel1_S1x1.symm ▸ Nat.one_pos))) (tbM.view.readAt (Elt F) (Rect.unit (s := S3x4096) (k0_off22 i) S1x1.size (k0_off22_inb i)).toLoadRect xt (Shape.Idx.first (numel1_S1x1.symm ▸ Nat.one_pos))) (tbM.view.readAt (Elt F) (Rect.unit (s := S3x4096) (k0_off23 i) S1x1.size (k0_off23_inb i)).toLoadRect xt (Shape.Idx.first (numel1_S1x1.symm ▸ Nat.one_pos)))
    ∧ k0_chk7 (tbM.view.readAt (Elt F) (Rect.unit (s := S3x4096) (k0_off25 i) S1x1.size (k0_off25_inb i)).toLoadRect xt (Shape.Idx.first (numel1_S1x1.symm ▸ Nat.one_pos))) (tbM.view.readAt (Elt F) (Rect.unit (s := S3x4096) (k0_off26 i) S1x1.size (k0_off26_inb i)).toLoadRect xt (Shape.Idx.first (numel1_S1x1.symm ▸ Nat.one_pos))) (tbM.view.readAt (Elt F) (Rect.unit (s := S3x4096) (k0_off27 i) S1x1.size (k0_off27_inb i)).toLoadRect xt (Shape.Idx.first (numel1_S1x1.symm ▸ Nat.one_pos)))
    ∧ k0_chk8 (tbM.view.readAt (Elt F) (Rect.unit (s := S3x4096) (k0_off29 i) S1x1.size (k0_off29_inb i)).toLoadRect xt (Shape.Idx.first (numel1_S1x1.symm ▸ Nat.one_pos))) (tbM.view.readAt (Elt F) (Rect.unit (s := S3x4096) (k0_off30 i) S1x1.size (k0_off30_inb i)).toLoadRect xt (Shape.Idx.first (numel1_S1x1.symm ▸ Nat.one_pos))) (tbM.view.readAt (Elt F) (Rect.unit (s := S3x4096) (k0_off31 i) S1x1.size (k0_off31_inb i)).toLoadRect xt (Shape.Idx.first (numel1_S1x1.symm ▸ Nat.one_pos)))
    ∧ k0_chk9 (tbM.view.readAt (Elt F) (Rect.unit (s := S3x4096) (k0_off33 i) S1x1.size (k0_off33_inb i)).toLoadRect xt (Shape.Idx.first (numel1_S1x1.symm ▸ Nat.one_pos))) (tbM.view.readAt (Elt F) (Rect.unit (s := S3x4096) (k0_off34 i) S1x1.size (k0_off34_inb i)).toLoadRect xt (Shape.Idx.first (numel1_S1x1.symm ▸ Nat.one_pos))) (tbM.view.readAt (Elt F) (Rect.unit (s := S3x4096) (k0_off35 i) S1x1.size (k0_off35_inb i)).toLoadRect xt (Shape.Idx.first (numel1_S1x1.symm ▸ Nat.one_pos)))
    ∧ k0_chk10 (tbM.view.readAt (Elt F) (Rect.unit (s := S3x4096) (k0_off37 i) S1x1.size (k0_off37_inb i)).toLoadRect xt (Shape.Idx.first (numel1_S1x1.symm ▸ Nat.one_pos))) (tbM.view.readAt (Elt F) (Rect.unit (s := S3x4096) (k0_off38 i) S1x1.size (k0_off38_inb i)).toLoadRect xt (Shape.Idx.first (numel1_S1x1.symm ▸ Nat.one_pos))) (tbM.view.readAt (Elt F) (Rect.unit (s := S3x4096) (k0_off39 i) S1x1.size (k0_off39_inb i)).toLoadRect xt (Shape.Idx.first (numel1_S1x1.symm ▸ Nat.one_pos)))
    ∧ k0_chk11 (tbM.view.readAt (Elt F) (Rect.unit (s := S3x4096) (k0_off41 i) S1x1.size (k0_off41_inb i)).toLoadRect xt (Shape.Idx.first (numel1_S1x1.symm ▸ Nat.one_pos))) (tbM.view.readAt (Elt F) (Rect.unit (s := S3x4096) (k0_off42 i) S1x1.size (k0_off42_inb i)).toLoadRect xt (Shape.Idx.first (numel1_S1x1.symm ▸ Nat.one_pos))) (tbM.view.readAt (Elt F) (Rect.unit (s := S3x4096) (k0_off43 i) S1x1.size (k0_off43_inb i)).toLoadRect xt (Shape.Idx.first (numel1_S1x1.symm ▸ Nat.one_pos)))
    ∧ k0_chk12 (tbM.view.readAt (Elt F) (Rect.unit (s := S3x4096) (k0_off45 i) S1x1.size (k0_off45_inb i)).toLoadRect xt (Shape.Idx.first (numel1_S1x1.symm ▸ Nat.one_pos))) (tbM.view.readAt (Elt F) (Rect.unit (s := S3x4096) (k0_off46 i) S1x1.size (k0_off46_inb i)).toLoadRect xt (Shape.Idx.first (numel1_S1x1.symm ▸ Nat.one_pos))) (tbM.view.readAt (Elt F) (Rect.unit (s := S3x4096) (k0_off47 i) S1x1.size (k0_off47_inb i)).toLoadRect xt (Shape.Idx.first (numel1_S1x1.symm ▸ Nat.one_pos)))
    ∧ k0_chk13 (tbM.view.readAt (Elt F) (Rect.unit (s := S3x4096) (k0_off49 i) S1x1.size (k0_off49_inb i)).toLoadRect xt (Shape.Idx.first (numel1_S1x1.symm ▸ Nat.one_pos))) (tbM.view.readAt (Elt F) (Rect.unit (s := S3x4096) (k0_off50 i) S1x1.size (k0_off50_inb i)).toLoadRect xt (Shape.Idx.first (numel1_S1x1.symm ▸ Nat.one_pos))) (tbM.view.readAt (Elt F) (Rect.unit (s := S3x4096) (k0_off51 i) S1x1.size (k0_off51_inb i)).toLoadRect xt (Shape.Idx.first (numel1_S1x1.symm ▸ Nat.one_pos)))
    ∧ k0_chk14 (tbM.view.readAt (Elt F) (Rect.unit (s := S3x4096) (k0_off53 i) S1x1.size (k0_off53_inb i)).toLoadRect xt (Shape.Idx.first (numel1_S1x1.symm ▸ Nat.one_pos))) (tbM.view.readAt (Elt F) (Rect.unit (s := S3x4096) (k0_off54 i) S1x1.size (k0_off54_inb i)).toLoadRect xt (Shape.Idx.first (numel1_S1x1.symm ▸ Nat.one_pos))) (tbM.view.readAt (Elt F) (Rect.unit (s := S3x4096) (k0_off55 i) S1x1.size (k0_off55_inb i)).toLoadRect xt (Shape.Idx.first (numel1_S1x1.symm ▸ Nat.one_pos)))
    ∧ k0_chk15 (tbM.view.readAt (Elt F) (Rect.unit (s := S3x4096) (k0_off57 i) S1x1.size (k0_off57_inb i)).toLoadRect xt (Shape.Idx.first (numel1_S1x1.symm ▸ Nat.one_pos))) (tbM.view.readAt (Elt F) (Rect.unit (s := S3x4096) (k0_off58 i) S1x1.size (k0_off58_inb i)).toLoadRect xt (Shape.Idx.first (numel1_S1x1.symm ▸ Nat.one_pos))) (tbM.view.readAt (Elt F) (Rect.unit (s := S3x4096) (k0_off59 i) S1x1.size (k0_off59_inb i)).toLoadRect xt (Shape.Idx.first (numel1_S1x1.symm ▸ Nat.one_pos)))
    ∧ k0_chk16 (tbM.view.readAt (Elt F) (Rect.unit (s := S3x4096) (k0_off61 i) S1x1.size (k0_off61_inb i)).toLoadRect xt (Shape.Idx.first (numel1_S1x1.symm ▸ Nat.one_pos))) (tbM.view.readAt (Elt F) (Rect.unit (s := S3x4096) (k0_off62 i) S1x1.size (k0_off62_inb i)).toLoadRect xt (Shape.Idx.first (numel1_S1x1.symm ▸ Nat.one_pos))) (tbM.view.readAt (Elt F) (Rect.unit (s := S3x4096) (k0_off63 i) S1x1.size (k0_off63_inb i)).toLoadRect xt (Shape.Idx.first (numel1_S1x1.symm ▸ Nat.one_pos)))
    ∧ k0_chk17 (tbM.view.readAt (Elt F) (Rect.unit (s := S3x4096) (k0_off65 i) S1x1.size (k0_off65_inb i)).toLoadRect xt (Shape.Idx.first (numel1_S1x1.symm ▸ Nat.one_pos))) (tbM.view.readAt (Elt F) (Rect.unit (s := S3x4096) (k0_off66 i) S1x1.size (k0_off66_inb i)).toLoadRect xt (Shape.Idx.first (numel1_S1x1.symm ▸ Nat.one_pos))) (tbM.view.readAt (Elt F) (Rect.unit (s := S3x4096) (k0_off67 i) S1x1.size (k0_off67_inb i)).toLoadRect xt (Shape.Idx.first (numel1_S1x1.symm ▸ Nat.one_pos)))
    ∧ k0_chk18 (tbM.view.readAt (Elt F) (Rect.unit (s := S3x4096) (k0_off69 i) S1x1.size (k0_off69_inb i)).toLoadRect xt (Shape.Idx.first (numel1_S1x1.symm ▸ Nat.one_pos))) (tbM.view.readAt (Elt F) (Rect.unit (s := S3x4096) (k0_off70 i) S1x1.size (k0_off70_inb i)).toLoadRect xt (Shape.Idx.first (numel1_S1x1.symm ▸ Nat.one_pos))) (tbM.view.readAt (Elt F) (Rect.unit (s := S3x4096) (k0_off71 i) S1x1.size (k0_off71_inb i)).toLoadRect xt (Shape.Idx.first (numel1_S1x1.symm ▸ Nat.one_pos)))
    ∧ k0_chk19 (tbM.view.readAt (Elt F) (Rect.unit (s := S3x4096) (k0_off73 i) S1x1.size (k0_off73_inb i)).toLoadRect xt (Shape.Idx.first (numel1_S1x1.symm ▸ Nat.one_pos))) (tbM.view.readAt (Elt F) (Rect.unit (s := S3x4096) (k0_off74 i) S1x1.size (k0_off74_inb i)).toLoadRect xt (Shape.Idx.first (numel1_S1x1.symm ▸ Nat.one_pos))) (tbM.view.readAt (Elt F) (Rect.unit (s := S3x4096) (k0_off75 i) S1x1.size (k0_off75_inb i)).toLoadRect xt (Shape.Idx.first (numel1_S1x1.symm ▸ Nat.one_pos)))
    ∧ k0_chk20 (tbM.view.readAt (Elt F) (Rect.unit (s := S3x4096) (k0_off77 i) S1x1.size (k0_off77_inb i)).toLoadRect xt (Shape.Idx.first (numel1_S1x1.symm ▸ Nat.one_pos))) (tbM.view.readAt (Elt F) (Rect.unit (s := S3x4096) (k0_off78 i) S1x1.size (k0_off78_inb i)).toLoadRect xt (Shape.Idx.first (numel1_S1x1.symm ▸ Nat.one_pos))) (tbM.view.readAt (Elt F) (Rect.unit (s := S3x4096) (k0_off79 i) S1x1.size (k0_off79_inb i)).toLoadRect xt (Shape.Idx.first (numel1_S1x1.symm ▸ Nat.one_pos)))
    ∧ k0_chk21 (tbM.view.readAt (Elt F) (Rect.unit (s := S3x4096) (k0_off81 i) S1x1.size (k0_off81_inb i)).toLoadRect xt (Shape.Idx.first (numel1_S1x1.symm ▸ Nat.one_pos))) (tbM.view.readAt (Elt F) (Rect.unit (s := S3x4096) (k0_off82 i) S1x1.size (k0_off82_inb i)).toLoadRect xt (Shape.Idx.first (numel1_S1x1.symm ▸ Nat.one_pos))) (tbM.view.readAt (Elt F) (Rect.unit (s := S3x4096) (k0_off83 i) S1x1.size (k0_off83_inb i)).toLoadRect xt (Shape.Idx.first (numel1_S1x1.symm ▸ Nat.one_pos)))
    ∧ k0_chk22 (tbM.view.readAt (Elt F) (Rect.unit (s := S3x4096) (k0_off85 i) S1x1.size (k0_off85_inb i)).toLoadRect xt (Shape.Idx.first (numel1_S1x1.symm ▸ Nat.one_pos))) (tbM.view.readAt (Elt F) (Rect.unit (s := S3x4096) (k0_off86 i) S1x1.size (k0_off86_inb i)).toLoadRect xt (Shape.Idx.first (numel1_S1x1.symm ▸ Nat.one_pos))) (tbM.view.readAt (Elt F) (Rect.unit (s := S3x4096) (k0_off87 i) S1x1.size (k0_off87_inb i)).toLoadRect xt (Shape.Idx.first (numel1_S1x1.symm ▸ Nat.one_pos)))
    ∧ k0_chk23 (tbM.view.readAt (Elt F) (Rect.unit (s := S3x4096) (k0_off89 i) S1x1.size (k0_off89_inb i)).toLoadRect xt (Shape.Idx.first (numel1_S1x1.symm ▸ Nat.one_pos))) (tbM.view.readAt (Elt F) (Rect.unit (s := S3x4096) (k0_off90 i) S1x1.size (k0_off90_inb i)).toLoadRect xt (Shape.Idx.first (numel1_S1x1.symm ▸ Nat.one_pos))) (tbM.view.readAt (Elt F) (Rect.unit (s := S3x4096) (k0_off91 i) S1x1.size (k0_off91_inb i)).toLoadRect xt (Shape.Idx.first (numel1_S1x1.symm ▸ Nat.one_pos)))
    ∧ k0_chk24 (tbM.view.readAt (Elt F) (Rect.unit (s := S3x4096) (k0_off93 i) S1x1.size (k0_off93_inb i)).toLoadRect xt (Shape.Idx.first (numel1_S1x1.symm ▸ Nat.one_pos))) (tbM.view.readAt (Elt F) (Rect.unit (s := S3x4096) (k0_off94 i) S1x1.size (k0_off94_inb i)).toLoadRect xt (Shape.Idx.first (numel1_S1x1.symm ▸ Nat.one_pos))) (tbM.view.readAt (Elt F) (Rect.unit (s := S3x4096) (k0_off95 i) S1x1.size (k0_off95_inb i)).toLoadRect xt (Shape.Idx.first (numel1_S1x1.symm ▸ Nat.one_pos)))
    ∧ k0_chk25 (tbM.view.readAt (Elt F) (Rect.unit (s := S3x4096) (k0_off97 i) S1x1.size (k0_off97_inb i)).toLoadRect xt (Shape.Idx.first (numel1_S1x1.symm ▸ Nat.one_pos))) (tbM.view.readAt (Elt F) (Rect.unit (s := S3x4096) (k0_off98 i) S1x1.size (k0_off98_inb i)).toLoadRect xt (Shape.Idx.first (numel1_S1x1.symm ▸ Nat.one_pos))) (tbM.view.readAt (Elt F) (Rect.unit (s := S3x4096) (k0_off99 i) S1x1.size (k0_off99_inb i)).toLoadRect xt (Shape.Idx.first (numel1_S1x1.symm ▸ Nat.one_pos)))
    ∧ k0_chk26 (tbM.view.readAt (Elt F) (Rect.unit (s := S3x4096) (k0_off101 i) S1x1.size (k0_off101_inb i)).toLoadRect xt (Shape.Idx.first (numel1_S1x1.symm ▸ Nat.one_pos))) (tbM.view.readAt (Elt F) (Rect.unit (s := S3x4096) (k0_off102 i) S1x1.size (k0_off102_inb i)).toLoadRect xt (Shape.Idx.first (numel1_S1x1.symm ▸ Nat.one_pos))) (tbM.view.readAt (Elt F) (Rect.unit (s := S3x4096) (k0_off103 i) S1x1.size (k0_off103_inb i)).toLoadRect xt (Shape.Idx.first (numel1_S1x1.symm ▸ Nat.one_pos)))
    ∧ k0_chk27 (tbM.view.readAt (Elt F) (Rect.unit (s := S3x4096) (k0_off105 i) S1x1.size (k0_off105_inb i)).toLoadRect xt (Shape.Idx.first (numel1_S1x1.symm ▸ Nat.one_pos))) (tbM.view.readAt (Elt F) (Rect.unit (s := S3x4096) (k0_off106 i) S1x1.size (k0_off106_inb i)).toLoadRect xt (Shape.Idx.first (numel1_S1x1.symm ▸ Nat.one_pos))) (tbM.view.readAt (Elt F) (Rect.unit (s := S3x4096) (k0_off107 i) S1x1.size (k0_off107_inb i)).toLoadRect xt (Shape.Idx.first (numel1_S1x1.symm ▸ Nat.one_pos)))
    ∧ k0_chk28 (tbM.view.readAt (Elt F) (Rect.unit (s := S3x4096) (k0_off109 i) S1x1.size (k0_off109_inb i)).toLoadRect xt (Shape.Idx.first (numel1_S1x1.symm ▸ Nat.one_pos))) (tbM.view.readAt (Elt F) (Rect.unit (s := S3x4096) (k0_off110 i) S1x1.size (k0_off110_inb i)).toLoadRect xt (Shape.Idx.first (numel1_S1x1.symm ▸ Nat.one_pos))) (tbM.view.readAt (Elt F) (Rect.unit (s := S3x4096) (k0_off111 i) S1x1.size (k0_off111_inb i)).toLoadRect xt (Shape.Idx.first (numel1_S1x1.symm ▸ Nat.one_pos)))
    ∧ k0_chk29 (tbM.view.readAt (Elt F) (Rect.unit (s := S3x4096) (k0_off113 i) S1x1.size (k0_off113_inb i)).toLoadRect xt (Shape.Idx.first (numel1_S1x1.symm ▸ Nat.one_pos))) (tbM.view.readAt (Elt F) (Rect.unit (s := S3x4096) (k0_off114 i) S1x1.size (k0_off114_inb i)).toLoadRect xt (Shape.Idx.first (numel1_S1x1.symm ▸ Nat.one_pos))) (tbM.view.readAt (Elt F) (Rect.unit (s := S3x4096) (k0_off115 i) S1x1.size (k0_off115_inb i)).toLoadRect xt (Shape.Idx.first (numel1_S1x1.symm ▸ Nat.one_pos)))
    ∧ k0_chk30 (tbM.view.readAt (Elt F) (Rect.unit (s := S3x4096) (k0_off117 i) S1x1.size (k0_off117_inb i)).toLoadRect xt (Shape.Idx.first (numel1_S1x1.symm ▸ Nat.one_pos))) (tbM.view.readAt (Elt F) (Rect.unit (s := S3x4096) (k0_off118 i) S1x1.size (k0_off118_inb i)).toLoadRect xt (Shape.Idx.first (numel1_S1x1.symm ▸ Nat.one_pos))) (tbM.view.readAt (Elt F) (Rect.unit (s := S3x4096) (k0_off119 i) S1x1.size (k0_off119_inb i)).toLoadRect xt (Shape.Idx.first (numel1_S1x1.symm ▸ Nat.one_pos)))
    ∧ k0_chk31 (tbM.view.readAt (Elt F) (Rect.unit (s := S3x4096) (k0_off121 i) S1x1.size (k0_off121_inb i)).toLoadRect xt (Shape.Idx.first (numel1_S1x1.symm ▸ Nat.one_pos))) (tbM.view.readAt (Elt F) (Rect.unit (s := S3x4096) (k0_off122 i) S1x1.size (k0_off122_inb i)).toLoadRect xt (Shape.Idx.first (numel1_S1x1.symm ▸ Nat.one_pos))) (tbM.view.readAt (Elt F) (Rect.unit (s := S3x4096) (k0_off123 i) S1x1.size (k0_off123_inb i)).toLoadRect xt (Shape.Idx.first (numel1_S1x1.symm ▸ Nat.one_pos)))
    ∧ k0_chk32 (tbM.view.readAt (Elt F) (Rect.unit (s := S3x4096) (k0_off125 i) S1x1.size (k0_off125_inb i)).toLoadRect xt (Shape.Idx.first (numel1_S1x1.symm ▸ Nat.one_pos))) (tbM.view.readAt (Elt F) (Rect.unit (s := S3x4096) (k0_off126 i) S1x1.size (k0_off126_inb i)).toLoadRect xt (Shape.Idx.first (numel1_S1x1.symm ▸ Nat.one_pos))) (tbM.view.readAt (Elt F) (Rect.unit (s := S3x4096) (k0_off127 i) S1x1.size (k0_off127_inb i)).toLoadRect xt (Shape.Idx.first (numel1_S1x1.symm ▸ Nat.one_pos)))

/-- What copy 0 delivers: the padded map read through its window. -/
def slab0 (c : Dev nD) (i : grid0.Coords) (xt : TbBuf (F := F) c) (fh : HbBuf (F := F) c) (hfit : WindowsFit c i xt) : S31x31x128.Idx → Elt F .f32 :=
  ReadAs.same.apply (View.read (Elt F) ((hbM.slice (Rect.unit (s := S16x286x286x128) (k0_off4 (tbM.view.readAt (Elt F) (Rect.unit (s := S3x4096) (k0_off1 i) S1x1.size (k0_off1_inb i)).toLoadRect xt (Shape.Idx.first (numel1_S1x1.symm ▸ Nat.one_pos))) (tbM.view.readAt (Elt F) (Rect.unit (s := S3x4096) (k0_off2 i) S1x1.size (k0_off2_inb i)).toLoadRect xt (Shape.Idx.first (numel1_S1x1.symm ▸ Nat.one_pos))) (tbM.view.readAt (Elt F) (Rect.unit (s := S3x4096) (k0_off3 i) S1x1.size (k0_off3_inb i)).toLoadRect xt (Shape.Idx.first (numel1_S1x1.symm ▸ Nat.one_pos)))) S1x31x31x128.size (k0_off4_inb _ _ _ (hfit.1))) (fun _ => rfl)).squeeze S31x31x128 squeezes_S1x31x31x128_S31x31x128).view fh)
/-- What copy 1 delivers: the padded map read through its window. -/
def slab1 (c : Dev nD) (i : grid0.Coords) (xt : TbBuf (F := F) c) (fh : HbBuf (F := F) c) (hfit : WindowsFit c i xt) : S31x31x128.Idx → Elt F .f32 :=
  ReadAs.same.apply (View.read (Elt F) ((hbM.slice (Rect.unit (s := S16x286x286x128) (k0_off8 (tbM.view.readAt (Elt F) (Rect.unit (s := S3x4096) (k0_off5 i) S1x1.size (k0_off5_inb i)).toLoadRect xt (Shape.Idx.first (numel1_S1x1.symm ▸ Nat.one_pos))) (tbM.view.readAt (Elt F) (Rect.unit (s := S3x4096) (k0_off6 i) S1x1.size (k0_off6_inb i)).toLoadRect xt (Shape.Idx.first (numel1_S1x1.symm ▸ Nat.one_pos))) (tbM.view.readAt (Elt F) (Rect.unit (s := S3x4096) (k0_off7 i) S1x1.size (k0_off7_inb i)).toLoadRect xt (Shape.Idx.first (numel1_S1x1.symm ▸ Nat.one_pos)))) S1x31x31x128.size (k0_off8_inb _ _ _ (hfit.2.1))) (fun _ => rfl)).squeeze S31x31x128 squeezes_S1x31x31x128_S31x31x128).view fh)
/-- What copy 2 delivers: the padded map read through its window. -/
def slab2 (c : Dev nD) (i : grid0.Coords) (xt : TbBuf (F := F) c) (fh : HbBuf (F := F) c) (hfit : WindowsFit c i xt) : S31x31x128.Idx → Elt F .f32 :=
  ReadAs.same.apply (View.read (Elt F) ((hbM.slice (Rect.unit (s := S16x286x286x128) (k0_off12 (tbM.view.readAt (Elt F) (Rect.unit (s := S3x4096) (k0_off9 i) S1x1.size (k0_off9_inb i)).toLoadRect xt (Shape.Idx.first (numel1_S1x1.symm ▸ Nat.one_pos))) (tbM.view.readAt (Elt F) (Rect.unit (s := S3x4096) (k0_off10 i) S1x1.size (k0_off10_inb i)).toLoadRect xt (Shape.Idx.first (numel1_S1x1.symm ▸ Nat.one_pos))) (tbM.view.readAt (Elt F) (Rect.unit (s := S3x4096) (k0_off11 i) S1x1.size (k0_off11_inb i)).toLoadRect xt (Shape.Idx.first (numel1_S1x1.symm ▸ Nat.one_pos)))) S1x31x31x128.size (k0_off12_inb _ _ _ (hfit.2.2.1))) (fun _ => rfl)).squeeze S31x31x128 squeezes_S1x31x31x128_S31x31x128).view fh)
/-- What copy 3 delivers: the padded map read through its window. -/
def slab3 (c : Dev nD) (i : grid0.Coords) (xt : TbBuf (F := F) c) (fh : HbBuf (F := F) c) (hfit : WindowsFit c i xt) : S31x31x128.Idx → Elt F .f32 :=
  ReadAs.same.apply (View.read (Elt F) ((hbM.slice (Rect.unit (s := S16x286x286x128) (k0_off16 (tbM.view.readAt (Elt F) (Rect.unit (s := S3x4096) (k0_off13 i) S1x1.size (k0_off13_inb i)).toLoadRect xt (Shape.Idx.first (numel1_S1x1.symm ▸ Nat.one_pos))) (tbM.view.readAt (Elt F) (Rect.unit (s := S3x4096) (k0_off14 i) S1x1.size (k0_off14_inb i)).toLoadRect xt (Shape.Idx.first (numel1_S1x1.symm ▸ Nat.one_pos))) (tbM.view.readAt (Elt F) (Rect.unit (s := S3x4096) (k0_off15 i) S1x1.size (k0_off15_inb i)).toLoadRect xt (Shape.Idx.first (numel1_S1x1.symm ▸ Nat.one_pos)))) S1x31x31x128.size (k0_off16_inb _ _ _ (hfit.2.2.2.1))) (fun _ => rfl)).squeeze S31x31x128 squeezes_S1x31x31x128_S31x31x128).view fh)
/-- What copy 4 delivers: the padded map read through its window. -/
def slab4 (c : Dev nD) (i : grid0.Coords) (xt : TbBuf (F := F) c) (fh : HbBuf (F := F) c) (hfit : WindowsFit c i xt) : S31x31x128.Idx → Elt F .f32 :=
  ReadAs.same.apply (View.read (Elt F) ((hbM.slice (Rect.unit (s := S16x286x286x128) (k0_off20 (tbM.view.readAt (Elt F) (Rect.unit (s := S3x4096) (k0_off17 i) S1x1.size (k0_off17_inb i)).toLoadRect xt (Shape.Idx.first (numel1_S1x1.symm ▸ Nat.one_pos))) (tbM.view.readAt (Elt F) (Rect.unit (s := S3x4096) (k0_off18 i) S1x1.size (k0_off18_inb i)).toLoadRect xt (Shape.Idx.first (numel1_S1x1.symm ▸ Nat.one_pos))) (tbM.view.readAt (Elt F) (Rect.unit (s := S3x4096) (k0_off19 i) S1x1.size (k0_off19_inb i)).toLoadRect xt (Shape.Idx.first (numel1_S1x1.symm ▸ Nat.one_pos)))) S1x31x31x128.size (k0_off20_inb _ _ _ (hfit.2.2.2.2.1))) (fun _ => rfl)).squeeze S31x31x128 squeezes_S1x31x31x128_S31x31x128).view fh)
/-- What copy 5 delivers: the padded map read through its window. -/
def slab5 (c : Dev nD) (i : grid0.Coords) (xt : TbBuf (F := F) c) (fh : HbBuf (F := F) c) (hfit : WindowsFit c i xt) : S31x31x128.Idx → Elt F .f32 :=
  ReadAs.same.apply (View.read (Elt F) ((hbM.slice (Rect.unit (s := S16x286x286x128) (k0_off24 (tbM.view.readAt (Elt F) (Rect.unit (s := S3x4096) (k0_off21 i) S1x1.size (k0_off21_inb i)).toLoadRect xt (Shape.Idx.first (numel1_S1x1.symm ▸ Nat.one_pos))) (tbM.view.readAt (Elt F) (Rect.unit (s := S3x4096) (k0_off22 i) S1x1.size (k0_off22_inb i)).toLoadRect xt (Shape.Idx.first (numel1_S1x1.symm ▸ Nat.one_pos))) (tbM.view.readAt (Elt F) (Rect.unit (s := S3x4096) (k0_off23 i) S1x1.size (k0_off23_inb i)).toLoadRect xt (Shape.Idx.first (numel1_S1x1.symm ▸ Nat.one_pos)))) S1x31x31x128.size (k0_off24_inb _ _ _ (hfit.2.2.2.2.2.1))) (fun _ => rfl)).squeeze S31x31x128 squeezes_S1x31x31x128_S31x31x128).view fh)
/-- What copy 6 delivers: the padded map read through its window. -/
def slab6 (c : Dev nD) (i : grid0.Coords) (xt : TbBuf (F := F) c) (fh : HbBuf (F := F) c) (hfit : WindowsFit c i xt) : S31x31x128.Idx → Elt F .f32 :=
  ReadAs.same.apply (View.read (Elt F) ((hbM.slice (Rect.unit (s := S16x286x286x128) (k0_off28 (tbM.view.readAt (Elt F) (Rect.unit (s := S3x4096) (k0_off25 i) S1x1.size (k0_off25_inb i)).toLoadRect xt (Shape.Idx.first (numel1_S1x1.symm ▸ Nat.one_pos))) (tbM.view.readAt (Elt F) (Rect.unit (s := S3x4096) (k0_off26 i) S1x1.size (k0_off26_inb i)).toLoadRect xt (Shape.Idx.first (numel1_S1x1.symm ▸ Nat.one_pos))) (tbM.view.readAt (Elt F) (Rect.unit (s := S3x4096) (k0_off27 i) S1x1.size (k0_off27_inb i)).toLoadRect xt (Shape.Idx.first (numel1_S1x1.symm ▸ Nat.one_pos)))) S1x31x31x128.size (k0_off28_inb _ _ _ (hfit.2.2.2.2.2.2.1))) (fun _ => rfl)).squeeze S31x31x128 squeezes_S1x31x31x128_S31x31x128).view fh)
/-- What copy 7 delivers: the padded map read through its window. -/
def slab7 (c : Dev nD) (i : grid0.Coords) (xt : TbBuf (F := F) c) (fh : HbBuf (F := F) c) (hfit : WindowsFit c i xt) : S31x31x128.Idx → Elt F .f32 :=
  ReadAs.same.apply (View.read (Elt F) ((hbM.slice (Rect.unit (s := S16x286x286x128) (k0_off32 (tbM.view.readAt (Elt F) (Rect.unit (s := S3x4096) (k0_off29 i) S1x1.size (k0_off29_inb i)).toLoadRect xt (Shape.Idx.first (numel1_S1x1.symm ▸ Nat.one_pos))) (tbM.view.readAt (Elt F) (Rect.unit (s := S3x4096) (k0_off30 i) S1x1.size (k0_off30_inb i)).toLoadRect xt (Shape.Idx.first (numel1_S1x1.symm ▸ Nat.one_pos))) (tbM.view.readAt (Elt F) (Rect.unit (s := S3x4096) (k0_off31 i) S1x1.size (k0_off31_inb i)).toLoadRect xt (Shape.Idx.first (numel1_S1x1.symm ▸ Nat.one_pos)))) S1x31x31x128.size (k0_off32_inb _ _ _ (hfit.2.2.2.2.2.2.2.1))) (fun _ => rfl)).squeeze S31x31x128 squeezes_S1x31x31x128_S31x31x128).view fh)
/-- What copy 8 delivers: the padded map read through its window. -/
def slab8 (c : Dev nD) (i : grid0.Coords) (xt : TbBuf (F := F) c) (fh : HbBuf (F := F) c) (hfit : WindowsFit c i xt) : S31x31x128.Idx → Elt F .f32 :=
  ReadAs.same.apply (View.read (Elt F) ((hbM.slice (Rect.unit (s := S16x286x286x128) (k0_off36 (tbM.view.readAt (Elt F) (Rect.unit (s := S3x4096) (k0_off33 i) S1x1.size (k0_off33_inb i)).toLoadRect xt (Shape.Idx.first (numel1_S1x1.symm ▸ Nat.one_pos))) (tbM.view.readAt (Elt F) (Rect.unit (s := S3x4096) (k0_off34 i) S1x1.size (k0_off34_inb i)).toLoadRect xt (Shape.Idx.first (numel1_S1x1.symm ▸ Nat.one_pos))) (tbM.view.readAt (Elt F) (Rect.unit (s := S3x4096) (k0_off35 i) S1x1.size (k0_off35_inb i)).toLoadRect xt (Shape.Idx.first (numel1_S1x1.symm ▸ Nat.one_pos)))) S1x31x31x128.size (k0_off36_inb _ _ _ (hfit.2.2.2.2.2.2.2.2.1))) (fun _ => rfl)).squeeze S31x31x128 squeezes_S1x31x31x128_S31x31x128).view fh)
/-- What copy 9 delivers: the padded map read through its window. -/
def slab9 (c : Dev nD) (i : grid0.Coords) (xt : TbBuf (F := F) c) (fh : HbBuf (F := F) c) (hfit : WindowsFit c i xt) : S31x31x128.Idx → Elt F .f32 :=
  ReadAs.same.apply (View.read (Elt F) ((hbM.slice (Rect.unit (s := S16x286x286x128) (k0_off40 (tbM.view.readAt (Elt F) (Rect.unit (s := S3x4096) (k0_off37 i) S1x1.size (k0_off37_inb i)).toLoadRect xt (Shape.Idx.first (numel1_S1x1.symm ▸ Nat.one_pos))) (tbM.view.readAt (Elt F) (Rect.unit (s := S3x4096) (k0_off38 i) S1x1.size (k0_off38_inb i)).toLoadRect xt (Shape.Idx.first (numel1_S1x1.symm ▸ Nat.one_pos))) (tbM.view.readAt (Elt F) (Rect.unit (s := S3x4096) (k0_off39 i) S1x1.size (k0_off39_inb i)).toLoadRect xt (Shape.Idx.first (numel1_S1x1.symm ▸ Nat.one_pos)))) S1x31x31x128.size (k0_off40_inb _ _ _ (hfit.2.2.2.2.2.2.2.2.2.1))) (fun _ => rfl)).squeeze S31x31x128 squeezes_S1x31x31x128_S31x31x128).view fh)
/-- What copy 10 delivers: the padded map read through its window. -/
def slab10 (c : Dev nD) (i : grid0.Coords) (xt : TbBuf (F := F) c) (fh : HbBuf (F := F) c) (hfit : WindowsFit c i xt) : S31x31x128.Idx → Elt F .f32 :=
  ReadAs.same.apply (View.read (Elt F) ((hbM.slice (Rect.unit (s := S16x286x286x128) (k0_off44 (tbM.view.readAt (Elt F) (Rect.unit (s := S3x4096) (k0_off41 i) S1x1.size (k0_off41_inb i)).toLoadRect xt (Shape.Idx.first (numel1_S1x1.symm ▸ Nat.one_pos))) (tbM.view.readAt (Elt F) (Rect.unit (s := S3x4096) (k0_off42 i) S1x1.size (k0_off42_inb i)).toLoadRect xt (Shape.Idx.first (numel1_S1x1.symm ▸ Nat.one_pos))) (tbM.view.readAt (Elt F) (Rect.unit (s := S3x4096) (k0_off43 i) S1x1.size (k0_off43_inb i)).toLoadRect xt (Shape.Idx.first (numel1_S1x1.symm ▸ Nat.one_pos)))) S1x31x31x128.size (k0_off44_inb _ _ _ (hfit.2.2.2.2.2.2.2.2.2.2.1))) (fun _ => rfl)).squeeze S31x31x128 squeezes_S1x31x31x128_S31x31x128).view fh)
/-- What copy 11 delivers: the padded map read through its window. -/
def slab11 (c : Dev nD) (i : grid0.Coords) (xt : TbBuf (F := F) c) (fh : HbBuf (F := F) c) (hfit : WindowsFit c i xt) : S31x31x128.Idx → Elt F .f32 :=
  ReadAs.same.apply (View.read (Elt F) ((hbM.slice (Rect.unit (s := S16x286x286x128) (k0_off48 (tbM.view.readAt (Elt F) (Rect.unit (s := S3x4096) (k0_off45 i) S1x1.size (k0_off45_inb i)).toLoadRect xt (Shape.Idx.first (numel1_S1x1.symm ▸ Nat.one_pos))) (tbM.view.readAt (Elt F) (Rect.unit (s := S3x4096) (k0_off46 i) S1x1.size (k0_off46_inb i)).toLoadRect xt (Shape.Idx.first (numel1_S1x1.symm ▸ Nat.one_pos))) (tbM.view.readAt (Elt F) (Rect.unit (s := S3x4096) (k0_off47 i) S1x1.size (k0_off47_inb i)).toLoadRect xt (Shape.Idx.first (numel1_S1x1.symm ▸ Nat.one_pos)))) S1x31x31x128.size (k0_off48_inb _ _ _ (hfit.2.2.2.2.2.2.2.2.2.2.2.1))) (fun _ => rfl)).squeeze S31x31x128 squeezes_S1x31x31x128_S31x31x128).view fh)
/-- What copy 12 delivers: the padded map read through its window. -/
def slab12 (c : Dev nD) (i : grid0.Coords) (xt : TbBuf (F := F) c) (fh : HbBuf (F := F) c) (hfit : WindowsFit c i xt) : S31x31x128.Idx → Elt F .f32 :=
  ReadAs.same.apply (View.read (Elt F) ((hbM.slice (Rect.unit (s := S16x286x286x128) (k0_off52 (tbM.view.readAt (Elt F) (Rect.unit (s := S3x4096) (k0_off49 i) S1x1.size (k0_off49_inb i)).toLoadRect xt (Shape.Idx.first (numel1_S1x1.symm ▸ Nat.one_pos))) (tbM.view.readAt (Elt F) (Rect.unit (s := S3x4096) (k0_off50 i) S1x1.size (k0_off50_inb i)).toLoadRect xt (Shape.Idx.first (numel1_S1x1.symm ▸ Nat.one_pos))) (tbM.view.readAt (Elt F) (Rect.unit (s := S3x4096) (k0_off51 i) S1x1.size (k0_off51_inb i)).toLoadRect xt (Shape.Idx.first (numel1_S1x1.symm ▸ Nat.one_pos)))) S1x31x31x128.size (k0_off52_inb _ _ _ (hfit.2.2.2.2.2.2.2.2.2.2.2.2.1))) (fun _ => rfl)).squeeze S31x31x128 squeezes_S1x31x31x128_S31x31x128).view fh)
/-- What copy 13 delivers: the padded map read through its window. -/
def slab13 (c : Dev nD) (i : grid0.Coords) (xt : TbBuf (F := F) c) (fh : HbBuf (F := F) c) (hfit : WindowsFit c i xt) : S31x31x128.Idx → Elt F .f32 :=
  ReadAs.same.apply (View.read (Elt F) ((hbM.slice (Rect.unit (s := S16x286x286x128) (k0_off56 (tbM.view.readAt (Elt F) (Rect.unit (s := S3x4096) (k0_off53 i) S1x1.size (k0_off53_inb i)).toLoadRect xt (Shape.Idx.first (numel1_S1x1.symm ▸ Nat.one_pos))) (tbM.view.readAt (Elt F) (Rect.unit (s := S3x4096) (k0_off54 i) S1x1.size (k0_off54_inb i)).toLoadRect xt (Shape.Idx.first (numel1_S1x1.symm ▸ Nat.one_pos))) (tbM.view.readAt (Elt F) (Rect.unit (s := S3x4096) (k0_off55 i) S1x1.size (k0_off55_inb i)).toLoadRect xt (Shape.Idx.first (numel1_S1x1.symm ▸ Nat.one_pos)))) S1x31x31x128.size (k0_off56_inb _ _ _ (hfit.2.2.2.2.2.2.2.2.2.2.2.2.2.1))) (fun _ => rfl)).squeeze S31x31x128 squeezes_S1x31x31x128_S31x31x128).view fh)
/-- What copy 14 delivers: the padded map read through its window. -/
def slab14 (c : Dev nD) (i : grid0.Coords) (xt : TbBuf (F := F) c) (fh : HbBuf (F := F) c) (hfit : WindowsFit c i xt) : S31x31x128.Idx → Elt F .f32 :=
  ReadAs.same.apply (View.read (Elt F) ((hbM.slice (Rect.unit (s := S16x286x286x128) (k0_off60 (tbM.view.readAt (Elt F) (Rect.unit (s := S3x4096) (k0_off57 i) S1x1.size (k0_off57_inb i)).toLoadRect xt (Shape.Idx.first (numel1_S1x1.symm ▸ Nat.one_pos))) (tbM.view.readAt (Elt F) (Rect.unit (s := S3x4096) (k0_off58 i) S1x1.size (k0_off58_inb i)).toLoadRect xt (Shape.Idx.first (numel1_S1x1.symm ▸ Nat.one_pos))) (tbM.view.readAt (Elt F) (Rect.unit (s := S3x4096) (k0_off59 i) S1x1.size (k0_off59_inb i)).toLoadRect xt (Shape.Idx.first (numel1_S1x1.symm ▸ Nat.one_pos)))) S1x31x31x128.size (k0_off60_inb _ _ _ (hfit.2.2.2.2.2.2.2.2.2.2.2.2.2.2.1))) (fun _ => rfl)).squeeze S31x31x128 squeezes_S1x31x31x128_S31x31x128).view fh)
/-- What copy 15 delivers: the padded map read through its window. -/
def slab15 (c : Dev nD) (i : grid0.Coords) (xt : TbBuf (F := F) c) (fh : HbBuf (F := F) c) (hfit : WindowsFit c i xt) : S31x31x128.Idx → Elt F .f32 :=
  ReadAs.same.apply (View.read (Elt F) ((hbM.slice (Rect.unit (s := S16x286x286x128) (k0_off64 (tbM.view.readAt (Elt F) (Rect.unit (s := S3x4096) (k0_off61 i) S1x1.size (k0_off61_inb i)).toLoadRect xt (Shape.Idx.first (numel1_S1x1.symm ▸ Nat.one_pos))) (tbM.view.readAt (Elt F) (Rect.unit (s := S3x4096) (k0_off62 i) S1x1.size (k0_off62_inb i)).toLoadRect xt (Shape.Idx.first (numel1_S1x1.symm ▸ Nat.one_pos))) (tbM.view.readAt (Elt F) (Rect.unit (s := S3x4096) (k0_off63 i) S1x1.size (k0_off63_inb i)).toLoadRect xt (Shape.Idx.first (numel1_S1x1.symm ▸ Nat.one_pos)))) S1x31x31x128.size (k0_off64_inb _ _ _ (hfit.2.2.2.2.2.2.2.2.2.2.2.2.2.2.2.1))) (fun _ => rfl)).squeeze S31x31x128 squeezes_S1x31x31x128_S31x31x128).view fh)

/-- The three table words (batch, row, column) the body reads for copy `j` where it starts the copy. -/
def startWord (c : Dev nD) (i : grid0.Coords) (xt : TbBuf (F := F) c) : Fin 16 → Fin 3 → BitVec 32 :=
  ![![(tbM.view.readAt (Elt F) (Rect.unit (s := S3x4096) (k0_off1 i) S1x1.size (k0_off1_inb i)).toLoadRect xt (Shape.Idx.first (numel1_S1x1.symm ▸ Nat.one_pos))), (tbM.view.readAt (Elt F) (Rect.unit (s := S3x4096) (k0_off2 i) S1x1.size (k0_off2_inb i)).toLoadRect xt (Shape.Idx.first (numel1_S1x1.symm ▸ Nat.one_pos))), (tbM.view.readAt (Elt F) (Rect.unit (s := S3x4096) (k0_off3 i) S1x1.size (k0_off3_inb i)).toLoadRect xt (Shape.Idx.first (numel1_S1x1.symm ▸ Nat.one_pos)))],
    ![(tbM.view.readAt (Elt F) (Rect.unit (s := S3x4096) (k0_off5 i) S1x1.size (k0_off5_inb i)).toLoadRect xt (Shape.Idx.first (numel1_S1x1.symm ▸ Nat.one_pos))), (tbM.view.readAt (Elt F) (Rect.unit (s := S3x4096) (k0_off6 i) S1x1.size (k0_off6_inb i)).toLoadRect xt (Shape.Idx.first (numel1_S1x1.symm ▸ Nat.one_pos))), (tbM.view.readAt (Elt F) (Rect.unit (s := S3x4096) (k0_off7 i) S1x1.size (k0_off7_inb i)).toLoadRect xt (Shape.Idx.first (numel1_S1x1.symm ▸ Nat.one_pos)))],
    ![(tbM.view.readAt (Elt F) (Rect.unit (s := S3x4096) (k0_off9 i) S1x1.size (k0_off9_inb i)).toLoadRect xt (Shape.Idx.first (numel1_S1x1.symm ▸ Nat.one_pos))), (tbM.view.readAt (Elt F) (Rect.unit (s := S3x4096) (k0_off10 i) S1x1.size (k0_off10_inb i)).toLoadRect xt (Shape.Idx.first (numel1_S1x1.symm ▸ Nat.one_pos))), (tbM.view.readAt (Elt F) (Rect.unit (s := S3x4096) (k0_off11 i) S1x1.size (k0_off11_inb i)).toLoadRect xt (Shape.Idx.first (numel1_S1x1.symm ▸ Nat.one_pos)))],
    ![(tbM.view.readAt (Elt F) (Rect.unit (s := S3x4096) (k0_off13 i) S1x1.size (k0_off13_inb i)).toLoadRect xt (Shape.Idx.first (numel1_S1x1.symm ▸ Nat.one_pos))), (tbM.view.readAt (Elt F) (Rect.unit (s := S3x4096) (k0_off14 i) S1x1.size (k0_off14_inb i)).toLoadRect xt (Shape.Idx.first (numel1_S1x1.symm ▸ Nat.one_pos))), (tbM.view.readAt (Elt F) (Rect.unit (s := S3x4096) (k0_off15 i) S1x1.size (k0_off15_inb i)).toLoadRect xt (Shape.Idx.first (numel1_S1x1.symm ▸ Nat.one_pos)))],
    ![(tbM.view.readAt (Elt F) (Rect.unit (s := S3x4096) (k0_off17 i) S1x1.size (k0_off17_inb i)).toLoadRect xt (Shape.Idx.first (numel1_S1x1.symm ▸ Nat.one_pos))), (tbM.view.readAt (Elt F) (Rect.unit (s := S3x4096) (k0_off18 i) S1x1.size (k0_off18_inb i)).toLoadRect xt (Shape.Idx.first (numel1_S1x1.symm ▸ Nat.one_pos))), (tbM.view.readAt (Elt F) (Rect.unit (s := S3x4096) (k0_off19 i) S1x1.size (k0_off19_inb i)).toLoadRect xt (Shape.Idx.first (numel1_S1x1.symm ▸ Nat.one_pos)))],
    ![(tbM.view.readAt (Elt F) (Rect.unit (s := S3x4096) (k0_off21 i) S1x1.size (k0_off21_inb i)).toLoadRect xt (Shape.Idx.first (numel1_S1x1.symm ▸ Nat.one_pos))), (tbM.view.readAt (Elt F) (Rect.unit (s := S3x4096) (k0_off22 i) S1x1.size (k0_off22_inb i)).toLoadRect xt (Shape.Idx.first (numel1_S1x1.symm ▸ Nat.one_pos))), (tbM.view.readAt (Elt F) (Rect.unit (s := S3x4096) (k0_off23 i) S1x1.size (k0_off23_inb i)).toLoadRect xt (Shape.Idx.first (numel1_S1x1.symm ▸ Nat.one_pos)))],
    ![(tbM.view.readAt (Elt F) (Rect.unit (s := S3x4096) (k0_off25 i) S1x1.size (k0_off25_inb i)).toLoadRect xt (Shape.Idx.first (numel1_S1x1.symm ▸ Nat.one_pos))), (tbM.view.readAt (Elt F) (Rect.unit (s := S3x4096) (k0_off26 i) S1x1.size (k0_off26_inb i)).toLoadRect xt (Shape.Idx.first (numel1_S1x1.symm ▸ Nat.one_pos))), (tbM.view.readAt (Elt F) (Rect.unit (s := S3x4096) (k0_off27 i) S1x1.size (k0_off27_inb i)).toLoadRect xt (Shape.Idx.first (numel1_S1x1.symm ▸ Nat.one_pos)))],
    ![(tbM.view.readAt (Elt F) (Rect.unit (s := S3x4096) (k0_off29 i) S1x1.size (k0_off29_inb i)).toLoadRect xt (Shape.Idx.first (numel1_S1x1.symm ▸ Nat.one_pos))), (tbM.view.readAt (Elt F) (Rect.unit (s := S3x4096) (k0_off30 i) S1x1.size (k0_off30_inb i)).toLoadRect xt (Shape.Idx.first (numel1_S1x1.symm ▸ Nat.one_pos))), (tbM.view.readAt (Elt F) (Rect.unit (s := S3x4096) (k0_off31 i) S1x1.size (k0_off31_inb i)).toLoadRect xt (Shape.Idx.first (numel1_S1x1.symm ▸ Nat.one_pos)))],
    ![(tbM.view.readAt (Elt F) (Rect.unit (s := S3x4096) (k0_off33 i) S1x1.size (k0_off33_inb i)).toLoadRect xt (Shape.Idx.first (numel1_S1x1.symm ▸ Nat.one_pos))), (tbM.view.readAt (Elt F) (Rect.unit (s := S3x4096) (k0_off34 i) S1x1.size (k0_off34_inb i)).toLoadRect xt (Shape.Idx.first (numel1_S1x1.symm ▸ Nat.one_pos))), (tbM.view.readAt (Elt F) (Rect.unit (s := S3x4096) (k0_off35 i) S1x1.size (k0_off35_inb i)).toLoadRect xt (Shape.Idx.first (numel1_S1x1.symm ▸ Nat.one_pos)))],
    ![(tbM.view.readAt (Elt F) (Rect.unit (s := S3x4096) (k0_off37 i) S1x1.size (k0_off37_inb i)).toLoadRect xt (Shape.Idx.first (numel1_S1x1.symm ▸ Nat.one_pos))), (tbM.view.readAt (Elt F) (Rect.unit (s := S3x4096) (k0_off38 i) S1x1.size (k0_off38_inb i)).toLoadRect xt (Shape.Idx.first (numel1_S1x1.symm ▸ Nat.one_pos))), (tbM.view.readAt (Elt F) (Rect.unit (s := S3x4096) (k0_off39 i) S1x1.size (k0_off39_inb i)).toLoadRect xt (Shape.Idx.first (numel1_S1x1.symm ▸ Nat.one_pos)))],
    ![(tbM.view.readAt (Elt F) (Rect.unit (s := S3x4096) (k0_off41 i) S1x1.size (k0_off41_inb i)).toLoadRect xt (Shape.Idx.first (numel1_S1x1.symm ▸ Nat.one_pos))), (tbM.view.readAt (Elt F) (Rect.unit (s := S3x4096) (k0_off42 i) S1x1.size (k0_off42_inb i)).toLoadRect xt (Shape.Idx.first (numel1_S1x1.symm ▸ Nat.one_pos))), (tbM.view.readAt (Elt F) (Rect.unit (s := S3x4096) (k0_off43 i) S1x1.size (k0_off43_inb i)).toLoadRect xt (Shape.Idx.first (numel1_S1x1.symm ▸ Nat.one_pos)))],
    ![(tbM.view.readAt (Elt F) (Rect.unit (s := S3x4096) (k0_off45 i) S1x1.size (k0_off45_inb i)).toLoadRect xt (Shape.Idx.first (numel1_S1x1.symm ▸ Nat.one_pos))), (tbM.view.readAt (Elt F) (Rect.unit (s := S3x4096) (k0_off46 i) S1x1.size (k0_off46_inb i)).toLoadRect xt (Shape.Idx.first (numel1_S1x1.symm ▸ Nat.one_pos))), (tbM.view.readAt (Elt F) (Rect.unit (s := S3x4096) (k0_off47 i) S1x1.size (k0_off47_inb i)).toLoadRect xt (Shape.Idx.first (numel1_S1x1.symm ▸ Nat.one_pos)))],
    ![(tbM.view.readAt (Elt F) (Rect.unit (s := S3x4096) (k0_off49 i) S1x1.size (k0_off49_inb i)).toLoadRect xt (Shape.Idx.first (numel1_S1x1.symm ▸ Nat.one_pos))), (tbM.view.readAt (Elt F) (Rect.unit (s := S3x4096) (k0_off50 i) S1x1.size (k0_off50_inb i)).toLoadRect xt (Shape.Idx.first (numel1_S1x1.symm ▸ Nat.one_pos))), (tbM.view.readAt (Elt F) (Rect.unit (s := S3x4096) (k0_off51 i) S1x1.size (k0_off51_inb i)).toLoadRect xt (Shape.Idx.first (numel1_S1x1.symm ▸ Nat.one_pos)))],
    ![(tbM.view.readAt (Elt F) (Rect.unit (s := S3x4096) (k0_off53 i) S1x1.size (k0_off53_inb i)).toLoadRect xt (Shape.Idx.first (numel1_S1x1.symm ▸ Nat.one_pos))), (tbM.view.readAt (Elt F) (Rect.unit (s := S3x4096) (k0_off54 i) S1x1.size (k0_off54_inb i)).toLoadRect xt (Shape.Idx.first (numel1_S1x1.symm ▸ Nat.one_pos))), (tbM.view.readAt (Elt F) (Rect.unit (s := S3x4096) (k0_off55 i) S1x1.size (k0_off55_inb i)).toLoadRect xt (Shape.Idx.first (numel1_S1x1.symm ▸ Nat.one_pos)))],
    ![(tbM.view.readAt (Elt F) (Rect.unit (s := S3x4096) (k0_off57 i) S1x1.size (k0_off57_inb i)).toLoadRect xt (Shape.Idx.first (numel1_S1x1.symm ▸ Nat.one_pos))), (tbM.view.readAt (Elt F) (Rect.unit (s := S3x4096) (k0_off58 i) S1x1.size (k0_off58_inb i)).toLoadRect xt (Shape.Idx.first (numel1_S1x1.symm ▸ Nat.one_pos))), (tbM.view.readAt (Elt F) (Rect.unit (s := S3x4096) (k0_off59 i) S1x1.size (k0_off59_inb i)).toLoadRect xt (Shape.Idx.first (numel1_S1x1.symm ▸ Nat.one_pos)))],
    ![(tbM.view.readAt (Elt F) (Rect.unit (s := S3x4096) (k0_off61 i) S1x1.size (k0_off61_inb i)).toLoadRect xt (Shape.Idx.first (numel1_S1x1.symm ▸ Nat.one_pos))), (tbM.view.readAt (Elt F) (Rect.unit (s := S3x4096) (k0_off62 i) S1x1.size (k0_off62_inb i)).toLoadRect xt (Shape.Idx.first (numel1_S1x1.symm ▸ Nat.one_pos))), (tbM.view.readAt (Elt F) (Rect.unit (s := S3x4096) (k0_off63 i) S1x1.size (k0_off63_inb i)).toLoadRect xt (Shape.Idx.first (numel1_S1x1.symm ▸ Nat.one_pos)))]]

/-- The 16 deliveries by ROI. -/
def slabs (c : Dev nD) (i : grid0.Coords) (xt : TbBuf (F := F) c) (fh : HbBuf (F := F) c) (hfit : WindowsFit c i xt) : Fin 16 → S31x31x128.Idx → Elt F .f32 :=
  ![slab0 c i xt fh hfit, slab1 c i xt fh hfit, slab2 c i xt fh hfit, slab3 c i xt fh hfit, slab4 c i xt fh hfit, slab5 c i xt fh hfit, slab6 c i xt fh hfit, slab7 c i xt fh hfit, slab8 c i xt fh hfit, slab9 c i xt fh hfit, slab10 c i xt fh hfit, slab11 c i xt fh hfit, slab12 c i xt fh hfit, slab13 c i xt fh hfit, slab14 c i xt fh hfit, slab15 c i xt fh hfit]

/-- The landing buffer after the 16 copies, from contents `fs0`: slab j overwritten by delivery j. -/
def landed (c : Dev nD) (i : grid0.Coords) (xt : TbBuf (F := F) c) (fh : HbBuf (F := F) c) (hfit : WindowsFit c i xt)
    (fs0 : scM.view.ty.Contents (Elt F)) : scM.view.ty.Contents (Elt F) :=
  (View.write (Elt F) ((scM.slice (Rect.unit (s := S16x31x31x128) ![15, 0, 0, 0] S1x31x31x128.size inb_S16x31x31x128_S1x31x31x128_15_0_0_0) (fun _ => rfl)).squeeze S31x31x128 squeezes_S1x31x31x128_S31x31x128).view (View.write (Elt F) ((scM.slice (Rect.unit (s := S16x31x31x128) ![14, 0, 0, 0] S1x31x31x128.size inb_S16x31x31x128_S1x31x31x128_14_0_0_0) (fun _ => rfl)).squeeze S31x31x128 squeezes_S1x31x31x128_S31x31x128).view (View.write (Elt F) ((scM.slice (Rect.unit (s := S16x31x31x128) ![13, 0, 0, 0] S1x31x31x128.size inb_S16x31x31x128_S1x31x31x128_13_0_0_0) (fun _ => rfl)).squeeze S31x31x128 squeezes_S1x31x31x128_S31x31x128).view (View.write (Elt F) ((scM.slice (Rect.unit (s := S16x31x31x128) ![12, 0, 0, 0] S1x31x31x128.size inb_S16x31x31x128_S1x31x31x128_12_0_0_0) (fun _ => rfl)).squeeze S31x31x128 squeezes_S1x31x31x128_S31x31x128).view (View.write (Elt F) ((scM.slice (Rect.unit (s := S16x31x31x128) ![11, 0, 0, 0] S1x31x31x128.size inb_S16x31x31x128_S1x31x31x128_11_0_0_0) (fun _ => rfl)).squeeze S31x31x128 squeezes_S1x31x31x128_S31x31x128).view (View.write (Elt F) ((scM.slice (Rect.unit (s := S16x31x31x128) ![10, 0, 0, 0] S1x31x31x128.size inb_S16x31x31x128_S1x31x31x128_10_0_0_0) (fun _ => rfl)).squeeze S31x31x128 squeezes_S1x31x31x128_S31x31x128).view (View.write (Elt F) ((scM.slice (Rect.unit (s := S16x31x31x128) ![9, 0, 0, 0] S1x31x31x128.size inb_S16x31x31x128_S1x31x31x128_9_0_0_0) (fun _ => rfl)).squeeze S31x31x128 squeezes_S1x31x31x128_S31x31x128).view (View.write (Elt F) ((scM.slice (Rect.unit (s := S16x31x31x128) ![8, 0, 0, 0] S1x31x31x128.size inb_S16x31x31x128_S1x31x31x128_8_0_0_0) (fun _ => rfl)).squeeze S31x31x128 squeezes_S1x31x31x128_S31x31x128).view (View.write (Elt F) ((scM.slice (Rect.unit (s := S16x31x31x128) ![7, 0, 0, 0] S1x31x31x128.size inb_S16x31x31x128_S1x31x31x128_7_0_0_0) (fun _ => rfl)).squeeze S31x31x128 squeezes_S1x31x31x128_S31x31x128).view (View.write (Elt F) ((scM.slice (Rect.unit (s := S16x31x31x128) ![6, 0, 0, 0] S1x31x31x128.size inb_S16x31x31x128_S1x31x31x128_6_0_0_0) (fun _ => rfl)).squeeze S31x31x128 squeezes_S1x31x31x128_S31x31x128).view (View.write (Elt F) ((scM.slice (Rect.unit (s := S16x31x31x128) ![5, 0, 0, 0] S1x31x31x128.size inb_S16x31x31x128_S1x31x31x128_5_0_0_0) (fun _ => rfl)).squeeze S31x31x128 squeezes_S1x31x31x128_S31x31x128).view (View.write (Elt F) ((scM.slice (Rect.unit (s := S16x31x31x128) ![4, 0, 0, 0] S1x31x31x128.size inb_S16x31x31x128_S1x31x31x128_4_0_0_0) (fun _ => rfl)).squeeze S31x31x128 squeezes_S1x31x31x128_S31x31x128).view (View.write (Elt F) ((scM.slice (Rect.unit (s := S16x31x31x128) ![3, 0, 0, 0] S1x31x31x128.size inb_S16x31x31x128_S1x31x31x128_3_0_0_0) (fun _ => rfl)).squeeze S31x31x128 squeezes_S1x31x31x128_S31x31x128).view (View.write (Elt F) ((scM.slice (Rect.unit (s := S16x31x31x128) ![2, 0, 0, 0] S1x31x31x128.size inb_S16x31x31x128_S1x31x31x128_2_0_0_0) (fun _ => rfl)).squeeze S31x31x128 squeezes_S1x31x31x128_S31x31x128).view (View.write (Elt F) ((scM.slice (Rect.unit (s := S16x31x31x128) ![1, 0, 0, 0] S1x31x31x128.size inb_S16x31x31x128_S1x31x31x128_1_0_0_0) (fun _ => rfl)).squeeze S31x31x128 squeezes_S1x31x31x128_S31x31x128).view (View.write (Elt F) ((scM.slice (Rect.unit (s := S16x31x31x128) ![0, 0, 0, 0] S1x31x31x128.size inb_S16x31x31x128_S1x31x31x128_0_0_0_0) (fun _ => rfl)).squeeze S31x31x128 squeezes_S1x31x31x128_S31x31x128).view fs0 (slab0 c i xt fh hfit) Finset.univ) (slab1 c i xt fh hfit) Finset.univ) (slab2 c i xt fh hfit) Finset.univ) (slab3 c i xt fh hfit) Finset.univ) (slab4 c i xt fh hfit) Finset.univ) (slab5 c i xt fh hfit) Finset.univ) (slab6 c i xt fh hfit) Finset.univ) (slab7 c i xt fh hfit) Finset.univ) (slab8 c i xt fh hfit) Finset.univ) (slab9 c i xt fh hfit) Finset.univ) (slab10 c i xt fh hfit) Finset.univ) (slab11 c i xt fh hfit) Finset.univ) (slab12 c i xt fh hfit) Finset.univ) (slab13 c i xt fh hfit) Finset.univ) (slab14 c i xt fh hfit) Finset.univ) (slab15 c i xt fh hfit) Finset.univ)

/-- The output block of the point: row j is the first 32 channels of delivery j. -/
def blockSpec (c : Dev nD) (i : grid0.Coords) (xt : TbBuf (F := F) c) (fh : HbBuf (F := F) c) (hfit : WindowsFit c i xt) : Vec F S16x31x31x32 .f32 :=
  fun y => slabs c i xt fh hfit (y 0) (ValueIdx.ix3 (y 1) (y 2) (Fin.castLE (by decide) (y 3)))

end Cert.Kernel.Hand

end
-- ==== Proof.LibSlabs.lean ====
/-
  A [16, 31, 31, 128] buffer whose 16 slabs along axis 0 were each written whole reads back slab by
  slab; and a [16, 31, 31, 32] block written in two halves, rows 8 to 15 and rows 0 to 7, each half
  the first 32 channels of the same rows of such a buffer, reads back as the first 32 channels of
  the buffer, row by row.

  Slab j is written through the view "rows j to j + 1 of the buffer, the unit axis dropped": an
  unmasked write through it is the write through the [1, 31, 31, 128] rectangle at row j of the
  payload re-indexed by row-major position, and position ((0 · 31 + a) · 31 + b) · 128 + ch of the
  rectangle is position (a · 31 + b) · 128 + ch of the slab.  So a read of the buffer at
  (r, a, b, ch) after that write is the payload at (a, b, ch) when r = j and the earlier contents
  otherwise; sixteen such writes, one per row, leave at row r the payload of write r.

  Stated over any signature, memory space, element type and value family: nothing here computes
  with the elements.
-/
import Idealize.ShloMosaic.Lib.Writes
import Idealize.ShloMosaic.Lib.ValueIdx

noncomputable section

namespace Cert.Slabs

open Idealize.ShloMosaic Idealize.ShloMosaic.ValueIdx

/-- The buffer, one slab, one slab as a rectangle of the buffer, the output block, one half of it. -/
abbrev SBuf : Shape := ⟨4, ![16, 31, 31, 128]⟩
abbrev SSlab : Shape := ⟨3, ![31, 31, 128]⟩
abbrev SRow : Shape := ⟨4, ![1, 31, 31, 128]⟩
abbrev SBlk : Shape := ⟨4, ![16, 31, 31, 32]⟩
abbrev SHalf : Shape := ⟨4, ![8, 31, 31, 32]⟩

variable {sig : RefSig} {κ : Kind} {sp : Space} {e : EltTy} {Val : EltTy → Type}

/-- Index (a, b, ch) of a slab sits at the row-major position of index (0, a, b, ch) of the slab's
    rectangle: dropping the unit axis re-indexes nothing. -/
theorem reshape_row_symm (h : SSlab.numel = SRow.numel) (u : Fin 1) (a : Fin 31) (b : Fin 31) (ch : Fin 128) :
    (Shape.reshapeEquiv (s := SRow) (s' := SSlab) h).symm (ix4 u a b ch) = ix3 a b ch := by
  rw [Equiv.symm_apply_eq]
  refine (Shape.reshapeEquiv_eq_of_rowMajor h ?_).symm
  rw [Shape.rowMajor_val_four, Shape.rowMajor_val_three]
  have hu : u.val = 0 := by omega
  show ((u.val * 31 + a.val) * 31 + b.val) * 128 + ch.val = (a.val * 31 + b.val) * 128 + ch.val
  rw [hu]; omega

/-- One slab written whole: the buffer read at (r, a, b, ch) afterwards is the payload at (a, b, ch)
    when r = j, and what it held before otherwise. -/
theorem read_write_slab (M : Memref sig κ sp SBuf e) (j : ℕ)
    (inb : ∀ a, (![j, 0, 0, 0] : Fin 4 → ℕ) a + SRow.size a ≤ SBuf.size a) (hsq : SRow.Squeezes SSlab)
    (g : M.view.ty.Contents Val) (w : SSlab.Idx → Val e) (y : SBuf.Idx) :
    M.view.read Val (View.write Val ((M.slice (Rect.unit (s := SBuf) ![j, 0, 0, 0] SRow.size inb) (fun _ => rfl)).squeeze SSlab hsq).view
        g w Finset.univ) y
      = if (y 0).val = j then w (ix3 (y 1) (y 2) (y 3)) else M.view.read Val g y := by
  have hy0 : (y 0).val < 16 := (y 0).isLt
  have hy1 : (y 1).val < 31 := (y 1).isLt
  have hy2 : (y 2).val < 31 := (y 2).isLt
  have hy3 : (y 3).val < 128 := (y 3).isLt
  -- the squeezed slice is the rectangle's view re-indexed by row-major position
  show M.view.read Val (View.write Val ((M.view.slice (Rect.unit (s := SBuf) ![j, 0, 0, 0] SRow.size inb)).reshape SSlab hsq.numel_eq)
    g w Finset.univ) y = _
  rw [View.write_reshape_univ]
  by_cases hy : (y 0).val = j
  · rw [if_pos hy]
    -- y is index (0, y 1, y 2, y 3) of the rectangle
    have hyx : (Rect.unit (s := SBuf) ![j, 0, 0, 0] SRow.size inb).emb (ix4 (0 : Fin 1) (⟨(y 1).val, hy1⟩ : Fin 31)
        (⟨(y 2).val, hy2⟩ : Fin 31) (⟨(y 3).val, hy3⟩ : Fin 128)) = y := by
      funext a
      refine Fin.ext ?_
      match a with
      | ⟨0, _⟩ => show j + 1 * 0 = (y 0).val; omega
      | ⟨1, _⟩ => show 0 + 1 * (y 1).val = (y 1).val; omega
      | ⟨2, _⟩ => show 0 + 1 * (y 2).val = (y 2).val; omega
      | ⟨3, _⟩ => show 0 + 1 * (y 3).val = (y 3).val; omega
    refine (congrArg (M.view.read Val _) hyx.symm).trans ?_
    rw [View.read_slice_write_emb _ g _ (Finset.mem_univ _)]
    exact congrArg w (reshape_row_symm hsq.numel_eq 0 _ _ _)
  · rw [if_neg hy]
    refine View.read_slice_write_of_not_mem _ g _ _ ?_
    rw [Rect.map_emb_univ, Rect.mem_set_unit]
    intro hmem
    have h0 : j ≤ (y 0).val ∧ (y 0).val < j + 1 := hmem (0 : Fin 4)
    omega

/-- A chain of sixteen tests "row = 15, else row = 14, …, else row = 0" picks the entry of the row. -/
theorem pick_row {γ β : Type} (r : Fin 16) (p0 p1 p2 p3 p4 p5 p6 p7 p8 p9 p10 p11 p12 p13 p14 p15 : γ → β) (t : γ) (d : β) :
    (if r.val = 15 then p15 t else if r.val = 14 then p14 t else if r.val = 13 then p13 t else if r.val = 12 then p12 t
      else if r.val = 11 then p11 t else if r.val = 10 then p10 t else if r.val = 9 then p9 t else if r.val = 8 then p8 t
      else if r.val = 7 then p7 t else if r.val = 6 then p6 t else if r.val = 5 then p5 t else if r.val = 4 then p4 t
      else if r.val = 3 then p3 t else if r.val = 2 then p2 t else if r.val = 1 then p1 t else if r.val = 0 then p0 t else d)
      = ![p0, p1, p2, p3, p4, p5, p6, p7, p8, p9, p10, p11, p12, p13, p14, p15] r t := by
  fin_cases r <;> rfl

/-- Sixteen slabs written whole, slab j with payload j: the buffer read at (r, a, b, ch) afterwards is
    payload r at (a, b, ch), whatever it held before. -/
theorem read_slabs16 (M : Memref sig κ sp SBuf e)
    (h0 : ∀ a, (![0, 0, 0, 0] : Fin 4 → ℕ) a + SRow.size a ≤ SBuf.size a)
    (h1 : ∀ a, (![1, 0, 0, 0] : Fin 4 → ℕ) a + SRow.size a ≤ SBuf.size a)
    (h2 : ∀ a, (![2, 0, 0, 0] : Fin 4 → ℕ) a + SRow.size a ≤ SBuf.size a)
    (h3 : ∀ a, (![3, 0, 0, 0] : Fin 4 → ℕ) a + SRow.size a ≤ SBuf.size a)
    (h4 : ∀ a, (![4, 0, 0, 0] : Fin 4 → ℕ) a + SRow.size a ≤ SBuf.size a)
    (h5 : ∀ a, (![5, 0, 0, 0] : Fin 4 → ℕ) a + SRow.size a ≤ SBuf.size a)
    (h6 : ∀ a, (![6, 0, 0, 0] : Fin 4 → ℕ) a + SRow.size a ≤ SBuf.size a)
    (h7 : ∀ a, (![7, 0, 0, 0] : Fin 4 → ℕ) a + SRow.size a ≤ SBuf.size a)
    (h8 : ∀ a, (![8, 0, 0, 0] : Fin 4 → ℕ) a + SRow.size a ≤ SBuf.size a)
    (h9 : ∀ a, (![9, 0, 0, 0] : Fin 4 → ℕ) a + SRow.size a ≤ SBuf.size a)
    (h10 : ∀ a, (![10, 0, 0, 0] : Fin 4 → ℕ) a + SRow.size a ≤ SBuf.size a)
    (h11 : ∀ a, (![11, 0, 0, 0] : Fin 4 → ℕ) a + SRow.size a ≤ SBuf.size a)
    (h12 : ∀ a, (![12, 0, 0, 0] : Fin 4 → ℕ) a + SRow.size a ≤ SBuf.size a)
    (h13 : ∀ a, (![13, 0, 0, 0] : Fin 4 → ℕ) a + SRow.size a ≤ SBuf.size a)
    (h14 : ∀ a, (![14, 0, 0, 0] : Fin 4 → ℕ) a + SRow.size a ≤ SBuf.size a)
    (h15 : ∀ a, (![15, 0, 0, 0] : Fin 4 → ℕ) a + SRow.size a ≤ SBuf.size a)
    (hsq : SRow.Squeezes SSlab) (g : M.view.ty.Contents Val)
    (p0 p1 p2 p3 p4 p5 p6 p7 p8 p9 p10 p11 p12 p13 p14 p15 : SSlab.Idx → Val e) (y : SBuf.Idx) :
    M.view.read Val
      (View.write Val ((M.slice (Rect.unit (s := SBuf) ![15, 0, 0, 0] SRow.size h15) (fun _ => rfl)).squeeze SSlab hsq).view
      (View.write Val ((M.slice (Rect.unit (s := SBuf) ![14, 0, 0, 0] SRow.size h14) (fun _ => rfl)).squeeze SSlab hsq).view
      (View.write Val ((M.slice (Rect.unit (s := SBuf) ![13, 0, 0, 0] SRow.size h13) (fun _ => rfl)).squeeze SSlab hsq).view
      (View.write Val ((M.slice (Rect.unit (s := SBuf) ![12, 0, 0, 0] SRow.size h12) (fun _ => rfl)).squeeze SSlab hsq).view
      (View.write Val ((M.slice (Rect.unit (s := SBuf) ![11, 0, 0, 0] SRow.size h11) (fun _ => rfl)).squeeze SSlab hsq).view
      (View.write Val ((M.slice (Rect.unit (s := SBuf) ![10, 0, 0, 0] SRow.size h10) (fun _ => rfl)).squeeze SSlab hsq).view
      (View.write Val ((M.slice (Rect.unit (s := SBuf) ![9, 0, 0, 0] SRow.size h9) (fun _ => rfl)).squeeze SSlab hsq).view
      (View.write Val ((M.slice (Rect.unit (s := SBuf) ![8, 0, 0, 0] SRow.size h8) (fun _ => rfl)).squeeze SSlab hsq).view
      (View.write Val ((M.slice (Rect.unit (s := SBuf) ![7, 0, 0, 0] SRow.size h7) (fun _ => rfl)).squeeze SSlab hsq).view
      (View.write Val ((M.slice (Rect.unit (s := SBuf) ![6, 0, 0, 0] SRow.size h6) (fun _ => rfl)).squeeze SSlab hsq).view
      (View.write Val ((M.slice (Rect.unit (s := SBuf) ![5, 0, 0, 0] SRow.size h5) (fun _ => rfl)).squeeze SSlab hsq).view
      (View.write Val ((M.slice (Rect.unit (s := SBuf) ![4, 0, 0, 0] SRow.size h4) (fun _ => rfl)).squeeze SSlab hsq).view
      (View.write Val ((M.slice (Rect.unit (s := SBuf) ![3, 0, 0, 0] SRow.size h3) (fun _ => rfl)).squeeze SSlab hsq).view
      (View.write Val ((M.slice (Rect.unit (s := SBuf) ![2, 0, 0, 0] SRow.size h2) (fun _ => rfl)).squeeze SSlab hsq).view
      (View.write Val ((M.slice (Rect.unit (s := SBuf) ![1, 0, 0, 0] SRow.size h1) (fun _ => rfl)).squeeze SSlab hsq).view
      (View.write Val ((M.slice (Rect.unit (s := SBuf) ![0, 0, 0, 0] SRow.size h0) (fun _ => rfl)).squeeze SSlab hsq).view
      g p0 Finset.univ) p1 Finset.univ) p2 Finset.univ) p3 Finset.univ) p4 Finset.univ) p5 Finset.univ) p6 Finset.univ) p7 Finset.univ) p8 Finset.univ) p9 Finset.univ) p10 Finset.univ) p11 Finset.univ) p12 Finset.univ) p13 Finset.univ) p14 Finset.univ) p15 Finset.univ) y
      = ![p0, p1, p2, p3, p4, p5, p6, p7, p8, p9, p10, p11, p12, p13, p14, p15] (y 0) (ix3 (y 1) (y 2) (y 3)) := by
  rw [read_write_slab M 15 h15 hsq,
    read_write_slab M 14 h14 hsq,
    read_write_slab M 13 h13 hsq,
    read_write_slab M 12 h12 hsq,
    read_write_slab M 11 h11 hsq,
    read_write_slab M 10 h10 hsq,
    read_write_slab M 9 h9 hsq,
    read_write_slab M 8 h8 hsq,
    read_write_slab M 7 h7 hsq,
    read_write_slab M 6 h6 hsq,
    read_write_slab M 5 h5 hsq,
    read_write_slab M 4 h4 hsq,
    read_write_slab M 3 h3 hsq,
    read_write_slab M 2 h2 hsq,
    read_write_slab M 1 h1 hsq,
    read_write_slab M 0 h0 hsq]
  exact pick_row (y 0) p0 p1 p2 p3 p4 p5 p6 p7 p8 p9 p10 p11 p12 p13 p14 p15 (ix3 (y 1) (y 2) (y 3)) _

/-- The map the windows are cut from. -/
abbrev SMap : Shape := ⟨4, ![16, 286, 286, 128]⟩

/-- A [1, 31, 31, 128] window of a [16, 286, 286, 128] buffer, the unit axis dropped, reads at
    (a, b, ch) the buffer at (off 0, off 1 + a, off 2 + b, off 3 + ch). -/
theorem read_window (M : Memref sig κ sp SMap e) (off : Fin 4 → ℕ)
    (inb : ∀ a, off a + SRow.size a ≤ SMap.size a) (hsq : SRow.Squeezes SSlab)
    (f : M.view.ty.Contents Val) (x : SSlab.Idx) (k : SMap.Idx)
    (h0 : (k 0).val = off 0) (h1 : (k 1).val = off 1 + (x 0).val) (h2 : (k 2).val = off 2 + (x 1).val)
    (h3 : (k 3).val = off 3 + (x 2).val) :
    View.read Val ((M.slice (Rect.unit (s := SMap) off SRow.size inb) (fun _ => rfl)).squeeze SSlab hsq).view f x
      = M.view.read Val f k := by
  -- the squeezed window places (a, b, ch) where the rectangle places (0, a, b, ch)
  have hx0 : (x 0).val < 31 := (x 0).isLt
  have hx1 : (x 1).val < 31 := (x 1).isLt
  have hx2 : (x 2).val < 128 := (x 2).isLt
  have hz : Shape.reshapeEquiv (s := SRow) (s' := SSlab) hsq.numel_eq x
      = ix4 (0 : Fin 1) (⟨(x 0).val, hx0⟩ : Fin 31) (⟨(x 1).val, hx1⟩ : Fin 31) (⟨(x 2).val, hx2⟩ : Fin 128) := by
    rw [Equiv.apply_eq_iff_eq_symm_apply, reshape_row_symm]
    exact eq_ix3 x
  show M.view.read Val f ((Rect.unit (s := SMap) off SRow.size inb).emb (Shape.reshapeEquiv (s := SRow) (s' := SSlab) hsq.numel_eq x)) = _
  rw [hz]
  refine congrArg (M.view.read Val f) (funext fun a => Fin.ext ?_)
  match a with
  | ⟨0, _⟩ => show off 0 + 1 * 0 = (k 0).val; omega
  | ⟨1, _⟩ => show off 1 + 1 * (x 0).val = (k 1).val; omega
  | ⟨2, _⟩ => show off 2 + 1 * (x 1).val = (k 2).val; omega
  | ⟨3, _⟩ => show off 3 + 1 * (x 2).val = (k 3).val; omega

/-- A [16, 31, 31, 32] block written in two halves, rows 8 to 15 and then rows 0 to 7, each half what
    a [16, 31, 31, 128] buffer reads through the box of the same rows and the first 32 channels: the
    block read at (r, a, b, ch) afterwards is the buffer at (r, a, b, ch). -/
theorem read_halves {sigA sigB : RefSig} {κA κB : Kind} {spA spB : Space}
    (A : View sigA κA spA SBlk e) (f1 : A.ty.Contents Val) (B : View sigB κB spB SBuf e) (g : B.ty.Contents Val)
    (i8 : ∀ a, (![8, 0, 0, 0] : Fin 4 → ℕ) a + SHalf.size a ≤ SBlk.size a)
    (i8' : ∀ a, (![8, 0, 0, 0] : Fin 4 → ℕ) a + SHalf.size a ≤ SBuf.size a)
    (i0 : ∀ a, (![0, 0, 0, 0] : Fin 4 → ℕ) a + SHalf.size a ≤ SBlk.size a)
    (i0' : ∀ a, (![0, 0, 0, 0] : Fin 4 → ℕ) a + SHalf.size a ≤ SBuf.size a) (y : SBlk.Idx) :
    A.read Val (A.writes Val f1
      [⟨Rect.unit (s := SBlk) ![8, 0, 0, 0] SHalf.size i8,
          View.readAt Val B (Rect.unit (s := SBuf) ![8, 0, 0, 0] SHalf.size i8').toLoadRect g⟩,
        ⟨Rect.unit (s := SBlk) ![0, 0, 0, 0] SHalf.size i0,
          View.readAt Val B (Rect.unit (s := SBuf) ![0, 0, 0, 0] SHalf.size i0').toLoadRect g⟩]) y
      = B.read Val g (ix4 (y 0) (y 1) (y 2) (Fin.castLE (by decide) (y 3))) := by
  have hy0 : (y 0).val < 16 := (y 0).isLt
  have hy1 : (y 1).val < 31 := (y 1).isLt
  have hy2 : (y 2).val < 31 := (y 2).isLt
  have hy3 : (y 3).val < 32 := (y 3).isLt
  refine View.read_writes_apply_of_pieces A f1
    (fun y' : SBlk.Idx => B.read Val g (ix4 (y' 0) (y' 1) (y' 2) (Fin.castLE (by decide) (y' 3)))) _ ?_ y ?_
  · -- each half is the block of that one function
    intro p hp x
    rcases List.mem_cons.mp hp with rfl | hp
    · refine congrArg (B.read Val g) (funext fun a => Fin.ext ?_)
      match a with
      | ⟨0, _⟩ => rfl
      | ⟨1, _⟩ => rfl
      | ⟨2, _⟩ => rfl
      | ⟨3, _⟩ => rfl
    · rcases List.mem_cons.mp hp with rfl | hp
      · refine congrArg (B.read Val g) (funext fun a => Fin.ext ?_)
        match a with
        | ⟨0, _⟩ => rfl
        | ⟨1, _⟩ => rfl
        | ⟨2, _⟩ => rfl
        | ⟨3, _⟩ => rfl
      · exact absurd hp List.not_mem_nil
  · -- the two halves cover the block
    by_cases hr : (y 0).val < 8
    · refine ⟨_, List.mem_cons_of_mem _ List.mem_cons_self, ?_⟩
      rw [Rect.mem_set_unit]
      intro a
      match a with
      | ⟨0, _⟩ => show 0 ≤ (y 0).val ∧ (y 0).val < 0 + 8; omega
      | ⟨1, _⟩ => show 0 ≤ (y 1).val ∧ (y 1).val < 0 + 31; omega
      | ⟨2, _⟩ => show 0 ≤ (y 2).val ∧ (y 2).val < 0 + 31; omega
      | ⟨3, _⟩ => show 0 ≤ (y 3).val ∧ (y 3).val < 0 + 32; omega
    · refine ⟨_, List.mem_cons_self, ?_⟩
      rw [Rect.mem_set_unit]
      intro a
      match a with
      | ⟨0, _⟩ => show 8 ≤ (y 0).val ∧ (y 0).val < 8 + 8; omega
      | ⟨1, _⟩ => show 0 ≤ (y 1).val ∧ (y 1).val < 0 + 31; omega
      | ⟨2, _⟩ => show 0 ≤ (y 2).val ∧ (y 2).val < 0 + 31; omega
      | ⟨3, _⟩ => show 0 ≤ (y 3).val ∧ (y 3).val < 0 + 32; omega

end Cert.Slabs

end
-- ==== Proof.RoiSpec.lean ====
/-
  The mathematics shared by both sides of the certificate.

  An ROI crop: for each of 4096 centres (b, y, x) the output holds the 31 x 31 x 32 window of a
  feature map [16, 256, 256, 32] centred at (y, x) in batch b, zero outside the map.

  The kernel reads it as a plain window of the ZERO-PADDED map (15 zero rows/columns on each side,
  channels padded to 128): window row i of a centre at y starts at padded row y + i, which is map
  row y + i - 15.  The reference reads the map itself at the clipped position and masks positions
  outside the map to zero.  For a centre inside the map the two agree, entry by entry.
-/
import Idealize.ShloMosaic.PureOps.Ideal
import Idealize.ShloMosaic.Lib.ValueIdx

noncomputable section

namespace Cert.Roi

open Idealize.ShloMosaic Idealize.ShloMosaic.ValueIdx

abbrev SPose : Shape := ⟨4, ![16, 256, 256, 32]⟩
abbrev SPad : Shape := ⟨4, ![16, 286, 286, 128]⟩
abbrev SCen : Shape := ⟨2, ![4096, 3]⟩
abbrev STab : Shape := ⟨2, ![3, 4096]⟩
abbrev SOut : Shape := ⟨4, ![4096, 31, 31, 32]⟩

/-- An index of the padded map from four naturals (each reduced into its axis; the identity on
    naturals already in range). -/
def padIdx (b y x ch : ℕ) : SPad.Idx := ix4 (Fin.ofNat 16 b) (Fin.ofNat 286 y) (Fin.ofNat 286 x) (Fin.ofNat 128 ch)

/-- An index of the map from four naturals, likewise. -/
def poseIdx (b y x ch : ℕ) : SPose.Idx := ix4 (Fin.ofNat 16 b) (Fin.ofNat 256 y) (Fin.ofNat 256 x) (Fin.ofNat 32 ch)

/-- Row `k` (0: batch, 1: y, 2: x) of the transposed centre table at ROI `n`, as a natural. -/
def tabAt (tb : STab.Idx → BitVec 32) (k : Fin 3) (n : ℕ) : ℕ := (tb (ix2 k (Fin.ofNat 4096 n))).toNat

/-- Column `k` of the centre array at ROI `n`, as a natural. -/
def cenAt (cn : SCen.Idx → BitVec 32) (n : ℕ) (k : Fin 3) : ℕ := (cn (ix2 (Fin.ofNat 4096 n) k)).toNat

/-- What the kernel writes: entry (n, i, j, ch) is the padded map at
    (table[0, n], table[1, n] + i, table[2, n] + j, ch). -/
def windowRead {α : Type} (pd : SPad.Idx → α) (tb : STab.Idx → BitVec 32) : SOut.Idx → α := fun o =>
  pd (padIdx (tabAt tb 0 (o 0).val) (tabAt tb 1 (o 0).val + (o 1).val) (tabAt tb 2 (o 0).val + (o 2).val) (o 3).val)

/-- The crop, stated on the map itself: entry (n, i, j, ch) is the map at
    (b, y + i - 15, x + j - 15, ch) when that position lies inside the map, and `z` (zero) otherwise. -/
def crop {α : Type} (z : α) (p : SPose.Idx → α) (cn : SCen.Idx → BitVec 32) : SOut.Idx → α := fun o =>
  let b := cenAt cn (o 0).val 0
  let y := cenAt cn (o 0).val 1 + (o 1).val
  let x := cenAt cn (o 0).val 2 + (o 2).val
  if 15 ≤ y ∧ y < 271 ∧ 15 ≤ x ∧ x < 271 then p (poseIdx b (y - 15) (x - 15) (o 3).val) else z

/-- The centres lie inside the map: batch below 16, row and column below 256 (as unsigned words,
    which for a signed word says 0 ≤ · as well). -/
def InMap (cn : SCen.Idx → BitVec 32) : Prop :=
  ∀ n : Fin 4096, cenAt cn n.val 0 < 16 ∧ cenAt cn n.val 1 < 256 ∧ cenAt cn n.val 2 < 256

/-- The zero-padded map: the map at (b, y - 15, x - 15, ch) inside the band and on the first 32
    channels, `z` elsewhere. -/
def padded {α : Type} (z : α) (p : SPose.Idx → α) : SPad.Idx → α := fun q =>
  if 15 ≤ (q 1).val ∧ (q 1).val < 271 ∧ 15 ≤ (q 2).val ∧ (q 2).val < 271 ∧ (q 3).val < 32
  then p (poseIdx (q 0).val ((q 1).val - 15) ((q 2).val - 15) (q 3).val) else z

/-- The transposed table of the centres themselves (no clamp). -/
def tableOf (cn : SCen.Idx → BitVec 32) : STab.Idx → BitVec 32 := fun i => cn (ix2 (i 1) (i 0))

end Cert.Roi

end
-- ==== Proof.K.Pieces.lean ====
/-
  What the body's stores leave in the output block, and what each copy delivers.

  The landing buffer [16, 31, 31, 128] is written by 16 copies, copy j overwriting slab j whole, so it
  reads back slab by slab (`landed_read`).  The output block [16, 31, 31, 32] is then stored in two
  halves, rows 8 to 15 and rows 0 to 7, each the first 32 channels of the same rows of the landing
  buffer; the halves tile the block, so the block reads back as row r = the first 32 channels of
  delivery r, which is the block the point is specified to write (`pieces_read`).  Delivery j is the
  padded map read through a [1, 31, 31, 128] window with origin (w0, w1, w2, 0), the unit axis
  dropped: at (a, b, ch) the map's contents at (w0, w1 + a, w2 + b, ch); the window fits inside the
  map, so reducing these coordinates into the map's shape changes nothing (`slab_read`).
-/
import proofs.«429989_j27960237097553_3_alg».proof.Proof.K.RunDefs
import proofs.«429989_j27960237097553_3_alg».proof.Proof.LibSlabs
import proofs.«429989_j27960237097553_3_alg».proof.Proof.RoiSpec
import Idealize.ShloMosaic.Lib.Writes
import Idealize.ShloMosaic.Lib.ValueIdx

set_option maxRecDepth 16384

noncomputable section

namespace Cert.Kernel.Hand

open Idealize.ShloMosaic Idealize.ShloMosaic.TcCoe
open Idealize.SL Idealize.SL.RA Idealize.SL.BI
open scoped Idealize.SL.BI
open Idealize.SL.BI.BIBase Idealize.SL.Sem
open Cert.Kernel Cert.Kernel.Gen

variable {F : FTy → Type} [FloatOps F]

/-- The landing buffer after the 16 copies reads, at (r, a, b, ch), delivery r at (a, b, ch): each copy
    overwrites its own slab whole and no other. -/
theorem landed_read (c : Dev nD) (i : grid0.Coords) (xt : TbBuf (F := F) c) (fh : HbBuf (F := F) c)
    (hfit : WindowsFit c i xt) (fs0 : scM.view.ty.Contents (Elt F)) (y : S16x31x31x128.Idx) :
    scM.view.read (Elt F) (landed c i xt fh hfit fs0) y
      = slabs c i xt fh hfit (y 0) (ValueIdx.ix3 (y 1) (y 2) (y 3)) := by
  unfold landed slabs
  exact Cert.Slabs.read_slabs16 scM _ _ _ _ _ _ _ _ _ _ _ _ _ _ _ _ _ fs0 _ _ _ _ _ _ _ _ _ _ _ _ _ _ _ _ y

/-- The output block after its two stores (rows 8 to 15, then rows 0 to 7, each the first 32 channels
    of the same rows of the landing buffer) is the block the point is specified to write. -/
theorem pieces_read (c : Dev nD) (i : grid0.Coords) (arg3 : Memref sig .tc .vmem S16x31x31x32 .f32)
    (f1 : arg3.view.ty.Contents (Elt F)) (xt : TbBuf (F := F) c) (fh : HbBuf (F := F) c) (hfit : WindowsFit c i xt)
    (fs0 : scM.view.ty.Contents (Elt F)) :
    arg3.view.read (Elt F) (arg3.view.writes (Elt F) f1
      [⟨Rect.unit (s := S16x31x31x32) ![8, 0, 0, 0] S8x31x31x32.size inb_S16x31x31x32_S8x31x31x32_8_0_0_0,
          View.readAt (Elt F) scM.view (Rect.unit (s := S16x31x31x128) ![8, 0, 0, 0] S8x31x31x32.size inb_S16x31x31x128_S8x31x31x32_8_0_0_0).toLoadRect (landed c i xt fh hfit fs0)⟩,
        ⟨Rect.unit (s := S16x31x31x32) ![0, 0, 0, 0] S8x31x31x32.size inb_S16x31x31x32_S8x31x31x32_0_0_0_0,
          View.readAt (Elt F) scM.view (Rect.unit (s := S16x31x31x128) ![0, 0, 0, 0] S8x31x31x32.size inb_S16x31x31x128_S8x31x31x32_0_0_0_0).toLoadRect (landed c i xt fh hfit fs0)⟩])
    = blockSpec c i xt fh hfit := by
  funext y
  refine (Cert.Slabs.read_halves arg3.view f1 scM.view (landed c i xt fh hfit fs0) _ _ _ _ y).trans ?_
  rw [landed_read]
  rfl

/-- One delivery: the padded map read through the window whose origin is (w0, w1, w2, 0), the unit axis
    dropped, is the map's contents at (w0, w1 + a, w2 + b, ch); the window fits, so no coordinate wraps. -/
theorem window_read (c : Dev nD) (w0 w1 w2 : BitVec 32)
    (inb : ∀ a, (![w0.toNat, w1.toNat, w2.toNat, 0] : Fin 4 → ℕ) a + S1x31x31x128.size a ≤ S16x286x286x128.size a)
    (fh : HbBuf (F := F) c) (x : S31x31x128.Idx) :
    ReadAs.same.apply (View.read (Elt F) ((hbM.slice (Rect.unit (s := S16x286x286x128) ![w0.toNat, w1.toNat, w2.toNat, 0]
        S1x31x31x128.size inb) (fun _ => rfl)).squeeze S31x31x128 squeezes_S1x31x31x128_S31x31x128).view fh) x
      = (fh : S16x286x286x128.Idx → Elt F .f32) (Cert.Roi.padIdx w0.toNat (w1.toNat + (x 0).val) (w2.toNat + (x 1).val) (x 2).val) := by
  have hx0 : (x 0).val < 31 := (x 0).isLt
  have hx1 : (x 1).val < 31 := (x 1).isLt
  have hx2 : (x 2).val < 128 := (x 2).isLt
  have i0 : w0.toNat + 1 ≤ 16 := inb (0 : Fin 4)
  have i1 : w1.toNat + 31 ≤ 286 := inb (1 : Fin 4)
  have i2 : w2.toNat + 31 ≤ 286 := inb (2 : Fin 4)
  exact Cert.Slabs.read_window hbM _ inb squeezes_S1x31x31x128_S31x31x128 fh x
    (Cert.Roi.padIdx w0.toNat (w1.toNat + (x 0).val) (w2.toNat + (x 1).val) (x 2).val)
    (Nat.mod_eq_of_lt (by omega)) (Nat.mod_eq_of_lt (by omega)) (Nat.mod_eq_of_lt (by omega))
    ((Nat.mod_eq_of_lt hx2).trans (Nat.zero_add _).symm)

/-- Delivery j at (a, b, ch) is the padded map at (w0, w1 + a, w2 + b, ch), (w0, w1, w2) the three table
    words copy j reads. -/
theorem slab_read (c : Dev nD) (i : grid0.Coords) (xt : TbBuf (F := F) c) (fh : HbBuf (F := F) c) (hfit : WindowsFit c i xt) (j : Fin 16) (x : S31x31x128.Idx) :
    slabs c i xt fh hfit j x = (fh : S16x286x286x128.Idx → Elt F .f32) (Cert.Roi.padIdx (startWord c i xt j 0).toNat ((startWord c i xt j 1).toNat + (x 0).val) ((startWord c i xt j 2).toNat + (x 1).val) (x 2).val) := by
  match j with
  | ⟨0, h⟩ =>
    show slab0 c i xt fh hfit x = _
    exact window_read c (startWord c i xt ⟨0, h⟩ 0) (startWord c i xt ⟨0, h⟩ 1) (startWord c i xt ⟨0, h⟩ 2) _ fh x
  | ⟨1, h⟩ =>
    show slab1 c i xt fh hfit x = _
    exact window_read c (startWord c i xt ⟨1, h⟩ 0) (startWord c i xt ⟨1, h⟩ 1) (startWord c i xt ⟨1, h⟩ 2) _ fh x
  | ⟨2, h⟩ =>
    show slab2 c i xt fh hfit x = _
    exact window_read c (startWord c i xt ⟨2, h⟩ 0) (startWord c i xt ⟨2, h⟩ 1) (startWord c i xt ⟨2, h⟩ 2) _ fh x
  | ⟨3, h⟩ =>
    show slab3 c i xt fh hfit x = _
    exact window_read c (startWord c i xt ⟨3, h⟩ 0) (startWord c i xt ⟨3, h⟩ 1) (startWord c i xt ⟨3, h⟩ 2) _ fh x
  | ⟨4, h⟩ =>
    show slab4 c i xt fh hfit x = _
    exact window_read c (startWord c i xt ⟨4, h⟩ 0) (startWord c i xt ⟨4, h⟩ 1) (startWord c i xt ⟨4, h⟩ 2) _ fh x
  | ⟨5, h⟩ =>
    show slab5 c i xt fh hfit x = _
    exact window_read c (startWord c i xt ⟨5, h⟩ 0) (startWord c i xt ⟨5, h⟩ 1) (startWord c i xt ⟨5, h⟩ 2) _ fh x
  | ⟨6, h⟩ =>
    show slab6 c i xt fh hfit x = _
    exact window_read c (startWord c i xt ⟨6, h⟩ 0) (startWord c i xt ⟨6, h⟩ 1) (startWord c i xt ⟨6, h⟩ 2) _ fh x
  | ⟨7, h⟩ =>
    show slab7 c i xt fh hfit x = _
    exact window_read c (startWord c i xt ⟨7, h⟩ 0) (startWord c i xt ⟨7, h⟩ 1) (startWord c i xt ⟨7, h⟩ 2) _ fh x
  | ⟨8, h⟩ =>
    show slab8 c i xt fh hfit x = _
    exact window_read c (startWord c i xt ⟨8, h⟩ 0) (startWord c i xt ⟨8, h⟩ 1) (startWord c i xt ⟨8, h⟩ 2) _ fh x
  | ⟨9, h⟩ =>
    show slab9 c i xt fh hfit x = _
    exact window_read c (startWord c i xt ⟨9, h⟩ 0) (startWord c i xt ⟨9, h⟩ 1) (startWord c i xt ⟨9, h⟩ 2) _ fh x
  | ⟨10, h⟩ =>
    show slab10 c i xt fh hfit x = _
    exact window_read c (startWord c i xt ⟨10, h⟩ 0) (startWord c i xt ⟨10, h⟩ 1) (startWord c i xt ⟨10, h⟩ 2) _ fh x
  | ⟨11, h⟩ =>
    show slab11 c i xt fh hfit x = _
    exact window_read c (startWord c i xt ⟨11, h⟩ 0) (startWord c i xt ⟨11, h⟩ 1) (startWord c i xt ⟨11, h⟩ 2) _ fh x
  | ⟨12, h⟩ =>
    show slab12 c i xt fh hfit x = _
    exact window_read c (startWord c i xt ⟨12, h⟩ 0) (startWord c i xt ⟨12, h⟩ 1) (startWord c i xt ⟨12, h⟩ 2) _ fh x
  | ⟨13, h⟩ =>
    show slab13 c i xt fh hfit x = _
    exact window_read c (startWord c i xt ⟨13, h⟩ 0) (startWord c i xt ⟨13, h⟩ 1) (startWord c i xt ⟨13, h⟩ 2) _ fh x
  | ⟨14, h⟩ =>
    show slab14 c i xt fh hfit x = _
    exact window_read c (startWord c i xt ⟨14, h⟩ 0) (startWord c i xt ⟨14, h⟩ 1) (startWord c i xt ⟨14, h⟩ 2) _ fh x
  | ⟨15, h⟩ =>
    show slab15 c i xt fh hfit x = _
    exact window_read c (startWord c i xt ⟨15, h⟩ 0) (startWord c i xt ⟨15, h⟩ 1) (startWord c i xt ⟨15, h⟩ 2) _ fh x
  | ⟨n + 16, h⟩ => exact absurd h (by omega)

end Cert.Kernel.Hand

end
-- ==== Proof.K.Run.lean ====
/-
  One grid point of the gather kernel, run symbolically.

  At point t the body reads, for each of its 16 ROIs, the three table words (batch, row, column) of
  ROI 16 t + j and starts a copy of the [31, 31, 128] window of the padded map at that origin into
  slab j of its landing buffer, each copy on a semaphore of its own; it then waits for copies 0 to 7
  and stores the first 32 channels of slabs 0 to 7 into rows 0 to 7 of the output block, and
  likewise for 8 to 15.  All 16 windows are in flight at once and may overlap in the padded map, so
  the map is held as one read share per semaphore: each copy borrows the share of its own semaphore
  and its wait returns it.  Each copy lends only its own slab of the landing buffer, so the others
  can be issued while it flies.
-/
import proofs.«429989_j27960237097553_3_alg».proof.Proof.K.Pieces
import proofs.«429989_j27960237097553_3_alg».proof.Proof.Gen.Kernel.Skeleton
import Idealize.ShloMosaic.Lib.Pipeline.FrameBody
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

set_option sl_exec.dmaWindow true in
set_option sl_exec.dmaWindowSet true in
set_option maxHeartbeats 8000000 in
/-- The body at point `i`, from: the output block's buffer and the landing buffer at any contents, the table's
    half, the 16 semaphores at zero, the padded map's read shares, the core owing nothing.  It ends holding all of
    them again — the landing buffer at some contents, the semaphores at zero, the shares whole — and the output
    block's buffer at `blockSpec`: the symbolic run stores two pieces (rows 8 to 15, then rows 0 to 7 in the
    order it lists them), each a read of the landing buffer after the 16 deliveries, and these are the block's
    rows (`pieces_read`). -/
theorem gatherRun (c : Dev nD) (i : grid0.Coords) (arg3 : Memref sig .tc .vmem S16x31x31x32 .f32) (harg3 : arg3.IsWhole)
    (xt : TbBuf (F := F) c) (fh : HbBuf (F := F) c) (hfit : WindowsFit c i xt) (W : Waits sig Unit) (K : PUnit → sProp 𝕄) :
    iprop((∃ d, owns (c : Thread nD τ) arg3 fullShare d) ∗ (∃ d, owns (c : Thread nD τ) scM fullShare d) ∗ tbPt c xt
        ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0
        ∗ hbRest c fh ∗ hbTok c (0 : Fin 18) fh ∗ hbTok c (1 : Fin 18) fh ∗ hbTok c (2 : Fin 18) fh ∗ hbTok c (3 : Fin 18) fh ∗ hbTok c (4 : Fin 18) fh ∗ hbTok c (5 : Fin 18) fh ∗ hbTok c (6 : Fin 18) fh ∗ hbTok c (7 : Fin 18) fh ∗ hbTok c (8 : Fin 18) fh ∗ hbTok c (9 : Fin 18) fh ∗ hbTok c (10 : Fin 18) fh ∗ hbTok c (11 : Fin 18) fh ∗ hbTok c (12 : Fin 18) fh ∗ hbTok c (13 : Fin 18) fh ∗ hbTok c (14 : Fin 18) fh ∗ hbTok c (15 : Fin 18) fh ∗ hbTok c (16 : Fin 18) fh ∗ hbTok c (17 : Fin 18) fh
        ∗ owes (c : Thread nD τ) 0 W
        ∗ (iprop(owns (c : Thread nD τ) arg3 fullShare (blockSpec c i xt fh hfit) ∗ (∃ d, owns (c : Thread nD τ) scM fullShare d) ∗ tbPt c xt
            ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0
            ∗ hbRest c fh ∗ hbTok c (0 : Fin 18) fh ∗ hbTok c (1 : Fin 18) fh ∗ hbTok c (2 : Fin 18) fh ∗ hbTok c (3 : Fin 18) fh ∗ hbTok c (4 : Fin 18) fh ∗ hbTok c (5 : Fin 18) fh ∗ hbTok c (6 : Fin 18) fh ∗ hbTok c (7 : Fin 18) fh ∗ hbTok c (8 : Fin 18) fh ∗ hbTok c (9 : Fin 18) fh ∗ hbTok c (10 : Fin 18) fh ∗ hbTok c (11 : Fin 18) fh ∗ hbTok c (12 : Fin 18) fh ∗ hbTok c (13 : Fin 18) fh ∗ hbTok c (14 : Fin 18) fh ∗ hbTok c (15 : Fin 18) fh ∗ hbTok c (16 : Fin 18) fh ∗ hbTok c (17 : Fin 18) fh
            ∗ (∃ W', owes (c : Thread nD τ) 0 W')) -∗ K ⟨⟩))
      ⊢ wp frame (wpE (defs₀ (F := F)) Variants.none c none) Set.univ (cc0__gather_kernel i tbM htbM hbM hhbM arg3 harg3 scM hscM cc0_scratch1) K := by
  have k0_hw1 : k0_chk1 (tbM.view.readAt (Elt F) (Rect.unit (s := S3x4096) (k0_off1 i) S1x1.size (k0_off1_inb i)).toLoadRect xt (Shape.Idx.first (numel1_S1x1.symm ▸ Nat.one_pos))) (tbM.view.readAt (Elt F) (Rect.unit (s := S3x4096) (k0_off2 i) S1x1.size (k0_off2_inb i)).toLoadRect xt (Shape.Idx.first (numel1_S1x1.symm ▸ Nat.one_pos))) (tbM.view.readAt (Elt F) (Rect.unit (s := S3x4096) (k0_off3 i) S1x1.size (k0_off3_inb i)).toLoadRect xt (Shape.Idx.first (numel1_S1x1.symm ▸ Nat.one_pos))) := hfit.1
  have k0_hw2 : k0_chk2 (tbM.view.readAt (Elt F) (Rect.unit (s := S3x4096) (k0_off5 i) S1x1.size (k0_off5_inb i)).toLoadRect xt (Shape.Idx.first (numel1_S1x1.symm ▸ Nat.one_pos))) (tbM.view.readAt (Elt F) (Rect.unit (s := S3x4096) (k0_off6 i) S1x1.size (k0_off6_inb i)).toLoadRect xt (Shape.Idx.first (numel1_S1x1.symm ▸ Nat.one_pos))) (tbM.view.readAt (Elt F) (Rect.unit (s := S3x4096) (k0_off7 i) S1x1.size (k0_off7_inb i)).toLoadRect xt (Shape.Idx.first (numel1_S1x1.symm ▸ Nat.one_pos))) := hfit.2.1
  have k0_hw3 : k0_chk3 (tbM.view.readAt (Elt F) (Rect.unit (s := S3x4096) (k0_off9 i) S1x1.size (k0_off9_inb i)).toLoadRect xt (Shape.Idx.first (numel1_S1x1.symm ▸ Nat.one_pos))) (tbM.view.readAt (Elt F) (Rect.unit (s := S3x4096) (k0_off10 i) S1x1.size (k0_off10_inb i)).toLoadRect xt (Shape.Idx.first (numel1_S1x1.symm ▸ Nat.one_pos))) (tbM.view.readAt (Elt F) (Rect.unit (s := S3x4096) (k0_off11 i) S1x1.size (k0_off11_inb i)).toLoadRect xt (Shape.Idx.first (numel1_S1x1.symm ▸ Nat.one_pos))) := hfit.2.2.1
  have k0_hw4 : k0_chk4 (tbM.view.readAt (Elt F) (Rect.unit (s := S3x4096) (k0_off13 i) S1x1.size (k0_off13_inb i)).toLoadRect xt (Shape.Idx.first (numel1_S1x1.symm ▸ Nat.one_pos))) (tbM.view.readAt (Elt F) (Rect.unit (s := S3x4096) (k0_off14 i) S1x1.size (k0_off14_inb i)).toLoadRect xt (Shape.Idx.first (numel1_S1x1.symm ▸ Nat.one_pos))) (tbM.view.readAt (Elt F) (Rect.unit (s := S3x4096) (k0_off15 i) S1x1.size (k0_off15_inb i)).toLoadRect xt (Shape.Idx.first (numel1_S1x1.symm ▸ Nat.one_pos))) := hfit.2.2.2.1
  have k0_hw5 : k0_chk5 (tbM.view.readAt (Elt F) (Rect.unit (s := S3x4096) (k0_off17 i) S1x1.size (k0_off17_inb i)).toLoadRect xt (Shape.Idx.first (numel1_S1x1.symm ▸ Nat.one_pos))) (tbM.view.readAt (Elt F) (Rect.unit (s := S3x4096) (k0_off18 i) S1x1.size (k0_off18_inb i)).toLoadRect xt (Shape.Idx.first (numel1_S1x1.symm ▸ Nat.one_pos))) (tbM.view.readAt (Elt F) (Rect.unit (s := S3x4096) (k0_off19 i) S1x1.size (k0_off19_inb i)).toLoadRect xt (Shape.Idx.first (numel1_S1x1.symm ▸ Nat.one_pos))) := hfit.2.2.2.2.1
  have k0_hw6 : k0_chk6 (tbM.view.readAt (Elt F) (Rect.unit (s := S3x4096) (k0_off21 i) S1x1.size (k0_off21_inb i)).toLoadRect xt (Shape.Idx.first (numel1_S1x1.symm ▸ Nat.one_pos))) (tbM.view.readAt (Elt F) (Rect.unit (s := S3x4096) (k0_off22 i) S1x1.size (k0_off22_inb i)).toLoadRect xt (Shape.Idx.first (numel1_S1x1.symm ▸ Nat.one_pos))) (tbM.view.readAt (Elt F) (Rect.unit (s := S3x4096) (k0_off23 i) S1x1.size (k0_off23_inb i)).toLoadRect xt (Shape.Idx.first (numel1_S1x1.symm ▸ Nat.one_pos))) := hfit.2.2.2.2.2.1
  have k0_hw7 : k0_chk7 (tbM.view.readAt (Elt F) (Rect.unit (s := S3x4096) (k0_off25 i) S1x1.size (k0_off25_inb i)).toLoadRect xt (Shape.Idx.first (numel1_S1x1.symm ▸ Nat.one_pos))) (tbM.view.readAt (Elt F) (Rect.unit (s := S3x4096) (k0_off26 i) S1x1.size (k0_off26_inb i)).toLoadRect xt (Shape.Idx.first (numel1_S1x1.symm ▸ Nat.one_pos))) (tbM.view.readAt (Elt F) (Rect.unit (s := S3x4096) (k0_off27 i) S1x1.size (k0_off27_inb i)).toLoadRect xt (Shape.Idx.first (numel1_S1x1.symm ▸ Nat.one_pos))) := hfit.2.2.2.2.2.2.1
  have k0_hw8 : k0_chk8 (tbM.view.readAt (Elt F) (Rect.unit (s := S3x4096) (k0_off29 i) S1x1.size (k0_off29_inb i)).toLoadRect xt (Shape.Idx.first (numel1_S1x1.symm ▸ Nat.one_pos))) (tbM.view.readAt (Elt F) (Rect.unit (s := S3x4096) (k0_off30 i) S1x1.size (k0_off30_inb i)).toLoadRect xt (Shape.Idx.first (numel1_S1x1.symm ▸ Nat.one_pos))) (tbM.view.readAt (Elt F) (Rect.unit (s := S3x4096) (k0_off31 i) S1x1.size (k0_off31_inb i)).toLoadRect xt (Shape.Idx.first (numel1_S1x1.symm ▸ Nat.one_pos))) := hfit.2.2.2.2.2.2.2.1
  have k0_hw9 : k0_chk9 (tbM.view.readAt (Elt F) (Rect.unit (s := S3x4096) (k0_off33 i) S1x1.size (k0_off33_inb i)).toLoadRect xt (Shape.Idx.first (numel1_S1x1.symm ▸ Nat.one_pos))) (tbM.view.readAt (Elt F) (Rect.unit (s := S3x4096) (k0_off34 i) S1x1.size (k0_off34_inb i)).toLoadRect xt (Shape.Idx.first (numel1_S1x1.symm ▸ Nat.one_pos))) (tbM.view.readAt (Elt F) (Rect.unit (s := S3x4096) (k0_off35 i) S1x1.size (k0_off35_inb i)).toLoadRect xt (Shape.Idx.first (numel1_S1x1.symm ▸ Nat.one_pos))) := hfit.2.2.2.2.2.2.2.2.1
  have k0_hw10 : k0_chk10 (tbM.view.readAt (Elt F) (Rect.unit (s := S3x4096) (k0_off37 i) S1x1.size (k0_off37_inb i)).toLoadRect xt (Shape.Idx.first (numel1_S1x1.symm ▸ Nat.one_pos))) (tbM.view.readAt (Elt F) (Rect.unit (s := S3x4096) (k0_off38 i) S1x1.size (k0_off38_inb i)).toLoadRect xt (Shape.Idx.first (numel1_S1x1.symm ▸ Nat.one_pos))) (tbM.view.readAt (Elt F) (Rect.unit (s := S3x4096) (k0_off39 i) S1x1.size (k0_off39_inb i)).toLoadRect xt (Shape.Idx.first (numel1_S1x1.symm ▸ Nat.one_pos))) := hfit.2.2.2.2.2.2.2.2.2.1
  have k0_hw11 : k0_chk11 (tbM.view.readAt (Elt F) (Rect.unit (s := S3x4096) (k0_off41 i) S1x1.size (k0_off41_inb i)).toLoadRect xt (Shape.Idx.first (numel1_S1x1.symm ▸ Nat.one_pos))) (tbM.view.readAt (Elt F) (Rect.unit (s := S3x4096) (k0_off42 i) S1x1.size (k0_off42_inb i)).toLoadRect xt (Shape.Idx.first (numel1_S1x1.symm ▸ Nat.one_pos))) (tbM.view.readAt (Elt F) (Rect.unit (s := S3x4096) (k0_off43 i) S1x1.size (k0_off43_inb i)).toLoadRect xt (Shape.Idx.first (numel1_S1x1.symm ▸ Nat.one_pos))) := hfit.2.2.2.2.2.2.2.2.2.2.1
  have k0_hw12 : k0_chk12 (tbM.view.readAt (Elt F) (Rect.unit (s := S3x4096) (k0_off45 i) S1x1.size (k0_off45_inb i)).toLoadRect xt (Shape.Idx.first (numel1_S1x1.symm ▸ Nat.one_pos))) (tbM.view.readAt (Elt F) (Rect.unit (s := S3x4096) (k0_off46 i) S1x1.size (k0_off46_inb i)).toLoadRect xt (Shape.Idx.first (numel1_S1x1.symm ▸ Nat.one_pos))) (tbM.view.readAt (Elt F) (Rect.unit (s := S3x4096) (k0_off47 i) S1x1.size (k0_off47_inb i)).toLoadRect xt (Shape.Idx.first (numel1_S1x1.symm ▸ Nat.one_pos))) := hfit.2.2.2.2.2.2.2.2.2.2.2.1
  have k0_hw13 : k0_chk13 (tbM.view.readAt (Elt F) (Rect.unit (s := S3x4096) (k0_off49 i) S1x1.size (k0_off49_inb i)).toLoadRect xt (Shape.Idx.first (numel1_S1x1.symm ▸ Nat.one_pos))) (tbM.view.readAt (Elt F) (Rect.unit (s := S3x4096) (k0_off50 i) S1x1.size (k0_off50_inb i)).toLoadRect xt (Shape.Idx.first (numel1_S1x1.symm ▸ Nat.one_pos))) (tbM.view.readAt (Elt F) (Rect.unit (s := S3x4096) (k0_off51 i) S1x1.size (k0_off51_inb i)).toLoadRect xt (Shape.Idx.first (numel1_S1x1.symm ▸ Nat.one_pos))) := hfit.2.2.2.2.2.2.2.2.2.2.2.2.1
  have k0_hw14 : k0_chk14 (tbM.view.readAt (Elt F) (Rect.unit (s := S3x4096) (k0_off53 i) S1x1.size (k0_off53_inb i)).toLoadRect xt (Shape.Idx.first (numel1_S1x1.symm ▸ Nat.one_pos))) (tbM.view.readAt (Elt F) (Rect.unit (s := S3x4096) (k0_off54 i) S1x1.size (k0_off54_inb i)).toLoadRect xt (Shape.Idx.first (numel1_S1x1.symm ▸ Nat.one_pos))) (tbM.view.readAt (Elt F) (Rect.unit (s := S3x4096) (k0_off55 i) S1x1.size (k0_off55_inb i)).toLoadRect xt (Shape.Idx.first (numel1_S1x1.symm ▸ Nat.one_pos))) := hfit.2.2.2.2.2.2.2.2.2.2.2.2.2.1
  have k0_hw15 : k0_chk15 (tbM.view.readAt (Elt F) (Rect.unit (s := S3x4096) (k0_off57 i) S1x1.size (k0_off57_inb i)).toLoadRect xt (Shape.Idx.first (numel1_S1x1.symm ▸ Nat.one_pos))) (tbM.view.readAt (Elt F) (Rect.unit (s := S3x4096) (k0_off58 i) S1x1.size (k0_off58_inb i)).toLoadRect xt (Shape.Idx.first (numel1_S1x1.symm ▸ Nat.one_pos))) (tbM.view.readAt (Elt F) (Rect.unit (s := S3x4096) (k0_off59 i) S1x1.size (k0_off59_inb i)).toLoadRect xt (Shape.Idx.first (numel1_S1x1.symm ▸ Nat.one_pos))) := hfit.2.2.2.2.2.2.2.2.2.2.2.2.2.2.1
  have k0_hw16 : k0_chk16 (tbM.view.readAt (Elt F) (Rect.unit (s := S3x4096) (k0_off61 i) S1x1.size (k0_off61_inb i)).toLoadRect xt (Shape.Idx.first (numel1_S1x1.symm ▸ Nat.one_pos))) (tbM.view.readAt (Elt F) (Rect.unit (s := S3x4096) (k0_off62 i) S1x1.size (k0_off62_inb i)).toLoadRect xt (Shape.Idx.first (numel1_S1x1.symm ▸ Nat.one_pos))) (tbM.view.readAt (Elt F) (Rect.unit (s := S3x4096) (k0_off63 i) S1x1.size (k0_off63_inb i)).toLoadRect xt (Shape.Idx.first (numel1_S1x1.symm ▸ Nat.one_pos))) := hfit.2.2.2.2.2.2.2.2.2.2.2.2.2.2.2.1
  have k0_hw17 : k0_chk17 (tbM.view.readAt (Elt F) (Rect.unit (s := S3x4096) (k0_off65 i) S1x1.size (k0_off65_inb i)).toLoadRect xt (Shape.Idx.first (numel1_S1x1.symm ▸ Nat.one_pos))) (tbM.view.readAt (Elt F) (Rect.unit (s := S3x4096) (k0_off66 i) S1x1.size (k0_off66_inb i)).toLoadRect xt (Shape.Idx.first (numel1_S1x1.symm ▸ Nat.one_pos))) (tbM.view.readAt (Elt F) (Rect.unit (s := S3x4096) (k0_off67 i) S1x1.size (k0_off67_inb i)).toLoadRect xt (Shape.Idx.first (numel1_S1x1.symm ▸ Nat.one_pos))) := hfit.2.2.2.2.2.2.2.2.2.2.2.2.2.2.2.2.1
  have k0_hw18 : k0_chk18 (tbM.view.readAt (Elt F) (Rect.unit (s := S3x4096) (k0_off69 i) S1x1.size (k0_off69_inb i)).toLoadRect xt (Shape.Idx.first (numel1_S1x1.symm ▸ Nat.one_pos))) (tbM.view.readAt (Elt F) (Rect.unit (s := S3x4096) (k0_off70 i) S1x1.size (k0_off70_inb i)).toLoadRect xt (Shape.Idx.first (numel1_S1x1.symm ▸ Nat.one_pos))) (tbM.view.readAt (Elt F) (Rect.unit (s := S3x4096) (k0_off71 i) S1x1.size (k0_off71_inb i)).toLoadRect xt (Shape.Idx.first (numel1_S1x1.symm ▸ Nat.one_pos))) := hfit.2.2.2.2.2.2.2.2.2.2.2.2.2.2.2.2.2.1
  have k0_hw19 : k0_chk19 (tbM.view.readAt (Elt F) (Rect.unit (s := S3x4096) (k0_off73 i) S1x1.size (k0_off73_inb i)).toLoadRect xt (Shape.Idx.first (numel1_S1x1.symm ▸ Nat.one_pos))) (tbM.view.readAt (Elt F) (Rect.unit (s := S3x4096) (k0_off74 i) S1x1.size (k0_off74_inb i)).toLoadRect xt (Shape.Idx.first (numel1_S1x1.symm ▸ Nat.one_pos))) (tbM.view.readAt (Elt F) (Rect.unit (s := S3x4096) (k0_off75 i) S1x1.size (k0_off75_inb i)).toLoadRect xt (Shape.Idx.first (numel1_S1x1.symm ▸ Nat.one_pos))) := hfit.2.2.2.2.2.2.2.2.2.2.2.2.2.2.2.2.2.2.1
  have k0_hw20 : k0_chk20 (tbM.view.readAt (Elt F) (Rect.unit (s := S3x4096) (k0_off77 i) S1x1.size (k0_off77_inb i)).toLoadRect xt (Shape.Idx.first (numel1_S1x1.symm ▸ Nat.one_pos))) (tbM.view.readAt (Elt F) (Rect.unit (s := S3x4096) (k0_off78 i) S1x1.size (k0_off78_inb i)).toLoadRect xt (Shape.Idx.first (numel1_S1x1.symm ▸ Nat.one_pos))) (tbM.view.readAt (Elt F) (Rect.unit (s := S3x4096) (k0_off79 i) S1x1.size (k0_off79_inb i)).toLoadRect xt (Shape.Idx.first (numel1_S1x1.symm ▸ Nat.one_pos))) := hfit.2.2.2.2.2.2.2.2.2.2.2.2.2.2.2.2.2.2.2.1
  have k0_hw21 : k0_chk21 (tbM.view.readAt (Elt F) (Rect.unit (s := S3x4096) (k0_off81 i) S1x1.size (k0_off81_inb i)).toLoadRect xt (Shape.Idx.first (numel1_S1x1.symm ▸ Nat.one_pos))) (tbM.view.readAt (Elt F) (Rect.unit (s := S3x4096) (k0_off82 i) S1x1.size (k0_off82_inb i)).toLoadRect xt (Shape.Idx.first (numel1_S1x1.symm ▸ Nat.one_pos))) (tbM.view.readAt (Elt F) (Rect.unit (s := S3x4096) (k0_off83 i) S1x1.size (k0_off83_inb i)).toLoadRect xt (Shape.Idx.first (numel1_S1x1.symm ▸ Nat.one_pos))) := hfit.2.2.2.2.2.2.2.2.2.2.2.2.2.2.2.2.2.2.2.2.1
  have k0_hw22 : k0_chk22 (tbM.view.readAt (Elt F) (Rect.unit (s := S3x4096) (k0_off85 i) S1x1.size (k0_off85_inb i)).toLoadRect xt (Shape.Idx.first (numel1_S1x1.symm ▸ Nat.one_pos))) (tbM.view.readAt (Elt F) (Rect.unit (s := S3x4096) (k0_off86 i) S1x1.size (k0_off86_inb i)).toLoadRect xt (Shape.Idx.first (numel1_S1x1.symm ▸ Nat.one_pos))) (tbM.view.readAt (Elt F) (Rect.unit (s := S3x4096) (k0_off87 i) S1x1.size (k0_off87_inb i)).toLoadRect xt (Shape.Idx.first (numel1_S1x1.symm ▸ Nat.one_pos))) := hfit.2.2.2.2.2.2.2.2.2.2.2.2.2.2.2.2.2.2.2.2.2.1
  have k0_hw23 : k0_chk23 (tbM.view.readAt (Elt F) (Rect.unit (s := S3x4096) (k0_off89 i) S1x1.size (k0_off89_inb i)).toLoadRect xt (Shape.Idx.first (numel1_S1x1.symm ▸ Nat.one_pos))) (tbM.view.readAt (Elt F) (Rect.unit (s := S3x4096) (k0_off90 i) S1x1.size (k0_off90_inb i)).toLoadRect xt (Shape.Idx.first (numel1_S1x1.symm ▸ Nat.one_pos))) (tbM.view.readAt (Elt F) (Rect.unit (s := S3x4096) (k0_off91 i) S1x1.size (k0_off91_inb i)).toLoadRect xt (Shape.Idx.first (numel1_S1x1.symm ▸ Nat.one_pos))) := hfit.2.2.2.2.2.2.2.2.2.2.2.2.2.2.2.2.2.2.2.2.2.2.1
  have k0_hw24 : k0_chk24 (tbM.view.readAt (Elt F) (Rect.unit (s := S3x4096) (k0_off93 i) S1x1.size (k0_off93_inb i)).toLoadRect xt (Shape.Idx.first (numel1_S1x1.symm ▸ Nat.one_pos))) (tbM.view.readAt (Elt F) (Rect.unit (s := S3x4096) (k0_off94 i) S1x1.size (k0_off94_inb i)).toLoadRect xt (Shape.Idx.first (numel1_S1x1.symm ▸ Nat.one_pos))) (tbM.view.readAt (Elt F) (Rect.unit (s := S3x4096) (k0_off95 i) S1x1.size (k0_off95_inb i)).toLoadRect xt (Shape.Idx.first (numel1_S1x1.symm ▸ Nat.one_pos))) := hfit.2.2.2.2.2.2.2.2.2.2.2.2.2.2.2.2.2.2.2.2.2.2.2.1
  have k0_hw25 : k0_chk25 (tbM.view.readAt (Elt F) (Rect.unit (s := S3x4096) (k0_off97 i) S1x1.size (k0_off97_inb i)).toLoadRect xt (Shape.Idx.first (numel1_S1x1.symm ▸ Nat.one_pos))) (tbM.view.readAt (Elt F) (Rect.unit (s := S3x4096) (k0_off98 i) S1x1.size (k0_off98_inb i)).toLoadRect xt (Shape.Idx.first (numel1_S1x1.symm ▸ Nat.one_pos))) (tbM.view.readAt (Elt F) (Rect.unit (s := S3x4096) (k0_off99 i) S1x1.size (k0_off99_inb i)).toLoadRect xt (Shape.Idx.first (numel1_S1x1.symm ▸ Nat.one_pos))) := hfit.2.2.2.2.2.2.2.2.2.2.2.2.2.2.2.2.2.2.2.2.2.2.2.2.1
  have k0_hw26 : k0_chk26 (tbM.view.readAt (Elt F) (Rect.unit (s := S3x4096) (k0_off101 i) S1x1.size (k0_off101_inb i)).toLoadRect xt (Shape.Idx.first (numel1_S1x1.symm ▸ Nat.one_pos))) (tbM.view.readAt (Elt F) (Rect.unit (s := S3x4096) (k0_off102 i) S1x1.size (k0_off102_inb i)).toLoadRect xt (Shape.Idx.first (numel1_S1x1.symm ▸ Nat.one_pos))) (tbM.view.readAt (Elt F) (Rect.unit (s := S3x4096) (k0_off103 i) S1x1.size (k0_off103_inb i)).toLoadRect xt (Shape.Idx.first (numel1_S1x1.symm ▸ Nat.one_pos))) := hfit.2.2.2.2.2.2.2.2.2.2.2.2.2.2.2.2.2.2.2.2.2.2.2.2.2.1
  have k0_hw27 : k0_chk27 (tbM.view.readAt (Elt F) (Rect.unit (s := S3x4096) (k0_off105 i) S1x1.size (k0_off105_inb i)).toLoadRect xt (Shape.Idx.first (numel1_S1x1.symm ▸ Nat.one_pos))) (tbM.view.readAt (Elt F) (Rect.unit (s := S3x4096) (k0_off106 i) S1x1.size (k0_off106_inb i)).toLoadRect xt (Shape.Idx.first (numel1_S1x1.symm ▸ Nat.one_pos))) (tbM.view.readAt (Elt F) (Rect.unit (s := S3x4096) (k0_off107 i) S1x1.size (k0_off107_inb i)).toLoadRect xt (Shape.Idx.first (numel1_S1x1.symm ▸ Nat.one_pos))) := hfit.2.2.2.2.2.2.2.2.2.2.2.2.2.2.2.2.2.2.2.2.2.2.2.2.2.2.1
  have k0_hw28 : k0_chk28 (tbM.view.readAt (Elt F) (Rect.unit (s := S3x4096) (k0_off109 i) S1x1.size (k0_off109_inb i)).toLoadRect xt (Shape.Idx.first (numel1_S1x1.symm ▸ Nat.one_pos))) (tbM.view.readAt (Elt F) (Rect.unit (s := S3x4096) (k0_off110 i) S1x1.size (k0_off110_inb i)).toLoadRect xt (Shape.Idx.first (numel1_S1x1.symm ▸ Nat.one_pos))) (tbM.view.readAt (Elt F) (Rect.unit (s := S3x4096) (k0_off111 i) S1x1.size (k0_off111_inb i)).toLoadRect xt (Shape.Idx.first (numel1_S1x1.symm ▸ Nat.one_pos))) := hfit.2.2.2.2.2.2.2.2.2.2.2.2.2.2.2.2.2.2.2.2.2.2.2.2.2.2.2.1
  have k0_hw29 : k0_chk29 (tbM.view.readAt (Elt F) (Rect.unit (s := S3x4096) (k0_off113 i) S1x1.size (k0_off113_inb i)).toLoadRect xt (Shape.Idx.first (numel1_S1x1.symm ▸ Nat.one_pos))) (tbM.view.readAt (Elt F) (Rect.unit (s := S3x4096) (k0_off114 i) S1x1.size (k0_off114_inb i)).toLoadRect xt (Shape.Idx.first (numel1_S1x1.symm ▸ Nat.one_pos))) (tbM.view.readAt (Elt F) (Rect.unit (s := S3x4096) (k0_off115 i) S1x1.size (k0_off115_inb i)).toLoadRect xt (Shape.Idx.first (numel1_S1x1.symm ▸ Nat.one_pos))) := hfit.2.2.2.2.2.2.2.2.2.2.2.2.2.2.2.2.2.2.2.2.2.2.2.2.2.2.2.2.1
  have k0_hw30 : k0_chk30 (tbM.view.readAt (Elt F) (Rect.unit (s := S3x4096) (k0_off117 i) S1x1.size (k0_off117_inb i)).toLoadRect xt (Shape.Idx.first (numel1_S1x1.symm ▸ Nat.one_pos))) (tbM.view.readAt (Elt F) (Rect.unit (s := S3x4096) (k0_off118 i) S1x1.size (k0_off118_inb i)).toLoadRect xt (Shape.Idx.first (numel1_S1x1.symm ▸ Nat.one_pos))) (tbM.view.readAt (Elt F) (Rect.unit (s := S3x4096) (k0_off119 i) S1x1.size (k0_off119_inb i)).toLoadRect xt (Shape.Idx.first (numel1_S1x1.symm ▸ Nat.one_pos))) := hfit.2.2.2.2.2.2.2.2.2.2.2.2.2.2.2.2.2.2.2.2.2.2.2.2.2.2.2.2.2.1
  have k0_hw31 : k0_chk31 (tbM.view.readAt (Elt F) (Rect.unit (s := S3x4096) (k0_off121 i) S1x1.size (k0_off121_inb i)).toLoadRect xt (Shape.Idx.first (numel1_S1x1.symm ▸ Nat.one_pos))) (tbM.view.readAt (Elt F) (Rect.unit (s := S3x4096) (k0_off122 i) S1x1.size (k0_off122_inb i)).toLoadRect xt (Shape.Idx.first (numel1_S1x1.symm ▸ Nat.one_pos))) (tbM.view.readAt (Elt F) (Rect.unit (s := S3x4096) (k0_off123 i) S1x1.size (k0_off123_inb i)).toLoadRect xt (Shape.Idx.first (numel1_S1x1.symm ▸ Nat.one_pos))) := hfit.2.2.2.2.2.2.2.2.2.2.2.2.2.2.2.2.2.2.2.2.2.2.2.2.2.2.2.2.2.2.1
  have k0_hw32 : k0_chk32 (tbM.view.readAt (Elt F) (Rect.unit (s := S3x4096) (k0_off125 i) S1x1.size (k0_off125_inb i)).toLoadRect xt (Shape.Idx.first (numel1_S1x1.symm ▸ Nat.one_pos))) (tbM.view.readAt (Elt F) (Rect.unit (s := S3x4096) (k0_off126 i) S1x1.size (k0_off126_inb i)).toLoadRect xt (Shape.Idx.first (numel1_S1x1.symm ▸ Nat.one_pos))) (tbM.view.readAt (Elt F) (Rect.unit (s := S3x4096) (k0_off127 i) S1x1.size (k0_off127_inb i)).toLoadRect xt (Shape.Idx.first (numel1_S1x1.symm ▸ Nat.one_pos))) := hfit.2.2.2.2.2.2.2.2.2.2.2.2.2.2.2.2.2.2.2.2.2.2.2.2.2.2.2.2.2.2.2
  simp only [cc0__gather_kernel_eq_skeleton]; unfold cc0__gather_kernel_skel
  simp only [k0_part1_eq_skeleton]
  unfold owns
  iintro ⟨⟨%d1, %f1, -, H1⟩, ⟨%ds0, %fs0, -, HS0⟩, HT, Hq0, Hq1, Hq2, Hq3, Hq4, Hq5, Hq6, Hq7, Hq8, Hq9, Hq10, Hq11, Hq12, Hq13, Hq14, Hq15, Hhr, Hh0, Hh1, Hh2, Hh3, Hh4, Hh5, Hh6, Hh7, Hh8, Hh9, Hh10, Hh11, Hh12, Hh13, Hh14, Hh15, Hh16, Hh17, HW, Hk⟩
  sl_exec (disch := first | sl_exact k0_hw1 | sl_exact k0_hw2 | sl_exact k0_hw3 | sl_exact k0_hw4 | sl_exact k0_hw5 | sl_exact k0_hw6 | sl_exact k0_hw7 | sl_exact k0_hw8 | sl_exact k0_hw9 | sl_exact k0_hw10 | sl_exact k0_hw11 | sl_exact k0_hw12 | sl_exact k0_hw13 | sl_exact k0_hw14 | sl_exact k0_hw15 | sl_exact k0_hw16 | sl_exact k0_hw17 | sl_exact k0_hw18 | sl_exact k0_hw19 | sl_exact k0_hw20 | sl_exact k0_hw21 | sl_exact k0_hw22 | sl_exact k0_hw23 | sl_exact k0_hw24 | sl_exact k0_hw25 | sl_exact k0_hw26 | sl_exact k0_hw27 | sl_exact k0_hw28 | sl_exact k0_hw29 | sl_exact k0_hw30 | sl_exact k0_hw31 | sl_exact k0_hw32)
  sl_step
  iapply Hk
  isplitl [H1]
  · iexists _; isplitr; swap; · iexact H1
    ipureintro
    sl_unfold_run_names
    exact pieces_read c i arg3 f1 xt fh hfit fs0
  isplitl [HS0]
  · iexists _, _; isplitr; swap; · iexact HS0
    ipureintro; rfl
  isplitl [HT]; · iexact HT
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [Hq8]; · iexact Hq8
  isplitl [Hq9]; · iexact Hq9
  isplitl [Hq10]; · iexact Hq10
  isplitl [Hq11]; · iexact Hq11
  isplitl [Hq12]; · iexact Hq12
  isplitl [Hq13]; · iexact Hq13
  isplitl [Hq14]; · iexact Hq14
  isplitl [Hq15]; · iexact Hq15
  isplitl [Hhr]; · iexact Hhr
  isplitl [Hh0]; · iexact Hh0
  isplitl [Hh1]; · iexact Hh1
  isplitl [Hh2]; · iexact Hh2
  isplitl [Hh3]; · iexact Hh3
  isplitl [Hh4]; · iexact Hh4
  isplitl [Hh5]; · iexact Hh5
  isplitl [Hh6]; · iexact Hh6
  isplitl [Hh7]; · iexact Hh7
  isplitl [Hh8]; · iexact Hh8
  isplitl [Hh9]; · iexact Hh9
  isplitl [Hh10]; · iexact Hh10
  isplitl [Hh11]; · iexact Hh11
  isplitl [Hh12]; · iexact Hh12
  isplitl [Hh13]; · iexact Hh13
  isplitl [Hh14]; · iexact Hh14
  isplitl [Hh15]; · iexact Hh15
  isplitl [Hh16]; · iexact Hh16
  isplitl [Hh17]; · iexact Hh17
  iexists _; iexact HW

end Cert.Kernel.Hand

end
-- ==== Proof.K.Frame.lean ====
/-
  The launch of the gather kernel: its proof data, the obligation of its body at every grid point,
  and the run of the whole program.

  The grid has 256 points; point t fills block t (ROIs 16 t to 16 t + 15) of the output through the
  output's staging buffer.  Between points nothing is in flight: the landing buffer holds junk, the
  16 semaphores are at zero, the padded map and the table are as the launch found them.  What the
  body leaves in the staging buffer at point t is `blockAt`: row j of the block is the window of ROI 16 t + j.  The body's
  windows fit the padded map because the table's words are clipped centres (`FitAll`, owed by the
  caller from the table's range).
-/
import proofs.«429989_j27960237097553_3_alg».proof.Proof.K.Run
import Idealize.ShloMosaic.Lib.Pipeline.Kit

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The table the launch prefetches -/

/-- The table's contents when the launch is reached (there is one device). -/
def tbl : pre0.Contents (Elt F) := fun j => atEntry m (0 : Dev nD) (pre0.ref j)
theorem atEntry_pre (c : Dev nD) (j : Fin 1) : atEntry m c (pre0.ref j) = tbl m j := by
  obtain rfl : c = 0 := Subsingleton.elim _ _; rfl
/-- The window's index map reads no table, so every table is admissible. -/
abbrev adm : (pcfg0 (F := F)).Adm := ⟨tbl m, trivial⟩
abbrev cfgM : Pipeline.Cfg sig Λ₀ := cfg0 (adm m)

/-- The table's half the launch hands the body. -/
theorem tableHalf_eq (c : Dev nD) : (Pipeline.ΦT pre0 (tbl m) c : sProp 𝕄) = iprop(tbPt c (tbl m 0)) := by
  unfold Pipeline.ΦT Pipeline.prefHeld
  rw [show (Finset.univ : Finset (Fin 1)) = {(0 : Fin 1)} from by decide, bigSep_singleton]
  rfl

/-! ## The body's own semaphores and the map it copies from -/

abbrev ownSem : Fin 16 → SemLoc sig := fun j => (![SemLoc.dma 2, SemLoc.dma 3, SemLoc.dma 4, SemLoc.dma 5, SemLoc.dma 6, SemLoc.dma 7, SemLoc.dma 8, SemLoc.dma 9, SemLoc.dma 10, SemLoc.dma 11, SemLoc.dma 12, SemLoc.dma 13, SemLoc.dma 14, SemLoc.dma 15, SemLoc.dma 16, SemLoc.dma 17] : Fin 16 → SemLoc sig) j
theorem ownSemFacts : Pipeline.OwnSemFacts spec0 ownSem := by decide
theorem ownSems_eq (c : Dev nD) :
    (Pipeline.ownSems0 (Ix := Unit) (Name := ℕ) (U := Pipeline.UD sig nD τ) (Lvl := ℕ) (Val := Elt F) (τ := τ) ownSem c : sProp 𝕄)
      = iprop(semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0) := by
  rw [Pipeline.ownSems0_eq_of_list c ownSem [(0 : Fin 16), (1 : Fin 16), (2 : Fin 16), (3 : Fin 16), (4 : Fin 16), (5 : Fin 16), (6 : Fin 16), (7 : Fin 16), (8 : Fin 16), (9 : Fin 16), (10 : Fin 16), (11 : Fin 16), (12 : Fin 16), (13 : Fin 16), (14 : Fin 16), (15 : Fin 16)] (by decide) (by decide)]; rfl

/-- The one unscoped buffer the body copies from: the padded map. -/
def copied : Finset (Ref sig .tc) := {main_v13}
theorem copied_sub : copied ⊆ Pipeline.restRefsP sig pre0 spec0 := by decide
abbrev hbPt (c : Dev nD) (f : HbBuf (F := F) c) : sProp 𝕄 := hbM.view.loc (c : Thread nD τ) ↦{fullShare} f
theorem copiedPts_eq (c : Dev nD) :
    (bigSep copied (fun b => ((c : Thread nD τ).loc b) ↦{fullShare} atEntry m c b) : sProp 𝕄) = iprop(hbPt c (atEntry m c main_v13)) := by
  rw [BI.bigSep_eq_bigSepL_of_eq [main_v13] (by decide) (by decide)]; rfl

/-- The launch's invariant for a body that copies by itself, conjunct by conjunct. -/
theorem inv_eq (c : Dev nD) :
    (Pipeline.ΦD ownSem spec0 copied (atEntry m) c : sProp 𝕄)
      = iprop(iprop((∃ d, owns (c : Thread nD τ) scM fullShare d)) ∗ (∃ r, prngReg c r) ∗ iprop(semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0) ∗ iprop(hbPt c (atEntry m c main_v13))) := by
  rw [Pipeline.ΦD_eq, scopedRest0_eq, ownSems_eq, copiedPts_eq]; simp only [scM, owns_whole]; try rfl

/-- The padded map whole is its 18 read shares and the remainder, -/
theorem map_split (c : Dev nD) (f : HbBuf (F := F) c) :
    hbPt c f ⊢ (iprop(hbRest c f ∗ hbTok c (0 : Fin 18) f ∗ hbTok c (1 : Fin 18) f ∗ hbTok c (2 : Fin 18) f ∗ hbTok c (3 : Fin 18) f ∗ hbTok c (4 : Fin 18) f ∗ hbTok c (5 : Fin 18) f ∗ hbTok c (6 : Fin 18) f ∗ hbTok c (7 : Fin 18) f ∗ hbTok c (8 : Fin 18) f ∗ hbTok c (9 : Fin 18) f ∗ hbTok c (10 : Fin 18) f ∗ hbTok c (11 : Fin 18) f ∗ hbTok c (12 : Fin 18) f ∗ hbTok c (13 : Fin 18) f ∗ hbTok c (14 : Fin 18) f ∗ hbTok c (15 : Fin 18) f ∗ hbTok c (16 : Fin 18) f ∗ hbTok c (17 : Fin 18) f) : sProp 𝕄) :=
  (Transfers.pointsTo_toks_split (Ix := Unit) (Name := ℕ) (U := Pipeline.UD sig nD τ) (Lvl := ℕ) fullShare 18).trans
    (Entails.of_eq (by rw [bigSep_univ_eq_bigSepL [(0 : Fin 18), (1 : Fin 18), (2 : Fin 18), (3 : Fin 18), (4 : Fin 18), (5 : Fin 18), (6 : Fin 18), (7 : Fin 18), (8 : Fin 18), (9 : Fin 18), (10 : Fin 18), (11 : Fin 18), (12 : Fin 18), (13 : Fin 18), (14 : Fin 18), (15 : Fin 18), (16 : Fin 18), (17 : Fin 18)] (by decide) (by decide)]; rfl))
/-- and back. -/
theorem map_join (c : Dev nD) (f : HbBuf (F := F) c) :
    (iprop(hbRest c f ∗ hbTok c (0 : Fin 18) f ∗ hbTok c (1 : Fin 18) f ∗ hbTok c (2 : Fin 18) f ∗ hbTok c (3 : Fin 18) f ∗ hbTok c (4 : Fin 18) f ∗ hbTok c (5 : Fin 18) f ∗ hbTok c (6 : Fin 18) f ∗ hbTok c (7 : Fin 18) f ∗ hbTok c (8 : Fin 18) f ∗ hbTok c (9 : Fin 18) f ∗ hbTok c (10 : Fin 18) f ∗ hbTok c (11 : Fin 18) f ∗ hbTok c (12 : Fin 18) f ∗ hbTok c (13 : Fin 18) f ∗ hbTok c (14 : Fin 18) f ∗ hbTok c (15 : Fin 18) f ∗ hbTok c (16 : Fin 18) f ∗ hbTok c (17 : Fin 18) f) : sProp 𝕄) ⊢ hbPt c f :=
  (Entails.of_eq (by rw [bigSep_univ_eq_bigSepL [(0 : Fin 18), (1 : Fin 18), (2 : Fin 18), (3 : Fin 18), (4 : Fin 18), (5 : Fin 18), (6 : Fin 18), (7 : Fin 18), (8 : Fin 18), (9 : Fin 18), (10 : Fin 18), (11 : Fin 18), (12 : Fin 18), (13 : Fin 18), (14 : Fin 18), (15 : Fin 18), (16 : Fin 18), (17 : Fin 18)] (by decide) (by decide)]; rfl)).trans
    (Transfers.pointsTo_toks_join (Ix := Unit) (Name := ℕ) (U := Pipeline.UD sig nD τ) (Lvl := ℕ) fullShare 18)

/-! ## What the body leaves in the output block -/

/-- The output's current staging memref at point `t`, as the launch passes it. -/
abbrev stageAt (t : Fin (cfgM m).N) : Memref sig .tc .vmem S16x31x31x32 .f32 := spec0_0.stage ((cfgM m).slots t 0)
abbrev stageAt_whole (t : Fin (cfgM m).N) : (stageAt m t).IsWhole := hstage0_0 (((cfgM m).slots t 0).cast nbuf0_0)

/-- At every point the body's windows fit the padded map. -/
def FitAll : Prop := ∀ (c : Dev nD) (t : Fin (cfgM m).N), WindowsFit c (grid0.coords t) (tbl m 0)

/-- Block `t` as the body leaves it. -/
def blockAt (hF : FitAll m) (c : Dev nD) (t : Fin (cfgM m).N) : Vec F S16x31x31x32 .f32 :=
  blockSpec c (grid0.coords t) (tbl m 0) (atEntry m c main_v13) (hF c t)

/-! ## The proof data and the body's obligation -/

def dats (hF : FitAll m) (_ : Fin 1) (c : Dev nD) : Dat τ (Elt F) Unit ℕ (Pipeline.UD sig nD τ) ℕ (cfgM m) c where
  A w := atEntry m c (Pipeline.arrRef spec0 w)
  after w t := match w with
    | ⟨0, _⟩ => blockAt m hF c t
  Φ _ := iprop(Pipeline.ΦD ownSem spec0 copied (atEntry m) c ∗ Pipeline.ΦT pre0 (tbl m) c)
  q _ := fullShare
  owed _ := 0

theorem dats_A (hF : FitAll m) (c : Dev nD) (w : Fin (cfgM m).W) : (dats m hF 0 c).A w = atEntry m c (Pipeline.arrRef spec0 w) := by
  dsimp only [dats]
theorem dats_after (hF : FitAll m) (c : Dev nD) (t : Fin (cfgM m).N) : (dats m hF 0 c).after 0 t = blockAt m hF c t := by
  dsimp only [dats]; try rfl

def bodyPre (hF : FitAll m) (c : Dev nD) (t : Fin (cfgM m).N) : sProp 𝕄 :=
  iprop((dats m hF 0 c).Φ t.castSucc ∗ (dats m hF 0 c).owesAt () t.castSucc
    ∗ (∃ d, owns (c : Thread nD τ) (stageAt m t) fullShare ((dats m hF 0 c).before 0 t d)))

def bodyPost (hF : FitAll m) (c : Dev nD) (t : Fin (cfgM m).N) : sProp 𝕄 :=
  iprop((dats m hF 0 c).Φ t.succ ∗ (dats m hF 0 c).owesAt () t.succ
    ∗ owns (c : Thread nD τ) (stageAt m t) fullShare ((dats m hF 0 c).after 0 t))

/-- The body at any point: the invariant hands it the landing buffer, its semaphores at zero, the padded map
    (split into its read shares for the run, joined again after it) and the table's half, and takes them back as they
    were; the waits the run recorded stay within the next point's bound. -/
theorem sound_body (hF : FitAll m) (c : Dev nD) (t : Fin (cfgM m).N) :
    bodyPre m hF c t ⊢ wp frame (wpE (defs₀ (F := F)) Variants.none c none) Set.univ
      (cc0__gather_kernel (grid0.coords t) tbM htbM hbM hhbM (stageAt m t) (stageAt_whole m t) scM hscM cc0_scratch1) (fun _ => bodyPost m hF c t) := by
  unfold bodyPre bodyPost
  rw [show (dats m hF 0 c).Φ t.succ = (dats m hF 0 c).Φ t.castSucc from rfl, dats_after]
  rw [show (dats m hF 0 c).Φ t.castSucc = iprop(Pipeline.ΦD ownSem spec0 copied (atEntry m) c ∗ Pipeline.ΦT pre0 (tbl m) c) from rfl, inv_eq, tableHalf_eq]
  unfold Dat.owesAt Pipeline.owesWithin
  rw [show (dats m hF 0 c).owed t.castSucc = 0 from rfl, show (dats m hF 0 c).owed t.succ = 0 from rfl]
  unfold blockAt
  iintro ⟨⟨⟨HS0, Hg, ⟨Hq0, Hq1, Hq2, Hq3, Hq4, Hq5, Hq6, Hq7, Hq8, Hq9, Hq10, Hq11, Hq12, Hq13, Hq14, Hq15⟩, Hh⟩, HT⟩, ⟨%W, -, HW⟩, ⟨%d1, H1⟩⟩
  ihave Hh' := (map_split c (atEntry m c main_v13)) $$ Hh
  icases Hh' with ⟨Hhr, Hh0, Hh1, Hh2, Hh3, Hh4, Hh5, Hh6, Hh7, Hh8, Hh9, Hh10, Hh11, Hh12, Hh13, Hh14, Hh15, Hh16, Hh17⟩
  iapply (gatherRun c (grid0.coords t) (stageAt m t) (stageAt_whole m t) (tbl m 0) (atEntry m c main_v13) (hF c t) W _)
  isplitl [H1]; · iexists _; iexact H1
  isplitl [HS0]; · iexact HS0
  isplitl [HT]; · iexact HT
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [Hq8]; · iexact Hq8
  isplitl [Hq9]; · iexact Hq9
  isplitl [Hq10]; · iexact Hq10
  isplitl [Hq11]; · iexact Hq11
  isplitl [Hq12]; · iexact Hq12
  isplitl [Hq13]; · iexact Hq13
  isplitl [Hq14]; · iexact Hq14
  isplitl [Hq15]; · iexact Hq15
  isplitl [Hhr]; · iexact Hhr
  isplitl [Hh0]; · iexact Hh0
  isplitl [Hh1]; · iexact Hh1
  isplitl [Hh2]; · iexact Hh2
  isplitl [Hh3]; · iexact Hh3
  isplitl [Hh4]; · iexact Hh4
  isplitl [Hh5]; · iexact Hh5
  isplitl [Hh6]; · iexact Hh6
  isplitl [Hh7]; · iexact Hh7
  isplitl [Hh8]; · iexact Hh8
  isplitl [Hh9]; · iexact Hh9
  isplitl [Hh10]; · iexact Hh10
  isplitl [Hh11]; · iexact Hh11
  isplitl [Hh12]; · iexact Hh12
  isplitl [Hh13]; · iexact Hh13
  isplitl [Hh14]; · iexact Hh14
  isplitl [Hh15]; · iexact Hh15
  isplitl [Hh16]; · iexact Hh16
  isplitl [Hh17]; · iexact Hh17
  isplitl [HW]; · iexact HW
  iintro ⟨H1, HS0, HT, Hq0, Hq1, Hq2, Hq3, Hq4, Hq5, Hq6, Hq7, Hq8, Hq9, Hq10, Hq11, Hq12, Hq13, Hq14, Hq15, Hhr, Hh0, Hh1, Hh2, Hh3, Hh4, Hh5, Hh6, Hh7, Hh8, Hh9, Hh10, Hh11, Hh12, Hh13, Hh14, Hh15, Hh16, Hh17, ⟨%W', HW'⟩⟩
  isplitl [HS0 Hg Hq0 Hq1 Hq2 Hq3 Hq4 Hq5 Hq6 Hq7 Hq8 Hq9 Hq10 Hq11 Hq12 Hq13 Hq14 Hq15 Hhr Hh0 Hh1 Hh2 Hh3 Hh4 Hh5 Hh6 Hh7 Hh8 Hh9 Hh10 Hh11 Hh12 Hh13 Hh14 Hh15 Hh16 Hh17 HT]
  · isplitr [HT]
    · isplitl [HS0]; · iexact HS0
      isplitl [Hg]; · iexact Hg
      isplitl [Hq0 Hq1 Hq2 Hq3 Hq4 Hq5 Hq6 Hq7 Hq8 Hq9 Hq10 Hq11 Hq12 Hq13 Hq14 Hq15]
      ·
        isplitl [Hq0]; · iexact Hq0
        isplitl [Hq1]; · iexact Hq1
        isplitl [Hq2]; · iexact Hq2
        isplitl [Hq3]; · iexact Hq3
        isplitl [Hq4]; · iexact Hq4
        isplitl [Hq5]; · iexact Hq5
        isplitl [Hq6]; · iexact Hq6
        isplitl [Hq7]; · iexact Hq7
        isplitl [Hq8]; · iexact Hq8
        isplitl [Hq9]; · iexact Hq9
        isplitl [Hq10]; · iexact Hq10
        isplitl [Hq11]; · iexact Hq11
        isplitl [Hq12]; · iexact Hq12
        isplitl [Hq13]; · iexact Hq13
        isplitl [Hq14]; · iexact Hq14
        iexact Hq15
      iapply (map_join c (atEntry m c main_v13))
      isplitl [Hhr]; · iexact Hhr
      isplitl [Hh0]; · iexact Hh0
      isplitl [Hh1]; · iexact Hh1
      isplitl [Hh2]; · iexact Hh2
      isplitl [Hh3]; · iexact Hh3
      isplitl [Hh4]; · iexact Hh4
      isplitl [Hh5]; · iexact Hh5
      isplitl [Hh6]; · iexact Hh6
      isplitl [Hh7]; · iexact Hh7
      isplitl [Hh8]; · iexact Hh8
      isplitl [Hh9]; · iexact Hh9
      isplitl [Hh10]; · iexact Hh10
      isplitl [Hh11]; · iexact Hh11
      isplitl [Hh12]; · iexact Hh12
      isplitl [Hh13]; · iexact Hh13
      isplitl [Hh14]; · iexact Hh14
      isplitl [Hh15]; · iexact Hh15
      isplitl [Hh16]; · iexact Hh16
      iexact Hh17
    · iexact HT
  isplitl [HW']
  · iexists W'; isplitr; · ipureintro; exact fun _ _ => Or.inl trivial
    iexact HW'
  iexact H1

theorem body_obligation (hF : FitAll m) (c : Dev nD) :
    BodyObligation (dats (F := F) m hF 0 c) (defs₀ (F := F)) Variants.none () Set.univ := fun t => by
  rw [bigSep_W0, bigSep_W0]
  exact sound_body m hF c t

/-! ## The run of the whole program -/

set_option backward.isDefEq.respectTransparency.types false in
/-- From any memory with zero counters every weakly fair execution of @main terminates; the output array then holds
    what the launch's library computes from the blocks the body left, and every other unscoped buffer — the
    arguments among them — what the launch found. -/
theorem run_main (hF : FitAll m) :
    θ_run defs (onTc (τ := τ) (main (F := F))) (s₀ m ρ) (Pipeline.FramePost (Pipeline.pin pcfgs fun _ => adm m) (dats m hF) 0 (atEntry m)) :=
  Pipeline.θ_run_frameP_dma pcfgs (fun _ => adm m) (dats m hF) (0 : Fin 1) launch0 ownSem defs₀ Variants.none ownSemFacts copied copied_sub m ρ main
    (hbody := fun c => (body_obligation m hF c).loose) (hshare := fun c => (dats m hF 0 c).share_full fun _ => rfl)
    (howed := fun _ _ => rfl) (V := atEntry m) (hmain := toLaunch m Variants.none) (hA := dats_A m hF) (hpf := atEntry_pre m)
    (hin := fun _ => .rfl)
    (hout := fun c => (show iprop(Pipeline.ΦD ownSem spec0 copied (atEntry m) c ∗ Pipeline.ΦT pre0 (tbl m) c) ⊢ _ from by iintro ⟨H, -⟩; iexact H))

end Cert.Kernel.Hand

end
-- ==== Proof.K.EntryValues.lean ====
/-
  What two buffers hold when the launch is reached, read at an index.

  The table the launch prefetches is the centre array with each column clipped into its axis (batch into
  [0, 15], row and column into [0, 255]) and transposed to [3, 4096]: its words are in range whatever the
  input, and for centres inside the map the clip is the identity, so the table is the transposed centre
  array.  The padded map is the map shifted by 15 rows and 15 columns, zero on the border of width 15 and on
  the channels from 32 up.  Neither argument is written on the way to the launch.

  The facts about the operations' terms hold for every map and every centre array; the buffers at the launch
  are their instances at the launched contents.
-/
import proofs.«429989_j27960237097553_3_alg».proof.Proof.K.Entry
import proofs.«429989_j27960237097553_3_alg».proof.Proof.RoiSpec
import Idealize.ShloMosaic.Lib.StableHlo.Run
import Idealize.ShloMosaic.Lib.Pipeline.Value
import Idealize.ShloMosaic.Lib.ValueIdx
import Idealize.ShloMosaic.Lib.KernelVsHost
import Idealize.ShloMosaic.Lib.StableHlo.Predicate

noncomputable section

namespace Cert.Kernel.Hand

open Idealize.ShloMosaic Idealize.ShloMosaic.TcCoe Idealize.ShloMosaic.ValueIdx
open Idealize.SL Idealize.SL.RA Idealize.SL.BI
open scoped Idealize.SL.BI
open Idealize.SL.BI.BIBase Idealize.SL.Sem
open Cert.Kernel Cert.Kernel.Gen

variable {F : FTy → Type} [FloatOps F]

variable (m : (ℓ : Loc nD τ sig) → Buf (Elt F) ℓ)

/-! ## Neither argument is written before the launch -/

/-- No operation before the launch writes the map. -/
theorem atEntry_arg0 (c : Dev nD) : atEntry m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8,
      List.flatten_cons, List.flatten_nil, List.append_nil, List.cons_append, List.nil_append, List.Forall,
      StableHlo.TRef.unary, StableHlo.TRef.binary,
      StableHlo.nullary_writes, StableHlo.unary_writes, StableHlo.binary_writes, StableHlo.reshape_writes,
      StableHlo.nary_writes, Finset.mem_singleton]
    repeat' apply And.intro
    all_goals exact StableHlo.devRef_ne_of_ne (by decide)))

/-- No operation before the launch writes the centre array. -/
theorem atEntry_arg1 (c : Dev nD) : atEntry m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8,
      List.flatten_cons, List.flatten_nil, List.append_nil, List.cons_append, List.nil_append, List.Forall,
      StableHlo.TRef.unary, StableHlo.TRef.binary,
      StableHlo.nullary_writes, StableHlo.unary_writes, StableHlo.binary_writes, StableHlo.reshape_writes,
      StableHlo.nary_writes, Finset.mem_singleton]
    repeat' apply And.intro
    all_goals exact StableHlo.devRef_ne_of_ne (by decide)))

/-! ## Clipping a word -/

/-- Clipping a signed word into [0, hi] (maximum with 0, then minimum with hi, the bounds given first):
    the result lies in [0, hi] whatever the word, and is the word itself when it already lies there. -/
theorem clip_cases (w hi : BitVec 32) (hhi : hi.toNat < 2 ^ 31) :
    (IntOp.minsi hi (IntOp.maxsi 0#32 w)).toNat ≤ hi.toNat
      ∧ (w.toNat ≤ hi.toNat → IntOp.minsi hi (IntOp.maxsi 0#32 w) = w) := by
  have h0 : (0#32 : BitVec 32).toInt = 0 := by decide
  have hth : hi.toInt = hi.toNat := StableHlo.Predicate.toInt_eq_toNat_of_lt hhi
  unfold IntOp.minsi IntOp.maxsi
  by_cases hneg : w.slt 0#32 = true
  · -- a negative word: the maximum with 0 is 0, below every bound
    rw [if_pos hneg]
    have hwn : w.toInt < 0 := by
      have := BitVec.slt_iff_toInt_lt.mp hneg
      rw [h0] at this; exact this
    have hwbig : 2 ^ 32 ≤ 2 * w.toNat := BitVec.toInt_neg_iff.mp hwn
    have h1 : ¬ (hi.slt 0#32 = true) := by
      rw [BitVec.slt_iff_toInt_lt, hth, h0]; omega
    rw [if_neg h1]
    refine ⟨Nat.zero_le _, fun hw => ?_⟩
    omega
  · -- a non-negative word reads the same signed and unsigned
    rw [if_neg hneg]
    have hwp : 0 ≤ w.toInt := by
      have := mt BitVec.slt_iff_toInt_lt.mpr hneg
      rw [h0] at this; omega
    have hwsmall : 2 * w.toNat < 2 ^ 32 := BitVec.toInt_pos_iff.mp hwp
    have htw : w.toInt = w.toNat := StableHlo.Predicate.toInt_eq_toNat_of_lt (by omega)
    by_cases hlt : hi.slt w = true
    · rw [if_pos hlt]
      have := BitVec.slt_iff_toInt_lt.mp hlt
      refine ⟨Nat.le_refl _, fun hw => ?_⟩
      omega
    · rw [if_neg hlt]
      have := mt BitVec.slt_iff_toInt_lt.mpr hlt
      refine ⟨by omega, fun _ => rfl⟩

/-! ## The table as a term over a centre array -/

/-- One column of a centre array (the slice at offsets `off`, flattened) clipped into [0, hi]. -/
def clipCol (cn : S4096x3.Idx → BitVec 32) (off : Fin 2 → Nat) (hs : S4096x3.Slices off S4096x1) (hi : BitVec 32) :
    S4096.Idx → BitVec 32 :=
  minsi (broadcastInDim S4096 ![] bcast_S_S4096 (constantI S_ 32 hi))
    (maxsi (broadcastInDim S4096 ![] bcast_S_S4096 (constantI S_ 32 0#32))
      (shapeCast S4096 (extractStridedSlice S4096x1 off cn hs) shapeCasts_S4096x1_S4096))

/-- Three flat columns made one-column arrays, set side by side and transposed: a [3, 4096] table whose row
    `k` is column `k`. -/
def stack (x y z : S4096.Idx → BitVec 32) : S3x4096.Idx → BitVec 32 :=
  transpose S3x4096 [1, 0]
    (concatenate S4096x3 1
      [⟨S4096x1, broadcastInDim S4096x1 ![0] bcast_S4096_S4096x1_0 x⟩,
       ⟨S4096x1, broadcastInDim S4096x1 ![0] bcast_S4096_S4096x1_0 y⟩,
       ⟨S4096x1, broadcastInDim S4096x1 ![0] bcast_S4096_S4096x1_0 z⟩]
      concatenates_S4096x1_S4096x1_S4096x1_S4096x3_d1)
    transposes_S4096x3_S3x4096_1_0

/-- The three clipped columns stacked: the [3, 4096] table. -/
def clipTable (cn : S4096x3.Idx → BitVec 32) : S3x4096.Idx → BitVec 32 :=
  stack (clipCol cn ![0, 0] slices_S4096x3_S4096x1_0_0 15#32)
    (clipCol cn ![0, 1] slices_S4096x3_S4096x1_0_1 255#32)
    (clipCol cn ![0, 2] slices_S4096x3_S4096x1_0_2 255#32)

/-- A clipped column at `n` is the clip of the array's entry in row `n` of that column: the flattened
    slice at `n` is the slice at (n, 0), which is the array at (n, k). -/
theorem clipCol_apply (cn : S4096x3.Idx → BitVec 32) (k : Fin 3) (off : Fin 2 → Nat) (hs : S4096x3.Slices off S4096x1)
    (hoff0 : off 0 = 0) (hoff1 : off 1 = k.val) (hi : BitVec 32) (n : Fin 4096) :
    clipCol cn off hs hi (ix1 n) = IntOp.minsi hi (IntOp.maxsi 0#32 (cn (ix2 n k))) := by
  show IntOp.minsi hi (IntOp.maxsi 0#32
    (shapeCast S4096 (extractStridedSlice S4096x1 off cn hs) shapeCasts_S4096x1_S4096 (ix1 n))) = _
  rw [shapeCast_apply (extractStridedSlice S4096x1 off cn hs) shapeCasts_S4096x1_S4096 (ix1 n) (ix2 n (0 : Fin 1)) (by
      rw [Shape.rowMajor_val_two, Shape.rowMajor_val_one]
      show n.val * 1 + 0 = n.val
      omega),
    extractStridedSlice_apply off cn hs (ix2 n (0 : Fin 1)) (ix2 n k) (by
      intro a
      match a with
      | ⟨0, _⟩ => show n.val = off 0 + n.val; rw [hoff0]; omega
      | ⟨1, _⟩ => show k.val = off 1 + 0; rw [hoff1]; rfl)]

/-- Three one-column pieces side by side, read in row `n`: column `k` is piece `k` at (n, 0). -/
theorem concat3_apply {α : Type} (A B C : S4096x1.Idx → α) (n : Fin 4096) :
    concatenate S4096x3 1 [⟨S4096x1, A⟩, ⟨S4096x1, B⟩, ⟨S4096x1, C⟩] concatenates_S4096x1_S4096x1_S4096x1_S4096x3_d1
        (ix2 n (0 : Fin 3)) = A (ix2 n (0 : Fin 1))
    ∧ concatenate S4096x3 1 [⟨S4096x1, A⟩, ⟨S4096x1, B⟩, ⟨S4096x1, C⟩] concatenates_S4096x1_S4096x1_S4096x1_S4096x3_d1
        (ix2 n (1 : Fin 3)) = B (ix2 n (0 : Fin 1))
    ∧ concatenate S4096x3 1 [⟨S4096x1, A⟩, ⟨S4096x1, B⟩, ⟨S4096x1, C⟩] concatenates_S4096x1_S4096x1_S4096x1_S4096x3_d1
        (ix2 n (2 : Fin 3)) = C (ix2 n (0 : Fin 1)) := by
  have hoff : ∀ b : Fin S4096x1.rank, b.cast (rfl : S4096x1.rank = S4096x3.rank) ≠ (1 : Fin 2) →
      ∀ k : Fin 3, ((ix2 n (0 : Fin 1)) b).val = ((ix2 n k) (b.cast (rfl : S4096x1.rank = S4096x3.rank))).val := by
    intro b hb k
    match b with
    | ⟨0, _⟩ => rfl
    | ⟨1, _⟩ => exact absurd rfl hb
  refine ⟨?_, ?_, ?_⟩
  · exact concatenate_apply_piece (t := S4096x3) (1 : Fin 2) [⟨S4096x1, A⟩, ⟨S4096x1, B⟩, ⟨S4096x1, C⟩]
      concatenates_S4096x1_S4096x1_S4096x1_S4096x3_d1 (ix2 n (0 : Fin 3)) 0 (by show 0 < 3; omega) S4096x1 A rfl rfl 0 rfl
      (ix2 n (0 : Fin 1)) (fun b hb => hoff b hb 0) rfl
  · exact concatenate_apply_piece (t := S4096x3) (1 : Fin 2) [⟨S4096x1, A⟩, ⟨S4096x1, B⟩, ⟨S4096x1, C⟩]
      concatenates_S4096x1_S4096x1_S4096x1_S4096x3_d1 (ix2 n (1 : Fin 3)) 1 (by show 1 < 3; omega) S4096x1 B rfl rfl 1 rfl
      (ix2 n (0 : Fin 1)) (fun b hb => hoff b hb 1) rfl
  · exact concatenate_apply_piece (t := S4096x3) (1 : Fin 2) [⟨S4096x1, A⟩, ⟨S4096x1, B⟩, ⟨S4096x1, C⟩]
      concatenates_S4096x1_S4096x1_S4096x1_S4096x3_d1 (ix2 n (2 : Fin 3)) 2 (by show 2 < 3; omega) S4096x1 C rfl rfl 2 rfl
      (ix2 n (0 : Fin 1)) (fun b hb => hoff b hb 2) rfl

/-- A flat column made a one-column array, read at (n, 0), is the column at `n`. -/
theorem column_apply {α : Type} (x : S4096.Idx → α) (n : Fin 4096) :
    broadcastInDim S4096x1 ![0] bcast_S4096_S4096x1_0 x (ix2 n (0 : Fin 1)) = x (ix1 n) :=
  broadcastInDim_apply ![0] bcast_S4096_S4096x1_0 x (ix2 n (0 : Fin 1)) (ix1 n) (by
    intro a
    match a with
    | ⟨0, _⟩ => rfl)

/-- Which bound row `k` of the table is clipped to: 15 for the batch row, 255 for the other two. -/
def hiOf (k : Fin 3) : BitVec 32 := match k with | 0 => 15#32 | 1 => 255#32 | 2 => 255#32

/-- The table at (k, n) is the clip of the centre array's entry (n, k). -/
theorem clipTable_apply (cn : S4096x3.Idx → BitVec 32) (k : Fin 3) (n : Fin 4096) :
    clipTable cn (ix2 k n) = IntOp.minsi (hiOf k) (IntOp.maxsi 0#32 (cn (ix2 n k))) := by
  unfold clipTable stack
  rw [transpose_apply [1, 0] _ transposes_S4096x3_S3x4096_1_0 (ix2 k n) (ix2 n k) (by
    intro b
    match b with
    | ⟨0, _⟩ => rfl
    | ⟨1, _⟩ => rfl)]
  match k with
  | 0 =>
    rw [(concat3_apply _ _ _ n).1, column_apply]
    exact clipCol_apply cn 0 _ _ rfl rfl _ n
  | 1 =>
    rw [(concat3_apply _ _ _ n).2.1, column_apply]
    exact clipCol_apply cn 1 _ _ rfl rfl _ n
  | 2 =>
    rw [(concat3_apply _ _ _ n).2.2, column_apply]
    exact clipCol_apply cn 2 _ _ rfl rfl _ n

/-- The table's words are in range, whatever the centre array. -/
theorem clipTable_in_range (cn : S4096x3.Idx → BitVec 32) (n : Fin 4096) :
    (clipTable cn (ix2 0 n)).toNat ≤ 15 ∧ (clipTable cn (ix2 1 n)).toNat ≤ 255 ∧ (clipTable cn (ix2 2 n)).toNat ≤ 255 := by
  rw [clipTable_apply, clipTable_apply, clipTable_apply]
  exact ⟨(clip_cases _ 15#32 (by decide)).1, (clip_cases _ 255#32 (by decide)).1, (clip_cases _ 255#32 (by decide)).1⟩

/-- For centres inside the map the clip changes nothing: the table is the transposed centre array. -/
theorem clipTable_of_inMap (cn : S4096x3.Idx → BitVec 32) (h : Cert.Roi.InMap cn) : clipTable cn = Cert.Roi.tableOf cn := by
  funext i
  obtain ⟨k, n, rfl⟩ : ∃ (k : Fin 3) (n : Fin 4096), i = ix2 k n := ⟨i 0, i 1, eq_ix2 i⟩
  rw [clipTable_apply]
  show _ = cn (ix2 n k)
  have hn := h n
  have e : ∀ j : Fin 3, Cert.Roi.cenAt cn n.val j = (cn (ix2 n j)).toNat := by
    intro j
    unfold Cert.Roi.cenAt
    rw [show Fin.ofNat 4096 n.val = n from Fin.ext (Nat.mod_eq_of_lt n.isLt)]
  rw [e 0, e 1, e 2] at hn
  match k with
  | 0 => exact (clip_cases _ 15#32 (by decide)).2 (by show (cn (ix2 n 0)).toNat ≤ 15; omega)
  | 1 => exact (clip_cases _ 255#32 (by decide)).2 (by show (cn (ix2 n 1)).toNat ≤ 255; omega)
  | 2 => exact (clip_cases _ 255#32 (by decide)).2 (by show (cn (ix2 n 2)).toNat ≤ 255; omega)

/-! ## The table at the launch -/

/-- A reference that no operation of a list writes keeps its contents. -/
theorem keeps (ops : List (HloOp τ sig (Elt F))) (V : Valuation τ sig (Elt F)) (r : Ref sig .tc)
    (h : ops.Forall fun op => Proc.devRef (τ := τ) .tc r ∉ op.writes) :
    StableHlo.after ops V (Proc.devRef .tc r) = V (Proc.devRef .tc r) :=
  StableHlo.after_of_forall_not_mem (b := Proc.devRef .tc r) ops V (List.forall_iff_forall_mem.mp h)

/-- Decides that a listed stretch of operations does not write a reference, operation by operation. -/
local macro "not_written" : tactic => `(tactic| (
  simp only [hostOps0, hostOps0_1, hostOps0_2, hostOps0_3, hostOps0_4, hostOps0_5, List.cons_append, List.nil_append,
    List.Forall, StableHlo.TRef.unary, StableHlo.TRef.binary, StableHlo.nullary_writes, StableHlo.unary_writes,
    StableHlo.binary_writes, StableHlo.reshape_writes, Finset.mem_singleton]
  repeat' apply And.intro
  all_goals exact StableHlo.devRef_ne_of_ne (by decide)))

/-- The first column's stretch (slice, flatten, clip into [0, 15]) leaves the clipped batch column. -/
theorem colA (V : Valuation τ sig (Elt F)) :
    (StableHlo.after (hostOps0 ++ hostOps0_1) V (Proc.devRef .tc main_v2) : S4096.Idx → BitVec 32)
      = clipCol (V (Proc.devRef .tc main_arg1)) ![0, 0] slices_S4096x3_S4096x1_0_0 15#32 := by
  simp only [hostOps0, hostOps0_1, List.cons_append, List.nil_append]
  after_results
  rfl

/-- The second column's stretch leaves the clipped column of row coordinates. -/
theorem colB (V : Valuation τ sig (Elt F)) :
    (StableHlo.after (hostOps0_2 ++ hostOps0_3) V (Proc.devRef .tc main_v5) : S4096.Idx → BitVec 32)
      = clipCol (V (Proc.devRef .tc main_arg1)) ![0, 1] slices_S4096x3_S4096x1_0_1 255#32 := by
  simp only [hostOps0_2, hostOps0_3, List.cons_append, List.nil_append]
  after_results
  rfl

/-- The third column's stretch leaves the clipped column of column coordinates. -/
theorem colC (V : Valuation τ sig (Elt F)) :
    (StableHlo.after (hostOps0_4 ++ hostOps0_5) V (Proc.devRef .tc main_v8) : S4096.Idx → BitVec 32)
      = clipCol (V (Proc.devRef .tc main_arg1)) ![0, 2] slices_S4096x3_S4096x1_0_2 255#32 := by
  simp only [hostOps0_4, hostOps0_5, List.cons_append, List.nil_append]
  after_results
  rfl

theorem keepA_arg1 (V : Valuation τ sig (Elt F)) :
    StableHlo.after (hostOps0 ++ hostOps0_1) V (Proc.devRef .tc main_arg1) = V (Proc.devRef .tc main_arg1) :=
  keeps _ V main_arg1 (by not_written)
theorem keepB_arg1 (V : Valuation τ sig (Elt F)) :
    StableHlo.after (hostOps0_2 ++ hostOps0_3) V (Proc.devRef .tc main_arg1) = V (Proc.devRef .tc main_arg1) :=
  keeps _ V main_arg1 (by not_written)
theorem keepB_v2 (V : Valuation τ sig (Elt F)) :
    StableHlo.after (hostOps0_2 ++ hostOps0_3) V (Proc.devRef .tc main_v2) = V (Proc.devRef .tc main_v2) :=
  keeps _ V main_v2 (by not_written)
theorem keepC_v2 (V : Valuation τ sig (Elt F)) :
    StableHlo.after (hostOps0_4 ++ hostOps0_5) V (Proc.devRef .tc main_v2) = V (Proc.devRef .tc main_v2) :=
  keeps _ V main_v2 (by not_written)
theorem keepC_v5 (V : Valuation τ sig (Elt F)) :
    StableHlo.after (hostOps0_4 ++ hostOps0_5) V (Proc.devRef .tc main_v5) = V (Proc.devRef .tc main_v5) :=
  keeps _ V main_v5 (by not_written)

/-- A three-operand operation's result, each operand's contents read at its own reference. -/
theorem nary3_result {sg : RefSig} {tp : Topo} {Val : EltTy → Type} {x a b y : Ref sg .tc}
    (f : ((k : Fin 3) → ((![x, a, b] : Fin 3 → Ref sg .tc) k).ty.Contents Val) → y.ty.Contents Val) (hxs hy)
    (V : Valuation tp sg Val) :
    (StableHlo.nary (τ := tp) ![x, a, b] y f hxs hy).result V (Proc.devRef .tc y)
      = f (Fin.cons (V (Proc.devRef .tc x)) (Fin.cons (V (Proc.devRef .tc a)) (Fin.cons (V (Proc.devRef .tc b)) (fun i => i.elim0)))) := by
  rw [StableHlo.nary_result]
  refine congrArg f (funext fun k => ?_)
  match k with
  | 0 => rfl
  | 1 => rfl
  | 2 => rfl

/-- The last stretches (columns made arrays, stacked, the map padded, the transpose) leave the stack of the
    three columns they find. -/
theorem tailT (W : Valuation τ sig (Elt F)) :
    (StableHlo.after (hostOps0_6 ++ (hostOps0_7 ++ hostOps0_8)) W (Proc.devRef .tc main_v14) : S3x4096.Idx → BitVec 32)
      = stack (W (Proc.devRef .tc main_v2)) (W (Proc.devRef .tc main_v5)) (W (Proc.devRef .tc main_v8)) := by
  simp only [hostOps0_6, hostOps0_7, hostOps0_8, List.cons_append, List.nil_append]
  simp only [StableHlo.after_cons, StableHlo.after_nil]
  repeat (first
    | rw [StableHlo.nullary_result] | rw [StableHlo.unary_result] | rw [StableHlo.binary_result] | rw [nary3_result]
    | (rw [StableHlo.nullary_result_ne]; rotate_left; decide)
    | (rw [StableHlo.unary_result_ne]; rotate_left; decide)
    | (rw [StableHlo.binary_result_ne]; rotate_left; decide)
    | (rw [StableHlo.nary_result_ne]; rotate_left; decide))
  rfl

/-- The table the launch prefetches is the clipped, transposed centre array: the stretches in order, each
    column's stretch leaving its clipped column and the centre array and the earlier columns as they were. -/
theorem atEntry_table (c : Dev nD) :
    (atEntry m c main_v14 : S3x4096.Idx → BitVec 32) = clipTable (m ((c : Thread nD τ).loc main_arg1)) := by
  dsimp only [atEntry]
  rw [show List.flatten [hostOps0, hostOps0_1, hostOps0_2, hostOps0_3, hostOps0_4, hostOps0_5, hostOps0_6, hostOps0_7, hostOps0_8]
      = ((hostOps0 ++ hostOps0_1) ++ ((hostOps0_2 ++ hostOps0_3) ++ ((hostOps0_4 ++ hostOps0_5)
          ++ (hostOps0_6 ++ (hostOps0_7 ++ hostOps0_8)))) : List (HloOp τ sig (Elt F))) from by
    simp only [List.flatten_cons, List.flatten_nil, List.append_nil, List.append_assoc]]
  rw [StableHlo.after_append, StableHlo.after_append, StableHlo.after_append]
  refine (tailT _).trans ?_
  unfold clipTable
  refine congr (congr (congrArg stack ?_) ?_) ?_
  · exact (keepC_v2 _).trans ((keepB_v2 _).trans (colA _))
  · exact (keepC_v5 _).trans ((colB _).trans
      (congrArg (fun cn => clipCol cn ![0, 1] slices_S4096x3_S4096x1_0_1 255#32) (keepA_arg1 _)))
  · exact (colC _).trans
      (congrArg (fun cn => clipCol cn ![0, 2] slices_S4096x3_S4096x1_0_2 255#32) ((keepB_arg1 _).trans (keepA_arg1 _)))

/-- The table's words are clipped centres: in range whatever the input. -/
theorem table_in_range (c : Dev nD) (n : Fin 4096) :
    ((atEntry m c main_v14 : S3x4096.Idx → BitVec 32) (ValueIdx.ix2 0 n)).toNat ≤ 15
    ∧ ((atEntry m c main_v14 : S3x4096.Idx → BitVec 32) (ValueIdx.ix2 1 n)).toNat ≤ 255
    ∧ ((atEntry m c main_v14 : S3x4096.Idx → BitVec 32) (ValueIdx.ix2 2 n)).toNat ≤ 255 := by
  rw [atEntry_table]
  exact clipTable_in_range _ n

/-- For centres inside the map the clip is the identity: the table is the transposed centre array. -/
theorem table_of_inMap (c : Dev nD) (h : Cert.Roi.InMap (m ((c : Thread nD τ).loc main_arg1) : S4096x3.Idx → BitVec 32)) :
    (atEntry m c main_v14 : S3x4096.Idx → BitVec 32) = Cert.Roi.tableOf (m ((c : Thread nD τ).loc main_arg1)) := by
  rw [atEntry_table]
  exact clipTable_of_inMap _ h

/-! ## The padded map -/

/-- The map padded by 15 rows and columns on each side and by 96 channels at the end, read at an index: the
    map at the index shifted back inside the band, the padding value outside it. -/
theorem pad_apply {α : Type} (p : S16x256x256x32.Idx → α) (v : S_.Idx → α) (q : S16x286x286x128.Idx) :
    pad S16x286x286x128 ![0, 15, 15, 0] ![0, 15, 15, 96] ![0, 0, 0, 0] p v
        pads_S16x256x256x32_S16x286x286x128_000_15150_15150_0960 h_S_ q
      = Cert.Roi.padded (v ValueIdx.ix0) p q := by
  obtain ⟨b, y, x, ch, rfl⟩ : ∃ (b : Fin 16) (y : Fin 286) (x : Fin 286) (ch : Fin 128), q = ix4 b y x ch :=
    ⟨q 0, q 1, q 2, q 3, eq_ix4 q⟩
  have hb := b.isLt
  have hy := y.isLt
  have hx := x.isLt
  have hch := ch.isLt
  unfold Cert.Roi.padded
  show _ = if 15 ≤ y.val ∧ y.val < 271 ∧ 15 ≤ x.val ∧ x.val < 271 ∧ ch.val < 32
    then p (Cert.Roi.poseIdx b.val (y.val - 15) (x.val - 15) ch.val) else v ValueIdx.ix0
  by_cases hin : 15 ≤ y.val ∧ y.val < 271 ∧ 15 ≤ x.val ∧ x.val < 271 ∧ ch.val < 32
  · rw [if_pos hin]
    refine pad_apply_of_inside _ _ _ p v _ h_S_ (ix4 b y x ch) (Cert.Roi.poseIdx b.val (y.val - 15) (x.val - 15) ch.val) ?_
    intro a
    match a with
    | ⟨0, _⟩ => show b.val = 0 + (b.val % 16) * (0 + 1); omega
    | ⟨1, _⟩ => show y.val = 15 + ((y.val - 15) % 256) * (0 + 1); omega
    | ⟨2, _⟩ => show x.val = 15 + ((x.val - 15) % 256) * (0 + 1); omega
    | ⟨3, _⟩ => show ch.val = 0 + (ch.val % 32) * (0 + 1); omega
  · rw [if_neg hin]
    have hv : v (Shape.Idx.first h_S_) = v ValueIdx.ix0 := congrArg v (funext fun a => a.elim0)
    by_cases hy' : 15 ≤ y.val ∧ y.val < 271
    · by_cases hx' : 15 ≤ x.val ∧ x.val < 271
      · -- the channel lies past the map's 32
        refine (pad_apply_of_not_inside _ _ _ p v _ h_S_ (ix4 b y x ch) (3 : Fin 4) ?_).trans hv
        show ¬(0 ≤ ch.val ∧ (ch.val - 0) % (0 + 1) = 0 ∧ (ch.val - 0) / (0 + 1) < 32)
        omega
      · refine (pad_apply_of_not_inside _ _ _ p v _ h_S_ (ix4 b y x ch) (2 : Fin 4) ?_).trans hv
        show ¬(15 ≤ x.val ∧ (x.val - 15) % (0 + 1) = 0 ∧ (x.val - 15) / (0 + 1) < 256)
        omega
    · refine (pad_apply_of_not_inside _ _ _ p v _ h_S_ (ix4 b y x ch) (1 : Fin 4) ?_).trans hv
      show ¬(15 ≤ y.val ∧ (y.val - 15) % (0 + 1) = 0 ∧ (y.val - 15) / (0 + 1) < 256)
      omega

/-- The padded map at the launch, over the extended reals: the padding value is the real 0. -/
theorem padded_at_entry (m : (ℓ : Loc nD τ sig) → Buf (Elt Ideal) ℓ) (c : Dev nD) :
    (atEntry m c main_v13 : S16x286x286x128.Idx → EReal) = Cert.Roi.padded (0 : EReal) (m ((c : Thread nD τ).loc main_arg0)) := by
  have e : (atEntry m c main_v13 : S16x286x286x128.Idx → EReal)
      = pad S16x286x286x128 ![0, 15, 15, 0] ![0, 15, 15, 96] ![0, 0, 0, 0]
          (m ((c : Thread nD τ).loc main_arg0) : S16x256x256x32.Idx → EReal)
          (sitofp (F := Ideal) .f32 (constantI S_ 32 0#32))
          pads_S16x256x256x32_S16x286x286x128_000_15150_15150_0960 h_S_ := by
    dsimp only [atEntry]
    simp only [hostOps0, hostOps0_1, hostOps0_2, hostOps0_3, hostOps0_4, hostOps0_5, hostOps0_6, hostOps0_7, hostOps0_8,
      List.flatten_cons, List.flatten_nil, List.append_nil, List.cons_append, List.nil_append]
    after_results
    rfl
  rw [e]
  funext q
  rw [pad_apply]
  have hz : (sitofp (F := Ideal) .f32 (constantI S_ 32 0#32) : S_.Idx → EReal) ValueIdx.ix0 = 0 :=
    sitofp_zero (φ := .f32)
  rw [hz]

end Cert.Kernel.Hand

end
-- ==== Proof.K.Fit.lean ====
/-
  Every window the body copies lies inside the padded map, once the table's words are in range.

  The body reads three table words per copy, (w0, w1, w2) in rows 0, 1, 2 of the table at one column, and
  copies the window of the padded map [16, 286, 286, 128] with origin (w0, w1, w2, 0) and extent
  (1, 31, 31, 128).  With w0 ≤ 15 and w1, w2 ≤ 255 the window fits: 15 + 1 ≤ 16, 255 + 31 ≤ 286 twice, and
  0 + 128 ≤ 128.  A table word read through the whole table's view at a one-element box is the table's entry
  at the box's offsets.  The column the words of copy j at grid point i are read at is 16 i + j: with i < 256
  nothing wraps in 32 bits.
-/
import proofs.«429989_j27960237097553_3_alg».proof.Proof.K.RunDefs
import Idealize.ShloMosaic.Lib.ValueIdx

noncomputable section

namespace Cert.Kernel.Hand

open Idealize.ShloMosaic Idealize.ShloMosaic.TcCoe
open Idealize.SL Idealize.SL.RA Idealize.SL.BI
open scoped Idealize.SL.BI
open Idealize.SL.BI.BIBase Idealize.SL.Sem
open Cert.Kernel Cert.Kernel.Gen

variable {F : FTy → Type} [FloatOps F]

/-! ## A table word -/

/-- A word read through the whole table's view at the one-element box with offsets `off` is the table's
    entry at (off 0, off 1): the view of a whole buffer reads the contents themselves, and the box's one
    element sits at its offsets. -/
theorem word_eq (c : Dev nD) (xt : TbBuf (F := F) c) (off : Fin 2 → Nat)
    (hinb : ∀ a, off a + S1x1.size a ≤ S3x4096.size a) (h1 : 0 < S1x1.numel) (r : Fin 3) (n : Fin 4096)
    (h0 : off 0 = r.val) (hn : off 1 = n.val) :
    tbM.view.readAt (Elt F) (Rect.unit (s := S3x4096) off S1x1.size hinb).toLoadRect xt (Shape.Idx.first h1)
      = (xt : S3x4096.Idx → BitVec 32) (ValueIdx.ix2 r n) := by
  show (xt : S3x4096.Idx → BitVec 32)
      ((Rect.unit (s := S3x4096) off S1x1.size hinb).toLoadRect.idx (Shape.Idx.first h1)) = _
  refine congrArg (xt : S3x4096.Idx → BitVec 32) (funext fun a => Fin.ext ?_)
  match a with
  | ⟨0, _⟩ => show off 0 + 1 * 0 = r.val; omega
  | ⟨1, _⟩ => show off 1 + 1 * 0 = n.val; omega

/-- The table's words are in range: row 0 at most 15, rows 1 and 2 at most 255. -/
abbrev InRange (c : Dev nD) (xt : TbBuf (F := F) c) : Prop :=
  ∀ n : Fin 4096, ((xt : S3x4096.Idx → BitVec 32) (ValueIdx.ix2 0 n)).toNat ≤ 15
    ∧ ((xt : S3x4096.Idx → BitVec 32) (ValueIdx.ix2 1 n)).toNat ≤ 255
    ∧ ((xt : S3x4096.Idx → BitVec 32) (ValueIdx.ix2 2 n)).toNat ≤ 255

/-- The column a one-element box inside the table sits at. -/
def boxCol (off : Fin 2 → Nat) (hinb : ∀ a, off a + S1x1.size a ≤ S3x4096.size a) : Fin 4096 :=
  ⟨off 1, by have := hinb 1; show off 1 < 4096; have e : off 1 + 1 ≤ 4096 := this; omega⟩

/-- A word of row 0 of an in-range table is at most 15. -/
theorem word_le0 (c : Dev nD) (xt : TbBuf (F := F) c) (h : InRange c xt) (off : Fin 2 → Nat)
    (hinb : ∀ a, off a + S1x1.size a ≤ S3x4096.size a) (h1 : 0 < S1x1.numel) (h0 : off 0 = 0) :
    (tbM.view.readAt (Elt F) (Rect.unit (s := S3x4096) off S1x1.size hinb).toLoadRect xt (Shape.Idx.first h1) : BitVec 32).toNat ≤ 15 := by
  rw [word_eq c xt off hinb h1 0 (boxCol off hinb) h0 rfl]
  exact (h _).1

/-- A word of row 1 of an in-range table is at most 255. -/
theorem word_le1 (c : Dev nD) (xt : TbBuf (F := F) c) (h : InRange c xt) (off : Fin 2 → Nat)
    (hinb : ∀ a, off a + S1x1.size a ≤ S3x4096.size a) (h1 : 0 < S1x1.numel) (h0 : off 0 = 1) :
    (tbM.view.readAt (Elt F) (Rect.unit (s := S3x4096) off S1x1.size hinb).toLoadRect xt (Shape.Idx.first h1) : BitVec 32).toNat ≤ 255 := by
  rw [word_eq c xt off hinb h1 1 (boxCol off hinb) h0 rfl]
  exact (h _).2.1

/-- A word of row 2 of an in-range table is at most 255. -/
theorem word_le2 (c : Dev nD) (xt : TbBuf (F := F) c) (h : InRange c xt) (off : Fin 2 → Nat)
    (hinb : ∀ a, off a + S1x1.size a ≤ S3x4096.size a) (h1 : 0 < S1x1.numel) (h0 : off 0 = 2) :
    (tbM.view.readAt (Elt F) (Rect.unit (s := S3x4096) off S1x1.size hinb).toLoadRect xt (Shape.Idx.first h1) : BitVec 32).toNat ≤ 255 := by
  rw [word_eq c xt off hinb h1 2 (boxCol off hinb) h0 rfl]
  exact (h _).2.2

/-! ## A window with an in-range origin fits -/

/-- The window with origin (a, b, c, 0) and extent (1, 31, 31, 128) lies inside [16, 286, 286, 128] when
    a ≤ 15 and b, c ≤ 255. -/
theorem fit_of_bounds (a b c : BitVec 32) (ha : a.toNat ≤ 15) (hb : b.toNat ≤ 255) (hc : c.toNat ≤ 255) :
    ∀ a' : Fin 4, (![a.toNat, b.toNat, c.toNat, 0] : Fin 4 → Nat) a' + S1x31x31x128.size a' ≤ S16x286x286x128.size a' := by
  intro a'
  match a' with
  | ⟨0, _⟩ => show a.toNat + 1 ≤ 16; omega
  | ⟨1, _⟩ => show b.toNat + 31 ≤ 286; omega
  | ⟨2, _⟩ => show c.toNat + 31 ≤ 286; omega
  | ⟨3, _⟩ => show 0 + 128 ≤ 128; omega

/-- With the table's words in range, all 32 side conditions of the body hold at every grid point: each is the
    fit of the window whose origin is the three words of one column. -/
theorem windowsFit_of_range (c : Dev nD) (i : grid0.Coords) (xt : TbBuf (F := F) c)
    (h : ∀ n : Fin 4096, ((xt : S3x4096.Idx → BitVec 32) (ValueIdx.ix2 0 n)).toNat ≤ 15 ∧ ((xt : S3x4096.Idx → BitVec 32) (ValueIdx.ix2 1 n)).toNat ≤ 255 ∧ ((xt : S3x4096.Idx → BitVec 32) (ValueIdx.ix2 2 n)).toNat ≤ 255) :
    WindowsFit c i xt := by
  unfold WindowsFit
  repeat' apply And.intro
  all_goals
    exact fit_of_bounds _ _ _ (word_le0 c xt h _ _ _ (by rfl)) (word_le1 c xt h _ _ _ (by rfl))
      (word_le2 c xt h _ _ _ (by rfl))

/-! ## The words the copies start from -/

/-- 16 x + j in 32-bit words, for x < 256 and j < 16: nothing wraps, and the result is below 4096. -/
theorem col_word (x j : Nat) (hx : x < 256) (hj : j < 16) :
    (Scalar.indexCast (Scalar.addi (Scalar.muli (BitVec.ofNat 32 x) 16#32) (BitVec.ofNat 32 j))).toNat
      = (Fin.ofNat 4096 (16 * x + j)).val := by
  show ((BitVec.ofNat 32 x) * 16#32 + BitVec.ofNat 32 j).toNat = (16 * x + j) % 4096
  rw [BitVec.toNat_add, BitVec.toNat_mul, BitVec.toNat_ofNat, BitVec.toNat_ofNat, BitVec.toNat_ofNat]
  omega

/-- The word copy `j` reads in row `r` where it starts is the table's entry (r, 16 i + j): its box has
    offsets (r, 16 i + j), the column computed in 32-bit words without wrapping. -/
theorem startWord_eq (c : Dev nD) (i : grid0.Coords) (xt : TbBuf (F := F) c) (j : Fin 16) (r : Fin 3) :
    startWord c i xt j r = (xt : S3x4096.Idx → BitVec 32) (ValueIdx.ix2 r (Fin.ofNat 4096 (16 * (i 0).val + j.val))) := by
  have hi : (i 0).val < 256 := (i 0).isLt
  fin_cases j <;> fin_cases r <;>
    exact word_eq c xt _ _ _ _ _ (by rfl) (by exact col_word (i 0).val _ hi (by decide))

end Cert.Kernel.Hand

end
-- ==== Proof.K.Claims.lean ====
/-
  The frame of the gather program: it runs to the end from any memory, faults nowhere, and leaves
  its two arguments as they were.  The only thing the launch needs of the input is that the copied
  windows fit the padded map, and that holds of every input: the table holds clipped centres.
-/
import proofs.«429989_j27960237097553_3_alg».proof.Proof.K.Frame
import proofs.«429989_j27960237097553_3_alg».proof.Proof.K.EntryValues
import proofs.«429989_j27960237097553_3_alg».proof.Proof.K.Fit

noncomputable section

namespace Cert.Kernel.Hand

open Idealize.ShloMosaic Idealize.ShloMosaic.TcCoe
open Idealize.SL Idealize.SL.Sem
open Cert.Kernel Cert.Kernel.Gen

variable {F : FTy → Type} [FloatOps F]

variable (m : (ℓ : Loc nD τ sig) → Buf (Elt F) ℓ) (ρ : Dev nD → PrngReg)

/-- Whatever the centres are, every window the body copies lies inside the padded map: the table's batch words are
    at most 15 and its row and column words at most 255. -/
theorem fitAll : FitAll m := fun c t =>
  windowsFit_of_range c (grid0.coords t) (tbl m 0) (fun n => table_in_range m 0 n)

/-- The program runs, and its arguments end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
      ⟨((h c).2 main_arg0 (Pipeline.mem_restRefs_of main_arg0 (by decide) (show ∀ w : Fin 1, (spec0 w).arr.view.ref ≠ main_arg0 from by decide))).trans (atEntry_arg0 m c),
       ((h c).2 main_arg1 (Pipeline.mem_restRefs_of main_arg1 (by decide) (show ∀ w : Fin 1, (spec0 w).arr.view.ref ≠ main_arg1 from by decide))).trans (atEntry_arg1 m c)⟩)
    (run_main m ρ (fitAll m))

end Cert.Kernel.Hand

end
-- ==== Proof.KI.Entry.lean ====
/-
  The program up to its one kernel launch.  @main first runs nine short stretches of host
  operations: the three centre columns are sliced out and each clipped into its axis (batch to
  [0, 15], row and column to [0, 255]), stacked again and transposed into the [3, 4096] table the
  launch prefetches; and the map is zero-padded by 15 rows and columns on each side and to 128
  channels.  `atEntry` is what every buffer holds when the launch is reached; neither argument is
  written on the way.
-/
import proofs.«429989_j27960237097553_3_alg».proof.Proof.Gen.KernelIdeal.Launch
import Idealize.ShloMosaic.Lib.Pipeline.Frame

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.Sem
open Cert.KernelIdeal Cert.KernelIdeal.Gen

variable {F : FTy → Type} [FloatOps F]

variable (m : (ℓ : Loc nD τ sig) → Buf (Elt F) ℓ)

/-- The host stretches before the launch, in program order. -/
abbrev entryOps : List (List (HloOp τ sig (Elt F))) :=
  [hostOps0, hostOps0_1, hostOps0_2, hostOps0_3, hostOps0_4, hostOps0_5, hostOps0_6, hostOps0_7, hostOps0_8]

/-- What core `c`'s buffers hold when the launch is reached. -/
abbrev atEntry (c : Dev nD) (b : Ref sig .tc) : Buf (Elt F) ((c : Thread nD τ).loc b) :=
  StableHlo.after (List.flatten [hostOps0, hostOps0_1, hostOps0_2, hostOps0_3, hostOps0_4, hostOps0_5, hostOps0_6, hostOps0_7, hostOps0_8]) (fun b => m (c, b)) b

theorem fresh0 : (hostOps0 : List (HloOp τ sig (Elt F))).Forall fun op => op.fresh = ∅ := by
  simp only [List.Forall]; repeat' constructor
theorem fresh1 : (hostOps0_1 : List (HloOp τ sig (Elt F))).Forall fun op => op.fresh = ∅ := by
  simp only [List.Forall]; repeat' constructor
theorem fresh2 : (hostOps0_2 : List (HloOp τ sig (Elt F))).Forall fun op => op.fresh = ∅ := by
  simp only [List.Forall]; repeat' constructor
theorem fresh3 : (hostOps0_3 : List (HloOp τ sig (Elt F))).Forall fun op => op.fresh = ∅ := by
  simp only [List.Forall]; repeat' constructor
theorem fresh4 : (hostOps0_4 : List (HloOp τ sig (Elt F))).Forall fun op => op.fresh = ∅ := by
  simp only [List.Forall]; repeat' constructor
theorem fresh5 : (hostOps0_5 : List (HloOp τ sig (Elt F))).Forall fun op => op.fresh = ∅ := by
  simp only [List.Forall]; repeat' constructor
theorem fresh6 : (hostOps0_6 : List (HloOp τ sig (Elt F))).Forall fun op => op.fresh = ∅ := by
  simp only [List.Forall]; repeat' constructor
theorem fresh7 : (hostOps0_7 : List (HloOp τ sig (Elt F))).Forall fun op => op.fresh = ∅ := by
  simp only [List.Forall]; repeat' constructor
theorem fresh8 : (hostOps0_8 : List (HloOp τ sig (Elt F))).Forall fun op => op.fresh = ∅ := by
  simp only [List.Forall]; repeat' constructor

/-- @main is those stretches and then the launch: from the buffers as launched it reaches the launch
    holding them at `atEntry`. -/
theorem toLaunch (𝒱₀ : Variants) :
    Pipeline.HMainP (Ix := Unit) (Name := ℕ) (U := Pipeline.UD sig nD τ) (Lvl := ℕ) pcfgs 0 defs₀ 𝒱₀ m (main (F := F)) (atEntry m) :=
  Pipeline.hmainP_prefixes pcfgs 0 defs₀ 𝒱₀ m main entryOps
    (by simp only [List.Forall]; exact ⟨hostOps0_sub, hostOps0_1_sub, hostOps0_2_sub, hostOps0_3_sub, hostOps0_4_sub, hostOps0_5_sub, hostOps0_6_sub, hostOps0_7_sub, hostOps0_8_sub⟩)
    (by simp only [List.Forall]; exact ⟨fresh0, fresh1, fresh2, fresh3, fresh4, fresh5, fresh6, fresh7, fresh8⟩)
    main_chain

end Cert.KernelIdeal.Hand

end
-- ==== Proof.KI.RunDefs.lean ====
/-
  The objects one grid point of the gather kernel is stated over.

  The body is handed the prefetched table [3, 4096], the padded map [16, 286, 286, 128] (left in
  HBM) and a landing buffer [16, 31, 31, 128].  For ROI j of the point it reads three table words
  (w0, w1, w2) and copies the window of the padded map with origin (w0, w1, w2, 0) and extent
  (1, 31, 31, 128) into slab j of the landing buffer.  `WindowsFit` says every such window lies
  inside the padded map (the side condition the body assumes); `slab j` is what copy j delivers;
  `landed` is the landing buffer after all 16 copies; `blockSpec` is the output block: its row j is
  the first 32 channels of slab j.
-/
import proofs.«429989_j27960237097553_3_alg».proof.Proof.KI.Entry
import Idealize.ShloMosaic.Lib.ValueIdx

set_option maxRecDepth 16384

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.Sem
open Cert.KernelIdeal Cert.KernelIdeal.Gen

variable {F : FTy → Type} [FloatOps F]

local notation "𝕄" => MT nD τ sig Unit (Elt F) ℕ (Pipeline.UD sig nD τ) ℕ

/-- The prefetched table, the padded map and the landing buffer as the body is handed them: whole buffers. -/
abbrev tbM : Memref sig .tc .smem S3x4096 .i32 := Memref.whole main_v14
abbrev htbM : tbM.IsWhole := Memref.isWhole_whole _
abbrev hbM : Memref sig .tc .hbm S16x286x286x128 .f32 := Memref.whole main_v13
abbrev hhbM : hbM.IsWhole := Memref.isWhole_whole _
abbrev scM : Memref sig .tc .vmem S16x31x31x128 .f32 := Memref.whole cc0_scratch0
abbrev hscM : scM.IsWhole := Memref.isWhole_whole _

/-- The table's contents, held read-only (the launch keeps the other half of the share). -/
abbrev TbBuf (c : Dev nD) : Type := Buf (Elt F) (tbM.view.loc (c : Thread nD τ))
abbrev tbPt (c : Dev nD) (f : TbBuf (F := F) c) : sProp 𝕄 := tbM.view.loc (c : Thread nD τ) ↦{fullShare.right} f
/-- The padded map's contents, held as 18 read shares (one per DMA semaphore of the core, numbered as the
    semaphores are) and the remainder. -/
abbrev HbBuf (c : Dev nD) : Type := Buf (Elt F) (hbM.view.loc (c : Thread nD τ))
abbrev hbTok (c : Dev nD) (k : Fin 18) (f : HbBuf (F := F) c) : sProp 𝕄 := hbM.view.loc (c : Thread nD τ) ↦{Transfers.shareTok fullShare 18 k} f
abbrev hbRest (c : Dev nD) (f : HbBuf (F := F) c) : sProp 𝕄 := hbM.view.loc (c : Thread nD τ) ↦{Transfers.shareDrop fullShare 18} f

/-- Every window the body copies at point `i` lies inside the padded map: the side condition it assumes of
    each triple of table words, once where the copy is started (1 to 16) and once where it is waited for (17 to 32). -/
def WindowsFit (c : Dev nD) (i : grid0.Coords) (xt : TbBuf (F := F) c) : Prop :=
    k0_chk1 (tbM.view.readAt (Elt F) (Rect.unit (s := S3x4096) (k0_off1 i) S1x1.size (k0_off1_inb i)).toLoadRect xt (Shape.Idx.first (numel1_S1x1.symm ▸ Nat.one_pos))) (tbM.view.readAt (Elt F) (Rect.unit (s := S3x4096) (k0_off2 i) S1x1.size (k0_off2_inb i)).toLoadRect xt (Shape.Idx.first (numel1_S1x1.symm ▸ Nat.one_pos))) (tbM.view.readAt (Elt F) (Rect.unit (s := S3x4096) (k0_off3 i) S1x1.size (k0_off3_inb i)).toLoadRect xt (Shape.Idx.first (numel1_S1x1.symm ▸ Nat.one_pos)))
    ∧ k0_chk2 (tbM.view.readAt (Elt F) (Rect.unit (s := S3x4096) (k0_off5 i) S1x1.size (k0_off5_inb i)).toLoadRect xt (Shape.Idx.first (numel1_S1x1.symm ▸ Nat.one_pos))) (tbM.view.readAt (Elt F) (Rect.unit (s := S3x4096) (k0_off6 i) S1x1.size (k0_off6_inb i)).toLoadRect xt (Shape.Idx.first (numel1_S1x1.symm ▸ Nat.one_pos))) (tbM.view.readAt (Elt F) (Rect.unit (s := S3x4096) (k0_off7 i) S1x1.size (k0_off7_inb i)).toLoadRect xt (Shape.Idx.first (numel1_S1x1.symm ▸ Nat.one_pos)))
    ∧ k0_chk3 (tbM.view.readAt (Elt F) (Rect.unit (s := S3x4096) (k0_off9 i) S1x1.size (k0_off9_inb i)).toLoadRect xt (Shape.Idx.first (numel1_S1x1.symm ▸ Nat.one_pos))) (tbM.view.readAt (Elt F) (Rect.unit (s := S3x4096) (k0_off10 i) S1x1.size (k0_off10_inb i)).toLoadRect xt (Shape.Idx.first (numel1_S1x1.symm ▸ Nat.one_pos))) (tbM.view.readAt (Elt F) (Rect.unit (s := S3x4096) (k0_off11 i) S1x1.size (k0_off11_inb i)).toLoadRect xt (Shape.Idx.first (numel1_S1x1.symm ▸ Nat.one_pos)))
    ∧ k0_chk4 (tbM.view.readAt (Elt F) (Rect.unit (s := S3x4096) (k0_off13 i) S1x1.size (k0_off13_inb i)).toLoadRect xt (Shape.Idx.first (numel1_S1x1.symm ▸ Nat.one_pos))) (tbM.view.readAt (Elt F) (Rect.unit (s := S3x4096) (k0_off14 i) S1x1.size (k0_off14_inb i)).toLoadRect xt (Shape.Idx.first (numel1_S1x1.symm ▸ Nat.one_pos))) (tbM.view.readAt (Elt F) (Rect.unit (s := S3x4096) (k0_off15 i) S1x1.size (k0_off15_inb i)).toLoadRect xt (Shape.Idx.first (numel1_S1x1.symm ▸ Nat.one_pos)))
    ∧ k0_chk5 (tbM.view.readAt (Elt F) (Rect.unit (s := S3x4096) (k0_off17 i) S1x1.size (k0_off17_inb i)).toLoadRect xt (Shape.Idx.first (numel1_S1x1.symm ▸ Nat.one_pos))) (tbM.view.readAt (Elt F) (Rect.unit (s := S3x4096) (k0_off18 i) S1x1.size (k0_off18_inb i)).toLoadRect xt (Shape.Idx.first (numel1_S1x1.symm ▸ Nat.one_pos))) (tbM.view.readAt (Elt F) (Rect.unit (s := S3x4096) (k0_off19 i) S1x1.size (k0_off19_inb i)).toLoadRect xt (Shape.Idx.first (numel1_S1x1.symm ▸ Nat.one_pos)))
    ∧ k0_chk6 (tbM.view.readAt (Elt F) (Rect.unit (s := S3x4096) (k0_off21 i) S1x1.size (k0_off21_inb i)).toLoadRect xt (Shape.Idx.first (numel1_S1x1.symm ▸ Nat.one_pos))) (tbM.view.readAt (Elt F) (Rect.unit (s := S3x4096) (k0_off22 i) S1x1.size (k0_off22_inb i)).toLoadRect xt (Shape.Idx.first (numel1_S1x1.symm ▸ Nat.one_pos))) (tbM.view.readAt (Elt F) (Rect.unit (s := S3x4096) (k0_off23 i) S1x1.size (k0_off23_inb i)).toLoadRect xt (Shape.Idx.first (numel1_S1x1.symm ▸ Nat.one_pos)))
    ∧ k0_chk7 (tbM.view.readAt (Elt F) (Rect.unit (s := S3x4096) (k0_off25 i) S1x1.size (k0_off25_inb i)).toLoadRect xt (Shape.Idx.first (numel1_S1x1.symm ▸ Nat.one_pos))) (tbM.view.readAt (Elt F) (Rect.unit (s := S3x4096) (k0_off26 i) S1x1.size (k0_off26_inb i)).toLoadRect xt (Shape.Idx.first (numel1_S1x1.symm ▸ Nat.one_pos))) (tbM.view.readAt (Elt F) (Rect.unit (s := S3x4096) (k0_off27 i) S1x1.size (k0_off27_inb i)).toLoadRect xt (Shape.Idx.first (numel1_S1x1.symm ▸ Nat.one_pos)))
    ∧ k0_chk8 (tbM.view.readAt (Elt F) (Rect.unit (s := S3x4096) (k0_off29 i) S1x1.size (k0_off29_inb i)).toLoadRect xt (Shape.Idx.first (numel1_S1x1.symm ▸ Nat.one_pos))) (tbM.view.readAt (Elt F) (Rect.unit (s := S3x4096) (k0_off30 i) S1x1.size (k0_off30_inb i)).toLoadRect xt (Shape.Idx.first (numel1_S1x1.symm ▸ Nat.one_pos))) (tbM.view.readAt (Elt F) (Rect.unit (s := S3x4096) (k0_off31 i) S1x1.size (k0_off31_inb i)).toLoadRect xt (Shape.Idx.first (numel1_S1x1.symm ▸ Nat.one_pos)))
    ∧ k0_chk9 (tbM.view.readAt (Elt F) (Rect.unit (s := S3x4096) (k0_off33 i) S1x1.size (k0_off33_inb i)).toLoadRect xt (Shape.Idx.first (numel1_S1x1.symm ▸ Nat.one_pos))) (tbM.view.readAt (Elt F) (Rect.unit (s := S3x4096) (k0_off34 i) S1x1.size (k0_off34_inb i)).toLoadRect xt (Shape.Idx.first (numel1_S1x1.symm ▸ Nat.one_pos))) (tbM.view.readAt (Elt F) (Rect.unit (s := S3x4096) (k0_off35 i) S1x1.size (k0_off35_inb i)).toLoadRect xt (Shape.Idx.first (numel1_S1x1.symm ▸ Nat.one_pos)))
    ∧ k0_chk10 (tbM.view.readAt (Elt F) (Rect.unit (s := S3x4096) (k0_off37 i) S1x1.size (k0_off37_inb i)).toLoadRect xt (Shape.Idx.first (numel1_S1x1.symm ▸ Nat.one_pos))) (tbM.view.readAt (Elt F) (Rect.unit (s := S3x4096) (k0_off38 i) S1x1.size (k0_off38_inb i)).toLoadRect xt (Shape.Idx.first (numel1_S1x1.symm ▸ Nat.one_pos))) (tbM.view.readAt (Elt F) (Rect.unit (s := S3x4096) (k0_off39 i) S1x1.size (k0_off39_inb i)).toLoadRect xt (Shape.Idx.first (numel1_S1x1.symm ▸ Nat.one_pos)))
    ∧ k0_chk11 (tbM.view.readAt (Elt F) (Rect.unit (s := S3x4096) (k0_off41 i) S1x1.size (k0_off41_inb i)).toLoadRect xt (Shape.Idx.first (numel1_S1x1.symm ▸ Nat.one_pos))) (tbM.view.readAt (Elt F) (Rect.unit (s := S3x4096) (k0_off42 i) S1x1.size (k0_off42_inb i)).toLoadRect xt (Shape.Idx.first (numel1_S1x1.symm ▸ Nat.one_pos))) (tbM.view.readAt (Elt F) (Rect.unit (s := S3x4096) (k0_off43 i) S1x1.size (k0_off43_inb i)).toLoadRect xt (Shape.Idx.first (numel1_S1x1.symm ▸ Nat.one_pos)))
    ∧ k0_chk12 (tbM.view.readAt (Elt F) (Rect.unit (s := S3x4096) (k0_off45 i) S1x1.size (k0_off45_inb i)).toLoadRect xt (Shape.Idx.first (numel1_S1x1.symm ▸ Nat.one_pos))) (tbM.view.readAt (Elt F) (Rect.unit (s := S3x4096) (k0_off46 i) S1x1.size (k0_off46_inb i)).toLoadRect xt (Shape.Idx.first (numel1_S1x1.symm ▸ Nat.one_pos))) (tbM.view.readAt (Elt F) (Rect.unit (s := S3x4096) (k0_off47 i) S1x1.size (k0_off47_inb i)).toLoadRect xt (Shape.Idx.first (numel1_S1x1.symm ▸ Nat.one_pos)))
    ∧ k0_chk13 (tbM.view.readAt (Elt F) (Rect.unit (s := S3x4096) (k0_off49 i) S1x1.size (k0_off49_inb i)).toLoadRect xt (Shape.Idx.first (numel1_S1x1.symm ▸ Nat.one_pos))) (tbM.view.readAt (Elt F) (Rect.unit (s := S3x4096) (k0_off50 i) S1x1.size (k0_off50_inb i)).toLoadRect xt (Shape.Idx.first (numel1_S1x1.symm ▸ Nat.one_pos))) (tbM.view.readAt (Elt F) (Rect.unit (s := S3x4096) (k0_off51 i) S1x1.size (k0_off51_inb i)).toLoadRect xt (Shape.Idx.first (numel1_S1x1.symm ▸ Nat.one_pos)))
    ∧ k0_chk14 (tbM.view.readAt (Elt F) (Rect.unit (s := S3x4096) (k0_off53 i) S1x1.size (k0_off53_inb i)).toLoadRect xt (Shape.Idx.first (numel1_S1x1.symm ▸ Nat.one_pos))) (tbM.view.readAt (Elt F) (Rect.unit (s := S3x4096) (k0_off54 i) S1x1.size (k0_off54_inb i)).toLoadRect xt (Shape.Idx.first (numel1_S1x1.symm ▸ Nat.one_pos))) (tbM.view.readAt (Elt F) (Rect.unit (s := S3x4096) (k0_off55 i) S1x1.size (k0_off55_inb i)).toLoadRect xt (Shape.Idx.first (numel1_S1x1.symm ▸ Nat.one_pos)))
    ∧ k0_chk15 (tbM.view.readAt (Elt F) (Rect.unit (s := S3x4096) (k0_off57 i) S1x1.size (k0_off57_inb i)).toLoadRect xt (Shape.Idx.first (numel1_S1x1.symm ▸ Nat.one_pos))) (tbM.view.readAt (Elt F) (Rect.unit (s := S3x4096) (k0_off58 i) S1x1.size (k0_off58_inb i)).toLoadRect xt (Shape.Idx.first (numel1_S1x1.symm ▸ Nat.one_pos))) (tbM.view.readAt (Elt F) (Rect.unit (s := S3x4096) (k0_off59 i) S1x1.size (k0_off59_inb i)).toLoadRect xt (Shape.Idx.first (numel1_S1x1.symm ▸ Nat.one_pos)))
    ∧ k0_chk16 (tbM.view.readAt (Elt F) (Rect.unit (s := S3x4096) (k0_off61 i) S1x1.size (k0_off61_inb i)).toLoadRect xt (Shape.Idx.first (numel1_S1x1.symm ▸ Nat.one_pos))) (tbM.view.readAt (Elt F) (Rect.unit (s := S3x4096) (k0_off62 i) S1x1.size (k0_off62_inb i)).toLoadRect xt (Shape.Idx.first (numel1_S1x1.symm ▸ Nat.one_pos))) (tbM.view.readAt (Elt F) (Rect.unit (s := S3x4096) (k0_off63 i) S1x1.size (k0_off63_inb i)).toLoadRect xt (Shape.Idx.first (numel1_S1x1.symm ▸ Nat.one_pos)))
    ∧ k0_chk17 (tbM.view.readAt (Elt F) (Rect.unit (s := S3x4096) (k0_off65 i) S1x1.size (k0_off65_inb i)).toLoadRect xt (Shape.Idx.first (numel1_S1x1.symm ▸ Nat.one_pos))) (tbM.view.readAt (Elt F) (Rect.unit (s := S3x4096) (k0_off66 i) S1x1.size (k0_off66_inb i)).toLoadRect xt (Shape.Idx.first (numel1_S1x1.symm ▸ Nat.one_pos))) (tbM.view.readAt (Elt F) (Rect.unit (s := S3x4096) (k0_off67 i) S1x1.size (k0_off67_inb i)).toLoadRect xt (Shape.Idx.first (numel1_S1x1.symm ▸ Nat.one_pos)))
    ∧ k0_chk18 (tbM.view.readAt (Elt F) (Rect.unit (s := S3x4096) (k0_off69 i) S1x1.size (k0_off69_inb i)).toLoadRect xt (Shape.Idx.first (numel1_S1x1.symm ▸ Nat.one_pos))) (tbM.view.readAt (Elt F) (Rect.unit (s := S3x4096) (k0_off70 i) S1x1.size (k0_off70_inb i)).toLoadRect xt (Shape.Idx.first (numel1_S1x1.symm ▸ Nat.one_pos))) (tbM.view.readAt (Elt F) (Rect.unit (s := S3x4096) (k0_off71 i) S1x1.size (k0_off71_inb i)).toLoadRect xt (Shape.Idx.first (numel1_S1x1.symm ▸ Nat.one_pos)))
    ∧ k0_chk19 (tbM.view.readAt (Elt F) (Rect.unit (s := S3x4096) (k0_off73 i) S1x1.size (k0_off73_inb i)).toLoadRect xt (Shape.Idx.first (numel1_S1x1.symm ▸ Nat.one_pos))) (tbM.view.readAt (Elt F) (Rect.unit (s := S3x4096) (k0_off74 i) S1x1.size (k0_off74_inb i)).toLoadRect xt (Shape.Idx.first (numel1_S1x1.symm ▸ Nat.one_pos))) (tbM.view.readAt (Elt F) (Rect.unit (s := S3x4096) (k0_off75 i) S1x1.size (k0_off75_inb i)).toLoadRect xt (Shape.Idx.first (numel1_S1x1.symm ▸ Nat.one_pos)))
    ∧ k0_chk20 (tbM.view.readAt (Elt F) (Rect.unit (s := S3x4096) (k0_off77 i) S1x1.size (k0_off77_inb i)).toLoadRect xt (Shape.Idx.first (numel1_S1x1.symm ▸ Nat.one_pos))) (tbM.view.readAt (Elt F) (Rect.unit (s := S3x4096) (k0_off78 i) S1x1.size (k0_off78_inb i)).toLoadRect xt (Shape.Idx.first (numel1_S1x1.symm ▸ Nat.one_pos))) (tbM.view.readAt (Elt F) (Rect.unit (s := S3x4096) (k0_off79 i) S1x1.size (k0_off79_inb i)).toLoadRect xt (Shape.Idx.first (numel1_S1x1.symm ▸ Nat.one_pos)))
    ∧ k0_chk21 (tbM.view.readAt (Elt F) (Rect.unit (s := S3x4096) (k0_off81 i) S1x1.size (k0_off81_inb i)).toLoadRect xt (Shape.Idx.first (numel1_S1x1.symm ▸ Nat.one_pos))) (tbM.view.readAt (Elt F) (Rect.unit (s := S3x4096) (k0_off82 i) S1x1.size (k0_off82_inb i)).toLoadRect xt (Shape.Idx.first (numel1_S1x1.symm ▸ Nat.one_pos))) (tbM.view.readAt (Elt F) (Rect.unit (s := S3x4096) (k0_off83 i) S1x1.size (k0_off83_inb i)).toLoadRect xt (Shape.Idx.first (numel1_S1x1.symm ▸ Nat.one_pos)))
    ∧ k0_chk22 (tbM.view.readAt (Elt F) (Rect.unit (s := S3x4096) (k0_off85 i) S1x1.size (k0_off85_inb i)).toLoadRect xt (Shape.Idx.first (numel1_S1x1.symm ▸ Nat.one_pos))) (tbM.view.readAt (Elt F) (Rect.unit (s := S3x4096) (k0_off86 i) S1x1.size (k0_off86_inb i)).toLoadRect xt (Shape.Idx.first (numel1_S1x1.symm ▸ Nat.one_pos))) (tbM.view.readAt (Elt F) (Rect.unit (s := S3x4096) (k0_off87 i) S1x1.size (k0_off87_inb i)).toLoadRect xt (Shape.Idx.first (numel1_S1x1.symm ▸ Nat.one_pos)))
    ∧ k0_chk23 (tbM.view.readAt (Elt F) (Rect.unit (s := S3x4096) (k0_off89 i) S1x1.size (k0_off89_inb i)).toLoadRect xt (Shape.Idx.first (numel1_S1x1.symm ▸ Nat.one_pos))) (tbM.view.readAt (Elt F) (Rect.unit (s := S3x4096) (k0_off90 i) S1x1.size (k0_off90_inb i)).toLoadRect xt (Shape.Idx.first (numel1_S1x1.symm ▸ Nat.one_pos))) (tbM.view.readAt (Elt F) (Rect.unit (s := S3x4096) (k0_off91 i) S1x1.size (k0_off91_inb i)).toLoadRect xt (Shape.Idx.first (numel1_S1x1.symm ▸ Nat.one_pos)))
    ∧ k0_chk24 (tbM.view.readAt (Elt F) (Rect.unit (s := S3x4096) (k0_off93 i) S1x1.size (k0_off93_inb i)).toLoadRect xt (Shape.Idx.first (numel1_S1x1.symm ▸ Nat.one_pos))) (tbM.view.readAt (Elt F) (Rect.unit (s := S3x4096) (k0_off94 i) S1x1.size (k0_off94_inb i)).toLoadRect xt (Shape.Idx.first (numel1_S1x1.symm ▸ Nat.one_pos))) (tbM.view.readAt (Elt F) (Rect.unit (s := S3x4096) (k0_off95 i) S1x1.size (k0_off95_inb i)).toLoadRect xt (Shape.Idx.first (numel1_S1x1.symm ▸ Nat.one_pos)))
    ∧ k0_chk25 (tbM.view.readAt (Elt F) (Rect.unit (s := S3x4096) (k0_off97 i) S1x1.size (k0_off97_inb i)).toLoadRect xt (Shape.Idx.first (numel1_S1x1.symm ▸ Nat.one_pos))) (tbM.view.readAt (Elt F) (Rect.unit (s := S3x4096) (k0_off98 i) S1x1.size (k0_off98_inb i)).toLoadRect xt (Shape.Idx.first (numel1_S1x1.symm ▸ Nat.one_pos))) (tbM.view.readAt (Elt F) (Rect.unit (s := S3x4096) (k0_off99 i) S1x1.size (k0_off99_inb i)).toLoadRect xt (Shape.Idx.first (numel1_S1x1.symm ▸ Nat.one_pos)))
    ∧ k0_chk26 (tbM.view.readAt (Elt F) (Rect.unit (s := S3x4096) (k0_off101 i) S1x1.size (k0_off101_inb i)).toLoadRect xt (Shape.Idx.first (numel1_S1x1.symm ▸ Nat.one_pos))) (tbM.view.readAt (Elt F) (Rect.unit (s := S3x4096) (k0_off102 i) S1x1.size (k0_off102_inb i)).toLoadRect xt (Shape.Idx.first (numel1_S1x1.symm ▸ Nat.one_pos))) (tbM.view.readAt (Elt F) (Rect.unit (s := S3x4096) (k0_off103 i) S1x1.size (k0_off103_inb i)).toLoadRect xt (Shape.Idx.first (numel1_S1x1.symm ▸ Nat.one_pos)))
    ∧ k0_chk27 (tbM.view.readAt (Elt F) (Rect.unit (s := S3x4096) (k0_off105 i) S1x1.size (k0_off105_inb i)).toLoadRect xt (Shape.Idx.first (numel1_S1x1.symm ▸ Nat.one_pos))) (tbM.view.readAt (Elt F) (Rect.unit (s := S3x4096) (k0_off106 i) S1x1.size (k0_off106_inb i)).toLoadRect xt (Shape.Idx.first (numel1_S1x1.symm ▸ Nat.one_pos))) (tbM.view.readAt (Elt F) (Rect.unit (s := S3x4096) (k0_off107 i) S1x1.size (k0_off107_inb i)).toLoadRect xt (Shape.Idx.first (numel1_S1x1.symm ▸ Nat.one_pos)))
    ∧ k0_chk28 (tbM.view.readAt (Elt F) (Rect.unit (s := S3x4096) (k0_off109 i) S1x1.size (k0_off109_inb i)).toLoadRect xt (Shape.Idx.first (numel1_S1x1.symm ▸ Nat.one_pos))) (tbM.view.readAt (Elt F) (Rect.unit (s := S3x4096) (k0_off110 i) S1x1.size (k0_off110_inb i)).toLoadRect xt (Shape.Idx.first (numel1_S1x1.symm ▸ Nat.one_pos))) (tbM.view.readAt (Elt F) (Rect.unit (s := S3x4096) (k0_off111 i) S1x1.size (k0_off111_inb i)).toLoadRect xt (Shape.Idx.first (numel1_S1x1.symm ▸ Nat.one_pos)))
    ∧ k0_chk29 (tbM.view.readAt (Elt F) (Rect.unit (s := S3x4096) (k0_off113 i) S1x1.size (k0_off113_inb i)).toLoadRect xt (Shape.Idx.first (numel1_S1x1.symm ▸ Nat.one_pos))) (tbM.view.readAt (Elt F) (Rect.unit (s := S3x4096) (k0_off114 i) S1x1.size (k0_off114_inb i)).toLoadRect xt (Shape.Idx.first (numel1_S1x1.symm ▸ Nat.one_pos))) (tbM.view.readAt (Elt F) (Rect.unit (s := S3x4096) (k0_off115 i) S1x1.size (k0_off115_inb i)).toLoadRect xt (Shape.Idx.first (numel1_S1x1.symm ▸ Nat.one_pos)))
    ∧ k0_chk30 (tbM.view.readAt (Elt F) (Rect.unit (s := S3x4096) (k0_off117 i) S1x1.size (k0_off117_inb i)).toLoadRect xt (Shape.Idx.first (numel1_S1x1.symm ▸ Nat.one_pos))) (tbM.view.readAt (Elt F) (Rect.unit (s := S3x4096) (k0_off118 i) S1x1.size (k0_off118_inb i)).toLoadRect xt (Shape.Idx.first (numel1_S1x1.symm ▸ Nat.one_pos))) (tbM.view.readAt (Elt F) (Rect.unit (s := S3x4096) (k0_off119 i) S1x1.size (k0_off119_inb i)).toLoadRect xt (Shape.Idx.first (numel1_S1x1.symm ▸ Nat.one_pos)))
    ∧ k0_chk31 (tbM.view.readAt (Elt F) (Rect.unit (s := S3x4096) (k0_off121 i) S1x1.size (k0_off121_inb i)).toLoadRect xt (Shape.Idx.first (numel1_S1x1.symm ▸ Nat.one_pos))) (tbM.view.readAt (Elt F) (Rect.unit (s := S3x4096) (k0_off122 i) S1x1.size (k0_off122_inb i)).toLoadRect xt (Shape.Idx.first (numel1_S1x1.symm ▸ Nat.one_pos))) (tbM.view.readAt (Elt F) (Rect.unit (s := S3x4096) (k0_off123 i) S1x1.size (k0_off123_inb i)).toLoadRect xt (Shape.Idx.first (numel1_S1x1.symm ▸ Nat.one_pos)))
    ∧ k0_chk32 (tbM.view.readAt (Elt F) (Rect.unit (s := S3x4096) (k0_off125 i) S1x1.size (k0_off125_inb i)).toLoadRect xt (Shape.Idx.first (numel1_S1x1.symm ▸ Nat.one_pos))) (tbM.view.readAt (Elt F) (Rect.unit (s := S3x4096) (k0_off126 i) S1x1.size (k0_off126_inb i)).toLoadRect xt (Shape.Idx.first (numel1_S1x1.symm ▸ Nat.one_pos))) (tbM.view.readAt (Elt F) (Rect.unit (s := S3x4096) (k0_off127 i) S1x1.size (k0_off127_inb i)).toLoadRect xt (Shape.Idx.first (numel1_S1x1.symm ▸ Nat.one_pos)))

/-- What copy 0 delivers: the padded map read through its window. -/
def slab0 (c : Dev nD) (i : grid0.Coords) (xt : TbBuf (F := F) c) (fh : HbBuf (F := F) c) (hfit : WindowsFit c i xt) : S31x31x128.Idx → Elt F .f32 :=
  ReadAs.same.apply (View.read (Elt F) ((hbM.slice (Rect.unit (s := S16x286x286x128) (k0_off4 (tbM.view.readAt (Elt F) (Rect.unit (s := S3x4096) (k0_off1 i) S1x1.size (k0_off1_inb i)).toLoadRect xt (Shape.Idx.first (numel1_S1x1.symm ▸ Nat.one_pos))) (tbM.view.readAt (Elt F) (Rect.unit (s := S3x4096) (k0_off2 i) S1x1.size (k0_off2_inb i)).toLoadRect xt (Shape.Idx.first (numel1_S1x1.symm ▸ Nat.one_pos))) (tbM.view.readAt (Elt F) (Rect.unit (s := S3x4096) (k0_off3 i) S1x1.size (k0_off3_inb i)).toLoadRect xt (Shape.Idx.first (numel1_S1x1.symm ▸ Nat.one_pos)))) S1x31x31x128.size (k0_off4_inb _ _ _ (hfit.1))) (fun _ => rfl)).squeeze S31x31x128 squeezes_S1x31x31x128_S31x31x128).view fh)
/-- What copy 1 delivers: the padded map read through its window. -/
def slab1 (c : Dev nD) (i : grid0.Coords) (xt : TbBuf (F := F) c) (fh : HbBuf (F := F) c) (hfit : WindowsFit c i xt) : S31x31x128.Idx → Elt F .f32 :=
  ReadAs.same.apply (View.read (Elt F) ((hbM.slice (Rect.unit (s := S16x286x286x128) (k0_off8 (tbM.view.readAt (Elt F) (Rect.unit (s := S3x4096) (k0_off5 i) S1x1.size (k0_off5_inb i)).toLoadRect xt (Shape.Idx.first (numel1_S1x1.symm ▸ Nat.one_pos))) (tbM.view.readAt (Elt F) (Rect.unit (s := S3x4096) (k0_off6 i) S1x1.size (k0_off6_inb i)).toLoadRect xt (Shape.Idx.first (numel1_S1x1.symm ▸ Nat.one_pos))) (tbM.view.readAt (Elt F) (Rect.unit (s := S3x4096) (k0_off7 i) S1x1.size (k0_off7_inb i)).toLoadRect xt (Shape.Idx.first (numel1_S1x1.symm ▸ Nat.one_pos)))) S1x31x31x128.size (k0_off8_inb _ _ _ (hfit.2.1))) (fun _ => rfl)).squeeze S31x31x128 squeezes_S1x31x31x128_S31x31x128).view fh)
/-- What copy 2 delivers: the padded map read through its window. -/
def slab2 (c : Dev nD) (i : grid0.Coords) (xt : TbBuf (F := F) c) (fh : HbBuf (F := F) c) (hfit : WindowsFit c i xt) : S31x31x128.Idx → Elt F .f32 :=
  ReadAs.same.apply (View.read (Elt F) ((hbM.slice (Rect.unit (s := S16x286x286x128) (k0_off12 (tbM.view.readAt (Elt F) (Rect.unit (s := S3x4096) (k0_off9 i) S1x1.size (k0_off9_inb i)).toLoadRect xt (Shape.Idx.first (numel1_S1x1.symm ▸ Nat.one_pos))) (tbM.view.readAt (Elt F) (Rect.unit (s := S3x4096) (k0_off10 i) S1x1.size (k0_off10_inb i)).toLoadRect xt (Shape.Idx.first (numel1_S1x1.symm ▸ Nat.one_pos))) (tbM.view.readAt (Elt F) (Rect.unit (s := S3x4096) (k0_off11 i) S1x1.size (k0_off11_inb i)).toLoadRect xt (Shape.Idx.first (numel1_S1x1.symm ▸ Nat.one_pos)))) S1x31x31x128.size (k0_off12_inb _ _ _ (hfit.2.2.1))) (fun _ => rfl)).squeeze S31x31x128 squeezes_S1x31x31x128_S31x31x128).view fh)
/-- What copy 3 delivers: the padded map read through its window. -/
def slab3 (c : Dev nD) (i : grid0.Coords) (xt : TbBuf (F := F) c) (fh : HbBuf (F := F) c) (hfit : WindowsFit c i xt) : S31x31x128.Idx → Elt F .f32 :=
  ReadAs.same.apply (View.read (Elt F) ((hbM.slice (Rect.unit (s := S16x286x286x128) (k0_off16 (tbM.view.readAt (Elt F) (Rect.unit (s := S3x4096) (k0_off13 i) S1x1.size (k0_off13_inb i)).toLoadRect xt (Shape.Idx.first (numel1_S1x1.symm ▸ Nat.one_pos))) (tbM.view.readAt (Elt F) (Rect.unit (s := S3x4096) (k0_off14 i) S1x1.size (k0_off14_inb i)).toLoadRect xt (Shape.Idx.first (numel1_S1x1.symm ▸ Nat.one_pos))) (tbM.view.readAt (Elt F) (Rect.unit (s := S3x4096) (k0_off15 i) S1x1.size (k0_off15_inb i)).toLoadRect xt (Shape.Idx.first (numel1_S1x1.symm ▸ Nat.one_pos)))) S1x31x31x128.size (k0_off16_inb _ _ _ (hfit.2.2.2.1))) (fun _ => rfl)).squeeze S31x31x128 squeezes_S1x31x31x128_S31x31x128).view fh)
/-- What copy 4 delivers: the padded map read through its window. -/
def slab4 (c : Dev nD) (i : grid0.Coords) (xt : TbBuf (F := F) c) (fh : HbBuf (F := F) c) (hfit : WindowsFit c i xt) : S31x31x128.Idx → Elt F .f32 :=
  ReadAs.same.apply (View.read (Elt F) ((hbM.slice (Rect.unit (s := S16x286x286x128) (k0_off20 (tbM.view.readAt (Elt F) (Rect.unit (s := S3x4096) (k0_off17 i) S1x1.size (k0_off17_inb i)).toLoadRect xt (Shape.Idx.first (numel1_S1x1.symm ▸ Nat.one_pos))) (tbM.view.readAt (Elt F) (Rect.unit (s := S3x4096) (k0_off18 i) S1x1.size (k0_off18_inb i)).toLoadRect xt (Shape.Idx.first (numel1_S1x1.symm ▸ Nat.one_pos))) (tbM.view.readAt (Elt F) (Rect.unit (s := S3x4096) (k0_off19 i) S1x1.size (k0_off19_inb i)).toLoadRect xt (Shape.Idx.first (numel1_S1x1.symm ▸ Nat.one_pos)))) S1x31x31x128.size (k0_off20_inb _ _ _ (hfit.2.2.2.2.1))) (fun _ => rfl)).squeeze S31x31x128 squeezes_S1x31x31x128_S31x31x128).view fh)
/-- What copy 5 delivers: the padded map read through its window. -/
def slab5 (c : Dev nD) (i : grid0.Coords) (xt : TbBuf (F := F) c) (fh : HbBuf (F := F) c) (hfit : WindowsFit c i xt) : S31x31x128.Idx → Elt F .f32 :=
  ReadAs.same.apply (View.read (Elt F) ((hbM.slice (Rect.unit (s := S16x286x286x128) (k0_off24 (tbM.view.readAt (Elt F) (Rect.unit (s := S3x4096) (k0_off21 i) S1x1.size (k0_off21_inb i)).toLoadRect xt (Shape.Idx.first (numel1_S1x1.symm ▸ Nat.one_pos))) (tbM.view.readAt (Elt F) (Rect.unit (s := S3x4096) (k0_off22 i) S1x1.size (k0_off22_inb i)).toLoadRect xt (Shape.Idx.first (numel1_S1x1.symm ▸ Nat.one_pos))) (tbM.view.readAt (Elt F) (Rect.unit (s := S3x4096) (k0_off23 i) S1x1.size (k0_off23_inb i)).toLoadRect xt (Shape.Idx.first (numel1_S1x1.symm ▸ Nat.one_pos)))) S1x31x31x128.size (k0_off24_inb _ _ _ (hfit.2.2.2.2.2.1))) (fun _ => rfl)).squeeze S31x31x128 squeezes_S1x31x31x128_S31x31x128).view fh)
/-- What copy 6 delivers: the padded map read through its window. -/
def slab6 (c : Dev nD) (i : grid0.Coords) (xt : TbBuf (F := F) c) (fh : HbBuf (F := F) c) (hfit : WindowsFit c i xt) : S31x31x128.Idx → Elt F .f32 :=
  ReadAs.same.apply (View.read (Elt F) ((hbM.slice (Rect.unit (s := S16x286x286x128) (k0_off28 (tbM.view.readAt (Elt F) (Rect.unit (s := S3x4096) (k0_off25 i) S1x1.size (k0_off25_inb i)).toLoadRect xt (Shape.Idx.first (numel1_S1x1.symm ▸ Nat.one_pos))) (tbM.view.readAt (Elt F) (Rect.unit (s := S3x4096) (k0_off26 i) S1x1.size (k0_off26_inb i)).toLoadRect xt (Shape.Idx.first (numel1_S1x1.symm ▸ Nat.one_pos))) (tbM.view.readAt (Elt F) (Rect.unit (s := S3x4096) (k0_off27 i) S1x1.size (k0_off27_inb i)).toLoadRect xt (Shape.Idx.first (numel1_S1x1.symm ▸ Nat.one_pos)))) S1x31x31x128.size (k0_off28_inb _ _ _ (hfit.2.2.2.2.2.2.1))) (fun _ => rfl)).squeeze S31x31x128 squeezes_S1x31x31x128_S31x31x128).view fh)
/-- What copy 7 delivers: the padded map read through its window. -/
def slab7 (c : Dev nD) (i : grid0.Coords) (xt : TbBuf (F := F) c) (fh : HbBuf (F := F) c) (hfit : WindowsFit c i xt) : S31x31x128.Idx → Elt F .f32 :=
  ReadAs.same.apply (View.read (Elt F) ((hbM.slice (Rect.unit (s := S16x286x286x128) (k0_off32 (tbM.view.readAt (Elt F) (Rect.unit (s := S3x4096) (k0_off29 i) S1x1.size (k0_off29_inb i)).toLoadRect xt (Shape.Idx.first (numel1_S1x1.symm ▸ Nat.one_pos))) (tbM.view.readAt (Elt F) (Rect.unit (s := S3x4096) (k0_off30 i) S1x1.size (k0_off30_inb i)).toLoadRect xt (Shape.Idx.first (numel1_S1x1.symm ▸ Nat.one_pos))) (tbM.view.readAt (Elt F) (Rect.unit (s := S3x4096) (k0_off31 i) S1x1.size (k0_off31_inb i)).toLoadRect xt (Shape.Idx.first (numel1_S1x1.symm ▸ Nat.one_pos)))) S1x31x31x128.size (k0_off32_inb _ _ _ (hfit.2.2.2.2.2.2.2.1))) (fun _ => rfl)).squeeze S31x31x128 squeezes_S1x31x31x128_S31x31x128).view fh)
/-- What copy 8 delivers: the padded map read through its window. -/
def slab8 (c : Dev nD) (i : grid0.Coords) (xt : TbBuf (F := F) c) (fh : HbBuf (F := F) c) (hfit : WindowsFit c i xt) : S31x31x128.Idx → Elt F .f32 :=
  ReadAs.same.apply (View.read (Elt F) ((hbM.slice (Rect.unit (s := S16x286x286x128) (k0_off36 (tbM.view.readAt (Elt F) (Rect.unit (s := S3x4096) (k0_off33 i) S1x1.size (k0_off33_inb i)).toLoadRect xt (Shape.Idx.first (numel1_S1x1.symm ▸ Nat.one_pos))) (tbM.view.readAt (Elt F) (Rect.unit (s := S3x4096) (k0_off34 i) S1x1.size (k0_off34_inb i)).toLoadRect xt (Shape.Idx.first (numel1_S1x1.symm ▸ Nat.one_pos))) (tbM.view.readAt (Elt F) (Rect.unit (s := S3x4096) (k0_off35 i) S1x1.size (k0_off35_inb i)).toLoadRect xt (Shape.Idx.first (numel1_S1x1.symm ▸ Nat.one_pos)))) S1x31x31x128.size (k0_off36_inb _ _ _ (hfit.2.2.2.2.2.2.2.2.1))) (fun _ => rfl)).squeeze S31x31x128 squeezes_S1x31x31x128_S31x31x128).view fh)
/-- What copy 9 delivers: the padded map read through its window. -/
def slab9 (c : Dev nD) (i : grid0.Coords) (xt : TbBuf (F := F) c) (fh : HbBuf (F := F) c) (hfit : WindowsFit c i xt) : S31x31x128.Idx → Elt F .f32 :=
  ReadAs.same.apply (View.read (Elt F) ((hbM.slice (Rect.unit (s := S16x286x286x128) (k0_off40 (tbM.view.readAt (Elt F) (Rect.unit (s := S3x4096) (k0_off37 i) S1x1.size (k0_off37_inb i)).toLoadRect xt (Shape.Idx.first (numel1_S1x1.symm ▸ Nat.one_pos))) (tbM.view.readAt (Elt F) (Rect.unit (s := S3x4096) (k0_off38 i) S1x1.size (k0_off38_inb i)).toLoadRect xt (Shape.Idx.first (numel1_S1x1.symm ▸ Nat.one_pos))) (tbM.view.readAt (Elt F) (Rect.unit (s := S3x4096) (k0_off39 i) S1x1.size (k0_off39_inb i)).toLoadRect xt (Shape.Idx.first (numel1_S1x1.symm ▸ Nat.one_pos)))) S1x31x31x128.size (k0_off40_inb _ _ _ (hfit.2.2.2.2.2.2.2.2.2.1))) (fun _ => rfl)).squeeze S31x31x128 squeezes_S1x31x31x128_S31x31x128).view fh)
/-- What copy 10 delivers: the padded map read through its window. -/
def slab10 (c : Dev nD) (i : grid0.Coords) (xt : TbBuf (F := F) c) (fh : HbBuf (F := F) c) (hfit : WindowsFit c i xt) : S31x31x128.Idx → Elt F .f32 :=
  ReadAs.same.apply (View.read (Elt F) ((hbM.slice (Rect.unit (s := S16x286x286x128) (k0_off44 (tbM.view.readAt (Elt F) (Rect.unit (s := S3x4096) (k0_off41 i) S1x1.size (k0_off41_inb i)).toLoadRect xt (Shape.Idx.first (numel1_S1x1.symm ▸ Nat.one_pos))) (tbM.view.readAt (Elt F) (Rect.unit (s := S3x4096) (k0_off42 i) S1x1.size (k0_off42_inb i)).toLoadRect xt (Shape.Idx.first (numel1_S1x1.symm ▸ Nat.one_pos))) (tbM.view.readAt (Elt F) (Rect.unit (s := S3x4096) (k0_off43 i) S1x1.size (k0_off43_inb i)).toLoadRect xt (Shape.Idx.first (numel1_S1x1.symm ▸ Nat.one_pos)))) S1x31x31x128.size (k0_off44_inb _ _ _ (hfit.2.2.2.2.2.2.2.2.2.2.1))) (fun _ => rfl)).squeeze S31x31x128 squeezes_S1x31x31x128_S31x31x128).view fh)
/-- What copy 11 delivers: the padded map read through its window. -/
def slab11 (c : Dev nD) (i : grid0.Coords) (xt : TbBuf (F := F) c) (fh : HbBuf (F := F) c) (hfit : WindowsFit c i xt) : S31x31x128.Idx → Elt F .f32 :=
  ReadAs.same.apply (View.read (Elt F) ((hbM.slice (Rect.unit (s := S16x286x286x128) (k0_off48 (tbM.view.readAt (Elt F) (Rect.unit (s := S3x4096) (k0_off45 i) S1x1.size (k0_off45_inb i)).toLoadRect xt (Shape.Idx.first (numel1_S1x1.symm ▸ Nat.one_pos))) (tbM.view.readAt (Elt F) (Rect.unit (s := S3x4096) (k0_off46 i) S1x1.size (k0_off46_inb i)).toLoadRect xt (Shape.Idx.first (numel1_S1x1.symm ▸ Nat.one_pos))) (tbM.view.readAt (Elt F) (Rect.unit (s := S3x4096) (k0_off47 i) S1x1.size (k0_off47_inb i)).toLoadRect xt (Shape.Idx.first (numel1_S1x1.symm ▸ Nat.one_pos)))) S1x31x31x128.size (k0_off48_inb _ _ _ (hfit.2.2.2.2.2.2.2.2.2.2.2.1))) (fun _ => rfl)).squeeze S31x31x128 squeezes_S1x31x31x128_S31x31x128).view fh)
/-- What copy 12 delivers: the padded map read through its window. -/
def slab12 (c : Dev nD) (i : grid0.Coords) (xt : TbBuf (F := F) c) (fh : HbBuf (F := F) c) (hfit : WindowsFit c i xt) : S31x31x128.Idx → Elt F .f32 :=
  ReadAs.same.apply (View.read (Elt F) ((hbM.slice (Rect.unit (s := S16x286x286x128) (k0_off52 (tbM.view.readAt (Elt F) (Rect.unit (s := S3x4096) (k0_off49 i) S1x1.size (k0_off49_inb i)).toLoadRect xt (Shape.Idx.first (numel1_S1x1.symm ▸ Nat.one_pos))) (tbM.view.readAt (Elt F) (Rect.unit (s := S3x4096) (k0_off50 i) S1x1.size (k0_off50_inb i)).toLoadRect xt (Shape.Idx.first (numel1_S1x1.symm ▸ Nat.one_pos))) (tbM.view.readAt (Elt F) (Rect.unit (s := S3x4096) (k0_off51 i) S1x1.size (k0_off51_inb i)).toLoadRect xt (Shape.Idx.first (numel1_S1x1.symm ▸ Nat.one_pos)))) S1x31x31x128.size (k0_off52_inb _ _ _ (hfit.2.2.2.2.2.2.2.2.2.2.2.2.1))) (fun _ => rfl)).squeeze S31x31x128 squeezes_S1x31x31x128_S31x31x128).view fh)
/-- What copy 13 delivers: the padded map read through its window. -/
def slab13 (c : Dev nD) (i : grid0.Coords) (xt : TbBuf (F := F) c) (fh : HbBuf (F := F) c) (hfit : WindowsFit c i xt) : S31x31x128.Idx → Elt F .f32 :=
  ReadAs.same.apply (View.read (Elt F) ((hbM.slice (Rect.unit (s := S16x286x286x128) (k0_off56 (tbM.view.readAt (Elt F) (Rect.unit (s := S3x4096) (k0_off53 i) S1x1.size (k0_off53_inb i)).toLoadRect xt (Shape.Idx.first (numel1_S1x1.symm ▸ Nat.one_pos))) (tbM.view.readAt (Elt F) (Rect.unit (s := S3x4096) (k0_off54 i) S1x1.size (k0_off54_inb i)).toLoadRect xt (Shape.Idx.first (numel1_S1x1.symm ▸ Nat.one_pos))) (tbM.view.readAt (Elt F) (Rect.unit (s := S3x4096) (k0_off55 i) S1x1.size (k0_off55_inb i)).toLoadRect xt (Shape.Idx.first (numel1_S1x1.symm ▸ Nat.one_pos)))) S1x31x31x128.size (k0_off56_inb _ _ _ (hfit.2.2.2.2.2.2.2.2.2.2.2.2.2.1))) (fun _ => rfl)).squeeze S31x31x128 squeezes_S1x31x31x128_S31x31x128).view fh)
/-- What copy 14 delivers: the padded map read through its window. -/
def slab14 (c : Dev nD) (i : grid0.Coords) (xt : TbBuf (F := F) c) (fh : HbBuf (F := F) c) (hfit : WindowsFit c i xt) : S31x31x128.Idx → Elt F .f32 :=
  ReadAs.same.apply (View.read (Elt F) ((hbM.slice (Rect.unit (s := S16x286x286x128) (k0_off60 (tbM.view.readAt (Elt F) (Rect.unit (s := S3x4096) (k0_off57 i) S1x1.size (k0_off57_inb i)).toLoadRect xt (Shape.Idx.first (numel1_S1x1.symm ▸ Nat.one_pos))) (tbM.view.readAt (Elt F) (Rect.unit (s := S3x4096) (k0_off58 i) S1x1.size (k0_off58_inb i)).toLoadRect xt (Shape.Idx.first (numel1_S1x1.symm ▸ Nat.one_pos))) (tbM.view.readAt (Elt F) (Rect.unit (s := S3x4096) (k0_off59 i) S1x1.size (k0_off59_inb i)).toLoadRect xt (Shape.Idx.first (numel1_S1x1.symm ▸ Nat.one_pos)))) S1x31x31x128.size (k0_off60_inb _ _ _ (hfit.2.2.2.2.2.2.2.2.2.2.2.2.2.2.1))) (fun _ => rfl)).squeeze S31x31x128 squeezes_S1x31x31x128_S31x31x128).view fh)
/-- What copy 15 delivers: the padded map read through its window. -/
def slab15 (c : Dev nD) (i : grid0.Coords) (xt : TbBuf (F := F) c) (fh : HbBuf (F := F) c) (hfit : WindowsFit c i xt) : S31x31x128.Idx → Elt F .f32 :=
  ReadAs.same.apply (View.read (Elt F) ((hbM.slice (Rect.unit (s := S16x286x286x128) (k0_off64 (tbM.view.readAt (Elt F) (Rect.unit (s := S3x4096) (k0_off61 i) S1x1.size (k0_off61_inb i)).toLoadRect xt (Shape.Idx.first (numel1_S1x1.symm ▸ Nat.one_pos))) (tbM.view.readAt (Elt F) (Rect.unit (s := S3x4096) (k0_off62 i) S1x1.size (k0_off62_inb i)).toLoadRect xt (Shape.Idx.first (numel1_S1x1.symm ▸ Nat.one_pos))) (tbM.view.readAt (Elt F) (Rect.unit (s := S3x4096) (k0_off63 i) S1x1.size (k0_off63_inb i)).toLoadRect xt (Shape.Idx.first (numel1_S1x1.symm ▸ Nat.one_pos)))) S1x31x31x128.size (k0_off64_inb _ _ _ (hfit.2.2.2.2.2.2.2.2.2.2.2.2.2.2.2.1))) (fun _ => rfl)).squeeze S31x31x128 squeezes_S1x31x31x128_S31x31x128).view fh)

/-- The three table words (batch, row, column) the body reads for copy `j` where it starts the copy. -/
def startWord (c : Dev nD) (i : grid0.Coords) (xt : TbBuf (F := F) c) : Fin 16 → Fin 3 → BitVec 32 :=
  ![![(tbM.view.readAt (Elt F) (Rect.unit (s := S3x4096) (k0_off1 i) S1x1.size (k0_off1_inb i)).toLoadRect xt (Shape.Idx.first (numel1_S1x1.symm ▸ Nat.one_pos))), (tbM.view.readAt (Elt F) (Rect.unit (s := S3x4096) (k0_off2 i) S1x1.size (k0_off2_inb i)).toLoadRect xt (Shape.Idx.first (numel1_S1x1.symm ▸ Nat.one_pos))), (tbM.view.readAt (Elt F) (Rect.unit (s := S3x4096) (k0_off3 i) S1x1.size (k0_off3_inb i)).toLoadRect xt (Shape.Idx.first (numel1_S1x1.symm ▸ Nat.one_pos)))],
    ![(tbM.view.readAt (Elt F) (Rect.unit (s := S3x4096) (k0_off5 i) S1x1.size (k0_off5_inb i)).toLoadRect xt (Shape.Idx.first (numel1_S1x1.symm ▸ Nat.one_pos))), (tbM.view.readAt (Elt F) (Rect.unit (s := S3x4096) (k0_off6 i) S1x1.size (k0_off6_inb i)).toLoadRect xt (Shape.Idx.first (numel1_S1x1.symm ▸ Nat.one_pos))), (tbM.view.readAt (Elt F) (Rect.unit (s := S3x4096) (k0_off7 i) S1x1.size (k0_off7_inb i)).toLoadRect xt (Shape.Idx.first (numel1_S1x1.symm ▸ Nat.one_pos)))],
    ![(tbM.view.readAt (Elt F) (Rect.unit (s := S3x4096) (k0_off9 i) S1x1.size (k0_off9_inb i)).toLoadRect xt (Shape.Idx.first (numel1_S1x1.symm ▸ Nat.one_pos))), (tbM.view.readAt (Elt F) (Rect.unit (s := S3x4096) (k0_off10 i) S1x1.size (k0_off10_inb i)).toLoadRect xt (Shape.Idx.first (numel1_S1x1.symm ▸ Nat.one_pos))), (tbM.view.readAt (Elt F) (Rect.unit (s := S3x4096) (k0_off11 i) S1x1.size (k0_off11_inb i)).toLoadRect xt (Shape.Idx.first (numel1_S1x1.symm ▸ Nat.one_pos)))],
    ![(tbM.view.readAt (Elt F) (Rect.unit (s := S3x4096) (k0_off13 i) S1x1.size (k0_off13_inb i)).toLoadRect xt (Shape.Idx.first (numel1_S1x1.symm ▸ Nat.one_pos))), (tbM.view.readAt (Elt F) (Rect.unit (s := S3x4096) (k0_off14 i) S1x1.size (k0_off14_inb i)).toLoadRect xt (Shape.Idx.first (numel1_S1x1.symm ▸ Nat.one_pos))), (tbM.view.readAt (Elt F) (Rect.unit (s := S3x4096) (k0_off15 i) S1x1.size (k0_off15_inb i)).toLoadRect xt (Shape.Idx.first (numel1_S1x1.symm ▸ Nat.one_pos)))],
    ![(tbM.view.readAt (Elt F) (Rect.unit (s := S3x4096) (k0_off17 i) S1x1.size (k0_off17_inb i)).toLoadRect xt (Shape.Idx.first (numel1_S1x1.symm ▸ Nat.one_pos))), (tbM.view.readAt (Elt F) (Rect.unit (s := S3x4096) (k0_off18 i) S1x1.size (k0_off18_inb i)).toLoadRect xt (Shape.Idx.first (numel1_S1x1.symm ▸ Nat.one_pos))), (tbM.view.readAt (Elt F) (Rect.unit (s := S3x4096) (k0_off19 i) S1x1.size (k0_off19_inb i)).toLoadRect xt (Shape.Idx.first (numel1_S1x1.symm ▸ Nat.one_pos)))],
    ![(tbM.view.readAt (Elt F) (Rect.unit (s := S3x4096) (k0_off21 i) S1x1.size (k0_off21_inb i)).toLoadRect xt (Shape.Idx.first (numel1_S1x1.symm ▸ Nat.one_pos))), (tbM.view.readAt (Elt F) (Rect.unit (s := S3x4096) (k0_off22 i) S1x1.size (k0_off22_inb i)).toLoadRect xt (Shape.Idx.first (numel1_S1x1.symm ▸ Nat.one_pos))), (tbM.view.readAt (Elt F) (Rect.unit (s := S3x4096) (k0_off23 i) S1x1.size (k0_off23_inb i)).toLoadRect xt (Shape.Idx.first (numel1_S1x1.symm ▸ Nat.one_pos)))],
    ![(tbM.view.readAt (Elt F) (Rect.unit (s := S3x4096) (k0_off25 i) S1x1.size (k0_off25_inb i)).toLoadRect xt (Shape.Idx.first (numel1_S1x1.symm ▸ Nat.one_pos))), (tbM.view.readAt (Elt F) (Rect.unit (s := S3x4096) (k0_off26 i) S1x1.size (k0_off26_inb i)).toLoadRect xt (Shape.Idx.first (numel1_S1x1.symm ▸ Nat.one_pos))), (tbM.view.readAt (Elt F) (Rect.unit (s := S3x4096) (k0_off27 i) S1x1.size (k0_off27_inb i)).toLoadRect xt (Shape.Idx.first (numel1_S1x1.symm ▸ Nat.one_pos)))],
    ![(tbM.view.readAt (Elt F) (Rect.unit (s := S3x4096) (k0_off29 i) S1x1.size (k0_off29_inb i)).toLoadRect xt (Shape.Idx.first (numel1_S1x1.symm ▸ Nat.one_pos))), (tbM.view.readAt (Elt F) (Rect.unit (s := S3x4096) (k0_off30 i) S1x1.size (k0_off30_inb i)).toLoadRect xt (Shape.Idx.first (numel1_S1x1.symm ▸ Nat.one_pos))), (tbM.view.readAt (Elt F) (Rect.unit (s := S3x4096) (k0_off31 i) S1x1.size (k0_off31_inb i)).toLoadRect xt (Shape.Idx.first (numel1_S1x1.symm ▸ Nat.one_pos)))],
    ![(tbM.view.readAt (Elt F) (Rect.unit (s := S3x4096) (k0_off33 i) S1x1.size (k0_off33_inb i)).toLoadRect xt (Shape.Idx.first (numel1_S1x1.symm ▸ Nat.one_pos))), (tbM.view.readAt (Elt F) (Rect.unit (s := S3x4096) (k0_off34 i) S1x1.size (k0_off34_inb i)).toLoadRect xt (Shape.Idx.first (numel1_S1x1.symm ▸ Nat.one_pos))), (tbM.view.readAt (Elt F) (Rect.unit (s := S3x4096) (k0_off35 i) S1x1.size (k0_off35_inb i)).toLoadRect xt (Shape.Idx.first (numel1_S1x1.symm ▸ Nat.one_pos)))],
    ![(tbM.view.readAt (Elt F) (Rect.unit (s := S3x4096) (k0_off37 i) S1x1.size (k0_off37_inb i)).toLoadRect xt (Shape.Idx.first (numel1_S1x1.symm ▸ Nat.one_pos))), (tbM.view.readAt (Elt F) (Rect.unit (s := S3x4096) (k0_off38 i) S1x1.size (k0_off38_inb i)).toLoadRect xt (Shape.Idx.first (numel1_S1x1.symm ▸ Nat.one_pos))), (tbM.view.readAt (Elt F) (Rect.unit (s := S3x4096) (k0_off39 i) S1x1.size (k0_off39_inb i)).toLoadRect xt (Shape.Idx.first (numel1_S1x1.symm ▸ Nat.one_pos)))],
    ![(tbM.view.readAt (Elt F) (Rect.unit (s := S3x4096) (k0_off41 i) S1x1.size (k0_off41_inb i)).toLoadRect xt (Shape.Idx.first (numel1_S1x1.symm ▸ Nat.one_pos))), (tbM.view.readAt (Elt F) (Rect.unit (s := S3x4096) (k0_off42 i) S1x1.size (k0_off42_inb i)).toLoadRect xt (Shape.Idx.first (numel1_S1x1.symm ▸ Nat.one_pos))), (tbM.view.readAt (Elt F) (Rect.unit (s := S3x4096) (k0_off43 i) S1x1.size (k0_off43_inb i)).toLoadRect xt (Shape.Idx.first (numel1_S1x1.symm ▸ Nat.one_pos)))],
    ![(tbM.view.readAt (Elt F) (Rect.unit (s := S3x4096) (k0_off45 i) S1x1.size (k0_off45_inb i)).toLoadRect xt (Shape.Idx.first (numel1_S1x1.symm ▸ Nat.one_pos))), (tbM.view.readAt (Elt F) (Rect.unit (s := S3x4096) (k0_off46 i) S1x1.size (k0_off46_inb i)).toLoadRect xt (Shape.Idx.first (numel1_S1x1.symm ▸ Nat.one_pos))), (tbM.view.readAt (Elt F) (Rect.unit (s := S3x4096) (k0_off47 i) S1x1.size (k0_off47_inb i)).toLoadRect xt (Shape.Idx.first (numel1_S1x1.symm ▸ Nat.one_pos)))],
    ![(tbM.view.readAt (Elt F) (Rect.unit (s := S3x4096) (k0_off49 i) S1x1.size (k0_off49_inb i)).toLoadRect xt (Shape.Idx.first (numel1_S1x1.symm ▸ Nat.one_pos))), (tbM.view.readAt (Elt F) (Rect.unit (s := S3x4096) (k0_off50 i) S1x1.size (k0_off50_inb i)).toLoadRect xt (Shape.Idx.first (numel1_S1x1.symm ▸ Nat.one_pos))), (tbM.view.readAt (Elt F) (Rect.unit (s := S3x4096) (k0_off51 i) S1x1.size (k0_off51_inb i)).toLoadRect xt (Shape.Idx.first (numel1_S1x1.symm ▸ Nat.one_pos)))],
    ![(tbM.view.readAt (Elt F) (Rect.unit (s := S3x4096) (k0_off53 i) S1x1.size (k0_off53_inb i)).toLoadRect xt (Shape.Idx.first (numel1_S1x1.symm ▸ Nat.one_pos))), (tbM.view.readAt (Elt F) (Rect.unit (s := S3x4096) (k0_off54 i) S1x1.size (k0_off54_inb i)).toLoadRect xt (Shape.Idx.first (numel1_S1x1.symm ▸ Nat.one_pos))), (tbM.view.readAt (Elt F) (Rect.unit (s := S3x4096) (k0_off55 i) S1x1.size (k0_off55_inb i)).toLoadRect xt (Shape.Idx.first (numel1_S1x1.symm ▸ Nat.one_pos)))],
    ![(tbM.view.readAt (Elt F) (Rect.unit (s := S3x4096) (k0_off57 i) S1x1.size (k0_off57_inb i)).toLoadRect xt (Shape.Idx.first (numel1_S1x1.symm ▸ Nat.one_pos))), (tbM.view.readAt (Elt F) (Rect.unit (s := S3x4096) (k0_off58 i) S1x1.size (k0_off58_inb i)).toLoadRect xt (Shape.Idx.first (numel1_S1x1.symm ▸ Nat.one_pos))), (tbM.view.readAt (Elt F) (Rect.unit (s := S3x4096) (k0_off59 i) S1x1.size (k0_off59_inb i)).toLoadRect xt (Shape.Idx.first (numel1_S1x1.symm ▸ Nat.one_pos)))],
    ![(tbM.view.readAt (Elt F) (Rect.unit (s := S3x4096) (k0_off61 i) S1x1.size (k0_off61_inb i)).toLoadRect xt (Shape.Idx.first (numel1_S1x1.symm ▸ Nat.one_pos))), (tbM.view.readAt (Elt F) (Rect.unit (s := S3x4096) (k0_off62 i) S1x1.size (k0_off62_inb i)).toLoadRect xt (Shape.Idx.first (numel1_S1x1.symm ▸ Nat.one_pos))), (tbM.view.readAt (Elt F) (Rect.unit (s := S3x4096) (k0_off63 i) S1x1.size (k0_off63_inb i)).toLoadRect xt (Shape.Idx.first (numel1_S1x1.symm ▸ Nat.one_pos)))]]

/-- The 16 deliveries by ROI. -/
def slabs (c : Dev nD) (i : grid0.Coords) (xt : TbBuf (F := F) c) (fh : HbBuf (F := F) c) (hfit : WindowsFit c i xt) : Fin 16 → S31x31x128.Idx → Elt F .f32 :=
  ![slab0 c i xt fh hfit, slab1 c i xt fh hfit, slab2 c i xt fh hfit, slab3 c i xt fh hfit, slab4 c i xt fh hfit, slab5 c i xt fh hfit, slab6 c i xt fh hfit, slab7 c i xt fh hfit, slab8 c i xt fh hfit, slab9 c i xt fh hfit, slab10 c i xt fh hfit, slab11 c i xt fh hfit, slab12 c i xt fh hfit, slab13 c i xt fh hfit, slab14 c i xt fh hfit, slab15 c i xt fh hfit]

/-- The landing buffer after the 16 copies, from contents `fs0`: slab j overwritten by delivery j. -/
def landed (c : Dev nD) (i : grid0.Coords) (xt : TbBuf (F := F) c) (fh : HbBuf (F := F) c) (hfit : WindowsFit c i xt)
    (fs0 : scM.view.ty.Contents (Elt F)) : scM.view.ty.Contents (Elt F) :=
  (View.write (Elt F) ((scM.slice (Rect.unit (s := S16x31x31x128) ![15, 0, 0, 0] S1x31x31x128.size inb_S16x31x31x128_S1x31x31x128_15_0_0_0) (fun _ => rfl)).squeeze S31x31x128 squeezes_S1x31x31x128_S31x31x128).view (View.write (Elt F) ((scM.slice (Rect.unit (s := S16x31x31x128) ![14, 0, 0, 0] S1x31x31x128.size inb_S16x31x31x128_S1x31x31x128_14_0_0_0) (fun _ => rfl)).squeeze S31x31x128 squeezes_S1x31x31x128_S31x31x128).view (View.write (Elt F) ((scM.slice (Rect.unit (s := S16x31x31x128) ![13, 0, 0, 0] S1x31x31x128.size inb_S16x31x31x128_S1x31x31x128_13_0_0_0) (fun _ => rfl)).squeeze S31x31x128 squeezes_S1x31x31x128_S31x31x128).view (View.write (Elt F) ((scM.slice (Rect.unit (s := S16x31x31x128) ![12, 0, 0, 0] S1x31x31x128.size inb_S16x31x31x128_S1x31x31x128_12_0_0_0) (fun _ => rfl)).squeeze S31x31x128 squeezes_S1x31x31x128_S31x31x128).view (View.write (Elt F) ((scM.slice (Rect.unit (s := S16x31x31x128) ![11, 0, 0, 0] S1x31x31x128.size inb_S16x31x31x128_S1x31x31x128_11_0_0_0) (fun _ => rfl)).squeeze S31x31x128 squeezes_S1x31x31x128_S31x31x128).view (View.write (Elt F) ((scM.slice (Rect.unit (s := S16x31x31x128) ![10, 0, 0, 0] S1x31x31x128.size inb_S16x31x31x128_S1x31x31x128_10_0_0_0) (fun _ => rfl)).squeeze S31x31x128 squeezes_S1x31x31x128_S31x31x128).view (View.write (Elt F) ((scM.slice (Rect.unit (s := S16x31x31x128) ![9, 0, 0, 0] S1x31x31x128.size inb_S16x31x31x128_S1x31x31x128_9_0_0_0) (fun _ => rfl)).squeeze S31x31x128 squeezes_S1x31x31x128_S31x31x128).view (View.write (Elt F) ((scM.slice (Rect.unit (s := S16x31x31x128) ![8, 0, 0, 0] S1x31x31x128.size inb_S16x31x31x128_S1x31x31x128_8_0_0_0) (fun _ => rfl)).squeeze S31x31x128 squeezes_S1x31x31x128_S31x31x128).view (View.write (Elt F) ((scM.slice (Rect.unit (s := S16x31x31x128) ![7, 0, 0, 0] S1x31x31x128.size inb_S16x31x31x128_S1x31x31x128_7_0_0_0) (fun _ => rfl)).squeeze S31x31x128 squeezes_S1x31x31x128_S31x31x128).view (View.write (Elt F) ((scM.slice (Rect.unit (s := S16x31x31x128) ![6, 0, 0, 0] S1x31x31x128.size inb_S16x31x31x128_S1x31x31x128_6_0_0_0) (fun _ => rfl)).squeeze S31x31x128 squeezes_S1x31x31x128_S31x31x128).view (View.write (Elt F) ((scM.slice (Rect.unit (s := S16x31x31x128) ![5, 0, 0, 0] S1x31x31x128.size inb_S16x31x31x128_S1x31x31x128_5_0_0_0) (fun _ => rfl)).squeeze S31x31x128 squeezes_S1x31x31x128_S31x31x128).view (View.write (Elt F) ((scM.slice (Rect.unit (s := S16x31x31x128) ![4, 0, 0, 0] S1x31x31x128.size inb_S16x31x31x128_S1x31x31x128_4_0_0_0) (fun _ => rfl)).squeeze S31x31x128 squeezes_S1x31x31x128_S31x31x128).view (View.write (Elt F) ((scM.slice (Rect.unit (s := S16x31x31x128) ![3, 0, 0, 0] S1x31x31x128.size inb_S16x31x31x128_S1x31x31x128_3_0_0_0) (fun _ => rfl)).squeeze S31x31x128 squeezes_S1x31x31x128_S31x31x128).view (View.write (Elt F) ((scM.slice (Rect.unit (s := S16x31x31x128) ![2, 0, 0, 0] S1x31x31x128.size inb_S16x31x31x128_S1x31x31x128_2_0_0_0) (fun _ => rfl)).squeeze S31x31x128 squeezes_S1x31x31x128_S31x31x128).view (View.write (Elt F) ((scM.slice (Rect.unit (s := S16x31x31x128) ![1, 0, 0, 0] S1x31x31x128.size inb_S16x31x31x128_S1x31x31x128_1_0_0_0) (fun _ => rfl)).squeeze S31x31x128 squeezes_S1x31x31x128_S31x31x128).view (View.write (Elt F) ((scM.slice (Rect.unit (s := S16x31x31x128) ![0, 0, 0, 0] S1x31x31x128.size inb_S16x31x31x128_S1x31x31x128_0_0_0_0) (fun _ => rfl)).squeeze S31x31x128 squeezes_S1x31x31x128_S31x31x128).view fs0 (slab0 c i xt fh hfit) Finset.univ) (slab1 c i xt fh hfit) Finset.univ) (slab2 c i xt fh hfit) Finset.univ) (slab3 c i xt fh hfit) Finset.univ) (slab4 c i xt fh hfit) Finset.univ) (slab5 c i xt fh hfit) Finset.univ) (slab6 c i xt fh hfit) Finset.univ) (slab7 c i xt fh hfit) Finset.univ) (slab8 c i xt fh hfit) Finset.univ) (slab9 c i xt fh hfit) Finset.univ) (slab10 c i xt fh hfit) Finset.univ) (slab11 c i xt fh hfit) Finset.univ) (slab12 c i xt fh hfit) Finset.univ) (slab13 c i xt fh hfit) Finset.univ) (slab14 c i xt fh hfit) Finset.univ) (slab15 c i xt fh hfit) Finset.univ)

/-- The output block of the point: row j is the first 32 channels of delivery j. -/
def blockSpec (c : Dev nD) (i : grid0.Coords) (xt : TbBuf (F := F) c) (fh : HbBuf (F := F) c) (hfit : WindowsFit c i xt) : Vec F S16x31x31x32 .f32 :=
  fun y => slabs c i xt fh hfit (y 0) (ValueIdx.ix3 (y 1) (y 2) (Fin.castLE (by decide) (y 3)))

end Cert.KernelIdeal.Hand

end
-- ==== Proof.KI.Pieces.lean ====
/-
  What the body's stores leave in the output block, and what each copy delivers.

  The landing buffer [16, 31, 31, 128] is written by 16 copies, copy j overwriting slab j whole, so it
  reads back slab by slab (`landed_read`).  The output block [16, 31, 31, 32] is then stored in two
  halves, rows 8 to 15 and rows 0 to 7, each the first 32 channels of the same rows of the landing
  buffer; the halves tile the block, so the block reads back as row r = the first 32 channels of
  delivery r, which is the block the point is specified to write (`pieces_read`).  Delivery j is the
  padded map read through a [1, 31, 31, 128] window with origin (w0, w1, w2, 0), the unit axis
  dropped: at (a, b, ch) the map's contents at (w0, w1 + a, w2 + b, ch); the window fits inside the
  map, so reducing these coordinates into the map's shape changes nothing (`slab_read`).
-/
import proofs.«429989_j27960237097553_3_alg».proof.Proof.KI.RunDefs
import proofs.«429989_j27960237097553_3_alg».proof.Proof.LibSlabs
import proofs.«429989_j27960237097553_3_alg».proof.Proof.RoiSpec
import Idealize.ShloMosaic.Lib.Writes
import Idealize.ShloMosaic.Lib.ValueIdx

set_option maxRecDepth 16384

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.Sem
open Cert.KernelIdeal Cert.KernelIdeal.Gen

variable {F : FTy → Type} [FloatOps F]

/-- The landing buffer after the 16 copies reads, at (r, a, b, ch), delivery r at (a, b, ch): each copy
    overwrites its own slab whole and no other. -/
theorem landed_read (c : Dev nD) (i : grid0.Coords) (xt : TbBuf (F := F) c) (fh : HbBuf (F := F) c)
    (hfit : WindowsFit c i xt) (fs0 : scM.view.ty.Contents (Elt F)) (y : S16x31x31x128.Idx) :
    scM.view.read (Elt F) (landed c i xt fh hfit fs0) y
      = slabs c i xt fh hfit (y 0) (ValueIdx.ix3 (y 1) (y 2) (y 3)) := by
  unfold landed slabs
  exact Cert.Slabs.read_slabs16 scM _ _ _ _ _ _ _ _ _ _ _ _ _ _ _ _ _ fs0 _ _ _ _ _ _ _ _ _ _ _ _ _ _ _ _ y

/-- The output block after its two stores (rows 8 to 15, then rows 0 to 7, each the first 32 channels
    of the same rows of the landing buffer) is the block the point is specified to write. -/
theorem pieces_read (c : Dev nD) (i : grid0.Coords) (arg3 : Memref sig .tc .vmem S16x31x31x32 .f32)
    (f1 : arg3.view.ty.Contents (Elt F)) (xt : TbBuf (F := F) c) (fh : HbBuf (F := F) c) (hfit : WindowsFit c i xt)
    (fs0 : scM.view.ty.Contents (Elt F)) :
    arg3.view.read (Elt F) (arg3.view.writes (Elt F) f1
      [⟨Rect.unit (s := S16x31x31x32) ![8, 0, 0, 0] S8x31x31x32.size inb_S16x31x31x32_S8x31x31x32_8_0_0_0,
          View.readAt (Elt F) scM.view (Rect.unit (s := S16x31x31x128) ![8, 0, 0, 0] S8x31x31x32.size inb_S16x31x31x128_S8x31x31x32_8_0_0_0).toLoadRect (landed c i xt fh hfit fs0)⟩,
        ⟨Rect.unit (s := S16x31x31x32) ![0, 0, 0, 0] S8x31x31x32.size inb_S16x31x31x32_S8x31x31x32_0_0_0_0,
          View.readAt (Elt F) scM.view (Rect.unit (s := S16x31x31x128) ![0, 0, 0, 0] S8x31x31x32.size inb_S16x31x31x128_S8x31x31x32_0_0_0_0).toLoadRect (landed c i xt fh hfit fs0)⟩])
    = blockSpec c i xt fh hfit := by
  funext y
  refine (Cert.Slabs.read_halves arg3.view f1 scM.view (landed c i xt fh hfit fs0) _ _ _ _ y).trans ?_
  rw [landed_read]
  rfl

/-- One delivery: the padded map read through the window whose origin is (w0, w1, w2, 0), the unit axis
    dropped, is the map's contents at (w0, w1 + a, w2 + b, ch); the window fits, so no coordinate wraps. -/
theorem window_read (c : Dev nD) (w0 w1 w2 : BitVec 32)
    (inb : ∀ a, (![w0.toNat, w1.toNat, w2.toNat, 0] : Fin 4 → ℕ) a + S1x31x31x128.size a ≤ S16x286x286x128.size a)
    (fh : HbBuf (F := F) c) (x : S31x31x128.Idx) :
    ReadAs.same.apply (View.read (Elt F) ((hbM.slice (Rect.unit (s := S16x286x286x128) ![w0.toNat, w1.toNat, w2.toNat, 0]
        S1x31x31x128.size inb) (fun _ => rfl)).squeeze S31x31x128 squeezes_S1x31x31x128_S31x31x128).view fh) x
      = (fh : S16x286x286x128.Idx → Elt F .f32) (Cert.Roi.padIdx w0.toNat (w1.toNat + (x 0).val) (w2.toNat + (x 1).val) (x 2).val) := by
  have hx0 : (x 0).val < 31 := (x 0).isLt
  have hx1 : (x 1).val < 31 := (x 1).isLt
  have hx2 : (x 2).val < 128 := (x 2).isLt
  have i0 : w0.toNat + 1 ≤ 16 := inb (0 : Fin 4)
  have i1 : w1.toNat + 31 ≤ 286 := inb (1 : Fin 4)
  have i2 : w2.toNat + 31 ≤ 286 := inb (2 : Fin 4)
  exact Cert.Slabs.read_window hbM _ inb squeezes_S1x31x31x128_S31x31x128 fh x
    (Cert.Roi.padIdx w0.toNat (w1.toNat + (x 0).val) (w2.toNat + (x 1).val) (x 2).val)
    (Nat.mod_eq_of_lt (by omega)) (Nat.mod_eq_of_lt (by omega)) (Nat.mod_eq_of_lt (by omega))
    ((Nat.mod_eq_of_lt hx2).trans (Nat.zero_add _).symm)

/-- Delivery j at (a, b, ch) is the padded map at (w0, w1 + a, w2 + b, ch), (w0, w1, w2) the three table
    words copy j reads. -/
theorem slab_read (c : Dev nD) (i : grid0.Coords) (xt : TbBuf (F := F) c) (fh : HbBuf (F := F) c) (hfit : WindowsFit c i xt) (j : Fin 16) (x : S31x31x128.Idx) :
    slabs c i xt fh hfit j x = (fh : S16x286x286x128.Idx → Elt F .f32) (Cert.Roi.padIdx (startWord c i xt j 0).toNat ((startWord c i xt j 1).toNat + (x 0).val) ((startWord c i xt j 2).toNat + (x 1).val) (x 2).val) := by
  match j with
  | ⟨0, h⟩ =>
    show slab0 c i xt fh hfit x = _
    exact window_read c (startWord c i xt ⟨0, h⟩ 0) (startWord c i xt ⟨0, h⟩ 1) (startWord c i xt ⟨0, h⟩ 2) _ fh x
  | ⟨1, h⟩ =>
    show slab1 c i xt fh hfit x = _
    exact window_read c (startWord c i xt ⟨1, h⟩ 0) (startWord c i xt ⟨1, h⟩ 1) (startWord c i xt ⟨1, h⟩ 2) _ fh x
  | ⟨2, h⟩ =>
    show slab2 c i xt fh hfit x = _
    exact window_read c (startWord c i xt ⟨2, h⟩ 0) (startWord c i xt ⟨2, h⟩ 1) (startWord c i xt ⟨2, h⟩ 2) _ fh x
  | ⟨3, h⟩ =>
    show slab3 c i xt fh hfit x = _
    exact window_read c (startWord c i xt ⟨3, h⟩ 0) (startWord c i xt ⟨3, h⟩ 1) (startWord c i xt ⟨3, h⟩ 2) _ fh x
  | ⟨4, h⟩ =>
    show slab4 c i xt fh hfit x = _
    exact window_read c (startWord c i xt ⟨4, h⟩ 0) (startWord c i xt ⟨4, h⟩ 1) (startWord c i xt ⟨4, h⟩ 2) _ fh x
  | ⟨5, h⟩ =>
    show slab5 c i xt fh hfit x = _
    exact window_read c (startWord c i xt ⟨5, h⟩ 0) (startWord c i xt ⟨5, h⟩ 1) (startWord c i xt ⟨5, h⟩ 2) _ fh x
  | ⟨6, h⟩ =>
    show slab6 c i xt fh hfit x = _
    exact window_read c (startWord c i xt ⟨6, h⟩ 0) (startWord c i xt ⟨6, h⟩ 1) (startWord c i xt ⟨6, h⟩ 2) _ fh x
  | ⟨7, h⟩ =>
    show slab7 c i xt fh hfit x = _
    exact window_read c (startWord c i xt ⟨7, h⟩ 0) (startWord c i xt ⟨7, h⟩ 1) (startWord c i xt ⟨7, h⟩ 2) _ fh x
  | ⟨8, h⟩ =>
    show slab8 c i xt fh hfit x = _
    exact window_read c (startWord c i xt ⟨8, h⟩ 0) (startWord c i xt ⟨8, h⟩ 1) (startWord c i xt ⟨8, h⟩ 2) _ fh x
  | ⟨9, h⟩ =>
    show slab9 c i xt fh hfit x = _
    exact window_read c (startWord c i xt ⟨9, h⟩ 0) (startWord c i xt ⟨9, h⟩ 1) (startWord c i xt ⟨9, h⟩ 2) _ fh x
  | ⟨10, h⟩ =>
    show slab10 c i xt fh hfit x = _
    exact window_read c (startWord c i xt ⟨10, h⟩ 0) (startWord c i xt ⟨10, h⟩ 1) (startWord c i xt ⟨10, h⟩ 2) _ fh x
  | ⟨11, h⟩ =>
    show slab11 c i xt fh hfit x = _
    exact window_read c (startWord c i xt ⟨11, h⟩ 0) (startWord c i xt ⟨11, h⟩ 1) (startWord c i xt ⟨11, h⟩ 2) _ fh x
  | ⟨12, h⟩ =>
    show slab12 c i xt fh hfit x = _
    exact window_read c (startWord c i xt ⟨12, h⟩ 0) (startWord c i xt ⟨12, h⟩ 1) (startWord c i xt ⟨12, h⟩ 2) _ fh x
  | ⟨13, h⟩ =>
    show slab13 c i xt fh hfit x = _
    exact window_read c (startWord c i xt ⟨13, h⟩ 0) (startWord c i xt ⟨13, h⟩ 1) (startWord c i xt ⟨13, h⟩ 2) _ fh x
  | ⟨14, h⟩ =>
    show slab14 c i xt fh hfit x = _
    exact window_read c (startWord c i xt ⟨14, h⟩ 0) (startWord c i xt ⟨14, h⟩ 1) (startWord c i xt ⟨14, h⟩ 2) _ fh x
  | ⟨15, h⟩ =>
    show slab15 c i xt fh hfit x = _
    exact window_read c (startWord c i xt ⟨15, h⟩ 0) (startWord c i xt ⟨15, h⟩ 1) (startWord c i xt ⟨15, h⟩ 2) _ fh x
  | ⟨n + 16, h⟩ => exact absurd h (by omega)

end Cert.KernelIdeal.Hand

end
-- ==== Proof.KI.Run.lean ====
/-
  One grid point of the gather kernel, run symbolically.

  At point t the body reads, for each of its 16 ROIs, the three table words (batch, row, column) of
  ROI 16 t + j and starts a copy of the [31, 31, 128] window of the padded map at that origin into
  slab j of its landing buffer, each copy on a semaphore of its own; it then waits for copies 0 to 7
  and stores the first 32 channels of slabs 0 to 7 into rows 0 to 7 of the output block, and
  likewise for 8 to 15.  All 16 windows are in flight at once and may overlap in the padded map, so
  the map is held as one read share per semaphore: each copy borrows the share of its own semaphore
  and its wait returns it.  Each copy lends only its own slab of the landing buffer, so the others
  can be issued while it flies.
-/
import proofs.«429989_j27960237097553_3_alg».proof.Proof.KI.Pieces
import proofs.«429989_j27960237097553_3_alg».proof.Proof.Gen.KernelIdeal.Skeleton
import Idealize.ShloMosaic.Lib.Pipeline.FrameBody
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

set_option sl_exec.dmaWindow true in
set_option sl_exec.dmaWindowSet true in
set_option maxHeartbeats 8000000 in
/-- The body at point `i`, from: the output block's buffer and the landing buffer at any contents, the table's
    half, the 16 semaphores at zero, the padded map's read shares, the core owing nothing.  It ends holding all of
    them again — the landing buffer at some contents, the semaphores at zero, the shares whole — and the output
    block's buffer at `blockSpec`: the symbolic run stores two pieces (rows 8 to 15, then rows 0 to 7 in the
    order it lists them), each a read of the landing buffer after the 16 deliveries, and these are the block's
    rows (`pieces_read`). -/
theorem gatherRun (c : Dev nD) (i : grid0.Coords) (arg3 : Memref sig .tc .vmem S16x31x31x32 .f32) (harg3 : arg3.IsWhole)
    (xt : TbBuf (F := F) c) (fh : HbBuf (F := F) c) (hfit : WindowsFit c i xt) (W : Waits sig Unit) (K : PUnit → sProp 𝕄) :
    iprop((∃ d, owns (c : Thread nD τ) arg3 fullShare d) ∗ (∃ d, owns (c : Thread nD τ) scM fullShare d) ∗ tbPt c xt
        ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0
        ∗ hbRest c fh ∗ hbTok c (0 : Fin 18) fh ∗ hbTok c (1 : Fin 18) fh ∗ hbTok c (2 : Fin 18) fh ∗ hbTok c (3 : Fin 18) fh ∗ hbTok c (4 : Fin 18) fh ∗ hbTok c (5 : Fin 18) fh ∗ hbTok c (6 : Fin 18) fh ∗ hbTok c (7 : Fin 18) fh ∗ hbTok c (8 : Fin 18) fh ∗ hbTok c (9 : Fin 18) fh ∗ hbTok c (10 : Fin 18) fh ∗ hbTok c (11 : Fin 18) fh ∗ hbTok c (12 : Fin 18) fh ∗ hbTok c (13 : Fin 18) fh ∗ hbTok c (14 : Fin 18) fh ∗ hbTok c (15 : Fin 18) fh ∗ hbTok c (16 : Fin 18) fh ∗ hbTok c (17 : Fin 18) fh
        ∗ owes (c : Thread nD τ) 0 W
        ∗ (iprop(owns (c : Thread nD τ) arg3 fullShare (blockSpec c i xt fh hfit) ∗ (∃ d, owns (c : Thread nD τ) scM fullShare d) ∗ tbPt c xt
            ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0
            ∗ hbRest c fh ∗ hbTok c (0 : Fin 18) fh ∗ hbTok c (1 : Fin 18) fh ∗ hbTok c (2 : Fin 18) fh ∗ hbTok c (3 : Fin 18) fh ∗ hbTok c (4 : Fin 18) fh ∗ hbTok c (5 : Fin 18) fh ∗ hbTok c (6 : Fin 18) fh ∗ hbTok c (7 : Fin 18) fh ∗ hbTok c (8 : Fin 18) fh ∗ hbTok c (9 : Fin 18) fh ∗ hbTok c (10 : Fin 18) fh ∗ hbTok c (11 : Fin 18) fh ∗ hbTok c (12 : Fin 18) fh ∗ hbTok c (13 : Fin 18) fh ∗ hbTok c (14 : Fin 18) fh ∗ hbTok c (15 : Fin 18) fh ∗ hbTok c (16 : Fin 18) fh ∗ hbTok c (17 : Fin 18) fh
            ∗ (∃ W', owes (c : Thread nD τ) 0 W')) -∗ K ⟨⟩))
      ⊢ wp frame (wpE (defs₀ (F := F)) Variants.none c none) Set.univ (cc0__gather_kernel i tbM htbM hbM hhbM arg3 harg3 scM hscM cc0_scratch1) K := by
  have k0_hw1 : k0_chk1 (tbM.view.readAt (Elt F) (Rect.unit (s := S3x4096) (k0_off1 i) S1x1.size (k0_off1_inb i)).toLoadRect xt (Shape.Idx.first (numel1_S1x1.symm ▸ Nat.one_pos))) (tbM.view.readAt (Elt F) (Rect.unit (s := S3x4096) (k0_off2 i) S1x1.size (k0_off2_inb i)).toLoadRect xt (Shape.Idx.first (numel1_S1x1.symm ▸ Nat.one_pos))) (tbM.view.readAt (Elt F) (Rect.unit (s := S3x4096) (k0_off3 i) S1x1.size (k0_off3_inb i)).toLoadRect xt (Shape.Idx.first (numel1_S1x1.symm ▸ Nat.one_pos))) := hfit.1
  have k0_hw2 : k0_chk2 (tbM.view.readAt (Elt F) (Rect.unit (s := S3x4096) (k0_off5 i) S1x1.size (k0_off5_inb i)).toLoadRect xt (Shape.Idx.first (numel1_S1x1.symm ▸ Nat.one_pos))) (tbM.view.readAt (Elt F) (Rect.unit (s := S3x4096) (k0_off6 i) S1x1.size (k0_off6_inb i)).toLoadRect xt (Shape.Idx.first (numel1_S1x1.symm ▸ Nat.one_pos))) (tbM.view.readAt (Elt F) (Rect.unit (s := S3x4096) (k0_off7 i) S1x1.size (k0_off7_inb i)).toLoadRect xt (Shape.Idx.first (numel1_S1x1.symm ▸ Nat.one_pos))) := hfit.2.1
  have k0_hw3 : k0_chk3 (tbM.view.readAt (Elt F) (Rect.unit (s := S3x4096) (k0_off9 i) S1x1.size (k0_off9_inb i)).toLoadRect xt (Shape.Idx.first (numel1_S1x1.symm ▸ Nat.one_pos))) (tbM.view.readAt (Elt F) (Rect.unit (s := S3x4096) (k0_off10 i) S1x1.size (k0_off10_inb i)).toLoadRect xt (Shape.Idx.first (numel1_S1x1.symm ▸ Nat.one_pos))) (tbM.view.readAt (Elt F) (Rect.unit (s := S3x4096) (k0_off11 i) S1x1.size (k0_off11_inb i)).toLoadRect xt (Shape.Idx.first (numel1_S1x1.symm ▸ Nat.one_pos))) := hfit.2.2.1
  have k0_hw4 : k0_chk4 (tbM.view.readAt (Elt F) (Rect.unit (s := S3x4096) (k0_off13 i) S1x1.size (k0_off13_inb i)).toLoadRect xt (Shape.Idx.first (numel1_S1x1.symm ▸ Nat.one_pos))) (tbM.view.readAt (Elt F) (Rect.unit (s := S3x4096) (k0_off14 i) S1x1.size (k0_off14_inb i)).toLoadRect xt (Shape.Idx.first (numel1_S1x1.symm ▸ Nat.one_pos))) (tbM.view.readAt (Elt F) (Rect.unit (s := S3x4096) (k0_off15 i) S1x1.size (k0_off15_inb i)).toLoadRect xt (Shape.Idx.first (numel1_S1x1.symm ▸ Nat.one_pos))) := hfit.2.2.2.1
  have k0_hw5 : k0_chk5 (tbM.view.readAt (Elt F) (Rect.unit (s := S3x4096) (k0_off17 i) S1x1.size (k0_off17_inb i)).toLoadRect xt (Shape.Idx.first (numel1_S1x1.symm ▸ Nat.one_pos))) (tbM.view.readAt (Elt F) (Rect.unit (s := S3x4096) (k0_off18 i) S1x1.size (k0_off18_inb i)).toLoadRect xt (Shape.Idx.first (numel1_S1x1.symm ▸ Nat.one_pos))) (tbM.view.readAt (Elt F) (Rect.unit (s := S3x4096) (k0_off19 i) S1x1.size (k0_off19_inb i)).toLoadRect xt (Shape.Idx.first (numel1_S1x1.symm ▸ Nat.one_pos))) := hfit.2.2.2.2.1
  have k0_hw6 : k0_chk6 (tbM.view.readAt (Elt F) (Rect.unit (s := S3x4096) (k0_off21 i) S1x1.size (k0_off21_inb i)).toLoadRect xt (Shape.Idx.first (numel1_S1x1.symm ▸ Nat.one_pos))) (tbM.view.readAt (Elt F) (Rect.unit (s := S3x4096) (k0_off22 i) S1x1.size (k0_off22_inb i)).toLoadRect xt (Shape.Idx.first (numel1_S1x1.symm ▸ Nat.one_pos))) (tbM.view.readAt (Elt F) (Rect.unit (s := S3x4096) (k0_off23 i) S1x1.size (k0_off23_inb i)).toLoadRect xt (Shape.Idx.first (numel1_S1x1.symm ▸ Nat.one_pos))) := hfit.2.2.2.2.2.1
  have k0_hw7 : k0_chk7 (tbM.view.readAt (Elt F) (Rect.unit (s := S3x4096) (k0_off25 i) S1x1.size (k0_off25_inb i)).toLoadRect xt (Shape.Idx.first (numel1_S1x1.symm ▸ Nat.one_pos))) (tbM.view.readAt (Elt F) (Rect.unit (s := S3x4096) (k0_off26 i) S1x1.size (k0_off26_inb i)).toLoadRect xt (Shape.Idx.first (numel1_S1x1.symm ▸ Nat.one_pos))) (tbM.view.readAt (Elt F) (Rect.unit (s := S3x4096) (k0_off27 i) S1x1.size (k0_off27_inb i)).toLoadRect xt (Shape.Idx.first (numel1_S1x1.symm ▸ Nat.one_pos))) := hfit.2.2.2.2.2.2.1
  have k0_hw8 : k0_chk8 (tbM.view.readAt (Elt F) (Rect.unit (s := S3x4096) (k0_off29 i) S1x1.size (k0_off29_inb i)).toLoadRect xt (Shape.Idx.first (numel1_S1x1.symm ▸ Nat.one_pos))) (tbM.view.readAt (Elt F) (Rect.unit (s := S3x4096) (k0_off30 i) S1x1.size (k0_off30_inb i)).toLoadRect xt (Shape.Idx.first (numel1_S1x1.symm ▸ Nat.one_pos))) (tbM.view.readAt (Elt F) (Rect.unit (s := S3x4096) (k0_off31 i) S1x1.size (k0_off31_inb i)).toLoadRect xt (Shape.Idx.first (numel1_S1x1.symm ▸ Nat.one_pos))) := hfit.2.2.2.2.2.2.2.1
  have k0_hw9 : k0_chk9 (tbM.view.readAt (Elt F) (Rect.unit (s := S3x4096) (k0_off33 i) S1x1.size (k0_off33_inb i)).toLoadRect xt (Shape.Idx.first (numel1_S1x1.symm ▸ Nat.one_pos))) (tbM.view.readAt (Elt F) (Rect.unit (s := S3x4096) (k0_off34 i) S1x1.size (k0_off34_inb i)).toLoadRect xt (Shape.Idx.first (numel1_S1x1.symm ▸ Nat.one_pos))) (tbM.view.readAt (Elt F) (Rect.unit (s := S3x4096) (k0_off35 i) S1x1.size (k0_off35_inb i)).toLoadRect xt (Shape.Idx.first (numel1_S1x1.symm ▸ Nat.one_pos))) := hfit.2.2.2.2.2.2.2.2.1
  have k0_hw10 : k0_chk10 (tbM.view.readAt (Elt F) (Rect.unit (s := S3x4096) (k0_off37 i) S1x1.size (k0_off37_inb i)).toLoadRect xt (Shape.Idx.first (numel1_S1x1.symm ▸ Nat.one_pos))) (tbM.view.readAt (Elt F) (Rect.unit (s := S3x4096) (k0_off38 i) S1x1.size (k0_off38_inb i)).toLoadRect xt (Shape.Idx.first (numel1_S1x1.symm ▸ Nat.one_pos))) (tbM.view.readAt (Elt F) (Rect.unit (s := S3x4096) (k0_off39 i) S1x1.size (k0_off39_inb i)).toLoadRect xt (Shape.Idx.first (numel1_S1x1.symm ▸ Nat.one_pos))) := hfit.2.2.2.2.2.2.2.2.2.1
  have k0_hw11 : k0_chk11 (tbM.view.readAt (Elt F) (Rect.unit (s := S3x4096) (k0_off41 i) S1x1.size (k0_off41_inb i)).toLoadRect xt (Shape.Idx.first (numel1_S1x1.symm ▸ Nat.one_pos))) (tbM.view.readAt (Elt F) (Rect.unit (s := S3x4096) (k0_off42 i) S1x1.size (k0_off42_inb i)).toLoadRect xt (Shape.Idx.first (numel1_S1x1.symm ▸ Nat.one_pos))) (tbM.view.readAt (Elt F) (Rect.unit (s := S3x4096) (k0_off43 i) S1x1.size (k0_off43_inb i)).toLoadRect xt (Shape.Idx.first (numel1_S1x1.symm ▸ Nat.one_pos))) := hfit.2.2.2.2.2.2.2.2.2.2.1
  have k0_hw12 : k0_chk12 (tbM.view.readAt (Elt F) (Rect.unit (s := S3x4096) (k0_off45 i) S1x1.size (k0_off45_inb i)).toLoadRect xt (Shape.Idx.first (numel1_S1x1.symm ▸ Nat.one_pos))) (tbM.view.readAt (Elt F) (Rect.unit (s := S3x4096) (k0_off46 i) S1x1.size (k0_off46_inb i)).toLoadRect xt (Shape.Idx.first (numel1_S1x1.symm ▸ Nat.one_pos))) (tbM.view.readAt (Elt F) (Rect.unit (s := S3x4096) (k0_off47 i) S1x1.size (k0_off47_inb i)).toLoadRect xt (Shape.Idx.first (numel1_S1x1.symm ▸ Nat.one_pos))) := hfit.2.2.2.2.2.2.2.2.2.2.2.1
  have k0_hw13 : k0_chk13 (tbM.view.readAt (Elt F) (Rect.unit (s := S3x4096) (k0_off49 i) S1x1.size (k0_off49_inb i)).toLoadRect xt (Shape.Idx.first (numel1_S1x1.symm ▸ Nat.one_pos))) (tbM.view.readAt (Elt F) (Rect.unit (s := S3x4096) (k0_off50 i) S1x1.size (k0_off50_inb i)).toLoadRect xt (Shape.Idx.first (numel1_S1x1.symm ▸ Nat.one_pos))) (tbM.view.readAt (Elt F) (Rect.unit (s := S3x4096) (k0_off51 i) S1x1.size (k0_off51_inb i)).toLoadRect xt (Shape.Idx.first (numel1_S1x1.symm ▸ Nat.one_pos))) := hfit.2.2.2.2.2.2.2.2.2.2.2.2.1
  have k0_hw14 : k0_chk14 (tbM.view.readAt (Elt F) (Rect.unit (s := S3x4096) (k0_off53 i) S1x1.size (k0_off53_inb i)).toLoadRect xt (Shape.Idx.first (numel1_S1x1.symm ▸ Nat.one_pos))) (tbM.view.readAt (Elt F) (Rect.unit (s := S3x4096) (k0_off54 i) S1x1.size (k0_off54_inb i)).toLoadRect xt (Shape.Idx.first (numel1_S1x1.symm ▸ Nat.one_pos))) (tbM.view.readAt (Elt F) (Rect.unit (s := S3x4096) (k0_off55 i) S1x1.size (k0_off55_inb i)).toLoadRect xt (Shape.Idx.first (numel1_S1x1.symm ▸ Nat.one_pos))) := hfit.2.2.2.2.2.2.2.2.2.2.2.2.2.1
  have k0_hw15 : k0_chk15 (tbM.view.readAt (Elt F) (Rect.unit (s := S3x4096) (k0_off57 i) S1x1.size (k0_off57_inb i)).toLoadRect xt (Shape.Idx.first (numel1_S1x1.symm ▸ Nat.one_pos))) (tbM.view.readAt (Elt F) (Rect.unit (s := S3x4096) (k0_off58 i) S1x1.size (k0_off58_inb i)).toLoadRect xt (Shape.Idx.first (numel1_S1x1.symm ▸ Nat.one_pos))) (tbM.view.readAt (Elt F) (Rect.unit (s := S3x4096) (k0_off59 i) S1x1.size (k0_off59_inb i)).toLoadRect xt (Shape.Idx.first (numel1_S1x1.symm ▸ Nat.one_pos))) := hfit.2.2.2.2.2.2.2.2.2.2.2.2.2.2.1
  have k0_hw16 : k0_chk16 (tbM.view.readAt (Elt F) (Rect.unit (s := S3x4096) (k0_off61 i) S1x1.size (k0_off61_inb i)).toLoadRect xt (Shape.Idx.first (numel1_S1x1.symm ▸ Nat.one_pos))) (tbM.view.readAt (Elt F) (Rect.unit (s := S3x4096) (k0_off62 i) S1x1.size (k0_off62_inb i)).toLoadRect xt (Shape.Idx.first (numel1_S1x1.symm ▸ Nat.one_pos))) (tbM.view.readAt (Elt F) (Rect.unit (s := S3x4096) (k0_off63 i) S1x1.size (k0_off63_inb i)).toLoadRect xt (Shape.Idx.first (numel1_S1x1.symm ▸ Nat.one_pos))) := hfit.2.2.2.2.2.2.2.2.2.2.2.2.2.2.2.1
  have k0_hw17 : k0_chk17 (tbM.view.readAt (Elt F) (Rect.unit (s := S3x4096) (k0_off65 i) S1x1.size (k0_off65_inb i)).toLoadRect xt (Shape.Idx.first (numel1_S1x1.symm ▸ Nat.one_pos))) (tbM.view.readAt (Elt F) (Rect.unit (s := S3x4096) (k0_off66 i) S1x1.size (k0_off66_inb i)).toLoadRect xt (Shape.Idx.first (numel1_S1x1.symm ▸ Nat.one_pos))) (tbM.view.readAt (Elt F) (Rect.unit (s := S3x4096) (k0_off67 i) S1x1.size (k0_off67_inb i)).toLoadRect xt (Shape.Idx.first (numel1_S1x1.symm ▸ Nat.one_pos))) := hfit.2.2.2.2.2.2.2.2.2.2.2.2.2.2.2.2.1
  have k0_hw18 : k0_chk18 (tbM.view.readAt (Elt F) (Rect.unit (s := S3x4096) (k0_off69 i) S1x1.size (k0_off69_inb i)).toLoadRect xt (Shape.Idx.first (numel1_S1x1.symm ▸ Nat.one_pos))) (tbM.view.readAt (Elt F) (Rect.unit (s := S3x4096) (k0_off70 i) S1x1.size (k0_off70_inb i)).toLoadRect xt (Shape.Idx.first (numel1_S1x1.symm ▸ Nat.one_pos))) (tbM.view.readAt (Elt F) (Rect.unit (s := S3x4096) (k0_off71 i) S1x1.size (k0_off71_inb i)).toLoadRect xt (Shape.Idx.first (numel1_S1x1.symm ▸ Nat.one_pos))) := hfit.2.2.2.2.2.2.2.2.2.2.2.2.2.2.2.2.2.1
  have k0_hw19 : k0_chk19 (tbM.view.readAt (Elt F) (Rect.unit (s := S3x4096) (k0_off73 i) S1x1.size (k0_off73_inb i)).toLoadRect xt (Shape.Idx.first (numel1_S1x1.symm ▸ Nat.one_pos))) (tbM.view.readAt (Elt F) (Rect.unit (s := S3x4096) (k0_off74 i) S1x1.size (k0_off74_inb i)).toLoadRect xt (Shape.Idx.first (numel1_S1x1.symm ▸ Nat.one_pos))) (tbM.view.readAt (Elt F) (Rect.unit (s := S3x4096) (k0_off75 i) S1x1.size (k0_off75_inb i)).toLoadRect xt (Shape.Idx.first (numel1_S1x1.symm ▸ Nat.one_pos))) := hfit.2.2.2.2.2.2.2.2.2.2.2.2.2.2.2.2.2.2.1
  have k0_hw20 : k0_chk20 (tbM.view.readAt (Elt F) (Rect.unit (s := S3x4096) (k0_off77 i) S1x1.size (k0_off77_inb i)).toLoadRect xt (Shape.Idx.first (numel1_S1x1.symm ▸ Nat.one_pos))) (tbM.view.readAt (Elt F) (Rect.unit (s := S3x4096) (k0_off78 i) S1x1.size (k0_off78_inb i)).toLoadRect xt (Shape.Idx.first (numel1_S1x1.symm ▸ Nat.one_pos))) (tbM.view.readAt (Elt F) (Rect.unit (s := S3x4096) (k0_off79 i) S1x1.size (k0_off79_inb i)).toLoadRect xt (Shape.Idx.first (numel1_S1x1.symm ▸ Nat.one_pos))) := hfit.2.2.2.2.2.2.2.2.2.2.2.2.2.2.2.2.2.2.2.1
  have k0_hw21 : k0_chk21 (tbM.view.readAt (Elt F) (Rect.unit (s := S3x4096) (k0_off81 i) S1x1.size (k0_off81_inb i)).toLoadRect xt (Shape.Idx.first (numel1_S1x1.symm ▸ Nat.one_pos))) (tbM.view.readAt (Elt F) (Rect.unit (s := S3x4096) (k0_off82 i) S1x1.size (k0_off82_inb i)).toLoadRect xt (Shape.Idx.first (numel1_S1x1.symm ▸ Nat.one_pos))) (tbM.view.readAt (Elt F) (Rect.unit (s := S3x4096) (k0_off83 i) S1x1.size (k0_off83_inb i)).toLoadRect xt (Shape.Idx.first (numel1_S1x1.symm ▸ Nat.one_pos))) := hfit.2.2.2.2.2.2.2.2.2.2.2.2.2.2.2.2.2.2.2.2.1
  have k0_hw22 : k0_chk22 (tbM.view.readAt (Elt F) (Rect.unit (s := S3x4096) (k0_off85 i) S1x1.size (k0_off85_inb i)).toLoadRect xt (Shape.Idx.first (numel1_S1x1.symm ▸ Nat.one_pos))) (tbM.view.readAt (Elt F) (Rect.unit (s := S3x4096) (k0_off86 i) S1x1.size (k0_off86_inb i)).toLoadRect xt (Shape.Idx.first (numel1_S1x1.symm ▸ Nat.one_pos))) (tbM.view.readAt (Elt F) (Rect.unit (s := S3x4096) (k0_off87 i) S1x1.size (k0_off87_inb i)).toLoadRect xt (Shape.Idx.first (numel1_S1x1.symm ▸ Nat.one_pos))) := hfit.2.2.2.2.2.2.2.2.2.2.2.2.2.2.2.2.2.2.2.2.2.1
  have k0_hw23 : k0_chk23 (tbM.view.readAt (Elt F) (Rect.unit (s := S3x4096) (k0_off89 i) S1x1.size (k0_off89_inb i)).toLoadRect xt (Shape.Idx.first (numel1_S1x1.symm ▸ Nat.one_pos))) (tbM.view.readAt (Elt F) (Rect.unit (s := S3x4096) (k0_off90 i) S1x1.size (k0_off90_inb i)).toLoadRect xt (Shape.Idx.first (numel1_S1x1.symm ▸ Nat.one_pos))) (tbM.view.readAt (Elt F) (Rect.unit (s := S3x4096) (k0_off91 i) S1x1.size (k0_off91_inb i)).toLoadRect xt (Shape.Idx.first (numel1_S1x1.symm ▸ Nat.one_pos))) := hfit.2.2.2.2.2.2.2.2.2.2.2.2.2.2.2.2.2.2.2.2.2.2.1
  have k0_hw24 : k0_chk24 (tbM.view.readAt (Elt F) (Rect.unit (s := S3x4096) (k0_off93 i) S1x1.size (k0_off93_inb i)).toLoadRect xt (Shape.Idx.first (numel1_S1x1.symm ▸ Nat.one_pos))) (tbM.view.readAt (Elt F) (Rect.unit (s := S3x4096) (k0_off94 i) S1x1.size (k0_off94_inb i)).toLoadRect xt (Shape.Idx.first (numel1_S1x1.symm ▸ Nat.one_pos))) (tbM.view.readAt (Elt F) (Rect.unit (s := S3x4096) (k0_off95 i) S1x1.size (k0_off95_inb i)).toLoadRect xt (Shape.Idx.first (numel1_S1x1.symm ▸ Nat.one_pos))) := hfit.2.2.2.2.2.2.2.2.2.2.2.2.2.2.2.2.2.2.2.2.2.2.2.1
  have k0_hw25 : k0_chk25 (tbM.view.readAt (Elt F) (Rect.unit (s := S3x4096) (k0_off97 i) S1x1.size (k0_off97_inb i)).toLoadRect xt (Shape.Idx.first (numel1_S1x1.symm ▸ Nat.one_pos))) (tbM.view.readAt (Elt F) (Rect.unit (s := S3x4096) (k0_off98 i) S1x1.size (k0_off98_inb i)).toLoadRect xt (Shape.Idx.first (numel1_S1x1.symm ▸ Nat.one_pos))) (tbM.view.readAt (Elt F) (Rect.unit (s := S3x4096) (k0_off99 i) S1x1.size (k0_off99_inb i)).toLoadRect xt (Shape.Idx.first (numel1_S1x1.symm ▸ Nat.one_pos))) := hfit.2.2.2.2.2.2.2.2.2.2.2.2.2.2.2.2.2.2.2.2.2.2.2.2.1
  have k0_hw26 : k0_chk26 (tbM.view.readAt (Elt F) (Rect.unit (s := S3x4096) (k0_off101 i) S1x1.size (k0_off101_inb i)).toLoadRect xt (Shape.Idx.first (numel1_S1x1.symm ▸ Nat.one_pos))) (tbM.view.readAt (Elt F) (Rect.unit (s := S3x4096) (k0_off102 i) S1x1.size (k0_off102_inb i)).toLoadRect xt (Shape.Idx.first (numel1_S1x1.symm ▸ Nat.one_pos))) (tbM.view.readAt (Elt F) (Rect.unit (s := S3x4096) (k0_off103 i) S1x1.size (k0_off103_inb i)).toLoadRect xt (Shape.Idx.first (numel1_S1x1.symm ▸ Nat.one_pos))) := hfit.2.2.2.2.2.2.2.2.2.2.2.2.2.2.2.2.2.2.2.2.2.2.2.2.2.1
  have k0_hw27 : k0_chk27 (tbM.view.readAt (Elt F) (Rect.unit (s := S3x4096) (k0_off105 i) S1x1.size (k0_off105_inb i)).toLoadRect xt (Shape.Idx.first (numel1_S1x1.symm ▸ Nat.one_pos))) (tbM.view.readAt (Elt F) (Rect.unit (s := S3x4096) (k0_off106 i) S1x1.size (k0_off106_inb i)).toLoadRect xt (Shape.Idx.first (numel1_S1x1.symm ▸ Nat.one_pos))) (tbM.view.readAt (Elt F) (Rect.unit (s := S3x4096) (k0_off107 i) S1x1.size (k0_off107_inb i)).toLoadRect xt (Shape.Idx.first (numel1_S1x1.symm ▸ Nat.one_pos))) := hfit.2.2.2.2.2.2.2.2.2.2.2.2.2.2.2.2.2.2.2.2.2.2.2.2.2.2.1
  have k0_hw28 : k0_chk28 (tbM.view.readAt (Elt F) (Rect.unit (s := S3x4096) (k0_off109 i) S1x1.size (k0_off109_inb i)).toLoadRect xt (Shape.Idx.first (numel1_S1x1.symm ▸ Nat.one_pos))) (tbM.view.readAt (Elt F) (Rect.unit (s := S3x4096) (k0_off110 i) S1x1.size (k0_off110_inb i)).toLoadRect xt (Shape.Idx.first (numel1_S1x1.symm ▸ Nat.one_pos))) (tbM.view.readAt (Elt F) (Rect.unit (s := S3x4096) (k0_off111 i) S1x1.size (k0_off111_inb i)).toLoadRect xt (Shape.Idx.first (numel1_S1x1.symm ▸ Nat.one_pos))) := hfit.2.2.2.2.2.2.2.2.2.2.2.2.2.2.2.2.2.2.2.2.2.2.2.2.2.2.2.1
  have k0_hw29 : k0_chk29 (tbM.view.readAt (Elt F) (Rect.unit (s := S3x4096) (k0_off113 i) S1x1.size (k0_off113_inb i)).toLoadRect xt (Shape.Idx.first (numel1_S1x1.symm ▸ Nat.one_pos))) (tbM.view.readAt (Elt F) (Rect.unit (s := S3x4096) (k0_off114 i) S1x1.size (k0_off114_inb i)).toLoadRect xt (Shape.Idx.first (numel1_S1x1.symm ▸ Nat.one_pos))) (tbM.view.readAt (Elt F) (Rect.unit (s := S3x4096) (k0_off115 i) S1x1.size (k0_off115_inb i)).toLoadRect xt (Shape.Idx.first (numel1_S1x1.symm ▸ Nat.one_pos))) := hfit.2.2.2.2.2.2.2.2.2.2.2.2.2.2.2.2.2.2.2.2.2.2.2.2.2.2.2.2.1
  have k0_hw30 : k0_chk30 (tbM.view.readAt (Elt F) (Rect.unit (s := S3x4096) (k0_off117 i) S1x1.size (k0_off117_inb i)).toLoadRect xt (Shape.Idx.first (numel1_S1x1.symm ▸ Nat.one_pos))) (tbM.view.readAt (Elt F) (Rect.unit (s := S3x4096) (k0_off118 i) S1x1.size (k0_off118_inb i)).toLoadRect xt (Shape.Idx.first (numel1_S1x1.symm ▸ Nat.one_pos))) (tbM.view.readAt (Elt F) (Rect.unit (s := S3x4096) (k0_off119 i) S1x1.size (k0_off119_inb i)).toLoadRect xt (Shape.Idx.first (numel1_S1x1.symm ▸ Nat.one_pos))) := hfit.2.2.2.2.2.2.2.2.2.2.2.2.2.2.2.2.2.2.2.2.2.2.2.2.2.2.2.2.2.1
  have k0_hw31 : k0_chk31 (tbM.view.readAt (Elt F) (Rect.unit (s := S3x4096) (k0_off121 i) S1x1.size (k0_off121_inb i)).toLoadRect xt (Shape.Idx.first (numel1_S1x1.symm ▸ Nat.one_pos))) (tbM.view.readAt (Elt F) (Rect.unit (s := S3x4096) (k0_off122 i) S1x1.size (k0_off122_inb i)).toLoadRect xt (Shape.Idx.first (numel1_S1x1.symm ▸ Nat.one_pos))) (tbM.view.readAt (Elt F) (Rect.unit (s := S3x4096) (k0_off123 i) S1x1.size (k0_off123_inb i)).toLoadRect xt (Shape.Idx.first (numel1_S1x1.symm ▸ Nat.one_pos))) := hfit.2.2.2.2.2.2.2.2.2.2.2.2.2.2.2.2.2.2.2.2.2.2.2.2.2.2.2.2.2.2.1
  have k0_hw32 : k0_chk32 (tbM.view.readAt (Elt F) (Rect.unit (s := S3x4096) (k0_off125 i) S1x1.size (k0_off125_inb i)).toLoadRect xt (Shape.Idx.first (numel1_S1x1.symm ▸ Nat.one_pos))) (tbM.view.readAt (Elt F) (Rect.unit (s := S3x4096) (k0_off126 i) S1x1.size (k0_off126_inb i)).toLoadRect xt (Shape.Idx.first (numel1_S1x1.symm ▸ Nat.one_pos))) (tbM.view.readAt (Elt F) (Rect.unit (s := S3x4096) (k0_off127 i) S1x1.size (k0_off127_inb i)).toLoadRect xt (Shape.Idx.first (numel1_S1x1.symm ▸ Nat.one_pos))) := hfit.2.2.2.2.2.2.2.2.2.2.2.2.2.2.2.2.2.2.2.2.2.2.2.2.2.2.2.2.2.2.2
  simp only [cc0__gather_kernel_eq_skeleton]; unfold cc0__gather_kernel_skel
  simp only [k0_part1_eq_skeleton]
  unfold owns
  iintro ⟨⟨%d1, %f1, -, H1⟩, ⟨%ds0, %fs0, -, HS0⟩, HT, Hq0, Hq1, Hq2, Hq3, Hq4, Hq5, Hq6, Hq7, Hq8, Hq9, Hq10, Hq11, Hq12, Hq13, Hq14, Hq15, Hhr, Hh0, Hh1, Hh2, Hh3, Hh4, Hh5, Hh6, Hh7, Hh8, Hh9, Hh10, Hh11, Hh12, Hh13, Hh14, Hh15, Hh16, Hh17, HW, Hk⟩
  sl_exec (disch := first | sl_exact k0_hw1 | sl_exact k0_hw2 | sl_exact k0_hw3 | sl_exact k0_hw4 | sl_exact k0_hw5 | sl_exact k0_hw6 | sl_exact k0_hw7 | sl_exact k0_hw8 | sl_exact k0_hw9 | sl_exact k0_hw10 | sl_exact k0_hw11 | sl_exact k0_hw12 | sl_exact k0_hw13 | sl_exact k0_hw14 | sl_exact k0_hw15 | sl_exact k0_hw16 | sl_exact k0_hw17 | sl_exact k0_hw18 | sl_exact k0_hw19 | sl_exact k0_hw20 | sl_exact k0_hw21 | sl_exact k0_hw22 | sl_exact k0_hw23 | sl_exact k0_hw24 | sl_exact k0_hw25 | sl_exact k0_hw26 | sl_exact k0_hw27 | sl_exact k0_hw28 | sl_exact k0_hw29 | sl_exact k0_hw30 | sl_exact k0_hw31 | sl_exact k0_hw32)
  sl_step
  iapply Hk
  isplitl [H1]
  · iexists _; isplitr; swap; · iexact H1
    ipureintro
    sl_unfold_run_names
    exact pieces_read c i arg3 f1 xt fh hfit fs0
  isplitl [HS0]
  · iexists _, _; isplitr; swap; · iexact HS0
    ipureintro; rfl
  isplitl [HT]; · iexact HT
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [Hq8]; · iexact Hq8
  isplitl [Hq9]; · iexact Hq9
  isplitl [Hq10]; · iexact Hq10
  isplitl [Hq11]; · iexact Hq11
  isplitl [Hq12]; · iexact Hq12
  isplitl [Hq13]; · iexact Hq13
  isplitl [Hq14]; · iexact Hq14
  isplitl [Hq15]; · iexact Hq15
  isplitl [Hhr]; · iexact Hhr
  isplitl [Hh0]; · iexact Hh0
  isplitl [Hh1]; · iexact Hh1
  isplitl [Hh2]; · iexact Hh2
  isplitl [Hh3]; · iexact Hh3
  isplitl [Hh4]; · iexact Hh4
  isplitl [Hh5]; · iexact Hh5
  isplitl [Hh6]; · iexact Hh6
  isplitl [Hh7]; · iexact Hh7
  isplitl [Hh8]; · iexact Hh8
  isplitl [Hh9]; · iexact Hh9
  isplitl [Hh10]; · iexact Hh10
  isplitl [Hh11]; · iexact Hh11
  isplitl [Hh12]; · iexact Hh12
  isplitl [Hh13]; · iexact Hh13
  isplitl [Hh14]; · iexact Hh14
  isplitl [Hh15]; · iexact Hh15
  isplitl [Hh16]; · iexact Hh16
  isplitl [Hh17]; · iexact Hh17
  iexists _; iexact HW

end Cert.KernelIdeal.Hand

end
-- ==== Proof.KI.Frame.lean ====
/-
  The launch of the gather kernel: its proof data, the obligation of its body at every grid point,
  and the run of the whole program.

  The grid has 256 points; point t fills block t (ROIs 16 t to 16 t + 15) of the output through the
  output's staging buffer.  Between points nothing is in flight: the landing buffer holds junk, the
  16 semaphores are at zero, the padded map and the table are as the launch found them.  What the
  body leaves in the staging buffer at point t is `blockAt`: row j of the block is the window of ROI 16 t + j.  The body's
  windows fit the padded map because the table's words are clipped centres (`FitAll`, owed by the
  caller from the table's range).
-/
import proofs.«429989_j27960237097553_3_alg».proof.Proof.KI.Run
import Idealize.ShloMosaic.Lib.Pipeline.Kit

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The table the launch prefetches -/

/-- The table's contents when the launch is reached (there is one device). -/
def tbl : pre0.Contents (Elt F) := fun j => atEntry m (0 : Dev nD) (pre0.ref j)
theorem atEntry_pre (c : Dev nD) (j : Fin 1) : atEntry m c (pre0.ref j) = tbl m j := by
  obtain rfl : c = 0 := Subsingleton.elim _ _; rfl
/-- The window's index map reads no table, so every table is admissible. -/
abbrev adm : (pcfg0 (F := F)).Adm := ⟨tbl m, trivial⟩
abbrev cfgM : Pipeline.Cfg sig Λ₀ := cfg0 (adm m)

/-- The table's half the launch hands the body. -/
theorem tableHalf_eq (c : Dev nD) : (Pipeline.ΦT pre0 (tbl m) c : sProp 𝕄) = iprop(tbPt c (tbl m 0)) := by
  unfold Pipeline.ΦT Pipeline.prefHeld
  rw [show (Finset.univ : Finset (Fin 1)) = {(0 : Fin 1)} from by decide, bigSep_singleton]
  rfl

/-! ## The body's own semaphores and the map it copies from -/

abbrev ownSem : Fin 16 → SemLoc sig := fun j => (![SemLoc.dma 2, SemLoc.dma 3, SemLoc.dma 4, SemLoc.dma 5, SemLoc.dma 6, SemLoc.dma 7, SemLoc.dma 8, SemLoc.dma 9, SemLoc.dma 10, SemLoc.dma 11, SemLoc.dma 12, SemLoc.dma 13, SemLoc.dma 14, SemLoc.dma 15, SemLoc.dma 16, SemLoc.dma 17] : Fin 16 → SemLoc sig) j
theorem ownSemFacts : Pipeline.OwnSemFacts spec0 ownSem := by decide
theorem ownSems_eq (c : Dev nD) :
    (Pipeline.ownSems0 (Ix := Unit) (Name := ℕ) (U := Pipeline.UD sig nD τ) (Lvl := ℕ) (Val := Elt F) (τ := τ) ownSem c : sProp 𝕄)
      = iprop(semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0) := by
  rw [Pipeline.ownSems0_eq_of_list c ownSem [(0 : Fin 16), (1 : Fin 16), (2 : Fin 16), (3 : Fin 16), (4 : Fin 16), (5 : Fin 16), (6 : Fin 16), (7 : Fin 16), (8 : Fin 16), (9 : Fin 16), (10 : Fin 16), (11 : Fin 16), (12 : Fin 16), (13 : Fin 16), (14 : Fin 16), (15 : Fin 16)] (by decide) (by decide)]; rfl

/-- The one unscoped buffer the body copies from: the padded map. -/
def copied : Finset (Ref sig .tc) := {main_v13}
theorem copied_sub : copied ⊆ Pipeline.restRefsP sig pre0 spec0 := by decide
abbrev hbPt (c : Dev nD) (f : HbBuf (F := F) c) : sProp 𝕄 := hbM.view.loc (c : Thread nD τ) ↦{fullShare} f
theorem copiedPts_eq (c : Dev nD) :
    (bigSep copied (fun b => ((c : Thread nD τ).loc b) ↦{fullShare} atEntry m c b) : sProp 𝕄) = iprop(hbPt c (atEntry m c main_v13)) := by
  rw [BI.bigSep_eq_bigSepL_of_eq [main_v13] (by decide) (by decide)]; rfl

/-- The launch's invariant for a body that copies by itself, conjunct by conjunct. -/
theorem inv_eq (c : Dev nD) :
    (Pipeline.ΦD ownSem spec0 copied (atEntry m) c : sProp 𝕄)
      = iprop(iprop((∃ d, owns (c : Thread nD τ) scM fullShare d)) ∗ (∃ r, prngReg c r) ∗ iprop(semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0) ∗ iprop(hbPt c (atEntry m c main_v13))) := by
  rw [Pipeline.ΦD_eq, scopedRest0_eq, ownSems_eq, copiedPts_eq]; simp only [scM, owns_whole]; try rfl

/-- The padded map whole is its 18 read shares and the remainder, -/
theorem map_split (c : Dev nD) (f : HbBuf (F := F) c) :
    hbPt c f ⊢ (iprop(hbRest c f ∗ hbTok c (0 : Fin 18) f ∗ hbTok c (1 : Fin 18) f ∗ hbTok c (2 : Fin 18) f ∗ hbTok c (3 : Fin 18) f ∗ hbTok c (4 : Fin 18) f ∗ hbTok c (5 : Fin 18) f ∗ hbTok c (6 : Fin 18) f ∗ hbTok c (7 : Fin 18) f ∗ hbTok c (8 : Fin 18) f ∗ hbTok c (9 : Fin 18) f ∗ hbTok c (10 : Fin 18) f ∗ hbTok c (11 : Fin 18) f ∗ hbTok c (12 : Fin 18) f ∗ hbTok c (13 : Fin 18) f ∗ hbTok c (14 : Fin 18) f ∗ hbTok c (15 : Fin 18) f ∗ hbTok c (16 : Fin 18) f ∗ hbTok c (17 : Fin 18) f) : sProp 𝕄) :=
  (Transfers.pointsTo_toks_split (Ix := Unit) (Name := ℕ) (U := Pipeline.UD sig nD τ) (Lvl := ℕ) fullShare 18).trans
    (Entails.of_eq (by rw [bigSep_univ_eq_bigSepL [(0 : Fin 18), (1 : Fin 18), (2 : Fin 18), (3 : Fin 18), (4 : Fin 18), (5 : Fin 18), (6 : Fin 18), (7 : Fin 18), (8 : Fin 18), (9 : Fin 18), (10 : Fin 18), (11 : Fin 18), (12 : Fin 18), (13 : Fin 18), (14 : Fin 18), (15 : Fin 18), (16 : Fin 18), (17 : Fin 18)] (by decide) (by decide)]; rfl))
/-- and back. -/
theorem map_join (c : Dev nD) (f : HbBuf (F := F) c) :
    (iprop(hbRest c f ∗ hbTok c (0 : Fin 18) f ∗ hbTok c (1 : Fin 18) f ∗ hbTok c (2 : Fin 18) f ∗ hbTok c (3 : Fin 18) f ∗ hbTok c (4 : Fin 18) f ∗ hbTok c (5 : Fin 18) f ∗ hbTok c (6 : Fin 18) f ∗ hbTok c (7 : Fin 18) f ∗ hbTok c (8 : Fin 18) f ∗ hbTok c (9 : Fin 18) f ∗ hbTok c (10 : Fin 18) f ∗ hbTok c (11 : Fin 18) f ∗ hbTok c (12 : Fin 18) f ∗ hbTok c (13 : Fin 18) f ∗ hbTok c (14 : Fin 18) f ∗ hbTok c (15 : Fin 18) f ∗ hbTok c (16 : Fin 18) f ∗ hbTok c (17 : Fin 18) f) : sProp 𝕄) ⊢ hbPt c f :=
  (Entails.of_eq (by rw [bigSep_univ_eq_bigSepL [(0 : Fin 18), (1 : Fin 18), (2 : Fin 18), (3 : Fin 18), (4 : Fin 18), (5 : Fin 18), (6 : Fin 18), (7 : Fin 18), (8 : Fin 18), (9 : Fin 18), (10 : Fin 18), (11 : Fin 18), (12 : Fin 18), (13 : Fin 18), (14 : Fin 18), (15 : Fin 18), (16 : Fin 18), (17 : Fin 18)] (by decide) (by decide)]; rfl)).trans
    (Transfers.pointsTo_toks_join (Ix := Unit) (Name := ℕ) (U := Pipeline.UD sig nD τ) (Lvl := ℕ) fullShare 18)

/-! ## What the body leaves in the output block -/

/-- The output's current staging memref at point `t`, as the launch passes it. -/
abbrev stageAt (t : Fin (cfgM m).N) : Memref sig .tc .vmem S16x31x31x32 .f32 := spec0_0.stage ((cfgM m).slots t 0)
abbrev stageAt_whole (t : Fin (cfgM m).N) : (stageAt m t).IsWhole := hstage0_0 (((cfgM m).slots t 0).cast nbuf0_0)

/-- At every point the body's windows fit the padded map. -/
def FitAll : Prop := ∀ (c : Dev nD) (t : Fin (cfgM m).N), WindowsFit c (grid0.coords t) (tbl m 0)

/-- Block `t` as the body leaves it. -/
def blockAt (hF : FitAll m) (c : Dev nD) (t : Fin (cfgM m).N) : Vec F S16x31x31x32 .f32 :=
  blockSpec c (grid0.coords t) (tbl m 0) (atEntry m c main_v13) (hF c t)

/-! ## The proof data and the body's obligation -/

def dats (hF : FitAll m) (_ : Fin 1) (c : Dev nD) : Dat τ (Elt F) Unit ℕ (Pipeline.UD sig nD τ) ℕ (cfgM m) c where
  A w := atEntry m c (Pipeline.arrRef spec0 w)
  after w t := match w with
    | ⟨0, _⟩ => blockAt m hF c t
  Φ _ := iprop(Pipeline.ΦD ownSem spec0 copied (atEntry m) c ∗ Pipeline.ΦT pre0 (tbl m) c)
  q _ := fullShare
  owed _ := 0

theorem dats_A (hF : FitAll m) (c : Dev nD) (w : Fin (cfgM m).W) : (dats m hF 0 c).A w = atEntry m c (Pipeline.arrRef spec0 w) := by
  dsimp only [dats]
theorem dats_after (hF : FitAll m) (c : Dev nD) (t : Fin (cfgM m).N) : (dats m hF 0 c).after 0 t = blockAt m hF c t := by
  dsimp only [dats]; try rfl

def bodyPre (hF : FitAll m) (c : Dev nD) (t : Fin (cfgM m).N) : sProp 𝕄 :=
  iprop((dats m hF 0 c).Φ t.castSucc ∗ (dats m hF 0 c).owesAt () t.castSucc
    ∗ (∃ d, owns (c : Thread nD τ) (stageAt m t) fullShare ((dats m hF 0 c).before 0 t d)))

def bodyPost (hF : FitAll m) (c : Dev nD) (t : Fin (cfgM m).N) : sProp 𝕄 :=
  iprop((dats m hF 0 c).Φ t.succ ∗ (dats m hF 0 c).owesAt () t.succ
    ∗ owns (c : Thread nD τ) (stageAt m t) fullShare ((dats m hF 0 c).after 0 t))

/-- The body at any point: the invariant hands it the landing buffer, its semaphores at zero, the padded map
    (split into its read shares for the run, joined again after it) and the table's half, and takes them back as they
    were; the waits the run recorded stay within the next point's bound. -/
theorem sound_body (hF : FitAll m) (c : Dev nD) (t : Fin (cfgM m).N) :
    bodyPre m hF c t ⊢ wp frame (wpE (defs₀ (F := F)) Variants.none c none) Set.univ
      (cc0__gather_kernel (grid0.coords t) tbM htbM hbM hhbM (stageAt m t) (stageAt_whole m t) scM hscM cc0_scratch1) (fun _ => bodyPost m hF c t) := by
  unfold bodyPre bodyPost
  rw [show (dats m hF 0 c).Φ t.succ = (dats m hF 0 c).Φ t.castSucc from rfl, dats_after]
  rw [show (dats m hF 0 c).Φ t.castSucc = iprop(Pipeline.ΦD ownSem spec0 copied (atEntry m) c ∗ Pipeline.ΦT pre0 (tbl m) c) from rfl, inv_eq, tableHalf_eq]
  unfold Dat.owesAt Pipeline.owesWithin
  rw [show (dats m hF 0 c).owed t.castSucc = 0 from rfl, show (dats m hF 0 c).owed t.succ = 0 from rfl]
  unfold blockAt
  iintro ⟨⟨⟨HS0, Hg, ⟨Hq0, Hq1, Hq2, Hq3, Hq4, Hq5, Hq6, Hq7, Hq8, Hq9, Hq10, Hq11, Hq12, Hq13, Hq14, Hq15⟩, Hh⟩, HT⟩, ⟨%W, -, HW⟩, ⟨%d1, H1⟩⟩
  ihave Hh' := (map_split c (atEntry m c main_v13)) $$ Hh
  icases Hh' with ⟨Hhr, Hh0, Hh1, Hh2, Hh3, Hh4, Hh5, Hh6, Hh7, Hh8, Hh9, Hh10, Hh11, Hh12, Hh13, Hh14, Hh15, Hh16, Hh17⟩
  iapply (gatherRun c (grid0.coords t) (stageAt m t) (stageAt_whole m t) (tbl m 0) (atEntry m c main_v13) (hF c t) W _)
  isplitl [H1]; · iexists _; iexact H1
  isplitl [HS0]; · iexact HS0
  isplitl [HT]; · iexact HT
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [Hq8]; · iexact Hq8
  isplitl [Hq9]; · iexact Hq9
  isplitl [Hq10]; · iexact Hq10
  isplitl [Hq11]; · iexact Hq11
  isplitl [Hq12]; · iexact Hq12
  isplitl [Hq13]; · iexact Hq13
  isplitl [Hq14]; · iexact Hq14
  isplitl [Hq15]; · iexact Hq15
  isplitl [Hhr]; · iexact Hhr
  isplitl [Hh0]; · iexact Hh0
  isplitl [Hh1]; · iexact Hh1
  isplitl [Hh2]; · iexact Hh2
  isplitl [Hh3]; · iexact Hh3
  isplitl [Hh4]; · iexact Hh4
  isplitl [Hh5]; · iexact Hh5
  isplitl [Hh6]; · iexact Hh6
  isplitl [Hh7]; · iexact Hh7
  isplitl [Hh8]; · iexact Hh8
  isplitl [Hh9]; · iexact Hh9
  isplitl [Hh10]; · iexact Hh10
  isplitl [Hh11]; · iexact Hh11
  isplitl [Hh12]; · iexact Hh12
  isplitl [Hh13]; · iexact Hh13
  isplitl [Hh14]; · iexact Hh14
  isplitl [Hh15]; · iexact Hh15
  isplitl [Hh16]; · iexact Hh16
  isplitl [Hh17]; · iexact Hh17
  isplitl [HW]; · iexact HW
  iintro ⟨H1, HS0, HT, Hq0, Hq1, Hq2, Hq3, Hq4, Hq5, Hq6, Hq7, Hq8, Hq9, Hq10, Hq11, Hq12, Hq13, Hq14, Hq15, Hhr, Hh0, Hh1, Hh2, Hh3, Hh4, Hh5, Hh6, Hh7, Hh8, Hh9, Hh10, Hh11, Hh12, Hh13, Hh14, Hh15, Hh16, Hh17, ⟨%W', HW'⟩⟩
  isplitl [HS0 Hg Hq0 Hq1 Hq2 Hq3 Hq4 Hq5 Hq6 Hq7 Hq8 Hq9 Hq10 Hq11 Hq12 Hq13 Hq14 Hq15 Hhr Hh0 Hh1 Hh2 Hh3 Hh4 Hh5 Hh6 Hh7 Hh8 Hh9 Hh10 Hh11 Hh12 Hh13 Hh14 Hh15 Hh16 Hh17 HT]
  · isplitr [HT]
    · isplitl [HS0]; · iexact HS0
      isplitl [Hg]; · iexact Hg
      isplitl [Hq0 Hq1 Hq2 Hq3 Hq4 Hq5 Hq6 Hq7 Hq8 Hq9 Hq10 Hq11 Hq12 Hq13 Hq14 Hq15]
      ·
        isplitl [Hq0]; · iexact Hq0
        isplitl [Hq1]; · iexact Hq1
        isplitl [Hq2]; · iexact Hq2
        isplitl [Hq3]; · iexact Hq3
        isplitl [Hq4]; · iexact Hq4
        isplitl [Hq5]; · iexact Hq5
        isplitl [Hq6]; · iexact Hq6
        isplitl [Hq7]; · iexact Hq7
        isplitl [Hq8]; · iexact Hq8
        isplitl [Hq9]; · iexact Hq9
        isplitl [Hq10]; · iexact Hq10
        isplitl [Hq11]; · iexact Hq11
        isplitl [Hq12]; · iexact Hq12
        isplitl [Hq13]; · iexact Hq13
        isplitl [Hq14]; · iexact Hq14
        iexact Hq15
      iapply (map_join c (atEntry m c main_v13))
      isplitl [Hhr]; · iexact Hhr
      isplitl [Hh0]; · iexact Hh0
      isplitl [Hh1]; · iexact Hh1
      isplitl [Hh2]; · iexact Hh2
      isplitl [Hh3]; · iexact Hh3
      isplitl [Hh4]; · iexact Hh4
      isplitl [Hh5]; · iexact Hh5
      isplitl [Hh6]; · iexact Hh6
      isplitl [Hh7]; · iexact Hh7
      isplitl [Hh8]; · iexact Hh8
      isplitl [Hh9]; · iexact Hh9
      isplitl [Hh10]; · iexact Hh10
      isplitl [Hh11]; · iexact Hh11
      isplitl [Hh12]; · iexact Hh12
      isplitl [Hh13]; · iexact Hh13
      isplitl [Hh14]; · iexact Hh14
      isplitl [Hh15]; · iexact Hh15
      isplitl [Hh16]; · iexact Hh16
      iexact Hh17
    · iexact HT
  isplitl [HW']
  · iexists W'; isplitr; · ipureintro; exact fun _ _ => Or.inl trivial
    iexact HW'
  iexact H1

theorem body_obligation (hF : FitAll m) (c : Dev nD) :
    BodyObligation (dats (F := F) m hF 0 c) (defs₀ (F := F)) Variants.none () Set.univ := fun t => by
  rw [bigSep_W0, bigSep_W0]
  exact sound_body m hF c t

/-! ## The run of the whole program -/

set_option backward.isDefEq.respectTransparency.types false in
/-- From any memory with zero counters every weakly fair execution of @main terminates; the output array then holds
    what the launch's library computes from the blocks the body left, and every other unscoped buffer — the
    arguments among them — what the launch found. -/
theorem run_main (hF : FitAll m) :
    θ_run defs (onTc (τ := τ) (main (F := F))) (s₀ m ρ) (Pipeline.FramePost (Pipeline.pin pcfgs fun _ => adm m) (dats m hF) 0 (atEntry m)) :=
  Pipeline.θ_run_frameP_dma pcfgs (fun _ => adm m) (dats m hF) (0 : Fin 1) launch0 ownSem defs₀ Variants.none ownSemFacts copied copied_sub m ρ main
    (hbody := fun c => (body_obligation m hF c).loose) (hshare := fun c => (dats m hF 0 c).share_full fun _ => rfl)
    (howed := fun _ _ => rfl) (V := atEntry m) (hmain := toLaunch m Variants.none) (hA := dats_A m hF) (hpf := atEntry_pre m)
    (hin := fun _ => .rfl)
    (hout := fun c => (show iprop(Pipeline.ΦD ownSem spec0 copied (atEntry m) c ∗ Pipeline.ΦT pre0 (tbl m) c) ⊢ _ from by iintro ⟨H, -⟩; iexact H))

end Cert.KernelIdeal.Hand

end
-- ==== Proof.KI.EntryValues.lean ====
/-
  What two buffers hold when the launch is reached, read at an index.

  The table the launch prefetches is the centre array with each column clipped into its axis (batch into
  [0, 15], row and column into [0, 255]) and transposed to [3, 4096]: its words are in range whatever the
  input, and for centres inside the map the clip is the identity, so the table is the transposed centre
  array.  The padded map is the map shifted by 15 rows and 15 columns, zero on the border of width 15 and on
  the channels from 32 up.  Neither argument is written on the way to the launch.

  The facts about the operations' terms hold for every map and every centre array; the buffers at the launch
  are their instances at the launched contents.
-/
import proofs.«429989_j27960237097553_3_alg».proof.Proof.KI.Entry
import proofs.«429989_j27960237097553_3_alg».proof.Proof.RoiSpec
import Idealize.ShloMosaic.Lib.StableHlo.Run
import Idealize.ShloMosaic.Lib.Pipeline.Value
import Idealize.ShloMosaic.Lib.ValueIdx
import Idealize.ShloMosaic.Lib.KernelVsHost
import Idealize.ShloMosaic.Lib.StableHlo.Predicate

noncomputable section

namespace Cert.KernelIdeal.Hand

open Idealize.ShloMosaic Idealize.ShloMosaic.TcCoe Idealize.ShloMosaic.ValueIdx
open Idealize.SL Idealize.SL.RA Idealize.SL.BI
open scoped Idealize.SL.BI
open Idealize.SL.BI.BIBase Idealize.SL.Sem
open Cert.KernelIdeal Cert.KernelIdeal.Gen

variable {F : FTy → Type} [FloatOps F]

variable (m : (ℓ : Loc nD τ sig) → Buf (Elt F) ℓ)

/-! ## Neither argument is written before the launch -/

/-- No operation before the launch writes the map. -/
theorem atEntry_arg0 (c : Dev nD) : atEntry m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8,
      List.flatten_cons, List.flatten_nil, List.append_nil, List.cons_append, List.nil_append, List.Forall,
      StableHlo.TRef.unary, StableHlo.TRef.binary,
      StableHlo.nullary_writes, StableHlo.unary_writes, StableHlo.binary_writes, StableHlo.reshape_writes,
      StableHlo.nary_writes, Finset.mem_singleton]
    repeat' apply And.intro
    all_goals exact StableHlo.devRef_ne_of_ne (by decide)))

/-- No operation before the launch writes the centre array. -/
theorem atEntry_arg1 (c : Dev nD) : atEntry m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8,
      List.flatten_cons, List.flatten_nil, List.append_nil, List.cons_append, List.nil_append, List.Forall,
      StableHlo.TRef.unary, StableHlo.TRef.binary,
      StableHlo.nullary_writes, StableHlo.unary_writes, StableHlo.binary_writes, StableHlo.reshape_writes,
      StableHlo.nary_writes, Finset.mem_singleton]
    repeat' apply And.intro
    all_goals exact StableHlo.devRef_ne_of_ne (by decide)))

/-! ## Clipping a word -/

/-- Clipping a signed word into [0, hi] (maximum with 0, then minimum with hi, the bounds given first):
    the result lies in [0, hi] whatever the word, and is the word itself when it already lies there. -/
theorem clip_cases (w hi : BitVec 32) (hhi : hi.toNat < 2 ^ 31) :
    (IntOp.minsi hi (IntOp.maxsi 0#32 w)).toNat ≤ hi.toNat
      ∧ (w.toNat ≤ hi.toNat → IntOp.minsi hi (IntOp.maxsi 0#32 w) = w) := by
  have h0 : (0#32 : BitVec 32).toInt = 0 := by decide
  have hth : hi.toInt = hi.toNat := StableHlo.Predicate.toInt_eq_toNat_of_lt hhi
  unfold IntOp.minsi IntOp.maxsi
  by_cases hneg : w.slt 0#32 = true
  · -- a negative word: the maximum with 0 is 0, below every bound
    rw [if_pos hneg]
    have hwn : w.toInt < 0 := by
      have := BitVec.slt_iff_toInt_lt.mp hneg
      rw [h0] at this; exact this
    have hwbig : 2 ^ 32 ≤ 2 * w.toNat := BitVec.toInt_neg_iff.mp hwn
    have h1 : ¬ (hi.slt 0#32 = true) := by
      rw [BitVec.slt_iff_toInt_lt, hth, h0]; omega
    rw [if_neg h1]
    refine ⟨Nat.zero_le _, fun hw => ?_⟩
    omega
  · -- a non-negative word reads the same signed and unsigned
    rw [if_neg hneg]
    have hwp : 0 ≤ w.toInt := by
      have := mt BitVec.slt_iff_toInt_lt.mpr hneg
      rw [h0] at this; omega
    have hwsmall : 2 * w.toNat < 2 ^ 32 := BitVec.toInt_pos_iff.mp hwp
    have htw : w.toInt = w.toNat := StableHlo.Predicate.toInt_eq_toNat_of_lt (by omega)
    by_cases hlt : hi.slt w = true
    · rw [if_pos hlt]
      have := BitVec.slt_iff_toInt_lt.mp hlt
      refine ⟨Nat.le_refl _, fun hw => ?_⟩
      omega
    · rw [if_neg hlt]
      have := mt BitVec.slt_iff_toInt_lt.mpr hlt
      refine ⟨by omega, fun _ => rfl⟩

/-! ## The table as a term over a centre array -/

/-- One column of a centre array (the slice at offsets `off`, flattened) clipped into [0, hi]. -/
def clipCol (cn : S4096x3.Idx → BitVec 32) (off : Fin 2 → Nat) (hs : S4096x3.Slices off S4096x1) (hi : BitVec 32) :
    S4096.Idx → BitVec 32 :=
  minsi (broadcastInDim S4096 ![] bcast_S_S4096 (constantI S_ 32 hi))
    (maxsi (broadcastInDim S4096 ![] bcast_S_S4096 (constantI S_ 32 0#32))
      (shapeCast S4096 (extractStridedSlice S4096x1 off cn hs) shapeCasts_S4096x1_S4096))

/-- Three flat columns made one-column arrays, set side by side and transposed: a [3, 4096] table whose row
    `k` is column `k`. -/
def stack (x y z : S4096.Idx → BitVec 32) : S3x4096.Idx → BitVec 32 :=
  transpose S3x4096 [1, 0]
    (concatenate S4096x3 1
      [⟨S4096x1, broadcastInDim S4096x1 ![0] bcast_S4096_S4096x1_0 x⟩,
       ⟨S4096x1, broadcastInDim S4096x1 ![0] bcast_S4096_S4096x1_0 y⟩,
       ⟨S4096x1, broadcastInDim S4096x1 ![0] bcast_S4096_S4096x1_0 z⟩]
      concatenates_S4096x1_S4096x1_S4096x1_S4096x3_d1)
    transposes_S4096x3_S3x4096_1_0

/-- The three clipped columns stacked: the [3, 4096] table. -/
def clipTable (cn : S4096x3.Idx → BitVec 32) : S3x4096.Idx → BitVec 32 :=
  stack (clipCol cn ![0, 0] slices_S4096x3_S4096x1_0_0 15#32)
    (clipCol cn ![0, 1] slices_S4096x3_S4096x1_0_1 255#32)
    (clipCol cn ![0, 2] slices_S4096x3_S4096x1_0_2 255#32)

/-- A clipped column at `n` is the clip of the array's entry in row `n` of that column: the flattened
    slice at `n` is the slice at (n, 0), which is the array at (n, k). -/
theorem clipCol_apply (cn : S4096x3.Idx → BitVec 32) (k : Fin 3) (off : Fin 2 → Nat) (hs : S4096x3.Slices off S4096x1)
    (hoff0 : off 0 = 0) (hoff1 : off 1 = k.val) (hi : BitVec 32) (n : Fin 4096) :
    clipCol cn off hs hi (ix1 n) = IntOp.minsi hi (IntOp.maxsi 0#32 (cn (ix2 n k))) := by
  show IntOp.minsi hi (IntOp.maxsi 0#32
    (shapeCast S4096 (extractStridedSlice S4096x1 off cn hs) shapeCasts_S4096x1_S4096 (ix1 n))) = _
  rw [shapeCast_apply (extractStridedSlice S4096x1 off cn hs) shapeCasts_S4096x1_S4096 (ix1 n) (ix2 n (0 : Fin 1)) (by
      rw [Shape.rowMajor_val_two, Shape.rowMajor_val_one]
      show n.val * 1 + 0 = n.val
      omega),
    extractStridedSlice_apply off cn hs (ix2 n (0 : Fin 1)) (ix2 n k) (by
      intro a
      match a with
      | ⟨0, _⟩ => show n.val = off 0 + n.val; rw [hoff0]; omega
      | ⟨1, _⟩ => show k.val = off 1 + 0; rw [hoff1]; rfl)]

/-- Three one-column pieces side by side, read in row `n`: column `k` is piece `k` at (n, 0). -/
theorem concat3_apply {α : Type} (A B C : S4096x1.Idx → α) (n : Fin 4096) :
    concatenate S4096x3 1 [⟨S4096x1, A⟩, ⟨S4096x1, B⟩, ⟨S4096x1, C⟩] concatenates_S4096x1_S4096x1_S4096x1_S4096x3_d1
        (ix2 n (0 : Fin 3)) = A (ix2 n (0 : Fin 1))
    ∧ concatenate S4096x3 1 [⟨S4096x1, A⟩, ⟨S4096x1, B⟩, ⟨S4096x1, C⟩] concatenates_S4096x1_S4096x1_S4096x1_S4096x3_d1
        (ix2 n (1 : Fin 3)) = B (ix2 n (0 : Fin 1))
    ∧ concatenate S4096x3 1 [⟨S4096x1, A⟩, ⟨S4096x1, B⟩, ⟨S4096x1, C⟩] concatenates_S4096x1_S4096x1_S4096x1_S4096x3_d1
        (ix2 n (2 : Fin 3)) = C (ix2 n (0 : Fin 1)) := by
  have hoff : ∀ b : Fin S4096x1.rank, b.cast (rfl : S4096x1.rank = S4096x3.rank) ≠ (1 : Fin 2) →
      ∀ k : Fin 3, ((ix2 n (0 : Fin 1)) b).val = ((ix2 n k) (b.cast (rfl : S4096x1.rank = S4096x3.rank))).val := by
    intro b hb k
    match b with
    | ⟨0, _⟩ => rfl
    | ⟨1, _⟩ => exact absurd rfl hb
  refine ⟨?_, ?_, ?_⟩
  · exact concatenate_apply_piece (t := S4096x3) (1 : Fin 2) [⟨S4096x1, A⟩, ⟨S4096x1, B⟩, ⟨S4096x1, C⟩]
      concatenates_S4096x1_S4096x1_S4096x1_S4096x3_d1 (ix2 n (0 : Fin 3)) 0 (by show 0 < 3; omega) S4096x1 A rfl rfl 0 rfl
      (ix2 n (0 : Fin 1)) (fun b hb => hoff b hb 0) rfl
  · exact concatenate_apply_piece (t := S4096x3) (1 : Fin 2) [⟨S4096x1, A⟩, ⟨S4096x1, B⟩, ⟨S4096x1, C⟩]
      concatenates_S4096x1_S4096x1_S4096x1_S4096x3_d1 (ix2 n (1 : Fin 3)) 1 (by show 1 < 3; omega) S4096x1 B rfl rfl 1 rfl
      (ix2 n (0 : Fin 1)) (fun b hb => hoff b hb 1) rfl
  · exact concatenate_apply_piece (t := S4096x3) (1 : Fin 2) [⟨S4096x1, A⟩, ⟨S4096x1, B⟩, ⟨S4096x1, C⟩]
      concatenates_S4096x1_S4096x1_S4096x1_S4096x3_d1 (ix2 n (2 : Fin 3)) 2 (by show 2 < 3; omega) S4096x1 C rfl rfl 2 rfl
      (ix2 n (0 : Fin 1)) (fun b hb => hoff b hb 2) rfl

/-- A flat column made a one-column array, read at (n, 0), is the column at `n`. -/
theorem column_apply {α : Type} (x : S4096.Idx → α) (n : Fin 4096) :
    broadcastInDim S4096x1 ![0] bcast_S4096_S4096x1_0 x (ix2 n (0 : Fin 1)) = x (ix1 n) :=
  broadcastInDim_apply ![0] bcast_S4096_S4096x1_0 x (ix2 n (0 : Fin 1)) (ix1 n) (by
    intro a
    match a with
    | ⟨0, _⟩ => rfl)

/-- Which bound row `k` of the table is clipped to: 15 for the batch row, 255 for the other two. -/
def hiOf (k : Fin 3) : BitVec 32 := match k with | 0 => 15#32 | 1 => 255#32 | 2 => 255#32

/-- The table at (k, n) is the clip of the centre array's entry (n, k). -/
theorem clipTable_apply (cn : S4096x3.Idx → BitVec 32) (k : Fin 3) (n : Fin 4096) :
    clipTable cn (ix2 k n) = IntOp.minsi (hiOf k) (IntOp.maxsi 0#32 (cn (ix2 n k))) := by
  unfold clipTable stack
  rw [transpose_apply [1, 0] _ transposes_S4096x3_S3x4096_1_0 (ix2 k n) (ix2 n k) (by
    intro b
    match b with
    | ⟨0, _⟩ => rfl
    | ⟨1, _⟩ => rfl)]
  match k with
  | 0 =>
    rw [(concat3_apply _ _ _ n).1, column_apply]
    exact clipCol_apply cn 0 _ _ rfl rfl _ n
  | 1 =>
    rw [(concat3_apply _ _ _ n).2.1, column_apply]
    exact clipCol_apply cn 1 _ _ rfl rfl _ n
  | 2 =>
    rw [(concat3_apply _ _ _ n).2.2, column_apply]
    exact clipCol_apply cn 2 _ _ rfl rfl _ n

/-- The table's words are in range, whatever the centre array. -/
theorem clipTable_in_range (cn : S4096x3.Idx → BitVec 32) (n : Fin 4096) :
    (clipTable cn (ix2 0 n)).toNat ≤ 15 ∧ (clipTable cn (ix2 1 n)).toNat ≤ 255 ∧ (clipTable cn (ix2 2 n)).toNat ≤ 255 := by
  rw [clipTable_apply, clipTable_apply, clipTable_apply]
  exact ⟨(clip_cases _ 15#32 (by decide)).1, (clip_cases _ 255#32 (by decide)).1, (clip_cases _ 255#32 (by decide)).1⟩

/-- For centres inside the map the clip changes nothing: the table is the transposed centre array. -/
theorem clipTable_of_inMap (cn : S4096x3.Idx → BitVec 32) (h : Cert.Roi.InMap cn) : clipTable cn = Cert.Roi.tableOf cn := by
  funext i
  obtain ⟨k, n, rfl⟩ : ∃ (k : Fin 3) (n : Fin 4096), i = ix2 k n := ⟨i 0, i 1, eq_ix2 i⟩
  rw [clipTable_apply]
  show _ = cn (ix2 n k)
  have hn := h n
  have e : ∀ j : Fin 3, Cert.Roi.cenAt cn n.val j = (cn (ix2 n j)).toNat := by
    intro j
    unfold Cert.Roi.cenAt
    rw [show Fin.ofNat 4096 n.val = n from Fin.ext (Nat.mod_eq_of_lt n.isLt)]
  rw [e 0, e 1, e 2] at hn
  match k with
  | 0 => exact (clip_cases _ 15#32 (by decide)).2 (by show (cn (ix2 n 0)).toNat ≤ 15; omega)
  | 1 => exact (clip_cases _ 255#32 (by decide)).2 (by show (cn (ix2 n 1)).toNat ≤ 255; omega)
  | 2 => exact (clip_cases _ 255#32 (by decide)).2 (by show (cn (ix2 n 2)).toNat ≤ 255; omega)

/-! ## The table at the launch -/

/-- A reference that no operation of a list writes keeps its contents. -/
theorem keeps (ops : List (HloOp τ sig (Elt F))) (V : Valuation τ sig (Elt F)) (r : Ref sig .tc)
    (h : ops.Forall fun op => Proc.devRef (τ := τ) .tc r ∉ op.writes) :
    StableHlo.after ops V (Proc.devRef .tc r) = V (Proc.devRef .tc r) :=
  StableHlo.after_of_forall_not_mem (b := Proc.devRef .tc r) ops V (List.forall_iff_forall_mem.mp h)

/-- Decides that a listed stretch of operations does not write a reference, operation by operation. -/
local macro "not_written" : tactic => `(tactic| (
  simp only [hostOps0, hostOps0_1, hostOps0_2, hostOps0_3, hostOps0_4, hostOps0_5, List.cons_append, List.nil_append,
    List.Forall, StableHlo.TRef.unary, StableHlo.TRef.binary, StableHlo.nullary_writes, StableHlo.unary_writes,
    StableHlo.binary_writes, StableHlo.reshape_writes, Finset.mem_singleton]
  repeat' apply And.intro
  all_goals exact StableHlo.devRef_ne_of_ne (by decide)))

/-- The first column's stretch (slice, flatten, clip into [0, 15]) leaves the clipped batch column. -/
theorem colA (V : Valuation τ sig (Elt F)) :
    (StableHlo.after (hostOps0 ++ hostOps0_1) V (Proc.devRef .tc main_v2) : S4096.Idx → BitVec 32)
      = clipCol (V (Proc.devRef .tc main_arg1)) ![0, 0] slices_S4096x3_S4096x1_0_0 15#32 := by
  simp only [hostOps0, hostOps0_1, List.cons_append, List.nil_append]
  after_results
  rfl

/-- The second column's stretch leaves the clipped column of row coordinates. -/
theorem colB (V : Valuation τ sig (Elt F)) :
    (StableHlo.after (hostOps0_2 ++ hostOps0_3) V (Proc.devRef .tc main_v5) : S4096.Idx → BitVec 32)
      = clipCol (V (Proc.devRef .tc main_arg1)) ![0, 1] slices_S4096x3_S4096x1_0_1 255#32 := by
  simp only [hostOps0_2, hostOps0_3, List.cons_append, List.nil_append]
  after_results
  rfl

/-- The third column's stretch leaves the clipped column of column coordinates. -/
theorem colC (V : Valuation τ sig (Elt F)) :
    (StableHlo.after (hostOps0_4 ++ hostOps0_5) V (Proc.devRef .tc main_v8) : S4096.Idx → BitVec 32)
      = clipCol (V (Proc.devRef .tc main_arg1)) ![0, 2] slices_S4096x3_S4096x1_0_2 255#32 := by
  simp only [hostOps0_4, hostOps0_5, List.cons_append, List.nil_append]
  after_results
  rfl

theorem keepA_arg1 (V : Valuation τ sig (Elt F)) :
    StableHlo.after (hostOps0 ++ hostOps0_1) V (Proc.devRef .tc main_arg1) = V (Proc.devRef .tc main_arg1) :=
  keeps _ V main_arg1 (by not_written)
theorem keepB_arg1 (V : Valuation τ sig (Elt F)) :
    StableHlo.after (hostOps0_2 ++ hostOps0_3) V (Proc.devRef .tc main_arg1) = V (Proc.devRef .tc main_arg1) :=
  keeps _ V main_arg1 (by not_written)
theorem keepB_v2 (V : Valuation τ sig (Elt F)) :
    StableHlo.after (hostOps0_2 ++ hostOps0_3) V (Proc.devRef .tc main_v2) = V (Proc.devRef .tc main_v2) :=
  keeps _ V main_v2 (by not_written)
theorem keepC_v2 (V : Valuation τ sig (Elt F)) :
    StableHlo.after (hostOps0_4 ++ hostOps0_5) V (Proc.devRef .tc main_v2) = V (Proc.devRef .tc main_v2) :=
  keeps _ V main_v2 (by not_written)
theorem keepC_v5 (V : Valuation τ sig (Elt F)) :
    StableHlo.after (hostOps0_4 ++ hostOps0_5) V (Proc.devRef .tc main_v5) = V (Proc.devRef .tc main_v5) :=
  keeps _ V main_v5 (by not_written)

/-- A three-operand operation's result, each operand's contents read at its own reference. -/
theorem nary3_result {sg : RefSig} {tp : Topo} {Val : EltTy → Type} {x a b y : Ref sg .tc}
    (f : ((k : Fin 3) → ((![x, a, b] : Fin 3 → Ref sg .tc) k).ty.Contents Val) → y.ty.Contents Val) (hxs hy)
    (V : Valuation tp sg Val) :
    (StableHlo.nary (τ := tp) ![x, a, b] y f hxs hy).result V (Proc.devRef .tc y)
      = f (Fin.cons (V (Proc.devRef .tc x)) (Fin.cons (V (Proc.devRef .tc a)) (Fin.cons (V (Proc.devRef .tc b)) (fun i => i.elim0)))) := by
  rw [StableHlo.nary_result]
  refine congrArg f (funext fun k => ?_)
  match k with
  | 0 => rfl
  | 1 => rfl
  | 2 => rfl

/-- The last stretches (columns made arrays, stacked, the map padded, the transpose) leave the stack of the
    three columns they find. -/
theorem tailT (W : Valuation τ sig (Elt F)) :
    (StableHlo.after (hostOps0_6 ++ (hostOps0_7 ++ hostOps0_8)) W (Proc.devRef .tc main_v14) : S3x4096.Idx → BitVec 32)
      = stack (W (Proc.devRef .tc main_v2)) (W (Proc.devRef .tc main_v5)) (W (Proc.devRef .tc main_v8)) := by
  simp only [hostOps0_6, hostOps0_7, hostOps0_8, List.cons_append, List.nil_append]
  simp only [StableHlo.after_cons, StableHlo.after_nil]
  repeat (first
    | rw [StableHlo.nullary_result] | rw [StableHlo.unary_result] | rw [StableHlo.binary_result] | rw [nary3_result]
    | (rw [StableHlo.nullary_result_ne]; rotate_left; decide)
    | (rw [StableHlo.unary_result_ne]; rotate_left; decide)
    | (rw [StableHlo.binary_result_ne]; rotate_left; decide)
    | (rw [StableHlo.nary_result_ne]; rotate_left; decide))
  rfl

/-- The table the launch prefetches is the clipped, transposed centre array: the stretches in order, each
    column's stretch leaving its clipped column and the centre array and the earlier columns as they were. -/
theorem atEntry_table (c : Dev nD) :
    (atEntry m c main_v14 : S3x4096.Idx → BitVec 32) = clipTable (m ((c : Thread nD τ).loc main_arg1)) := by
  dsimp only [atEntry]
  rw [show List.flatten [hostOps0, hostOps0_1, hostOps0_2, hostOps0_3, hostOps0_4, hostOps0_5, hostOps0_6, hostOps0_7, hostOps0_8]
      = ((hostOps0 ++ hostOps0_1) ++ ((hostOps0_2 ++ hostOps0_3) ++ ((hostOps0_4 ++ hostOps0_5)
          ++ (hostOps0_6 ++ (hostOps0_7 ++ hostOps0_8)))) : List (HloOp τ sig (Elt F))) from by
    simp only [List.flatten_cons, List.flatten_nil, List.append_nil, List.append_assoc]]
  rw [StableHlo.after_append, StableHlo.after_append, StableHlo.after_append]
  refine (tailT _).trans ?_
  unfold clipTable
  refine congr (congr (congrArg stack ?_) ?_) ?_
  · exact (keepC_v2 _).trans ((keepB_v2 _).trans (colA _))
  · exact (keepC_v5 _).trans ((colB _).trans
      (congrArg (fun cn => clipCol cn ![0, 1] slices_S4096x3_S4096x1_0_1 255#32) (keepA_arg1 _)))
  · exact (colC _).trans
      (congrArg (fun cn => clipCol cn ![0, 2] slices_S4096x3_S4096x1_0_2 255#32) ((keepB_arg1 _).trans (keepA_arg1 _)))

/-- The table's words are clipped centres: in range whatever the input. -/
theorem table_in_range (c : Dev nD) (n : Fin 4096) :
    ((atEntry m c main_v14 : S3x4096.Idx → BitVec 32) (ValueIdx.ix2 0 n)).toNat ≤ 15
    ∧ ((atEntry m c main_v14 : S3x4096.Idx → BitVec 32) (ValueIdx.ix2 1 n)).toNat ≤ 255
    ∧ ((atEntry m c main_v14 : S3x4096.Idx → BitVec 32) (ValueIdx.ix2 2 n)).toNat ≤ 255 := by
  rw [atEntry_table]
  exact clipTable_in_range _ n

/-- For centres inside the map the clip is the identity: the table is the transposed centre array. -/
theorem table_of_inMap (c : Dev nD) (h : Cert.Roi.InMap (m ((c : Thread nD τ).loc main_arg1) : S4096x3.Idx → BitVec 32)) :
    (atEntry m c main_v14 : S3x4096.Idx → BitVec 32) = Cert.Roi.tableOf (m ((c : Thread nD τ).loc main_arg1)) := by
  rw [atEntry_table]
  exact clipTable_of_inMap _ h

/-! ## The padded map -/

/-- The map padded by 15 rows and columns on each side and by 96 channels at the end, read at an index: the
    map at the index shifted back inside the band, the padding value outside it. -/
theorem pad_apply {α : Type} (p : S16x256x256x32.Idx → α) (v : S_.Idx → α) (q : S16x286x286x128.Idx) :
    pad S16x286x286x128 ![0, 15, 15, 0] ![0, 15, 15, 96] ![0, 0, 0, 0] p v
        pads_S16x256x256x32_S16x286x286x128_000_15150_15150_0960 h_S_ q
      = Cert.Roi.padded (v ValueIdx.ix0) p q := by
  obtain ⟨b, y, x, ch, rfl⟩ : ∃ (b : Fin 16) (y : Fin 286) (x : Fin 286) (ch : Fin 128), q = ix4 b y x ch :=
    ⟨q 0, q 1, q 2, q 3, eq_ix4 q⟩
  have hb := b.isLt
  have hy := y.isLt
  have hx := x.isLt
  have hch := ch.isLt
  unfold Cert.Roi.padded
  show _ = if 15 ≤ y.val ∧ y.val < 271 ∧ 15 ≤ x.val ∧ x.val < 271 ∧ ch.val < 32
    then p (Cert.Roi.poseIdx b.val (y.val - 15) (x.val - 15) ch.val) else v ValueIdx.ix0
  by_cases hin : 15 ≤ y.val ∧ y.val < 271 ∧ 15 ≤ x.val ∧ x.val < 271 ∧ ch.val < 32
  · rw [if_pos hin]
    refine pad_apply_of_inside _ _ _ p v _ h_S_ (ix4 b y x ch) (Cert.Roi.poseIdx b.val (y.val - 15) (x.val - 15) ch.val) ?_
    intro a
    match a with
    | ⟨0, _⟩ => show b.val = 0 + (b.val % 16) * (0 + 1); omega
    | ⟨1, _⟩ => show y.val = 15 + ((y.val - 15) % 256) * (0 + 1); omega
    | ⟨2, _⟩ => show x.val = 15 + ((x.val - 15) % 256) * (0 + 1); omega
    | ⟨3, _⟩ => show ch.val = 0 + (ch.val % 32) * (0 + 1); omega
  · rw [if_neg hin]
    have hv : v (Shape.Idx.first h_S_) = v ValueIdx.ix0 := congrArg v (funext fun a => a.elim0)
    by_cases hy' : 15 ≤ y.val ∧ y.val < 271
    · by_cases hx' : 15 ≤ x.val ∧ x.val < 271
      · -- the channel lies past the map's 32
        refine (pad_apply_of_not_inside _ _ _ p v _ h_S_ (ix4 b y x ch) (3 : Fin 4) ?_).trans hv
        show ¬(0 ≤ ch.val ∧ (ch.val - 0) % (0 + 1) = 0 ∧ (ch.val - 0) / (0 + 1) < 32)
        omega
      · refine (pad_apply_of_not_inside _ _ _ p v _ h_S_ (ix4 b y x ch) (2 : Fin 4) ?_).trans hv
        show ¬(15 ≤ x.val ∧ (x.val - 15) % (0 + 1) = 0 ∧ (x.val - 15) / (0 + 1) < 256)
        omega
    · refine (pad_apply_of_not_inside _ _ _ p v _ h_S_ (ix4 b y x ch) (1 : Fin 4) ?_).trans hv
      show ¬(15 ≤ y.val ∧ (y.val - 15) % (0 + 1) = 0 ∧ (y.val - 15) / (0 + 1) < 256)
      omega

/-- The padded map at the launch, over the extended reals: the padding value is the real 0. -/
theorem padded_at_entry (m : (ℓ : Loc nD τ sig) → Buf (Elt Ideal) ℓ) (c : Dev nD) :
    (atEntry m c main_v13 : S16x286x286x128.Idx → EReal) = Cert.Roi.padded (0 : EReal) (m ((c : Thread nD τ).loc main_arg0)) := by
  have e : (atEntry m c main_v13 : S16x286x286x128.Idx → EReal)
      = pad S16x286x286x128 ![0, 15, 15, 0] ![0, 15, 15, 96] ![0, 0, 0, 0]
          (m ((c : Thread nD τ).loc main_arg0) : S16x256x256x32.Idx → EReal)
          (sitofp (F := Ideal) .f32 (constantI S_ 32 0#32))
          pads_S16x256x256x32_S16x286x286x128_000_15150_15150_0960 h_S_ := by
    dsimp only [atEntry]
    simp only [hostOps0, hostOps0_1, hostOps0_2, hostOps0_3, hostOps0_4, hostOps0_5, hostOps0_6, hostOps0_7, hostOps0_8,
      List.flatten_cons, List.flatten_nil, List.append_nil, List.cons_append, List.nil_append]
    after_results
    rfl
  rw [e]
  funext q
  rw [pad_apply]
  have hz : (sitofp (F := Ideal) .f32 (constantI S_ 32 0#32) : S_.Idx → EReal) ValueIdx.ix0 = 0 :=
    sitofp_zero (φ := .f32)
  rw [hz]

end Cert.KernelIdeal.Hand

end
-- ==== Proof.KI.Fit.lean ====
/-
  Every window the body copies lies inside the padded map, once the table's words are in range.

  The body reads three table words per copy, (w0, w1, w2) in rows 0, 1, 2 of the table at one column, and
  copies the window of the padded map [16, 286, 286, 128] with origin (w0, w1, w2, 0) and extent
  (1, 31, 31, 128).  With w0 ≤ 15 and w1, w2 ≤ 255 the window fits: 15 + 1 ≤ 16, 255 + 31 ≤ 286 twice, and
  0 + 128 ≤ 128.  A table word read through the whole table's view at a one-element box is the table's entry
  at the box's offsets.  The column the words of copy j at grid point i are read at is 16 i + j: with i < 256
  nothing wraps in 32 bits.
-/
import proofs.«429989_j27960237097553_3_alg».proof.Proof.KI.RunDefs
import Idealize.ShloMosaic.Lib.ValueIdx

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.Sem
open Cert.KernelIdeal Cert.KernelIdeal.Gen

variable {F : FTy → Type} [FloatOps F]

/-! ## A table word -/

/-- A word read through the whole table's view at the one-element box with offsets `off` is the table's
    entry at (off 0, off 1): the view of a whole buffer reads the contents themselves, and the box's one
    element sits at its offsets. -/
theorem word_eq (c : Dev nD) (xt : TbBuf (F := F) c) (off : Fin 2 → Nat)
    (hinb : ∀ a, off a + S1x1.size a ≤ S3x4096.size a) (h1 : 0 < S1x1.numel) (r : Fin 3) (n : Fin 4096)
    (h0 : off 0 = r.val) (hn : off 1 = n.val) :
    tbM.view.readAt (Elt F) (Rect.unit (s := S3x4096) off S1x1.size hinb).toLoadRect xt (Shape.Idx.first h1)
      = (xt : S3x4096.Idx → BitVec 32) (ValueIdx.ix2 r n) := by
  show (xt : S3x4096.Idx → BitVec 32)
      ((Rect.unit (s := S3x4096) off S1x1.size hinb).toLoadRect.idx (Shape.Idx.first h1)) = _
  refine congrArg (xt : S3x4096.Idx → BitVec 32) (funext fun a => Fin.ext ?_)
  match a with
  | ⟨0, _⟩ => show off 0 + 1 * 0 = r.val; omega
  | ⟨1, _⟩ => show off 1 + 1 * 0 = n.val; omega

/-- The table's words are in range: row 0 at most 15, rows 1 and 2 at most 255. -/
abbrev InRange (c : Dev nD) (xt : TbBuf (F := F) c) : Prop :=
  ∀ n : Fin 4096, ((xt : S3x4096.Idx → BitVec 32) (ValueIdx.ix2 0 n)).toNat ≤ 15
    ∧ ((xt : S3x4096.Idx → BitVec 32) (ValueIdx.ix2 1 n)).toNat ≤ 255
    ∧ ((xt : S3x4096.Idx → BitVec 32) (ValueIdx.ix2 2 n)).toNat ≤ 255

/-- The column a one-element box inside the table sits at. -/
def boxCol (off : Fin 2 → Nat) (hinb : ∀ a, off a + S1x1.size a ≤ S3x4096.size a) : Fin 4096 :=
  ⟨off 1, by have := hinb 1; show off 1 < 4096; have e : off 1 + 1 ≤ 4096 := this; omega⟩

/-- A word of row 0 of an in-range table is at most 15. -/
theorem word_le0 (c : Dev nD) (xt : TbBuf (F := F) c) (h : InRange c xt) (off : Fin 2 → Nat)
    (hinb : ∀ a, off a + S1x1.size a ≤ S3x4096.size a) (h1 : 0 < S1x1.numel) (h0 : off 0 = 0) :
    (tbM.view.readAt (Elt F) (Rect.unit (s := S3x4096) off S1x1.size hinb).toLoadRect xt (Shape.Idx.first h1) : BitVec 32).toNat ≤ 15 := by
  rw [word_eq c xt off hinb h1 0 (boxCol off hinb) h0 rfl]
  exact (h _).1

/-- A word of row 1 of an in-range table is at most 255. -/
theorem word_le1 (c : Dev nD) (xt : TbBuf (F := F) c) (h : InRange c xt) (off : Fin 2 → Nat)
    (hinb : ∀ a, off a + S1x1.size a ≤ S3x4096.size a) (h1 : 0 < S1x1.numel) (h0 : off 0 = 1) :
    (tbM.view.readAt (Elt F) (Rect.unit (s := S3x4096) off S1x1.size hinb).toLoadRect xt (Shape.Idx.first h1) : BitVec 32).toNat ≤ 255 := by
  rw [word_eq c xt off hinb h1 1 (boxCol off hinb) h0 rfl]
  exact (h _).2.1

/-- A word of row 2 of an in-range table is at most 255. -/
theorem word_le2 (c : Dev nD) (xt : TbBuf (F := F) c) (h : InRange c xt) (off : Fin 2 → Nat)
    (hinb : ∀ a, off a + S1x1.size a ≤ S3x4096.size a) (h1 : 0 < S1x1.numel) (h0 : off 0 = 2) :
    (tbM.view.readAt (Elt F) (Rect.unit (s := S3x4096) off S1x1.size hinb).toLoadRect xt (Shape.Idx.first h1) : BitVec 32).toNat ≤ 255 := by
  rw [word_eq c xt off hinb h1 2 (boxCol off hinb) h0 rfl]
  exact (h _).2.2

/-! ## A window with an in-range origin fits -/

/-- The window with origin (a, b, c, 0) and extent (1, 31, 31, 128) lies inside [16, 286, 286, 128] when
    a ≤ 15 and b, c ≤ 255. -/
theorem fit_of_bounds (a b c : BitVec 32) (ha : a.toNat ≤ 15) (hb : b.toNat ≤ 255) (hc : c.toNat ≤ 255) :
    ∀ a' : Fin 4, (![a.toNat, b.toNat, c.toNat, 0] : Fin 4 → Nat) a' + S1x31x31x128.size a' ≤ S16x286x286x128.size a' := by
  intro a'
  match a' with
  | ⟨0, _⟩ => show a.toNat + 1 ≤ 16; omega
  | ⟨1, _⟩ => show b.toNat + 31 ≤ 286; omega
  | ⟨2, _⟩ => show c.toNat + 31 ≤ 286; omega
  | ⟨3, _⟩ => show 0 + 128 ≤ 128; omega

/-- With the table's words in range, all 32 side conditions of the body hold at every grid point: each is the
    fit of the window whose origin is the three words of one column. -/
theorem windowsFit_of_range (c : Dev nD) (i : grid0.Coords) (xt : TbBuf (F := F) c)
    (h : ∀ n : Fin 4096, ((xt : S3x4096.Idx → BitVec 32) (ValueIdx.ix2 0 n)).toNat ≤ 15 ∧ ((xt : S3x4096.Idx → BitVec 32) (ValueIdx.ix2 1 n)).toNat ≤ 255 ∧ ((xt : S3x4096.Idx → BitVec 32) (ValueIdx.ix2 2 n)).toNat ≤ 255) :
    WindowsFit c i xt := by
  unfold WindowsFit
  repeat' apply And.intro
  all_goals
    exact fit_of_bounds _ _ _ (word_le0 c xt h _ _ _ (by rfl)) (word_le1 c xt h _ _ _ (by rfl))
      (word_le2 c xt h _ _ _ (by rfl))

/-! ## The words the copies start from -/

/-- 16 x + j in 32-bit words, for x < 256 and j < 16: nothing wraps, and the result is below 4096. -/
theorem col_word (x j : Nat) (hx : x < 256) (hj : j < 16) :
    (Scalar.indexCast (Scalar.addi (Scalar.muli (BitVec.ofNat 32 x) 16#32) (BitVec.ofNat 32 j))).toNat
      = (Fin.ofNat 4096 (16 * x + j)).val := by
  show ((BitVec.ofNat 32 x) * 16#32 + BitVec.ofNat 32 j).toNat = (16 * x + j) % 4096
  rw [BitVec.toNat_add, BitVec.toNat_mul, BitVec.toNat_ofNat, BitVec.toNat_ofNat, BitVec.toNat_ofNat]
  omega

/-- The word copy `j` reads in row `r` where it starts is the table's entry (r, 16 i + j): its box has
    offsets (r, 16 i + j), the column computed in 32-bit words without wrapping. -/
theorem startWord_eq (c : Dev nD) (i : grid0.Coords) (xt : TbBuf (F := F) c) (j : Fin 16) (r : Fin 3) :
    startWord c i xt j r = (xt : S3x4096.Idx → BitVec 32) (ValueIdx.ix2 r (Fin.ofNat 4096 (16 * (i 0).val + j.val))) := by
  have hi : (i 0).val < 256 := (i 0).isLt
  fin_cases j <;> fin_cases r <;>
    exact word_eq c xt _ _ _ _ _ (by rfl) (by exact col_word (i 0).val _ hi (by decide))

end Cert.KernelIdeal.Hand

end
-- ==== Proof.KI.Claims.lean ====
/-
  The frame of the gather program: it runs to the end from any memory, faults nowhere, and leaves
  its two arguments as they were.  The only thing the launch needs of the input is that the copied
  windows fit the padded map, and that holds of every input: the table holds clipped centres.
-/
import proofs.«429989_j27960237097553_3_alg».proof.Proof.KI.Frame
import proofs.«429989_j27960237097553_3_alg».proof.Proof.KI.EntryValues
import proofs.«429989_j27960237097553_3_alg».proof.Proof.KI.Fit

noncomputable section

namespace Cert.KernelIdeal.Hand

open Idealize.ShloMosaic Idealize.ShloMosaic.TcCoe
open Idealize.SL Idealize.SL.Sem
open Cert.KernelIdeal Cert.KernelIdeal.Gen

variable {F : FTy → Type} [FloatOps F]

variable (m : (ℓ : Loc nD τ sig) → Buf (Elt F) ℓ) (ρ : Dev nD → PrngReg)

/-- Whatever the centres are, every window the body copies lies inside the padded map: the table's batch words are
    at most 15 and its row and column words at most 255. -/
theorem fitAll : FitAll m := fun c t =>
  windowsFit_of_range c (grid0.coords t) (tbl m 0) (fun n => table_in_range m 0 n)

/-- The program runs, and its arguments end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
      ⟨((h c).2 main_arg0 (Pipeline.mem_restRefs_of main_arg0 (by decide) (show ∀ w : Fin 1, (spec0 w).arr.view.ref ≠ main_arg0 from by decide))).trans (atEntry_arg0 m c),
       ((h c).2 main_arg1 (Pipeline.mem_restRefs_of main_arg1 (by decide) (show ∀ w : Fin 1, (spec0 w).arr.view.ref ≠ main_arg1 from by decide))).trans (atEntry_arg1 m c)⟩)
    (run_main m ρ (fitAll m))

end Cert.KernelIdeal.Hand

end
-- ==== Proof.RoiMath.lean ====
/-
  Index arithmetic of the ROI crop: a plain window of the zero-padded map, read at the centres
  themselves, is the crop stated on the map, whenever every centre lies inside the map.

  For a centre (b, y, x) with b < 16 and y, x < 256 and a window offset (i, j) with i, j < 31 the
  padded position (b, y + i, x + j, ch) is in range (y + i < 286, x + j < 286, ch < 32 < 128), so
  reducing it into the padded shape changes nothing; the band test of the padded map at that
  position is the crop's own test 15 ≤ y + i < 271 and 15 ≤ x + j < 271, and inside the band both
  read the map at (b, y + i - 15, x + j - 15, ch).
-/
import proofs.«429989_j27960237097553_3_alg».proof.Proof.RoiSpec

noncomputable section

namespace Cert.Roi

open Idealize.ShloMosaic Idealize.ShloMosaic.ValueIdx

/-- The transposed table of the centres, read at row `k` and ROI `n`, is the centre array at
    ROI `n` and column `k`. -/
theorem tabAt_tableOf (cn : SCen.Idx → BitVec 32) (k : Fin 3) (n : ℕ) :
    tabAt (tableOf cn) k n = cenAt cn n k := rfl

/-- The zero-padded map at a position given by four naturals in range (batch below 16, row and
    column below 286, channel below 32): the map inside the band, `z` outside it. -/
theorem padded_padIdx {α : Type} (z : α) (p : SPose.Idx → α) (b Y X ch : ℕ)
    (hb : b < 16) (hY : Y < 286) (hX : X < 286) (hch : ch < 32) :
    padded z p (padIdx b Y X ch) =
      if 15 ≤ Y ∧ Y < 271 ∧ 15 ≤ X ∧ X < 271 then p (poseIdx b (Y - 15) (X - 15) ch) else z := by
  have h0 : ((padIdx b Y X ch) 0).val = b := Nat.mod_eq_of_lt hb
  have h1 : ((padIdx b Y X ch) 1).val = Y := Nat.mod_eq_of_lt hY
  have h2 : ((padIdx b Y X ch) 2).val = X := Nat.mod_eq_of_lt hX
  have h3 : ((padIdx b Y X ch) 3).val = ch := Nat.mod_eq_of_lt (by omega)
  unfold padded
  simp only [h0, h1, h2, h3, hch, and_true]

/-- The window of the padded map at the centres themselves is the crop of the map. -/
theorem windowRead_padded_eq_crop {α : Type} (z : α) (p : SPose.Idx → α) (cn : SCen.Idx → BitVec 32)
    (h : InMap cn) : windowRead (padded z p) (tableOf cn) = crop z p cn := by
  funext o
  have hn : (o 0).val < 4096 := (o 0).isLt
  have hi : (o 1).val < 31 := (o 1).isLt
  have hj : (o 2).val < 31 := (o 2).isLt
  have hc : (o 3).val < 32 := (o 3).isLt
  have hcen : cenAt cn (o 0).val 0 < 16 ∧ cenAt cn (o 0).val 1 < 256 ∧ cenAt cn (o 0).val 2 < 256 :=
    h ⟨(o 0).val, hn⟩
  obtain ⟨hb, hy, hx⟩ := hcen
  show padded z p (padIdx (cenAt cn (o 0).val 0) (cenAt cn (o 0).val 1 + (o 1).val)
      (cenAt cn (o 0).val 2 + (o 2).val) (o 3).val) = _
  rw [padded_padIdx z p _ _ _ _ hb (by omega) (by omega) hc]
  rfl

end Cert.Roi

end
-- ==== Proof.KI.Value.lean ====
/-
  What the gather program computes, and that it is the crop.

  Point t writes block t of the output, and row j of that block is the window of ROI 16 t + j: the
  padded map read at (table[0, n], table[1, n] + i, table[2, n] + k, ch).  The 256 blocks tile the
  output, so the whole output array is that one function of the padded map and the table
  (`outFn`).  At the exact-real reading the padded map is the map with zeros around it and, for
  centres inside the map, the table is the transposed centre array: the output is then the crop.
-/
import proofs.«429989_j27960237097553_3_alg».proof.Proof.KI.Claims
import proofs.«429989_j27960237097553_3_alg».proof.Proof.KI.Pieces
import proofs.«429989_j27960237097553_3_alg».proof.Proof.RoiMath
import Idealize.ShloMosaic.Lib.Pipeline.Value

set_option maxRecDepth 16384

noncomputable section

namespace Cert.KernelIdeal.Hand

open Idealize.ShloMosaic Idealize.ShloMosaic.TcCoe
open Idealize.SL Idealize.SL.Sem
open Idealize.ShloMosaic.Pipeline (Dat Cfg Window BodyObligation cellOf)
open Cert.KernelIdeal Cert.KernelIdeal.Gen

variable {F : FTy → Type} [FloatOps F]

variable (m : (ℓ : Loc nD τ sig) → Buf (Elt F) ℓ) (ρ : Dev nD → PrngReg)

/-! ## The output array after the run -/

/-- The array the run leaves: entry (n, i, j, ch) is the padded map at (table[0, n], table[1, n] + i, table[2, n] + j, ch). -/
def outFn (c : Dev nD) : S4096x31x31x32.Idx → Elt F .f32 :=
  Cert.Roi.windowRead (atEntry m c main_v13 : S16x286x286x128.Idx → Elt F .f32) (atEntry m c main_v14 : S3x4096.Idx → BitVec 32)

/-- The one grid axis counts the points; block t of the output starts at row 16 t; every point writes its block back. -/
theorem coords_val : ∀ t : Fin grid0.N, ((grid0.coords t) 0).val = t.val := by decide +kernel
theorem blockIndex : ∀ t : Fin grid0.N, cc0_transform_1 (grid0.coords t) = ![t.val, 0, 0, 0] := by decide +kernel
theorem flush_all : ∀ t : Fin grid0.N, Pipeline.Window.flushOf grid0 true cc0_transform_1 t = true := by decide +kernel

/-- Row j of block t is row 16 t + j of that array. -/
theorem blockAt_apply (hF : FitAll m) (c : Dev nD) (t : Fin (cfgM m).N) (y : S16x31x31x32.Idx) (h : 16 * t.val + (y 0).val < 4096) :
    blockAt m hF c t y = outFn m c (ValueIdx.ix4 ⟨16 * t.val + (y 0).val, h⟩ (y 1) (y 2) (y 3)) := by
  obtain rfl : c = 0 := Subsingleton.elim _ _
  have ht : ((grid0.coords t) 0).val = t.val := coords_val t
  have e (r : Fin 3) : startWord (0 : Dev nD) (grid0.coords t) (tbl m 0) (y 0) r
      = (atEntry m 0 main_v14 : S3x4096.Idx → BitVec 32) (ValueIdx.ix2 r (Fin.ofNat 4096 (16 * t.val + (y 0).val))) :=
    (startWord_eq (0 : Dev nD) (grid0.coords t) (tbl m 0) (y 0) r).trans (by rw [ht]; rfl)
  show slabs (0 : Dev nD) (grid0.coords t) (tbl m 0) (atEntry m 0 main_v13) (hF 0 t) (y 0) (ValueIdx.ix3 (y 1) (y 2) (Fin.castLE (by decide) (y 3))) = _
  refine (slab_read (0 : Dev nD) (grid0.coords t) (tbl m 0) (atEntry m 0 main_v13) (hF 0 t) (y 0) _).trans ?_
  refine congrArg (atEntry m 0 main_v13 : S16x286x286x128.Idx → Elt F .f32) ?_
  unfold Cert.Roi.padIdx
  refine congr (congr (congr (congrArg ValueIdx.ix4 ?_) ?_) ?_) rfl
  · exact congrArg (fun w : BitVec 32 => Fin.ofNat 16 w.toNat) (e 0)
  · exact congrArg (fun w : BitVec 32 => Fin.ofNat 286 (w.toNat + (y 1).val)) (e 1)
  · exact congrArg (fun w : BitVec 32 => Fin.ofNat 286 (w.toNat + (y 2).val)) (e 2)

/-- The position in the output array of entry `j` of point t's block. -/
theorem block_emb (t : Fin (cfgM m).N) (j : S16x31x31x32.Idx) (h : 16 * t.val + (j 0).val < 4096) :
    (((cfgM m).win 0).blk t).view.emb j = ValueIdx.ix4 ⟨16 * t.val + (j 0).val, h⟩ (j 1) (j 2) (j 3) := by
  have hb := blockIndex t
  funext a; apply Fin.ext
  match a with
  | ⟨0, _⟩ => show cc0_transform_1 (grid0.coords t) 0 * 16 + 1 * (j 0).val = 16 * t.val + (j 0).val; rw [hb]; show t.val * 16 + 1 * (j 0).val = _; omega
  | ⟨1, _⟩ => show cc0_transform_1 (grid0.coords t) 1 * 31 + 1 * (j 1).val = (j 1).val; rw [hb]; show 0 * 31 + 1 * (j 1).val = _; omega
  | ⟨2, _⟩ => show cc0_transform_1 (grid0.coords t) 2 * 31 + 1 * (j 2).val = (j 2).val; rw [hb]; show 0 * 31 + 1 * (j 2).val = _; omega
  | ⟨3, _⟩ => show cc0_transform_1 (grid0.coords t) 3 * 32 + 1 * (j 3).val = (j 3).val; rw [hb]; show 0 * 32 + 1 * (j 3).val = _; omega

/-- What point t writes back is block t of that array. -/
theorem flushed_eq (hF : FitAll m) (c : Dev nD) (t : Fin (cfgM m).N) :
    (dats m hF 0 c).flushed 0 t = (((cfgM m).win 0).blk t).view.read (Elt F) (outFn m c) := by
  show ((cfgM m).win 0).cut (grid0.coords t) ((dats m hF 0 c).after 0 t) = _
  rw [dats_after]
  refine funext fun (j : S16x31x31x32.Idx) => ?_
  have hj0 : (j 0).val < 16 := (j 0).isLt
  have htl : t.val < 256 := t.isLt
  show blockAt m hF c t j = outFn m c ((((cfgM m).win 0).blk t).view.emb j)
  exact (blockAt_apply m hF c t j (by omega)).trans (congrArg (outFn m c) (block_emb m t j (by omega)).symm)

/-- Row n of the output lies in the block of point n / 16, which is written back. -/
theorem covered (i : S4096x31x31x32.Idx) :
    ∃ t : Fin (cfgM m).N, ((cfgM m).win 0).flush t = true ∧ i ∈ (((cfgM m).win 0).blk t).view.set := by
  have hi0 : (i 0).val < 4096 := (i 0).isLt
  have hq : (i 0).val / 16 < (cfgM m).N := by show (i 0).val / 16 < 256; omega
  refine ⟨⟨(i 0).val / 16, hq⟩, flush_all _, ?_⟩
  have hx : (((cfgM m).win 0).blk ⟨(i 0).val / 16, hq⟩).view.emb
      (ValueIdx.ix4 (⟨(i 0).val % 16, Nat.mod_lt _ (by decide)⟩ : Fin 16) (i 1) (i 2) (i 3) : S16x31x31x32.Idx) = i := by
    rw [block_emb m ⟨(i 0).val / 16, hq⟩ _ (by show 16 * ((i 0).val / 16) + (i 0).val % 16 < 4096; omega)]
    funext a; apply Fin.ext
    match a with
    | ⟨0, _⟩ => show 16 * ((i 0).val / 16) + (i 0).val % 16 = (i 0).val; omega
    | ⟨1, _⟩ => rfl
    | ⟨2, _⟩ => rfl
    | ⟨3, _⟩ => rfl
  have hmem := View.emb_mem_set (((cfgM m).win 0).blk ⟨(i 0).val / 16, hq⟩).view
      (ValueIdx.ix4 (⟨(i 0).val % 16, Nat.mod_lt _ (by decide)⟩ : Fin 16) (i 1) (i 2) (i 3) : S16x31x31x32.Idx)
  rw [hx] at hmem
  exact hmem

/-- The output array after the run. -/
theorem final (hF : FitAll m) (c : Dev nD) : (dats m hF 0 c).arrAt 0 (cfgM m).N = outFn m c :=
  (dats m hF 0 c).arrAt_eq_of_cover 0 (outFn m c) (fun t _ => flushed_eq m hF c t) (covered m)

/-- The run re-posted: the output array at `outFn`, the arguments unchanged. -/
theorem value_run : θ_run defs (onTc (τ := τ) (main (F := F))) ⟨m, fun _ => 0, ρ⟩ (fun r => ∀ c : Dev nD,
      r.2.mem ((c.tc : Thread nD τ).loc main_v15) = outFn m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
      ⟨((h c).1 0).trans (final m (fitAll m) c),
       ((h c).2 main_arg0 (Pipeline.mem_restRefs_of main_arg0 (by decide) (show ∀ w : Fin 1, (spec0 w).arr.view.ref ≠ main_arg0 from by decide))).trans (atEntry_arg0 m c),
       ((h c).2 main_arg1 (Pipeline.mem_restRefs_of main_arg1 (by decide) (show ∀ w : Fin 1, (spec0 w).arr.view.ref ≠ main_arg1 from by decide))).trans (atEntry_arg1 m c)⟩)
    (run_main m ρ (fitAll m))

/-- Over the extended reals, for centres inside the map, the output array is the crop of the map. -/
theorem outFn_eq_crop (m : (ℓ : Loc nD τ sig) → Buf (Elt Ideal) ℓ) (c : Dev nD)
    (h : Cert.Roi.InMap (m ((c.tc : Thread nD τ).loc main_arg1) : S4096x3.Idx → BitVec 32)) :
    outFn m c = Cert.Roi.crop (0 : EReal) (m ((c.tc : Thread nD τ).loc main_arg0)) (m ((c.tc : Thread nD τ).loc main_arg1)) := by
  unfold outFn
  rw [padded_at_entry m c, table_of_inMap m c h]
  exact Cert.Roi.windowRead_padded_eq_crop (0 : EReal) _ _ h

end Cert.KernelIdeal.Hand

end
-- ==== Proof.PreDecode.lean ====
/-
  The printed precondition, read back as the arithmetic fact the crop needs: every centre lies
  inside the map.

  The precondition is a conjunction of four all-reductions: the map is finite (not used here),
  every entry of the centre array is at least 0 (signed), every entry is below 256 (signed), and
  column 0 (a slice of the array, reshaped to a vector) is below 16 (signed).  A conjunction of
  one-bit words that is 1 has every conjunct 1; an all-reduction by "and" into one result that is
  1 has a 1 at every operand index; a signed word that is at least 0 has its top bit clear, so it
  reads the same signed and unsigned, and a signed bound K on it is the bound K on its value.
  The float part of the precondition plays no role, so the statement holds at every float
  instance.
-/
import proofs.«429989_j27960237097553_3_alg».proof.Pre_finite_inputs
import proofs.«429989_j27960237097553_3_alg».proof.Proof.RoiSpec
import Idealize.ShloMosaic.Lib.ReduceAll
import Idealize.ShloMosaic.Lib.StableHlo.Predicate
import Idealize.ShloMosaic.Lib.Pipeline.Value
import Idealize.ShloMosaic.Lib.ValueIdx

noncomputable section

namespace Cert.Roi

open Idealize.ShloMosaic Idealize.ShloMosaic.ValueIdx Cert.Pre_finite_inputs

/-- A 32-bit word that tests at least 0 and below `K` as a signed number (`K` below 2³¹) has a
    value below `K`: nonnegative means the top bit is clear, so the signed and the unsigned
    readings agree. -/
theorem toNat_lt_of_sge_slt (w : BitVec 32) (K : ℕ) (hK : K < 2 ^ 31)
    (h0 : IntOp.cmpi .sge w 0#32 = 1#1) (h1 : IntOp.cmpi .slt w (BitVec.ofNat 32 K) = 1#1) :
    w.toNat < K := by
  rw [IntOp.cmpi_sge, show (0#32 : BitVec 32).toInt = 0 from by decide] at h0
  rw [IntOp.cmpi_slt, StableHlo.Predicate.toInt_ofNat_small K hK] at h1
  have hlt : 2 * w.toNat < 2 ^ 32 := BitVec.toInt_pos_iff.1 h0
  rw [BitVec.toInt_eq_toNat_of_lt hlt] at h1
  omega

/-- Column 0 of a [4096, 3] array, cut out as a [4096, 1] slice at offset (0, 0) and reshaped to
    a vector, reads at `m` the array at (m, 0): the slice adds the zero offsets, and the reshape
    keeps the row-major position m · 1 + 0 = m. -/
theorem column0_read {α : Type} (v : S4096x3.Idx → α) (hs : S4096x3.Slices ![0, 0] S4096x1)
    (hc : S4096x1.ShapeCasts S4096) (m : Fin 4096) :
    shapeCast S4096 (extractStridedSlice S4096x1 ![0, 0] v hs) hc (ix1 m) = v (ix2 m (0 : Fin 3)) := by
  rw [shapeCast_apply _ hc (ix1 m) (ix2 m (0 : Fin 1))
    (by rw [Shape.rowMajor_val_two, Shape.rowMajor_val_one]; show m.val * 1 + 0 = m.val; omega)]
  refine extractStridedSlice_apply _ v hs (ix2 m (0 : Fin 1)) (ix2 m (0 : Fin 3)) (fun a => ?_)
  match a with
  | ⟨0, _⟩ => show m.val = 0 + m.val; omega
  | ⟨1, _⟩ => rfl

/-- The three integer conjuncts of the precondition, element by element: every entry of the
    centre array is at least 0, every entry is below 256, and every entry of column 0 is below 16
    (all signed). -/
theorem pre_conjuncts [Facts] {F : FTy → Type} [FloatOps F]
    (x : FVec F S16x256x256x32 .f32) (cn : IVec S4096x3 32)
    (h : fn (F := F) x cn = fun _ => 1#1) :
    (∀ i : S4096x3.Idx, IntOp.cmpi .sge (cn i) 0#32 = 1#1) ∧
    (∀ i : S4096x3.Idx, IntOp.cmpi .slt (cn i) 256#32 = 1#1) ∧
    (∀ m : Fin 4096, IntOp.cmpi .slt (cn (ix2 m (0 : Fin 3))) 16#32 = 1#1) := by
  -- the scalar shape has one index
  haveI : Subsingleton S_.Idx := ⟨fun a b => funext fun d => d.elim0⟩
  have e := congrFun h ix0
  dsimp only [fn, fn_part1] at e
  -- ((finite ∧ all ≥ 0) ∧ all < 256) ∧ column 0 < 16
  obtain ⟨e1, e4⟩ := IntOp.andi_eq_one.1 e
  obtain ⟨e2, e3⟩ := IntOp.andi_eq_one.1 e1
  obtain ⟨-, e2'⟩ := IntOp.andi_eq_one.1 e2
  refine ⟨fun i => Host.reduce_andi_all _ _ _ _ _ e2' i, fun i => Host.reduce_andi_all _ _ _ _ _ e3 i,
    fun m => ?_⟩
  have e5 := Host.reduce_andi_all _ _ _ _ _ e4 (ix1 m)
  -- the comparison at m compares column 0's entry with the broadcast constant 16
  have e6 : IntOp.cmpi .slt (shapeCast S4096 (extractStridedSlice S4096x1 ![0, 0] cn
      Facts.slices_S4096x3_S4096x1_0_0) Facts.shapeCasts_S4096x1_S4096 (ix1 m)) 16#32 = 1#1 := e5
  rw [column0_read] at e6
  exact e6

/-- Under the precondition the three entries of centre `n`, read unsigned, are below 16, 256
    and 256. -/
theorem words_of_pre [Facts] {F : FTy → Type} [FloatOps F]
    (x : FVec F S16x256x256x32 .f32) (cn : IVec S4096x3 32)
    (h : fn (F := F) x cn = fun _ => 1#1) (n : Fin 4096) :
    (cn (ix2 n (0 : Fin 3))).toNat < 16 ∧ (cn (ix2 n (1 : Fin 3))).toNat < 256 ∧
      (cn (ix2 n (2 : Fin 3))).toNat < 256 := by
  obtain ⟨hge, hlt, hb⟩ := pre_conjuncts x cn h
  exact ⟨toNat_lt_of_sge_slt _ 16 (by norm_num) (hge _) (hb n),
    toNat_lt_of_sge_slt _ 256 (by norm_num) (hge _) (hlt _),
    toNat_lt_of_sge_slt _ 256 (by norm_num) (hge _) (hlt _)⟩

/-- Under the precondition every centre lies inside the map. -/
theorem inMap_of_pre [Cert.Pre_finite_inputs.Facts] {F : FTy → Type} [FloatOps F]
    (x : FVec F Cert.Pre_finite_inputs.S16x256x256x32 .f32) (cn : IVec Cert.Pre_finite_inputs.S4096x3 32)
    (h : Cert.Pre_finite_inputs.fn (F := F) x cn = fun _ => 1#1) : Cert.Roi.InMap cn := by
  intro n
  -- reducing n.val into [0, 4096) gives n back
  have e : ∀ k : Fin 3, cenAt cn n.val k = (cn (ix2 n k)).toNat := fun k => by
    unfold cenAt; rw [Fin.ofNat_val_eq_self]
  rw [e 0, e 1, e 2]
  exact words_of_pre x cn h n

end Cert.Roi

end
-- ==== Proof.RefValueP.lean ====
/-
  The reference's value, entry by entry.

  For a centre (b, y, x) inside the map, window entry (i, j) of the reference is the map at
  (b, y + i - 15, x + j - 15) when that position lies inside the map and zero otherwise. The row index
  y + (i - 15) is computed on 32-bit words; with 0 ≤ y < 256 and 0 ≤ i < 31 its signed value is y + i - 15, between
  -15 and 270, so nothing wraps. The mask (row ≥ 0) ∧ (row < 256) ∧ (col ≥ 0) ∧ (col < 256) is set exactly when
  15 ≤ y + i < 271 and 15 ≤ x + j < 271. Where it is set, the clip to [0, 255] is the identity, so is the wrap of a
  negative index (the index is not negative) and so is the gather's own clamp of its start index, and the gather reads
  the map at (b, y + i - 15, x + j - 15, ch). Where it is clear the select yields the zero constant.
-/
import proofs.«429989_j27960237097553_3_alg».proof.Proof.RefReadP
import proofs.«429989_j27960237097553_3_alg».proof.Proof.RoiSpec
import Idealize.ShloMosaic.Lib.ValueIdx
import Idealize.ShloMosaic.Lib.Pipeline.Value
import Idealize.ShloMosaic.PureOps.Ideal.Laws

noncomputable section

namespace Cert.ReferenceIdeal.RefValueP

open Cert.ReferenceIdeal Cert.ReferenceIdeal.Gen Cert.ReferenceIdeal.ReadP Idealize.ShloMosaic Idealize.ShloMosaic.ValueIdx

/-! ## Words -/

/-- The signed value of a centre coordinate below 256 moved by a window offset `i - 15`, `i` below 31: no wrap. -/
theorem toInt_shift (w : BitVec 32) (i : ℕ) (hw : w.toNat < 256) (hi : i < 31) :
    (IntOp.addi w (IntOp.subi (BitVec.ofNat 32 i) 15#32)).toInt = (w.toNat : ℤ) + i - 15 := by
  unfold IntOp.addi IntOp.subi
  rw [BitVec.toInt_eq_toNat_cond]
  simp only [BitVec.toNat_add, BitVec.toNat_sub, BitVec.toNat_ofNat]
  split <;> omega

theorem sge_zero (r : BitVec 32) : IntOp.cmpi .sge r 0#32 = BitVec.ofBool (decide (0 ≤ r.toInt)) := by
  unfold IntOp.cmpi
  simp only [BitVec.sle]
  rfl

theorem slt_zero (r : BitVec 32) : IntOp.cmpi .slt r 0#32 = BitVec.ofBool (decide (r.toInt < 0)) := by
  unfold IntOp.cmpi
  simp only [BitVec.slt]
  rfl

theorem slt_256 (r : BitVec 32) : IntOp.cmpi .slt r 256#32 = BitVec.ofBool (decide (r.toInt < 256)) := by
  unfold IntOp.cmpi
  simp only [BitVec.slt]
  rfl

/-- The in-range bit of a moved coordinate: set exactly when `15 ≤ y + i < 271`. -/
theorem band (w : BitVec 32) (i : ℕ) (hw : w.toNat < 256) (hi : i < 31) :
    IntOp.andi (IntOp.cmpi .sge (IntOp.addi w (IntOp.subi (BitVec.ofNat 32 i) 15#32)) 0#32)
        (IntOp.cmpi .slt (IntOp.addi w (IntOp.subi (BitVec.ofNat 32 i) 15#32)) 256#32)
      = BitVec.ofBool (decide (15 ≤ w.toNat + i ∧ w.toNat + i < 271)) := by
  rw [sge_zero, slt_256, toInt_shift w i hw hi]
  have e1 : decide (0 ≤ (w.toNat : ℤ) + i - 15) = decide (15 ≤ w.toNat + i) := decide_eq_decide.2 (by omega)
  have e2 : decide ((w.toNat : ℤ) + i - 15 < 256) = decide (w.toNat + i < 271) := decide_eq_decide.2 (by omega)
  rw [e1, e2, Bool.decide_and]
  unfold IntOp.andi
  cases decide (15 ≤ w.toNat + i) <;> cases decide (w.toNat + i < 271) <;> rfl

/-- A word whose signed value lies in `[0, 255]` is its own clip to that range. -/
theorem clip_id (r : BitVec 32) (h0 : 0 ≤ r.toInt) (h1 : r.toInt < 256) :
    IntOp.minsi 255#32 (IntOp.maxsi 0#32 r) = r := by
  have z : (0#32 : BitVec 32).toInt = 0 := rfl
  have t : (255#32 : BitVec 32).toInt = 255 := rfl
  have hmax : IntOp.maxsi 0#32 r = r := by
    unfold IntOp.maxsi
    rw [if_neg]
    simp only [BitVec.slt, z, decide_eq_true_eq]; omega
  rw [hmax]
  unfold IntOp.minsi
  rw [if_neg]
  simp only [BitVec.slt, t, decide_eq_true_eq]; omega

/-- The wrap of a negative index (the extent added to it) leaves a non-negative word alone. -/
theorem wrap_id {α : Type} (c : BitVec 32) (a b : α) (h0 : 0 ≤ c.toInt) :
    Scalar.select (IntOp.cmpi .slt c 0#32) a b = b := by
  rw [slt_zero, decide_eq_false (by omega)]
  exact select_zero a b

/-- A word below 2³¹ has its value as its signed value. -/
theorem toInt_small (w : BitVec 32) (hw : w.toNat < 2 ^ 31) : w.toInt = w.toNat := by
  rw [BitVec.toInt_eq_toNat_cond]; split <;> omega

/-! ## The concatenation of three unit columns, read at an index -/

theorem concat3_0 {α : Type} (u0 u1 u2 : S4096x31x31x1.Idx → α) (n : Fin 4096) (i j : Fin 31) :
    concatenate S4096x31x31x3 3 [⟨S4096x31x31x1, u0⟩, ⟨S4096x31x31x1, u1⟩, ⟨S4096x31x31x1, u2⟩]
        concatenates_S4096x31x31x1_S4096x31x31x1_S4096x31x31x1_S4096x31x31x3_d3 (ix4 n i j (0 : Fin 3))
      = u0 (ix4 n i j (0 : Fin 1)) :=
  concatenate_apply_piece (t := S4096x31x31x3) 3 [⟨S4096x31x31x1, u0⟩, ⟨S4096x31x31x1, u1⟩, ⟨S4096x31x31x1, u2⟩]
    concatenates_S4096x31x31x1_S4096x31x31x1_S4096x31x31x1_S4096x31x31x3_d3 (ix4 n i j (0 : Fin 3)) 0 (by simp) S4096x31x31x1 u0 rfl rfl 0 rfl (ix4 n i j (0 : Fin 1))
    (fun b hb => match b with
      | ⟨0, _⟩ => rfl
      | ⟨1, _⟩ => rfl
      | ⟨2, _⟩ => rfl
      | ⟨3, _⟩ => absurd rfl hb) rfl

theorem concat3_1 {α : Type} (u0 u1 u2 : S4096x31x31x1.Idx → α) (n : Fin 4096) (i j : Fin 31) :
    concatenate S4096x31x31x3 3 [⟨S4096x31x31x1, u0⟩, ⟨S4096x31x31x1, u1⟩, ⟨S4096x31x31x1, u2⟩]
        concatenates_S4096x31x31x1_S4096x31x31x1_S4096x31x31x1_S4096x31x31x3_d3 (ix4 n i j (1 : Fin 3))
      = u1 (ix4 n i j (0 : Fin 1)) :=
  concatenate_apply_piece (t := S4096x31x31x3) 3 [⟨S4096x31x31x1, u0⟩, ⟨S4096x31x31x1, u1⟩, ⟨S4096x31x31x1, u2⟩]
    concatenates_S4096x31x31x1_S4096x31x31x1_S4096x31x31x1_S4096x31x31x3_d3 (ix4 n i j (1 : Fin 3)) 1 (by simp) S4096x31x31x1 u1 rfl rfl 1 rfl (ix4 n i j (0 : Fin 1))
    (fun b hb => match b with
      | ⟨0, _⟩ => rfl
      | ⟨1, _⟩ => rfl
      | ⟨2, _⟩ => rfl
      | ⟨3, _⟩ => absurd rfl hb) rfl

theorem concat3_2 {α : Type} (u0 u1 u2 : S4096x31x31x1.Idx → α) (n : Fin 4096) (i j : Fin 31) :
    concatenate S4096x31x31x3 3 [⟨S4096x31x31x1, u0⟩, ⟨S4096x31x31x1, u1⟩, ⟨S4096x31x31x1, u2⟩]
        concatenates_S4096x31x31x1_S4096x31x31x1_S4096x31x31x1_S4096x31x31x3_d3 (ix4 n i j (2 : Fin 3))
      = u2 (ix4 n i j (0 : Fin 1)) :=
  concatenate_apply_piece (t := S4096x31x31x3) 3 [⟨S4096x31x31x1, u0⟩, ⟨S4096x31x31x1, u1⟩, ⟨S4096x31x31x1, u2⟩]
    concatenates_S4096x31x31x1_S4096x31x31x1_S4096x31x31x1_S4096x31x31x3_d3 (ix4 n i j (2 : Fin 3)) 2 (by simp) S4096x31x31x1 u2 rfl rfl 2 rfl (ix4 n i j (0 : Fin 1))
    (fun b hb => match b with
      | ⟨0, _⟩ => rfl
      | ⟨1, _⟩ => rfl
      | ⟨2, _⟩ => rfl
      | ⟨3, _⟩ => absurd rfl hb) rfl

/-! ## The gather, read at an index -/

/-- Result index `(n, i, j, ch)` reads component `k` of its start index at `(n, i, j, k)`. -/
theorem siIdx_eq (n : Fin 4096) (i j : Fin 31) (ch : Fin 32) (k : Fin 3) :
    gather_S16x256x256x32_S4096x31x31x3_S4096x31x31x32_3_012_n_n_012_3_11132.siIdx (ix4 n i j ch) ⟨k.val, k.isLt⟩ = ix4 n i j k := by
  funext b
  match b with
  | ⟨0, _⟩ => rfl
  | ⟨1, _⟩ => rfl
  | ⟨2, _⟩ => rfl
  | ⟨3, _⟩ => rfl

/-- **The gather read at `(n, i, j, ch)`**: the map at the three start-index components, each read signed and clamped
    into its axis, and at channel `ch`. -/
theorem gather_apply {α : Type} (x : S16x256x256x32.Idx → α) (idx : IVec S4096x31x31x3 32)
    (n : Fin 4096) (i j : Fin 31) (ch : Fin 32) (b : Fin 16) (r c : Fin 256)
    (hb : b.val = min (idx (ix4 n i j (0 : Fin 3))).toInt.toNat 15)
    (hr : r.val = min (idx (ix4 n i j (1 : Fin 3))).toInt.toNat 255)
    (hc : c.val = min (idx (ix4 n i j (2 : Fin 3))).toInt.toNat 255) :
    Host.gather gather_S16x256x256x32_S4096x31x31x3_S4096x31x31x32_3_012_n_n_012_3_11132 x idx (ix4 n i j ch) = x (ix4 b r c ch) := by
  unfold Host.gather
  congr 1
  funext a
  refine Fin.ext ?_
  match a with
  | ⟨0, _⟩ =>
    show gather_S16x256x256x32_S4096x31x31x3_S4096x31x31x32_3_012_n_n_012_3_11132.start (ix4 n i j ch) idx 0 + gather_S16x256x256x32_S4096x31x31x3_S4096x31x31x32_3_012_n_n_012_3_11132.batchCoord (ix4 n i j ch) 0 + gather_S16x256x256x32_S4096x31x31x3_S4096x31x31x32_3_012_n_n_012_3_11132.offCoord (ix4 n i j ch) 0 = b.val
    rw [GatherDims.batchCoord_eq_zero _ _ _ List.not_mem_nil,
      GatherDims.offCoord_eq_zero _ _ _ (fun h => ((GatherDims.mem_sKept _ _).mp h).1 (by decide)), hb]
    simp only [Nat.add_zero]
    unfold GatherDims.start
    rw [dif_pos (show (0 : Fin 4) ∈ gather_S16x256x256x32_S4096x31x31x3_S4096x31x31x32_3_012_n_n_012_3_11132.startIndexMap from by decide)]
    exact congrArg (fun q => min (idx q).toInt.toNat 15) (siIdx_eq n i j ch 0)
  | ⟨1, _⟩ =>
    show gather_S16x256x256x32_S4096x31x31x3_S4096x31x31x32_3_012_n_n_012_3_11132.start (ix4 n i j ch) idx 1 + gather_S16x256x256x32_S4096x31x31x3_S4096x31x31x32_3_012_n_n_012_3_11132.batchCoord (ix4 n i j ch) 1 + gather_S16x256x256x32_S4096x31x31x3_S4096x31x31x32_3_012_n_n_012_3_11132.offCoord (ix4 n i j ch) 1 = r.val
    rw [GatherDims.batchCoord_eq_zero _ _ _ List.not_mem_nil,
      GatherDims.offCoord_eq_zero _ _ _ (fun h => ((GatherDims.mem_sKept _ _).mp h).1 (by decide)), hr]
    simp only [Nat.add_zero]
    unfold GatherDims.start
    rw [dif_pos (show (1 : Fin 4) ∈ gather_S16x256x256x32_S4096x31x31x3_S4096x31x31x32_3_012_n_n_012_3_11132.startIndexMap from by decide)]
    exact congrArg (fun q => min (idx q).toInt.toNat 255) (siIdx_eq n i j ch 1)
  | ⟨2, _⟩ =>
    show gather_S16x256x256x32_S4096x31x31x3_S4096x31x31x32_3_012_n_n_012_3_11132.start (ix4 n i j ch) idx 2 + gather_S16x256x256x32_S4096x31x31x3_S4096x31x31x32_3_012_n_n_012_3_11132.batchCoord (ix4 n i j ch) 2 + gather_S16x256x256x32_S4096x31x31x3_S4096x31x31x32_3_012_n_n_012_3_11132.offCoord (ix4 n i j ch) 2 = c.val
    rw [GatherDims.batchCoord_eq_zero _ _ _ List.not_mem_nil,
      GatherDims.offCoord_eq_zero _ _ _ (fun h => ((GatherDims.mem_sKept _ _).mp h).1 (by decide)), hc]
    simp only [Nat.add_zero]
    unfold GatherDims.start
    rw [dif_pos (show (2 : Fin 4) ∈ gather_S16x256x256x32_S4096x31x31x3_S4096x31x31x32_3_012_n_n_012_3_11132.startIndexMap from by decide)]
    exact congrArg (fun q => min (idx q).toInt.toNat 255) (siIdx_eq n i j ch 2)
  | ⟨3, _⟩ =>
    show gather_S16x256x256x32_S4096x31x31x3_S4096x31x31x32_3_012_n_n_012_3_11132.start (ix4 n i j ch) idx 3 + gather_S16x256x256x32_S4096x31x31x3_S4096x31x31x32_3_012_n_n_012_3_11132.batchCoord (ix4 n i j ch) 3 + gather_S16x256x256x32_S4096x31x31x3_S4096x31x31x32_3_012_n_n_012_3_11132.offCoord (ix4 n i j ch) 3 = ch.val
    rw [GatherDims.batchCoord_eq_zero _ _ _ List.not_mem_nil]
    unfold GatherDims.start
    rw [dif_neg (show (3 : Fin 4) ∉ gather_S16x256x256x32_S4096x31x31x3_S4096x31x31x32_3_012_n_n_012_3_11132.startIndexMap from by decide)]
    simp only [Nat.add_zero, Nat.zero_add]
    rfl

/-! ## The stages of the reference, read at an index -/

/-- A select on a decided proposition's bit is the `if`. -/
theorem select_decide {α : Type} (P : Prop) [Decidable P] (a b : α) :
    Scalar.select (BitVec.ofBool (decide P)) a b = if P then a else b := by
  by_cases h : P
  · rw [decide_eq_true h, if_pos h]; exact select_one a b
  · rw [decide_eq_false h, if_neg h]; exact select_zero a b

/-- A natural below the extent is its own reduction into the axis. -/
theorem ofNat_val {m : ℕ} [NeZero m] (a : Fin m) : Fin.ofNat m a.val = a := Fin.ext (Nat.mod_eq_of_lt a.isLt)

/-- Column `k` of the centres at ROI `n` is the value of the word at `(n, k)`. -/
theorem cenAt_val (x1 : (⟨S4096x3, .i32⟩ : BufTy).Contents (Elt Ideal)) (n : Fin 4096) (k : Fin 3) :
    Cert.Roi.cenAt x1 n.val k = (x1 (ix2 n k)).toNat := by
  unfold Cert.Roi.cenAt; rw [ofNat_val]

/-- The window offsets: entry `i` is `i - 15`. -/
theorem off_apply (i : Fin 31) :
    val_main_v2 (F := Ideal) (ix1 i) = IntOp.subi (BitVec.ofNat 32 i.val) 15#32 := by
  rw [val_main_v2_apply, val_main_v0_apply, val_main_v1_apply, val_main_c_apply]

/-- The batch column of the centres. -/
theorem col0_apply (x1 : (⟨S4096x3, .i32⟩ : BufTy).Contents (Elt Ideal)) (n : Fin 4096) : val_main_v4 (F := Ideal) x1 (ix1 n) = x1 (ix2 n (0 : Fin 3)) := by
  rw [val_main_v4_apply, val_main_v3_apply]
  exact congrArg x1 (funext fun a => match a with
    | ⟨0, _⟩ => Fin.ext (Nat.div_one _)
    | ⟨1, _⟩ => rfl)

/-- The row column of the centres. -/
theorem col1_apply (x1 : (⟨S4096x3, .i32⟩ : BufTy).Contents (Elt Ideal)) (n : Fin 4096) : val_main_v6 (F := Ideal) x1 (ix1 n) = x1 (ix2 n (1 : Fin 3)) := by
  rw [val_main_v6_apply, val_main_v5_apply]
  exact congrArg x1 (funext fun a => match a with
    | ⟨0, _⟩ => Fin.ext (Nat.div_one _)
    | ⟨1, _⟩ => rfl)

/-- The column column of the centres. -/
theorem col2_apply (x1 : (⟨S4096x3, .i32⟩ : BufTy).Contents (Elt Ideal)) (n : Fin 4096) : val_main_v13 (F := Ideal) x1 (ix1 n) = x1 (ix2 n (2 : Fin 3)) := by
  rw [val_main_v13_apply, val_main_v12_apply]
  exact congrArg x1 (funext fun a => match a with
    | ⟨0, _⟩ => Fin.ext (Nat.div_one _)
    | ⟨1, _⟩ => rfl)

/-- Window row `i` of ROI `n`: the centre's row moved by `i - 15`. -/
theorem rows_apply (x1 : (⟨S4096x3, .i32⟩ : BufTy).Contents (Elt Ideal)) (n : Fin 4096) (i : Fin 31) :
    val_main_v11 (F := Ideal) x1 (ix2 n i) = IntOp.addi (x1 (ix2 n (1 : Fin 3))) (IntOp.subi (BitVec.ofNat 32 i.val) 15#32) := by
  rw [val_main_v11_apply, val_main_v9_apply, val_main_v7_apply, val_main_v10_apply, val_main_v8_apply,
    show idx_main_v7 (idx_main_v9 (ix2 n i)) = ix1 n from funext fun a => match a with | ⟨0, _⟩ => rfl,
    show idx_main_v8 (idx_main_v10 (ix2 n i)) = ix1 i from funext fun a => match a with | ⟨0, _⟩ => rfl,
    col1_apply, off_apply]

/-- Window column `j` of ROI `n`: the centre's column moved by `j - 15`. -/
theorem cols_apply (x1 : (⟨S4096x3, .i32⟩ : BufTy).Contents (Elt Ideal)) (n : Fin 4096) (j : Fin 31) :
    val_main_v18 (F := Ideal) x1 (ix2 n j) = IntOp.addi (x1 (ix2 n (2 : Fin 3))) (IntOp.subi (BitVec.ofNat 32 j.val) 15#32) := by
  rw [val_main_v18_apply, val_main_v16_apply, val_main_v14_apply, val_main_v17_apply, val_main_v15_apply,
    show idx_main_v14 (idx_main_v16 (ix2 n j)) = ix1 n from funext fun a => match a with | ⟨0, _⟩ => rfl,
    show idx_main_v15 (idx_main_v17 (ix2 n j)) = ix1 j from funext fun a => match a with | ⟨0, _⟩ => rfl,
    col2_apply, off_apply]

/-- The row mask: set exactly when the moved row lies inside the map. -/
theorem rmask_apply (x1 : (⟨S4096x3, .i32⟩ : BufTy).Contents (Elt Ideal)) (n : Fin 4096) (i : Fin 31) (hy : (x1 (ix2 n (1 : Fin 3))).toNat < 256) :
    val_main_v23 (F := Ideal) x1 (ix2 n i)
      = BitVec.ofBool (decide (15 ≤ (x1 (ix2 n (1 : Fin 3))).toNat + i.val ∧ (x1 (ix2 n (1 : Fin 3))).toNat + i.val < 271)) := by
  rw [val_main_v23_apply, val_main_v20_apply, val_main_v22_apply, val_main_v19_apply, val_main_v21_apply,
    val_main_c_0_apply, val_main_c_1_apply, rows_apply]
  exact band _ _ hy i.isLt

/-- The column mask, likewise. -/
theorem cmask_apply (x1 : (⟨S4096x3, .i32⟩ : BufTy).Contents (Elt Ideal)) (n : Fin 4096) (j : Fin 31) (hx : (x1 (ix2 n (2 : Fin 3))).toNat < 256) :
    val_main_v28 (F := Ideal) x1 (ix2 n j)
      = BitVec.ofBool (decide (15 ≤ (x1 (ix2 n (2 : Fin 3))).toNat + j.val ∧ (x1 (ix2 n (2 : Fin 3))).toNat + j.val < 271)) := by
  rw [val_main_v28_apply, val_main_v25_apply, val_main_v27_apply, val_main_v24_apply, val_main_v26_apply,
    val_main_c_2_apply, val_main_c_3_apply, cols_apply]
  exact band _ _ hx j.isLt

/-- The mask of entry `(n, i, j, ch)`: the row mask at `(n, i)` and the column mask at `(n, j)`. -/
theorem mask_split (x1 : (⟨S4096x3, .i32⟩ : BufTy).Contents (Elt Ideal)) (n : Fin 4096) (i j : Fin 31) (ch : Fin 32) :
    val_main_call2_v0 (F := Ideal) x1 (ix4 n i j ch)
      = IntOp.andi (val_main_v23 (F := Ideal) x1 (ix2 n i)) (val_main_v28 (F := Ideal) x1 (ix2 n j)) := by
  rw [val_main_call2_v0_apply, val_main_v62_apply, val_main_v61_apply, val_main_v59_apply, val_main_v57_apply,
    val_main_v60_apply, val_main_v58_apply,
    show idx_main_v57 (idx_main_v59 (idx_main_v62 (idx_main_call2_v0 (ix4 n i j ch)))) = ix2 n i from
      funext fun a => match a with | ⟨0, _⟩ => rfl | ⟨1, _⟩ => rfl,
    show idx_main_v58 (idx_main_v60 (idx_main_v62 (idx_main_call2_v0 (ix4 n i j ch)))) = ix2 n j from
      funext fun a => match a with | ⟨0, _⟩ => rfl | ⟨1, _⟩ => rfl]

/-- **The mask**: set exactly when the position `(y + i - 15, x + j - 15)` lies inside the map. -/
theorem mask_apply (x1 : (⟨S4096x3, .i32⟩ : BufTy).Contents (Elt Ideal)) (n : Fin 4096) (i j : Fin 31) (ch : Fin 32)
    (hy : Cert.Roi.cenAt x1 n.val 1 < 256) (hx : Cert.Roi.cenAt x1 n.val 2 < 256) :
    val_main_call2_v0 (F := Ideal) x1 (ix4 n i j ch)
      = BitVec.ofBool (decide (15 ≤ Cert.Roi.cenAt x1 n.val 1 + i.val ∧ Cert.Roi.cenAt x1 n.val 1 + i.val < 271
          ∧ 15 ≤ Cert.Roi.cenAt x1 n.val 2 + j.val ∧ Cert.Roi.cenAt x1 n.val 2 + j.val < 271)) := by
  rw [cenAt_val] at hy hx
  rw [mask_split, rmask_apply x1 n i hy, cmask_apply x1 n j hx, cenAt_val, cenAt_val]
  have e : decide (15 ≤ (x1 (ix2 n (1 : Fin 3))).toNat + i.val ∧ (x1 (ix2 n (1 : Fin 3))).toNat + i.val < 271 ∧ 15 ≤ (x1 (ix2 n (2 : Fin 3))).toNat + j.val ∧ (x1 (ix2 n (2 : Fin 3))).toNat + j.val < 271)
      = (decide (15 ≤ (x1 (ix2 n (1 : Fin 3))).toNat + i.val ∧ (x1 (ix2 n (1 : Fin 3))).toNat + i.val < 271) && decide (15 ≤ (x1 (ix2 n (2 : Fin 3))).toNat + j.val ∧ (x1 (ix2 n (2 : Fin 3))).toNat + j.val < 271)) := by
    rw [← Bool.decide_and]; exact decide_eq_decide.2 and_assoc.symm
  rw [e]
  unfold IntOp.andi
  cases decide (15 ≤ (x1 (ix2 n (1 : Fin 3))).toNat + i.val ∧ (x1 (ix2 n (1 : Fin 3))).toNat + i.val < 271) <;> cases decide (15 ≤ (x1 (ix2 n (2 : Fin 3))).toNat + j.val ∧ (x1 (ix2 n (2 : Fin 3))).toNat + j.val < 271) <;> rfl

/-- The clipped row: the clip to `[0, 255]` of the moved row. -/
theorem rclip_apply (x1 : (⟨S4096x3, .i32⟩ : BufTy).Contents (Elt Ideal)) (n : Fin 4096) (i : Fin 31) :
    val_main_v29 (F := Ideal) x1 (ix2 n i) = IntOp.minsi 255#32 (IntOp.maxsi 0#32 (IntOp.addi (x1 (ix2 n (1 : Fin 3))) (IntOp.subi (BitVec.ofNat 32 i.val) 15#32))) := by
  rw [val_main_v29_apply, val_main_call0_v4_apply, val_main_call0_v3_apply, val_main_c_5_apply,
    val_main_call0_v2_apply, val_main_call0_v1_apply, val_main_call0_v0_apply, val_main_c_4_apply, rows_apply]

/-- The clipped column, likewise. -/
theorem cclip_apply (x1 : (⟨S4096x3, .i32⟩ : BufTy).Contents (Elt Ideal)) (n : Fin 4096) (j : Fin 31) :
    val_main_v30 (F := Ideal) x1 (ix2 n j) = IntOp.minsi 255#32 (IntOp.maxsi 0#32 (IntOp.addi (x1 (ix2 n (2 : Fin 3))) (IntOp.subi (BitVec.ofNat 32 j.val) 15#32))) := by
  rw [val_main_v30_apply, val_main_call1_v4_apply, val_main_call1_v3_apply, val_main_c_7_apply,
    val_main_call1_v2_apply, val_main_call1_v1_apply, val_main_call1_v0_apply, val_main_c_6_apply, cols_apply]

/-- The batch component of the start index: the centre's batch (not negative, so not wrapped). -/
theorem start0_apply (x1 : (⟨S4096x3, .i32⟩ : BufTy).Contents (Elt Ideal)) (n : Fin 4096) (i j : Fin 31) (hb : (x1 (ix2 n (0 : Fin 3))).toNat < 16) :
    val_main_v52 (F := Ideal) x1 (ix4 n i j (0 : Fin 1)) = x1 (ix2 n (0 : Fin 3)) := by
  rw [val_main_v52_apply, val_main_v49_apply, val_main_v38_apply, val_main_v35_apply, val_main_v34_apply,
    val_main_c_8_apply, val_main_v31_apply,
    show idx_main_v31 (idx_main_v49 (idx_main_v52 (ix4 n i j (0 : Fin 1)))) = ix1 n from
      funext fun a => match a with | ⟨0, _⟩ => rfl,
    col0_apply]
  have h0 : (x1 (ix2 n (0 : Fin 3))).toInt = ((x1 (ix2 n (0 : Fin 3))).toNat : ℤ) := toInt_small _ (by omega)
  exact wrap_id _ _ _ (by omega)

/-- The row component of the start index where the row lies inside the map: the moved row itself (the clip is the
    identity there, and the row is not negative, so not wrapped). -/
theorem start1_apply (x1 : (⟨S4096x3, .i32⟩ : BufTy).Contents (Elt Ideal)) (n : Fin 4096) (i j : Fin 31) (hy : (x1 (ix2 n (1 : Fin 3))).toNat < 256)
    (h1 : 15 ≤ (x1 (ix2 n (1 : Fin 3))).toNat + i.val) (h2 : (x1 (ix2 n (1 : Fin 3))).toNat + i.val < 271) :
    val_main_v53 (F := Ideal) x1 (ix4 n i j (0 : Fin 1)) = IntOp.addi (x1 (ix2 n (1 : Fin 3))) (IntOp.subi (BitVec.ofNat 32 i.val) 15#32) := by
  rw [val_main_v53_apply, val_main_v50_apply, val_main_v43_apply, val_main_v40_apply, val_main_v39_apply,
    val_main_c_10_apply, val_main_v32_apply,
    show idx_main_v32 (idx_main_v50 (idx_main_v53 (ix4 n i j (0 : Fin 1)))) = ix2 n i from
      funext fun a => match a with | ⟨0, _⟩ => rfl | ⟨1, _⟩ => rfl,
    rclip_apply]
  have ht := toInt_shift (x1 (ix2 n (1 : Fin 3))) i.val hy i.isLt
  rw [clip_id (IntOp.addi (x1 (ix2 n (1 : Fin 3))) (IntOp.subi (BitVec.ofNat 32 i.val) 15#32)) (by omega) (by omega)]
  exact wrap_id _ _ _ (by omega)

/-- The column component of the start index where the column lies inside the map, likewise. -/
theorem start2_apply (x1 : (⟨S4096x3, .i32⟩ : BufTy).Contents (Elt Ideal)) (n : Fin 4096) (i j : Fin 31) (hx : (x1 (ix2 n (2 : Fin 3))).toNat < 256)
    (h1 : 15 ≤ (x1 (ix2 n (2 : Fin 3))).toNat + j.val) (h2 : (x1 (ix2 n (2 : Fin 3))).toNat + j.val < 271) :
    val_main_v54 (F := Ideal) x1 (ix4 n i j (0 : Fin 1)) = IntOp.addi (x1 (ix2 n (2 : Fin 3))) (IntOp.subi (BitVec.ofNat 32 j.val) 15#32) := by
  rw [val_main_v54_apply, val_main_v51_apply, val_main_v48_apply, val_main_v45_apply, val_main_v44_apply,
    val_main_c_12_apply, val_main_v33_apply,
    show idx_main_v33 (idx_main_v51 (idx_main_v54 (ix4 n i j (0 : Fin 1)))) = ix2 n j from
      funext fun a => match a with | ⟨0, _⟩ => rfl | ⟨1, _⟩ => rfl,
    cclip_apply]
  have ht := toInt_shift (x1 (ix2 n (2 : Fin 3))) j.val hx j.isLt
  rw [clip_id (IntOp.addi (x1 (ix2 n (2 : Fin 3))) (IntOp.subi (BitVec.ofNat 32 j.val) 15#32)) (by omega) (by omega)]
  exact wrap_id _ _ _ (by omega)

/-- **The gathered value** where the position lies inside the map: the map at `(b, y + i - 15, x + j - 15, ch)`
    (the gather's clamp of each start-index component is the identity there). -/
theorem gathered_apply (x0 : (⟨S16x256x256x32, .f32⟩ : BufTy).Contents (Elt Ideal)) (x1 : (⟨S4096x3, .i32⟩ : BufTy).Contents (Elt Ideal)) (n : Fin 4096) (i j : Fin 31) (ch : Fin 32)
    (hb : Cert.Roi.cenAt x1 n.val 0 < 16) (hy : Cert.Roi.cenAt x1 n.val 1 < 256) (hx : Cert.Roi.cenAt x1 n.val 2 < 256)
    (h1 : 15 ≤ Cert.Roi.cenAt x1 n.val 1 + i.val) (h2 : Cert.Roi.cenAt x1 n.val 1 + i.val < 271)
    (h3 : 15 ≤ Cert.Roi.cenAt x1 n.val 2 + j.val) (h4 : Cert.Roi.cenAt x1 n.val 2 + j.val < 271) :
    val_main_v56 (F := Ideal) x0 x1 (ix4 n i j ch)
      = x0 (Cert.Roi.poseIdx (Cert.Roi.cenAt x1 n.val 0) (Cert.Roi.cenAt x1 n.val 1 + i.val - 15)
          (Cert.Roi.cenAt x1 n.val 2 + j.val - 15) ch.val) := by
  rw [cenAt_val] at hb hy hx h1 h2 h3 h4
  rw [cenAt_val, cenAt_val, cenAt_val]
  unfold val_main_v56
  have hB : (x1 (ix2 n (0 : Fin 3))).toInt = ((x1 (ix2 n (0 : Fin 3))).toNat : ℤ) := toInt_small _ (by omega)
  have hY := toInt_shift (x1 (ix2 n (1 : Fin 3))) i.val hy i.isLt
  have hX := toInt_shift (x1 (ix2 n (2 : Fin 3))) j.val hx j.isLt
  refine (gather_apply x0 (val_main_v55 (F := Ideal) x1) n i j ch (Fin.ofNat 16 (x1 (ix2 n (0 : Fin 3))).toNat)
    (Fin.ofNat 256 ((x1 (ix2 n (1 : Fin 3))).toNat + i.val - 15)) (Fin.ofNat 256 ((x1 (ix2 n (2 : Fin 3))).toNat + j.val - 15)) ?_ ?_ ?_).trans ?_
  · unfold val_main_v55
    rw [concat3_0, start0_apply x1 n i j hb, hB]
    show (x1 (ix2 n (0 : Fin 3))).toNat % 16 = _
    omega
  · unfold val_main_v55
    rw [concat3_1, start1_apply x1 n i j hy h1 h2, hY]
    show ((x1 (ix2 n (1 : Fin 3))).toNat + i.val - 15) % 256 = _
    omega
  · unfold val_main_v55
    rw [concat3_2, start2_apply x1 n i j hx h3 h4, hX]
    show ((x1 (ix2 n (2 : Fin 3))).toNat + j.val - 15) % 256 = _
    omega
  · unfold Cert.Roi.poseIdx
    rw [ofNat_val]

/-! ## The reference is the crop -/

/-- For centres inside the map the reference's result is the crop of the map, with the zero constant outside. -/
theorem ref_eq_crop (x0 : (⟨S16x256x256x32, .f32⟩ : BufTy).Contents (Elt Ideal)) (x1 : (⟨S4096x3, .i32⟩ : BufTy).Contents (Elt Ideal)) (h : Cert.Roi.InMap x1) :
    Cert.ReferenceIdeal.ReadP.val_main_v63 (F := Ideal) x0 x1 = Cert.Roi.crop (Ideal.ofBits .f32 0x00000000#32) x0 x1 := by
  funext o
  obtain ⟨n, i, j, ch, rfl⟩ : ∃ (n : Fin 4096) (i j : Fin 31) (ch : Fin 32), o = ix4 n i j ch :=
    ⟨o 0, o 1, o 2, o 3, eq_ix4 o⟩
  obtain ⟨hb, hy, hx⟩ := h n
  rw [val_main_v63_apply, mask_apply x1 n i j ch hy hx, select_decide]
  show _ = if 15 ≤ Cert.Roi.cenAt x1 n.val 1 + i.val ∧ Cert.Roi.cenAt x1 n.val 1 + i.val < 271
        ∧ 15 ≤ Cert.Roi.cenAt x1 n.val 2 + j.val ∧ Cert.Roi.cenAt x1 n.val 2 + j.val < 271
      then x0 (Cert.Roi.poseIdx (Cert.Roi.cenAt x1 n.val 0) (Cert.Roi.cenAt x1 n.val 1 + i.val - 15)
        (Cert.Roi.cenAt x1 n.val 2 + j.val - 15) ch.val)
      else Ideal.ofBits .f32 0x00000000#32
  by_cases hin : 15 ≤ Cert.Roi.cenAt x1 n.val 1 + i.val ∧ Cert.Roi.cenAt x1 n.val 1 + i.val < 271
      ∧ 15 ≤ Cert.Roi.cenAt x1 n.val 2 + j.val ∧ Cert.Roi.cenAt x1 n.val 2 + j.val < 271
  · rw [if_pos hin, if_pos hin]
    exact gathered_apply x0 x1 n i j ch hb hy hx hin.1 hin.2.1 hin.2.2.1 hin.2.2.2
  · rw [if_neg hin, if_neg hin, val_main_call2_v1_apply, val_main_cst_apply]
    rfl

/-- The zero constant is the extended real zero. -/
theorem zero_const : Ideal.ofBits .f32 0x00000000#32 = (0 : EReal) := Ideal.ofBits_zero_f32

end Cert.ReferenceIdeal.RefValueP

end
-- ==== Proof.RefRun.lean ====
/-
  The reference's run, written stretch by stretch.

  @main is 92 host operations on one TensorCore, every one writing a buffer of its own.  For ROI n and window
  position (i, j) it forms the row y + i - 15 and the column x + j - 15, the two masks "inside [0, 256)", the
  two coordinates clipped into [0, 255], wraps negative indices the NumPy way, joins (batch, row, column) into
  one index array, gathers the map there, and selects zero where a mask fails.  The list is cut into six
  stretches (a cut before the three-operand join and before the gather).  Each stretch's results are computed
  from the buffers it finds; a stretch leaves every buffer it does not write as it was; joined in order, the
  result buffer after the whole list is the stage function of the two arguments, and the arguments are
  unchanged.
-/
import proofs.«429989_j27960237097553_3_alg».proof.Proof.Gen.ReferenceIdeal
import proofs.«429989_j27960237097553_3_alg».proof.Proof.RefReadP
import Idealize.ShloMosaic.Lib.StableHlo.Run
import Idealize.ShloMosaic.Lib.Pipeline.Frame

noncomputable section

namespace Cert.ReferenceIdeal.RefRun

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

/-! ## The operations, in six stretches -/

/-- Operations 1 to 34: the two coordinate grids (row + offset - 15, column + offset - 15), the batch column, and the two inside-the-map masks. -/
abbrev S1 : List (HloOp τ sig (Elt F)) :=
  [ nullary main_v0 (iotaInDim S31 32 0),
    nullary main_c (constantI S_ 32 15#32),
    unary main_c main_v1 (broadcastInDim S31 ![] bcast_S_S31 : (⟨S_, .i32⟩ : BufTy).Contents (Elt F) → (⟨S31, .i32⟩ : BufTy).Contents (Elt F)),
    binary main_v0 main_v1 main_v2 (subi : (⟨S31, .i32⟩ : BufTy).Contents (Elt F) → (⟨S31, .i32⟩ : BufTy).Contents (Elt F) → (⟨S31, .i32⟩ : BufTy).Contents (Elt F)),
    unary main_arg1 main_v3 ((extractStridedSlice S4096x1 ![0, 0] · slices_S4096x3_S4096x1_0_0) : (⟨S4096x3, .i32⟩ : BufTy).Contents (Elt F) → (⟨S4096x1, .i32⟩ : BufTy).Contents (Elt F)),
    reshape main_v3 main_v4 rfl shapeCasts_S4096x1_S4096,
    unary main_arg1 main_v5 ((extractStridedSlice S4096x1 ![0, 1] · slices_S4096x3_S4096x1_0_1) : (⟨S4096x3, .i32⟩ : BufTy).Contents (Elt F) → (⟨S4096x1, .i32⟩ : BufTy).Contents (Elt F)),
    reshape main_v5 main_v6 rfl shapeCasts_S4096x1_S4096,
    unary main_v6 main_v7 (broadcastInDim S4096x1 ![0] bcast_S4096_S4096x1_0 : (⟨S4096, .i32⟩ : BufTy).Contents (Elt F) → (⟨S4096x1, .i32⟩ : BufTy).Contents (Elt F)),
    unary main_v2 main_v8 (broadcastInDim S1x31 ![1] bcast_S31_S1x31_1 : (⟨S31, .i32⟩ : BufTy).Contents (Elt F) → (⟨S1x31, .i32⟩ : BufTy).Contents (Elt F)),
    unary main_v7 main_v9 (broadcastInDim S4096x31 ![0, 1] bcast_S4096x1_S4096x31_0_1 : (⟨S4096x1, .i32⟩ : BufTy).Contents (Elt F) → (⟨S4096x31, .i32⟩ : BufTy).Contents (Elt F)),
    unary main_v8 main_v10 (broadcastInDim S4096x31 ![0, 1] bcast_S1x31_S4096x31_0_1 : (⟨S1x31, .i32⟩ : BufTy).Contents (Elt F) → (⟨S4096x31, .i32⟩ : BufTy).Contents (Elt F)),
    binary main_v9 main_v10 main_v11 (addi : (⟨S4096x31, .i32⟩ : BufTy).Contents (Elt F) → (⟨S4096x31, .i32⟩ : BufTy).Contents (Elt F) → (⟨S4096x31, .i32⟩ : BufTy).Contents (Elt F)),
    unary main_arg1 main_v12 ((extractStridedSlice S4096x1 ![0, 2] · slices_S4096x3_S4096x1_0_2) : (⟨S4096x3, .i32⟩ : BufTy).Contents (Elt F) → (⟨S4096x1, .i32⟩ : BufTy).Contents (Elt F)),
    reshape main_v12 main_v13 rfl shapeCasts_S4096x1_S4096,
    unary main_v13 main_v14 (broadcastInDim S4096x1 ![0] bcast_S4096_S4096x1_0 : (⟨S4096, .i32⟩ : BufTy).Contents (Elt F) → (⟨S4096x1, .i32⟩ : BufTy).Contents (Elt F)),
    unary main_v2 main_v15 (broadcastInDim S1x31 ![1] bcast_S31_S1x31_1 : (⟨S31, .i32⟩ : BufTy).Contents (Elt F) → (⟨S1x31, .i32⟩ : BufTy).Contents (Elt F)),
    unary main_v14 main_v16 (broadcastInDim S4096x31 ![0, 1] bcast_S4096x1_S4096x31_0_1 : (⟨S4096x1, .i32⟩ : BufTy).Contents (Elt F) → (⟨S4096x31, .i32⟩ : BufTy).Contents (Elt F)),
    unary main_v15 main_v17 (broadcastInDim S4096x31 ![0, 1] bcast_S1x31_S4096x31_0_1 : (⟨S1x31, .i32⟩ : BufTy).Contents (Elt F) → (⟨S4096x31, .i32⟩ : BufTy).Contents (Elt F)),
    binary main_v16 main_v17 main_v18 (addi : (⟨S4096x31, .i32⟩ : BufTy).Contents (Elt F) → (⟨S4096x31, .i32⟩ : BufTy).Contents (Elt F) → (⟨S4096x31, .i32⟩ : BufTy).Contents (Elt F)),
    nullary main_c_0 (constantI S_ 32 0#32),
    unary main_c_0 main_v19 (broadcastInDim S4096x31 ![] bcast_S_S4096x31 : (⟨S_, .i32⟩ : BufTy).Contents (Elt F) → (⟨S4096x31, .i32⟩ : BufTy).Contents (Elt F)),
    binary main_v11 main_v19 main_v20 (cmpi .sge : (⟨S4096x31, .i32⟩ : BufTy).Contents (Elt F) → (⟨S4096x31, .i32⟩ : BufTy).Contents (Elt F) → (⟨S4096x31, .i1⟩ : BufTy).Contents (Elt F)),
    nullary main_c_1 (constantI S_ 32 256#32),
    unary main_c_1 main_v21 (broadcastInDim S4096x31 ![] bcast_S_S4096x31 : (⟨S_, .i32⟩ : BufTy).Contents (Elt F) → (⟨S4096x31, .i32⟩ : BufTy).Contents (Elt F)),
    binary main_v11 main_v21 main_v22 (cmpi .slt : (⟨S4096x31, .i32⟩ : BufTy).Contents (Elt F) → (⟨S4096x31, .i32⟩ : BufTy).Contents (Elt F) → (⟨S4096x31, .i1⟩ : BufTy).Contents (Elt F)),
    binary main_v20 main_v22 main_v23 (andi : (⟨S4096x31, .i1⟩ : BufTy).Contents (Elt F) → (⟨S4096x31, .i1⟩ : BufTy).Contents (Elt F) → (⟨S4096x31, .i1⟩ : BufTy).Contents (Elt F)),
    nullary main_c_2 (constantI S_ 32 0#32),
    unary main_c_2 main_v24 (broadcastInDim S4096x31 ![] bcast_S_S4096x31 : (⟨S_, .i32⟩ : BufTy).Contents (Elt F) → (⟨S4096x31, .i32⟩ : BufTy).Contents (Elt F)),
    binary main_v18 main_v24 main_v25 (cmpi .sge : (⟨S4096x31, .i32⟩ : BufTy).Contents (Elt F) → (⟨S4096x31, .i32⟩ : BufTy).Contents (Elt F) → (⟨S4096x31, .i1⟩ : BufTy).Contents (Elt F)),
    nullary main_c_3 (constantI S_ 32 256#32),
    unary main_c_3 main_v26 (broadcastInDim S4096x31 ![] bcast_S_S4096x31 : (⟨S_, .i32⟩ : BufTy).Contents (Elt F) → (⟨S4096x31, .i32⟩ : BufTy).Contents (Elt F)),
    binary main_v18 main_v26 main_v27 (cmpi .slt : (⟨S4096x31, .i32⟩ : BufTy).Contents (Elt F) → (⟨S4096x31, .i32⟩ : BufTy).Contents (Elt F) → (⟨S4096x31, .i1⟩ : BufTy).Contents (Elt F)),
    binary main_v25 main_v27 main_v28 (andi : (⟨S4096x31, .i1⟩ : BufTy).Contents (Elt F) → (⟨S4096x31, .i1⟩ : BufTy).Contents (Elt F) → (⟨S4096x31, .i1⟩ : BufTy).Contents (Elt F)) ]

/-- Operations 35 to 50: the two grids clipped into [0, 255]. -/
abbrev S2 : List (HloOp τ sig (Elt F)) :=
  [ nullary main_c_4 (constantI S_ 32 0#32),
    nullary main_c_5 (constantI S_ 32 255#32),
    TRef.unary (TRef.of (T := ⟨S_, .i32⟩) main_c_4) (TRef.of (T := ⟨S_, .i32⟩) main_call0_v0) id,
    TRef.unary (TRef.of (T := ⟨S_, .i32⟩) main_call0_v0) (TRef.of (T := ⟨S4096x31, .i32⟩) main_call0_v1) (broadcastInDim S4096x31 ![] bcast_S_S4096x31),
    TRef.binary (TRef.of (T := ⟨S4096x31, .i32⟩) main_call0_v1) (TRef.of (T := ⟨S4096x31, .i32⟩) main_v11) (TRef.of (T := ⟨S4096x31, .i32⟩) main_call0_v2) maxsi,
    TRef.unary (TRef.of (T := ⟨S_, .i32⟩) main_c_5) (TRef.of (T := ⟨S_, .i32⟩) main_call0_v3) id,
    TRef.unary (TRef.of (T := ⟨S_, .i32⟩) main_call0_v3) (TRef.of (T := ⟨S4096x31, .i32⟩) main_call0_v4) (broadcastInDim S4096x31 ![] bcast_S_S4096x31),
    TRef.binary (TRef.of (T := ⟨S4096x31, .i32⟩) main_call0_v4) (TRef.of (T := ⟨S4096x31, .i32⟩) main_call0_v2) (TRef.of (T := ⟨S4096x31, .i32⟩) main_v29) minsi,
    nullary main_c_6 (constantI S_ 32 0#32),
    nullary main_c_7 (constantI S_ 32 255#32),
    TRef.unary (TRef.of (T := ⟨S_, .i32⟩) main_c_6) (TRef.of (T := ⟨S_, .i32⟩) main_call1_v0) id,
    TRef.unary (TRef.of (T := ⟨S_, .i32⟩) main_call1_v0) (TRef.of (T := ⟨S4096x31, .i32⟩) main_call1_v1) (broadcastInDim S4096x31 ![] bcast_S_S4096x31),
    TRef.binary (TRef.of (T := ⟨S4096x31, .i32⟩) main_call1_v1) (TRef.of (T := ⟨S4096x31, .i32⟩) main_v18) (TRef.of (T := ⟨S4096x31, .i32⟩) main_call1_v2) maxsi,
    TRef.unary (TRef.of (T := ⟨S_, .i32⟩) main_c_7) (TRef.of (T := ⟨S_, .i32⟩) main_call1_v3) id,
    TRef.unary (TRef.of (T := ⟨S_, .i32⟩) main_call1_v3) (TRef.of (T := ⟨S4096x31, .i32⟩) main_call1_v4) (broadcastInDim S4096x31 ![] bcast_S_S4096x31),
    TRef.binary (TRef.of (T := ⟨S4096x31, .i32⟩) main_call1_v4) (TRef.of (T := ⟨S4096x31, .i32⟩) main_call1_v2) (TRef.of (T := ⟨S4096x31, .i32⟩) main_v30) minsi ]

/-- Operations 51 to 70: the three index arrays given their broadcast axes; negative indices wrapped (batch by 16, row by 256), the column's wrap begun. -/
abbrev S3a : List (HloOp τ sig (Elt F)) :=
  [ unary main_v4 main_v31 (broadcastInDim S4096x1x1 ![0] bcast_S4096_S4096x1x1_0 : (⟨S4096, .i32⟩ : BufTy).Contents (Elt F) → (⟨S4096x1x1, .i32⟩ : BufTy).Contents (Elt F)),
    unary main_v29 main_v32 (broadcastInDim S4096x31x1 ![0, 1] bcast_S4096x31_S4096x31x1_0_1 : (⟨S4096x31, .i32⟩ : BufTy).Contents (Elt F) → (⟨S4096x31x1, .i32⟩ : BufTy).Contents (Elt F)),
    unary main_v30 main_v33 (broadcastInDim S4096x1x31 ![0, 2] bcast_S4096x31_S4096x1x31_0_2 : (⟨S4096x31, .i32⟩ : BufTy).Contents (Elt F) → (⟨S4096x1x31, .i32⟩ : BufTy).Contents (Elt F)),
    nullary main_c_8 (constantI S_ 32 0#32),
    unary main_c_8 main_v34 (broadcastInDim S4096x1x1 ![] bcast_S_S4096x1x1 : (⟨S_, .i32⟩ : BufTy).Contents (Elt F) → (⟨S4096x1x1, .i32⟩ : BufTy).Contents (Elt F)),
    binary main_v31 main_v34 main_v35 (cmpi .slt : (⟨S4096x1x1, .i32⟩ : BufTy).Contents (Elt F) → (⟨S4096x1x1, .i32⟩ : BufTy).Contents (Elt F) → (⟨S4096x1x1, .i1⟩ : BufTy).Contents (Elt F)),
    nullary main_c_9 (constantI S_ 32 16#32),
    unary main_c_9 main_v36 (broadcastInDim S4096x1x1 ![] bcast_S_S4096x1x1 : (⟨S_, .i32⟩ : BufTy).Contents (Elt F) → (⟨S4096x1x1, .i32⟩ : BufTy).Contents (Elt F)),
    binary main_v31 main_v36 main_v37 (addi : (⟨S4096x1x1, .i32⟩ : BufTy).Contents (Elt F) → (⟨S4096x1x1, .i32⟩ : BufTy).Contents (Elt F) → (⟨S4096x1x1, .i32⟩ : BufTy).Contents (Elt F)),
    ternary main_v35 main_v37 main_v31 main_v38 (select : (⟨S4096x1x1, .i1⟩ : BufTy).Contents (Elt F) → (⟨S4096x1x1, .i32⟩ : BufTy).Contents (Elt F) → (⟨S4096x1x1, .i32⟩ : BufTy).Contents (Elt F) → (⟨S4096x1x1, .i32⟩ : BufTy).Contents (Elt F)),
    nullary main_c_10 (constantI S_ 32 0#32),
    unary main_c_10 main_v39 (broadcastInDim S4096x31x1 ![] bcast_S_S4096x31x1 : (⟨S_, .i32⟩ : BufTy).Contents (Elt F) → (⟨S4096x31x1, .i32⟩ : BufTy).Contents (Elt F)),
    binary main_v32 main_v39 main_v40 (cmpi .slt : (⟨S4096x31x1, .i32⟩ : BufTy).Contents (Elt F) → (⟨S4096x31x1, .i32⟩ : BufTy).Contents (Elt F) → (⟨S4096x31x1, .i1⟩ : BufTy).Contents (Elt F)),
    nullary main_c_11 (constantI S_ 32 256#32),
    unary main_c_11 main_v41 (broadcastInDim S4096x31x1 ![] bcast_S_S4096x31x1 : (⟨S_, .i32⟩ : BufTy).Contents (Elt F) → (⟨S4096x31x1, .i32⟩ : BufTy).Contents (Elt F)),
    binary main_v32 main_v41 main_v42 (addi : (⟨S4096x31x1, .i32⟩ : BufTy).Contents (Elt F) → (⟨S4096x31x1, .i32⟩ : BufTy).Contents (Elt F) → (⟨S4096x31x1, .i32⟩ : BufTy).Contents (Elt F)),
    ternary main_v40 main_v42 main_v32 main_v43 (select : (⟨S4096x31x1, .i1⟩ : BufTy).Contents (Elt F) → (⟨S4096x31x1, .i32⟩ : BufTy).Contents (Elt F) → (⟨S4096x31x1, .i32⟩ : BufTy).Contents (Elt F) → (⟨S4096x31x1, .i32⟩ : BufTy).Contents (Elt F)),
    nullary main_c_12 (constantI S_ 32 0#32),
    unary main_c_12 main_v44 (broadcastInDim S4096x1x31 ![] bcast_S_S4096x1x31 : (⟨S_, .i32⟩ : BufTy).Contents (Elt F) → (⟨S4096x1x31, .i32⟩ : BufTy).Contents (Elt F)),
    binary main_v33 main_v44 main_v45 (cmpi .slt : (⟨S4096x1x31, .i32⟩ : BufTy).Contents (Elt F) → (⟨S4096x1x31, .i32⟩ : BufTy).Contents (Elt F) → (⟨S4096x1x31, .i1⟩ : BufTy).Contents (Elt F)) ]

/-- Operations 71 to 80: the column's wrap finished; the three index arrays broadcast to [4096, 31, 31, 1]. -/
abbrev S3b : List (HloOp τ sig (Elt F)) :=
  [ nullary main_c_13 (constantI S_ 32 256#32),
    unary main_c_13 main_v46 (broadcastInDim S4096x1x31 ![] bcast_S_S4096x1x31 : (⟨S_, .i32⟩ : BufTy).Contents (Elt F) → (⟨S4096x1x31, .i32⟩ : BufTy).Contents (Elt F)),
    binary main_v33 main_v46 main_v47 (addi : (⟨S4096x1x31, .i32⟩ : BufTy).Contents (Elt F) → (⟨S4096x1x31, .i32⟩ : BufTy).Contents (Elt F) → (⟨S4096x1x31, .i32⟩ : BufTy).Contents (Elt F)),
    ternary main_v45 main_v47 main_v33 main_v48 (select : (⟨S4096x1x31, .i1⟩ : BufTy).Contents (Elt F) → (⟨S4096x1x31, .i32⟩ : BufTy).Contents (Elt F) → (⟨S4096x1x31, .i32⟩ : BufTy).Contents (Elt F) → (⟨S4096x1x31, .i32⟩ : BufTy).Contents (Elt F)),
    unary main_v38 main_v49 (broadcastInDim S4096x31x31 ![0, 1, 2] bcast_S4096x1x1_S4096x31x31_0_1_2 : (⟨S4096x1x1, .i32⟩ : BufTy).Contents (Elt F) → (⟨S4096x31x31, .i32⟩ : BufTy).Contents (Elt F)),
    unary main_v43 main_v50 (broadcastInDim S4096x31x31 ![0, 1, 2] bcast_S4096x31x1_S4096x31x31_0_1_2 : (⟨S4096x31x1, .i32⟩ : BufTy).Contents (Elt F) → (⟨S4096x31x31, .i32⟩ : BufTy).Contents (Elt F)),
    unary main_v48 main_v51 (broadcastInDim S4096x31x31 ![0, 1, 2] bcast_S4096x1x31_S4096x31x31_0_1_2 : (⟨S4096x1x31, .i32⟩ : BufTy).Contents (Elt F) → (⟨S4096x31x31, .i32⟩ : BufTy).Contents (Elt F)),
    unary main_v49 main_v52 (broadcastInDim S4096x31x31x1 ![0, 1, 2] bcast_S4096x31x31_S4096x31x31x1_0_1_2 : (⟨S4096x31x31, .i32⟩ : BufTy).Contents (Elt F) → (⟨S4096x31x31x1, .i32⟩ : BufTy).Contents (Elt F)),
    unary main_v50 main_v53 (broadcastInDim S4096x31x31x1 ![0, 1, 2] bcast_S4096x31x31_S4096x31x31x1_0_1_2 : (⟨S4096x31x31, .i32⟩ : BufTy).Contents (Elt F) → (⟨S4096x31x31x1, .i32⟩ : BufTy).Contents (Elt F)),
    unary main_v51 main_v54 (broadcastInDim S4096x31x31x1 ![0, 1, 2] bcast_S4096x31x31_S4096x31x31x1_0_1_2 : (⟨S4096x31x31, .i32⟩ : BufTy).Contents (Elt F) → (⟨S4096x31x31x1, .i32⟩ : BufTy).Contents (Elt F)) ]

/-- Operation 81: the three index arrays joined on a last axis of length 3. -/
abbrev S4 : List (HloOp τ sig (Elt F)) :=
  [ nary ![main_v52, main_v53, main_v54] main_v55 (fun u => concatenate S4096x31x31x3 3 [⟨S4096x31x31x1, u 0⟩, ⟨S4096x31x31x1, u 1⟩, ⟨S4096x31x31x1, u 2⟩] concatenates_S4096x31x31x1_S4096x31x31x1_S4096x31x31x1_S4096x31x31x3_d3) ]

/-- Operations 82 to 92: the gather, the combined mask broadcast to the result's shape, and the select against zero. -/
abbrev S5 : List (HloOp τ sig (Elt F)) :=
  [ binary main_arg0 main_v55 main_v56 ((fun x i => Host.gather gather_S16x256x256x32_S4096x31x31x3_S4096x31x31x32_3_012_n_n_012_3_11132 x i) : (⟨S16x256x256x32, .f32⟩ : BufTy).Contents (Elt F) → (⟨S4096x31x31x3, .i32⟩ : BufTy).Contents (Elt F) → (⟨S4096x31x31x32, .f32⟩ : BufTy).Contents (Elt F)),
    unary main_v23 main_v57 (broadcastInDim S4096x31x1 ![0, 1] bcast_S4096x31_S4096x31x1_0_1 : (⟨S4096x31, .i1⟩ : BufTy).Contents (Elt F) → (⟨S4096x31x1, .i1⟩ : BufTy).Contents (Elt F)),
    unary main_v28 main_v58 (broadcastInDim S4096x1x31 ![0, 2] bcast_S4096x31_S4096x1x31_0_2 : (⟨S4096x31, .i1⟩ : BufTy).Contents (Elt F) → (⟨S4096x1x31, .i1⟩ : BufTy).Contents (Elt F)),
    unary main_v57 main_v59 (broadcastInDim S4096x31x31 ![0, 1, 2] bcast_S4096x31x1_S4096x31x31_0_1_2 : (⟨S4096x31x1, .i1⟩ : BufTy).Contents (Elt F) → (⟨S4096x31x31, .i1⟩ : BufTy).Contents (Elt F)),
    unary main_v58 main_v60 (broadcastInDim S4096x31x31 ![0, 1, 2] bcast_S4096x1x31_S4096x31x31_0_1_2 : (⟨S4096x1x31, .i1⟩ : BufTy).Contents (Elt F) → (⟨S4096x31x31, .i1⟩ : BufTy).Contents (Elt F)),
    binary main_v59 main_v60 main_v61 (andi : (⟨S4096x31x31, .i1⟩ : BufTy).Contents (Elt F) → (⟨S4096x31x31, .i1⟩ : BufTy).Contents (Elt F) → (⟨S4096x31x31, .i1⟩ : BufTy).Contents (Elt F)),
    unary main_v61 main_v62 (broadcastInDim S4096x31x31x1 ![0, 1, 2] bcast_S4096x31x31_S4096x31x31x1_0_1_2 : (⟨S4096x31x31, .i1⟩ : BufTy).Contents (Elt F) → (⟨S4096x31x31x1, .i1⟩ : BufTy).Contents (Elt F)),
    nullary main_cst (constant S_ .f32 0x00000000#32),
    TRef.unary (TRef.of (T := ⟨S4096x31x31x1, .i1⟩) main_v62) (TRef.of (T := ⟨S4096x31x31x32, .i1⟩) main_call2_v0) (broadcastInDim S4096x31x31x32 ![0, 1, 2, 3] bcast_S4096x31x31x1_S4096x31x31x32_0_1_2_3),
    TRef.unary (TRef.of (T := ⟨S_, .f32⟩) main_cst) (TRef.of (T := ⟨S4096x31x31x32, .f32⟩) main_call2_v1) (broadcastInDim S4096x31x31x32 ![] bcast_S_S4096x31x31x32),
    TRef.ternary (TRef.of (T := ⟨S4096x31x31x32, .i1⟩) main_call2_v0) (TRef.of (T := ⟨S4096x31x31x32, .f32⟩) main_v56) (TRef.of (T := ⟨S4096x31x31x32, .f32⟩) main_call2_v1) (TRef.of (T := ⟨S4096x31x31x32, .f32⟩) main_v63) select ]

/-- The first printed window of @main (operations 1 to 70) and the second (71 to 92). -/
abbrev P0 : List (HloOp τ sig (Elt F)) := S1 ++ (S2 ++ S3a)
abbrev P1 : List (HloOp τ sig (Elt F)) := S3b ++ (S4 ++ S5)

/-- @main's 92 operations, in order. -/
abbrev ops : List (HloOp τ sig (Elt F)) := P0 ++ P1

/-! ## @main is the sequence of its operations -/

set_option maxRecDepth 8192 in
set_option maxHeartbeats 4000000 in
theorem main_part0_eq (c : Dev nD) : main_part0 (F := F) c = seq P0 := rfl

set_option maxRecDepth 8192 in
set_option maxHeartbeats 4000000 in
theorem main_part1_eq (c : Dev nD) : main_part1 (F := F) c = seq P1 := rfl

theorem main_eq (c : Dev nD) : main (F := F) c = seq ops := by
  show (main_part0 (F := F) c >>= fun _ => main_part1 (F := F) c) = seq (P0 ++ P1)
  rw [seq_append P0 P1, main_part0_eq c, main_part1_eq c]

theorem scopedRefs_eq : (Finset.univ.filter fun b : Ref sig .tc => b.isScoped) = ∅ := by decide
theorem scopedSems_eq : (Finset.univ.filter fun sm : SemLoc sig => sm.isScoped .tc) = ∅ := by decide

/-! ## Every operation touches TensorCore buffers only and determines its results -/

/-- A property of every element of two lists holds of every element of their concatenation. -/
theorem forall_append {α : Type} {p : α → Prop} {l₁ l₂ : List α} (h₁ : l₁.Forall p) (h₂ : l₂.Forall p) :
    (l₁ ++ l₂).Forall p :=
  List.forall_iff_forall_mem.mpr fun x hx =>
    (List.mem_append.mp hx).elim (List.forall_iff_forall_mem.mp h₁ x) (List.forall_iff_forall_mem.mp h₂ x)

theorem S1_sub : (S1 : List (HloOp τ sig (Elt F))).Forall fun op => op.bufs ⊆ tcRefs τ sig := by
  simp only [S1, List.Forall, TRef.unary, TRef.binary, TRef.ternary, nullary_bufs_sub, unary_bufs_sub, binary_bufs_sub,
    ternary_bufs_sub, reshape_bufs_sub, nary_bufs_sub, and_self]
theorem S1_fresh : (S1 : List (HloOp τ sig (Elt F))).Forall fun op => op.fresh = ∅ := by
  simp only [List.Forall]; repeat' constructor
theorem S2_sub : (S2 : List (HloOp τ sig (Elt F))).Forall fun op => op.bufs ⊆ tcRefs τ sig := by
  simp only [S2, List.Forall, TRef.unary, TRef.binary, TRef.ternary, nullary_bufs_sub, unary_bufs_sub, binary_bufs_sub,
    ternary_bufs_sub, reshape_bufs_sub, nary_bufs_sub, and_self]
theorem S2_fresh : (S2 : List (HloOp τ sig (Elt F))).Forall fun op => op.fresh = ∅ := by
  simp only [List.Forall]; repeat' constructor
theorem S3a_sub : (S3a : List (HloOp τ sig (Elt F))).Forall fun op => op.bufs ⊆ tcRefs τ sig := by
  simp only [S3a, List.Forall, TRef.unary, TRef.binary, TRef.ternary, nullary_bufs_sub, unary_bufs_sub, binary_bufs_sub,
    ternary_bufs_sub, reshape_bufs_sub, nary_bufs_sub, and_self]
theorem S3a_fresh : (S3a : List (HloOp τ sig (Elt F))).Forall fun op => op.fresh = ∅ := by
  simp only [List.Forall]; repeat' constructor
theorem S3b_sub : (S3b : List (HloOp τ sig (Elt F))).Forall fun op => op.bufs ⊆ tcRefs τ sig := by
  simp only [S3b, List.Forall, TRef.unary, TRef.binary, TRef.ternary, nullary_bufs_sub, unary_bufs_sub, binary_bufs_sub,
    ternary_bufs_sub, reshape_bufs_sub, nary_bufs_sub, and_self]
theorem S3b_fresh : (S3b : List (HloOp τ sig (Elt F))).Forall fun op => op.fresh = ∅ := by
  simp only [List.Forall]; repeat' constructor
theorem S4_sub : (S4 : List (HloOp τ sig (Elt F))).Forall fun op => op.bufs ⊆ tcRefs τ sig := by
  simp only [S4, List.Forall, TRef.unary, TRef.binary, TRef.ternary, nullary_bufs_sub, unary_bufs_sub, binary_bufs_sub,
    ternary_bufs_sub, reshape_bufs_sub, nary_bufs_sub, and_self]
theorem S4_fresh : (S4 : List (HloOp τ sig (Elt F))).Forall fun op => op.fresh = ∅ := by
  simp only [List.Forall]; repeat' constructor
theorem S5_sub : (S5 : List (HloOp τ sig (Elt F))).Forall fun op => op.bufs ⊆ tcRefs τ sig := by
  simp only [S5, List.Forall, TRef.unary, TRef.binary, TRef.ternary, nullary_bufs_sub, unary_bufs_sub, binary_bufs_sub,
    ternary_bufs_sub, reshape_bufs_sub, nary_bufs_sub, and_self]
theorem S5_fresh : (S5 : List (HloOp τ sig (Elt F))).Forall fun op => op.fresh = ∅ := by
  simp only [List.Forall]; repeat' constructor

theorem ops_sub : (ops : List (HloOp τ sig (Elt F))).Forall fun op => op.bufs ⊆ tcRefs τ sig :=
  forall_append (forall_append S1_sub (forall_append S2_sub S3a_sub)) (forall_append S3b_sub (forall_append S4_sub S5_sub))

theorem ops_fresh : ∀ op ∈ (ops : List (HloOp τ sig (Elt F))), op.fresh = ∅ :=
  List.forall_iff_forall_mem.mp
    (forall_append (forall_append S1_fresh (forall_append S2_fresh S3a_fresh)) (forall_append S3b_fresh (forall_append S4_fresh S5_fresh)))

/-! ## What a stretch does not write it keeps -/

/-- A reference that no operation of a list writes keeps its contents. -/
theorem keeps (l : List (HloOp τ sig (Elt F))) (V : Valuation τ sig (Elt F)) (r : Ref sig .tc)
    (h : l.Forall fun op => Proc.devRef (τ := τ) .tc r ∉ op.writes) :
    after l V (Proc.devRef .tc r) = V (Proc.devRef .tc r) :=
  after_of_forall_not_mem (b := Proc.devRef .tc r) l V (List.forall_iff_forall_mem.mp h)

/-- Decides that a listed stretch of operations does not write a reference, operation by operation. -/
local macro "not_written" : tactic => `(tactic| (
  simp only [ops, P0, P1, S1, S2, S3a, S3b, S4, S5, List.cons_append, List.nil_append, List.Forall, TRef.unary, TRef.binary,
    TRef.ternary, nullary_writes, unary_writes, binary_writes, ternary_writes, reshape_writes, nary_writes,
    Finset.mem_singleton]
  repeat' apply And.intro
  all_goals exact devRef_ne_of_ne (by decide)))

section Keeps
variable (V : Valuation τ sig (Elt F))
theorem k1_arg0 : after S1 V (Proc.devRef .tc main_arg0) = V (Proc.devRef .tc main_arg0) := keeps _ V _ (by not_written)
theorem k2_arg0 : after S2 V (Proc.devRef .tc main_arg0) = V (Proc.devRef .tc main_arg0) := keeps _ V _ (by not_written)
theorem k2_v4 : after S2 V (Proc.devRef .tc main_v4) = V (Proc.devRef .tc main_v4) := keeps _ V _ (by not_written)
theorem k2_v23 : after S2 V (Proc.devRef .tc main_v23) = V (Proc.devRef .tc main_v23) := keeps _ V _ (by not_written)
theorem k2_v28 : after S2 V (Proc.devRef .tc main_v28) = V (Proc.devRef .tc main_v28) := keeps _ V _ (by not_written)
theorem k3a_arg0 : after S3a V (Proc.devRef .tc main_arg0) = V (Proc.devRef .tc main_arg0) := keeps _ V _ (by not_written)
theorem k3a_v23 : after S3a V (Proc.devRef .tc main_v23) = V (Proc.devRef .tc main_v23) := keeps _ V _ (by not_written)
theorem k3a_v28 : after S3a V (Proc.devRef .tc main_v28) = V (Proc.devRef .tc main_v28) := keeps _ V _ (by not_written)
theorem k3b_arg0 : after S3b V (Proc.devRef .tc main_arg0) = V (Proc.devRef .tc main_arg0) := keeps _ V _ (by not_written)
theorem k3b_v23 : after S3b V (Proc.devRef .tc main_v23) = V (Proc.devRef .tc main_v23) := keeps _ V _ (by not_written)
theorem k3b_v28 : after S3b V (Proc.devRef .tc main_v28) = V (Proc.devRef .tc main_v28) := keeps _ V _ (by not_written)
theorem k4_arg0 : after S4 V (Proc.devRef .tc main_arg0) = V (Proc.devRef .tc main_arg0) := keeps _ V _ (by not_written)
theorem k4_v23 : after S4 V (Proc.devRef .tc main_v23) = V (Proc.devRef .tc main_v23) := keeps _ V _ (by not_written)
theorem k4_v28 : after S4 V (Proc.devRef .tc main_v28) = V (Proc.devRef .tc main_v28) := keeps _ V _ (by not_written)
/-- No operation writes an argument. -/
theorem ops_arg0 : after ops V (Proc.devRef .tc main_arg0) = V (Proc.devRef .tc main_arg0) := keeps _ V _ (by not_written)
theorem ops_arg1 : after ops V (Proc.devRef .tc main_arg1) = V (Proc.devRef .tc main_arg1) := keeps _ V _ (by not_written)
end Keeps

/-- A three-operand operation's result, each operand's contents read at its own reference. -/
theorem nary3_result {sg : RefSig} {tp : Topo} {Val : EltTy → Type} {x a b y : Ref sg .tc}
    (f : ((k : Fin 3) → ((![x, a, b] : Fin 3 → Ref sg .tc) k).ty.Contents Val) → y.ty.Contents Val) (hxs hy)
    (V : Valuation tp sg Val) :
    (nary (τ := tp) ![x, a, b] y f hxs hy).result V (Proc.devRef .tc y)
      = f (Fin.cons (V (Proc.devRef .tc x)) (Fin.cons (V (Proc.devRef .tc a)) (Fin.cons (V (Proc.devRef .tc b)) (fun i => i.elim0)))) := by
  rw [nary_result]
  refine congrArg f (funext fun k => ?_)
  match k with
  | 0 => rfl
  | 1 => rfl
  | 2 => rfl

/-! ## Each stretch's results, from what it finds -/

section Stages
variable (V W : Valuation τ sig (Elt F))
variable (x0 : (⟨S16x256x256x32, .f32⟩ : BufTy).Contents (Elt F)) (x1 : (⟨S4096x3, .i32⟩ : BufTy).Contents (Elt F))

theorem s1_v4 : after S1 V (Proc.devRef .tc main_v4) = val_main_v4 (F := F) (V (Proc.devRef .tc main_arg1)) := by
  simp only [S1]; after_results_simp; rfl
theorem s1_v11 : after S1 V (Proc.devRef .tc main_v11) = val_main_v11 (F := F) (V (Proc.devRef .tc main_arg1)) := by
  simp only [S1]; after_results_simp; rfl
theorem s1_v18 : after S1 V (Proc.devRef .tc main_v18) = val_main_v18 (F := F) (V (Proc.devRef .tc main_arg1)) := by
  simp only [S1]; after_results_simp; rfl
theorem s1_v23 : after S1 V (Proc.devRef .tc main_v23) = val_main_v23 (F := F) (V (Proc.devRef .tc main_arg1)) := by
  simp only [S1]; after_results_simp; rfl
theorem s1_v28 : after S1 V (Proc.devRef .tc main_v28) = val_main_v28 (F := F) (V (Proc.devRef .tc main_arg1)) := by
  simp only [S1]; after_results_simp; rfl

theorem s2_v29 (h11 : W (Proc.devRef .tc main_v11) = val_main_v11 (F := F) x1) :
    after S2 W (Proc.devRef .tc main_v29) = val_main_v29 (F := F) x1 := by
  simp only [S2]; after_results_simp; rw [h11]; rfl
theorem s2_v30 (h18 : W (Proc.devRef .tc main_v18) = val_main_v18 (F := F) x1) :
    after S2 W (Proc.devRef .tc main_v30) = val_main_v30 (F := F) x1 := by
  simp only [S2]; after_results_simp; rw [h18]; rfl

theorem s3a_v38 (h4 : W (Proc.devRef .tc main_v4) = val_main_v4 (F := F) x1) :
    after S3a W (Proc.devRef .tc main_v38) = val_main_v38 (F := F) x1 := by
  simp only [S3a]; after_results_simp; rw [h4]; rfl
theorem s3a_v43 (h29 : W (Proc.devRef .tc main_v29) = val_main_v29 (F := F) x1) :
    after S3a W (Proc.devRef .tc main_v43) = val_main_v43 (F := F) x1 := by
  simp only [S3a]; after_results_simp; rw [h29]; rfl
theorem s3a_v33 (h30 : W (Proc.devRef .tc main_v30) = val_main_v30 (F := F) x1) :
    after S3a W (Proc.devRef .tc main_v33) = val_main_v33 (F := F) x1 := by
  simp only [S3a]; after_results_simp; rw [h30]; rfl
theorem s3a_v45 (h30 : W (Proc.devRef .tc main_v30) = val_main_v30 (F := F) x1) :
    after S3a W (Proc.devRef .tc main_v45) = val_main_v45 (F := F) x1 := by
  simp only [S3a]; after_results_simp; rw [h30]; rfl

theorem s3b_v52 (h38 : W (Proc.devRef .tc main_v38) = val_main_v38 (F := F) x1) :
    after S3b W (Proc.devRef .tc main_v52) = val_main_v52 (F := F) x1 := by
  simp only [S3b]; after_results_simp; rw [h38]; rfl
theorem s3b_v53 (h43 : W (Proc.devRef .tc main_v43) = val_main_v43 (F := F) x1) :
    after S3b W (Proc.devRef .tc main_v53) = val_main_v53 (F := F) x1 := by
  simp only [S3b]; after_results_simp; rw [h43]; rfl
theorem s3b_v54 (h33 : W (Proc.devRef .tc main_v33) = val_main_v33 (F := F) x1)
    (h45 : W (Proc.devRef .tc main_v45) = val_main_v45 (F := F) x1) :
    after S3b W (Proc.devRef .tc main_v54) = val_main_v54 (F := F) x1 := by
  simp only [S3b]; after_results_simp; rw [h33, h45]; rfl

theorem s4_v55 (h52 : W (Proc.devRef .tc main_v52) = val_main_v52 (F := F) x1)
    (h53 : W (Proc.devRef .tc main_v53) = val_main_v53 (F := F) x1)
    (h54 : W (Proc.devRef .tc main_v54) = val_main_v54 (F := F) x1) :
    after S4 W (Proc.devRef .tc main_v55) = val_main_v55 (F := F) x1 := by
  simp only [S4, after_cons, after_nil]
  rw [nary3_result]
  show concatenate S4096x31x31x3 3 [⟨S4096x31x31x1, W (Proc.devRef .tc main_v52)⟩, ⟨S4096x31x31x1, W (Proc.devRef .tc main_v53)⟩, ⟨S4096x31x31x1, W (Proc.devRef .tc main_v54)⟩] concatenates_S4096x31x31x1_S4096x31x31x1_S4096x31x31x1_S4096x31x31x3_d3 = _
  rw [h52, h53, h54]; rfl

theorem s5_v63 (h0 : W (Proc.devRef .tc main_arg0) = x0)
    (h55 : W (Proc.devRef .tc main_v55) = val_main_v55 (F := F) x1)
    (h23 : W (Proc.devRef .tc main_v23) = val_main_v23 (F := F) x1)
    (h28 : W (Proc.devRef .tc main_v28) = val_main_v28 (F := F) x1) :
    after S5 W (Proc.devRef .tc main_v63) = val_main_v63 (F := F) x0 x1 := by
  simp only [S5]; after_results_simp; rw [h0, h55, h23, h28]; rfl

end Stages

/-! ## The result buffer after the whole list -/

/-- The stretches in order: each finds what the earlier ones left, so the result buffer ends at the stage
    function of the two arguments' contents. -/
theorem value (V : Valuation τ sig (Elt F)) :
    after ops V (Proc.devRef .tc main_v63)
      = val_main_v63 (F := F) (V (Proc.devRef .tc main_arg0)) (V (Proc.devRef .tc main_arg1)) := by
  have e : after (ops (F := F)) V = after S5 (after S4 (after S3b (after S3a (after S2 (after S1 V))))) := by
    show after ((S1 ++ (S2 ++ S3a)) ++ (S3b ++ (S4 ++ S5))) V = _
    rw [after_append, after_append, after_append, after_append, after_append]
  rw [e]
  -- after the first stretch
  have a4 := s1_v4 V
  have a11 := s1_v11 V
  have a18 := s1_v18 V
  have a23 := s1_v23 V
  have a28 := s1_v28 V
  have a0 := k1_arg0 V
  generalize after S1 V = W1 at *
  -- after the second: the clipped grids; the batch column, the masks and the map carried over
  have b29 := s2_v29 W1 _ a11
  have b30 := s2_v30 W1 _ a18
  have b4 := (k2_v4 W1).trans a4
  have b23 := (k2_v23 W1).trans a23
  have b28 := (k2_v28 W1).trans a28
  have b0 := (k2_arg0 W1).trans a0
  generalize after S2 W1 = W2 at *
  -- after the third
  have c38 := s3a_v38 W2 _ b4
  have c43 := s3a_v43 W2 _ b29
  have c33 := s3a_v33 W2 _ b30
  have c45 := s3a_v45 W2 _ b30
  have c23 := (k3a_v23 W2).trans b23
  have c28 := (k3a_v28 W2).trans b28
  have c0 := (k3a_arg0 W2).trans b0
  generalize after S3a W2 = W3 at *
  -- after the fourth: the three index arrays
  have d52 := s3b_v52 W3 _ c38
  have d53 := s3b_v53 W3 _ c43
  have d54 := s3b_v54 W3 _ c33 c45
  have d23 := (k3b_v23 W3).trans c23
  have d28 := (k3b_v28 W3).trans c28
  have d0 := (k3b_arg0 W3).trans c0
  generalize after S3b W3 = W4 at *
  -- after the join
  have e55 := s4_v55 W4 _ d52 d53 d54
  have e23 := (k4_v23 W4).trans d23
  have e28 := (k4_v28 W4).trans d28
  have e0 := (k4_arg0 W4).trans d0
  generalize after S4 W4 = W5 at *
  exact s5_v63 W5 _ _ e0 e55 e23 e28

/-! ## The run -/

/-- On every device, for any float values, from any memory with zero counters: every weakly fair execution of
    @main terminates with the result buffer at the stage function of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v63) = Cert.ReferenceIdeal.ReadP.val_main_v63 (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v63).trans (value (launchContents m c)),
      (h c main_arg0).trans (ops_arg0 (launchContents m c)),
      (h c main_arg1).trans (ops_arg1 (launchContents m c))⟩)
    (run_seq scopedRefs_eq scopedSems_eq defs main (fun _ => ops) main_eq (fun _ => ops_sub) m ρ (fun _ => ops_fresh))

end Cert.ReferenceIdeal.RefRun

end
-- ==== Proof.lean ====
/-
  An ROI extractor: for each of 4096 centres (b, y, x) the 31 x 31 x 32 window of a feature map
  [16, 256, 256, 32] centred at (y, x) in batch b, zero outside the map.

  The kernel clips every centre into the map, zero-pads the map by 15 rows and columns on each side
  (and its channels to 128), and copies for ROI n the window of the padded map that starts at the
  clipped (b, y, x): window row i is padded row y + i, that is map row y + i - 15.  The reference
  reads the map at the clipped position (y + i - 15, x + j - 15) and puts zero where that position is
  outside the map.  For a centre inside the map (0 ≤ b < 16, 0 ≤ y, x < 256: the precondition) the
  clips are the identity, the padded map is zero exactly where the reference's mask is, and both
  programs compute the same crop, entry by entry; no arithmetic on the map's values is involved, so
  nothing depends on their finiteness.

  The frames: the kernel's program runs for EVERY input, because its windows are taken at clipped
  centres and therefore always fit the padded map; the reference's frame is its run with the result
  dropped.  The kernel's idealization rewrote nothing.
-/
import proofs.«429989_j27960237097553_3_alg».proof.Defs
import proofs.«429989_j27960237097553_3_alg».proof.Proof.Gen.Kernel
import proofs.«429989_j27960237097553_3_alg».proof.Proof.Gen.KernelIdeal
import proofs.«429989_j27960237097553_3_alg».proof.Proof.Gen.ReferenceIdeal
import proofs.«429989_j27960237097553_3_alg».proof.Proof.Gen.Pre_finite_inputs
import proofs.«429989_j27960237097553_3_alg».proof.Proof.K.Claims
import proofs.«429989_j27960237097553_3_alg».proof.Proof.KI.Value
import proofs.«429989_j27960237097553_3_alg».proof.Proof.PreDecode
import proofs.«429989_j27960237097553_3_alg».proof.Proof.RefValueP
import proofs.«429989_j27960237097553_3_alg».proof.Proof.RefRun
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Hand.frame m ρ

theorem frame_ki : Cert.frame_KernelIdeal := fun m ρ _ => Cert.KernelIdeal.Hand.frame m ρ

theorem frame_ri : Cert.frame_ReferenceIdeal := fun m ρ _ =>
  (θ_run Cert.ReferenceIdeal.defs _ _).mono (fun _ h c => (h c).2) (Cert.ReferenceIdeal.RefRun.run (F := Ideal) m ρ)

theorem preserves : Cert.preserves_Kernel_KernelIdeal := trivial

/-- Both programs end with the crop of the map at the centres. -/
theorem algebraic : Cert.algebraic_KernelIdeal_ReferenceIdeal := by
  intro m ρ m' ρ' hpre hagree
  have hin : ∀ c : Dev Cert.KernelIdeal.nD, Cert.Roi.InMap
      (m ((c.tc : Thread Cert.KernelIdeal.nD Cert.KernelIdeal.τ).loc Cert.KernelIdeal.main_arg1)) :=
    fun c => Cert.Roi.inMap_of_pre _ _ (hpre c)
  refine ⟨fun c => Cert.Roi.crop (0 : EReal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · exact (θ_run Cert.KernelIdeal.defs _ _).mono
      (fun _ h c => ⟨(h c).1.trans (Cert.KernelIdeal.Hand.outFn_eq_crop m c (hin c)), (h c).2⟩)
      (Cert.KernelIdeal.Hand.value_run (F := Ideal) m ρ)
  · refine (θ_run Cert.ReferenceIdeal.defs _ _).mono (fun _ h c => ⟨(h c).1.trans ?_, (h c).2⟩)
      (Cert.ReferenceIdeal.RefRun.run (F := Ideal) m' ρ')
    rw [(hagree c).1, (hagree c).2, Cert.ReferenceIdeal.RefValueP.ref_eq_crop _ _ (hin c), Cert.ReferenceIdeal.RefValueP.zero_const]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
